-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S250000x294 : Shape := ⟨2, ![250000, 294]⟩
abbrev S250000x42 : Shape := ⟨2, ![250000, 42]⟩
abbrev S2x250000 : Shape := ⟨2, ![2, 250000]⟩
abbrev S50000 : Shape := ⟨1, ![50000]⟩
abbrev S256x256 : Shape := ⟨2, ![256, 256]⟩
abbrev S256 : Shape := ⟨1, ![256]⟩
abbrev S294x256 : Shape := ⟨2, ![294, 256]⟩
abbrev S42x256 : Shape := ⟨2, ![42, 256]⟩
abbrev S512x256 : Shape := ⟨2, ![512, 256]⟩
abbrev S3x256x256 : Shape := ⟨3, ![3, 256, 256]⟩
abbrev S3x256 : Shape := ⟨2, ![3, 256]⟩
abbrev S_ : Shape := ⟨0, ![]⟩
abbrev S1x250000 : Shape := ⟨2, ![1, 250000]⟩
abbrev S250000 : Shape := ⟨1, ![250000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S250000x294 : S_.BroadcastsInDim S250000x294 (![] : Fin 0 → Fin S250000x294.rank)
  reducesTo_S250000x294_S_d0_1 : S250000x294.ReducesTo [0, 1] S_
  bcast_S_S250000x42 : S_.BroadcastsInDim S250000x42 (![] : Fin 0 → Fin S250000x42.rank)
  reducesTo_S250000x42_S_d0_1 : S250000x42.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S294x256 : S_.BroadcastsInDim S294x256 (![] : Fin 0 → Fin S294x256.rank)
  reducesTo_S294x256_S_d0_1 : S294x256.ReducesTo [0, 1] S_
  bcast_S_S42x256 : S_.BroadcastsInDim S42x256 (![] : Fin 0 → Fin S42x256.rank)
  reducesTo_S42x256_S_d0_1 : S42x256.ReducesTo [0, 1] S_
  bcast_S_S512x256 : S_.BroadcastsInDim S512x256 (![] : Fin 0 → Fin S512x256.rank)
  reducesTo_S512x256_S_d0_1 : S512x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  reducesTo_S250000_S_d0 : S250000.ReducesTo [0] S_
  bcast_S_S50000 : S_.BroadcastsInDim S50000 (![] : Fin 0 → Fin S50000.rank)
  reducesTo_S50000_S_d0 : S50000.ReducesTo [0] S_

variable [Facts]

def fn_part9 {F : FTy → Type} [FloatOps F] (main_arg4 : IVec S50000 32) (main_v150 : IVec S_ 1) (main_v153 : IVec S_ 1) : IVec S_ 1 :=
  let main_v154 : IVec S_ 1 := andi main_v150 main_v153
  let main_c_60 : IVec S_ 32 := constantI S_ 32 512#32
  let main_v155 : IVec S50000 32 := broadcastInDim S50000 ![] bcast_S_S50000 main_c_60
  let main_v156 : IVec S50000 1 := cmpi .slt main_arg4 main_v155
  let main_c_61 : IVec S_ 1 := constantI S_ 1 1#1
  let main_v157 : IVec S_ 1 := (fun x v => Host.reduce IntOp.andi x v reducesTo_S50000_S_d0 h_S_) main_v156 main_c_61
  let main_v158 : IVec S_ 1 := andi main_v154 main_v157
  main_v158

def fn_part8 {F : FTy → Type} [FloatOps F] (main_arg3 : IVec S2x250000 32) (main_arg4 : IVec S50000 32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : IVec S1x250000 32 := (extractStridedSlice S1x250000 ![0, 0] · slices_S2x250000_S1x250000_0_0) main_arg3
  let main_v140 : IVec S250000 32 := shapeCast S250000 main_v139 shapeCasts_S1x250000_S250000
  let main_c_54 : IVec S_ 32 := constantI S_ 32 0#32
  let main_v141 : IVec S250000 32 := broadcastInDim S250000 ![] bcast_S_S250000 main_c_54
  let main_v142 : IVec S250000 1 := cmpi .sge main_v140 main_v141
  let main_c_55 : IVec S_ 1 := constantI S_ 1 1#1
  let main_v143 : IVec S_ 1 := (fun x v => Host.reduce IntOp.andi x v reducesTo_S250000_S_d0 h_S_) main_v142 main_c_55
  let main_v144 : IVec S_ 1 := andi main_v138 main_v143
  let main_v145 : IVec S1x250000 32 := (extractStridedSlice S1x250000 ![0, 0] · slices_S2x250000_S1x250000_0_0) main_arg3
  let main_v146 : IVec S250000 32 := shapeCast S250000 main_v145 shapeCasts_S1x250000_S250000
  let main_c_56 : IVec S_ 32 := constantI S_ 32 50000#32
  let main_v147 : IVec S250000 32 := broadcastInDim S250000 ![] bcast_S_S250000 main_c_56
  let main_v148 : IVec S250000 1 := cmpi .slt main_v146 main_v147
  let main_c_57 : IVec S_ 1 := constantI S_ 1 1#1
  let main_v149 : IVec S_ 1 := (fun x v => Host.reduce IntOp.andi x v reducesTo_S250000_S_d0 h_S_) main_v148 main_c_57
  let main_v150 : IVec S_ 1 := andi main_v144 main_v149
  let main_c_58 : IVec S_ 32 := constantI S_ 32 0#32
  let main_v151 : IVec S50000 32 := broadcastInDim S50000 ![] bcast_S_S50000 main_c_58
  let main_v152 : IVec S50000 1 := cmpi .sge main_arg4 main_v151
  let main_c_59 : IVec S_ 1 := constantI S_ 1 1#1
  let main_v153 : IVec S_ 1 := (fun x v => Host.reduce IntOp.andi x v reducesTo_S50000_S_d0 h_S_) main_v152 main_c_59
  fn_part9 (F := F) main_arg4 main_v150 main_v153

def fn_part7 {F : FTy → Type} [FloatOps F] (main_arg3 : IVec S2x250000 32) (main_arg4 : IVec S50000 32) (main_arg27 : FVec F S256 .f32) (main_arg28 : FVec F S256x256 .f32) (main_arg29 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg27
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x256 .f32 := Host.absf main_arg28
  let main_cst_50 : FVec F S_ .f32 := constant S_ .f32 0x7F800000#32
  let main_v130 : FVec F S256x256 .f32 := broadcastInDim S256x256 ![] bcast_S_S256x256 main_cst_50
  let main_v131 : IVec S256x256 1 := cmpf .olt main_v129 main_v130
  let main_c_51 : IVec S_ 1 := constantI S_ 1 1#1
  let main_v132 : IVec S_ 1 := (fun x v => Host.reduce IntOp.andi x v reducesTo_S256x256_S_d0_1 h_S_) main_v131 main_c_51
  let main_v133 : IVec S_ 1 := andi main_v128 main_v132
  let main_v134 : FVec F S256 .f32 := Host.absf main_arg29
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg3 main_arg4 main_v133 main_v136

def fn_part6 {F : FTy → Type} [FloatOps F] (main_arg3 : IVec S2x250000 32) (main_arg4 : IVec S50000 32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S3x256x256 .f32 := Host.absf main_arg23
  let main_cst_40 : FVec F S_ .f32 := constant S_ .f32 0x7F800000#32
  let main_v105 : FVec F S3x256x256 .f32 := broadcastInDim S3x256x256 ![] bcast_S_S3x256x256 main_cst_40
  let main_v106 : IVec S3x256x256 1 := cmpf .olt main_v104 main_v105
  let main_c_41 : IVec S_ 1 := constantI S_ 1 1#1
  let main_v107 : IVec S_ 1 := (fun x v => Host.reduce IntOp.andi x v reducesTo_S3x256x256_S_d0_1_2 h_S_) main_v106 main_c_41
  let main_v108 : IVec S_ 1 := andi main_v103 main_v107
  let main_v109 : FVec F S3x256 .f32 := Host.absf main_arg24
  let main_cst_42 : FVec F S_ .f32 := constant S_ .f32 0x7F800000#32
  let main_v110 : FVec F S3x256 .f32 := broadcastInDim S3x256 ![] bcast_S_S3x256 main_cst_42
  let main_v111 : IVec S3x256 1 := cmpf .olt main_v109 main_v110
  let main_c_43 : IVec S_ 1 := constantI S_ 1 1#1
  let main_v112 : IVec S_ 1 := (fun x v => Host.reduce IntOp.andi x v reducesTo_S3x256_S_d0_1 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg26
  fn_part7 (F := F) main_arg3 main_arg4 main_arg27 main_arg28 main_arg29 main_v118 main_v119

def fn_part5 {F : FTy → Type} [FloatOps F] (main_arg3 : IVec S2x250000 32) (main_arg4 : IVec S50000 32) (main_arg20 : FVec F S256 .f32) (main_arg21 : FVec F S512x256 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S512x256 .f32 := Host.absf main_arg21
  let main_cst_36 : FVec F S_ .f32 := constant S_ .f32 0x7F800000#32
  let main_v95 : FVec F S512x256 .f32 := broadcastInDim S512x256 ![] bcast_S_S512x256 main_cst_36
  let main_v96 : IVec S512x256 1 := cmpf .olt main_v94 main_v95
  let main_c_37 : IVec S_ 1 := constantI S_ 1 1#1
  let main_v97 : IVec S_ 1 := (fun x v => Host.reduce IntOp.andi x v reducesTo_S512x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg3 main_arg4 main_arg23 main_arg24 main_arg25 main_arg26 main_arg27 main_arg28 main_arg29 main_v98 main_v101 main_c_39

def fn_part4 {F : FTy → Type} [FloatOps F] (main_arg3 : IVec S2x250000 32) (main_arg4 : IVec S50000 32) (main_arg16 : FVec F S256x256 .f32) (main_arg17 : FVec F S256x256 .f32) (main_arg18 : FVec F S256 .f32) (main_arg19 : FVec F S256x256 .f32) (main_arg20 : FVec F S256 .f32) (main_arg21 : FVec F S512x256 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg3 main_arg4 main_arg20 main_arg21 main_arg22 main_arg23 main_arg24 main_arg25 main_arg26 main_arg27 main_arg28 main_arg29 main_v83 main_v84 main_cst_32

def fn_part3 {F : FTy → Type} [FloatOps F] (main_arg3 : IVec S2x250000 32) (main_arg4 : IVec S50000 32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S512x256 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg3 main_arg4 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg3 : IVec S2x250000 32) (main_arg4 : IVec S50000 32) (main_arg9 : FVec F S42x256 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S512x256 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v33 : IVec S_ 1) : IVec S_ 1 :=
  let main_v34 : FVec F S42x256 .f32 := Host.absf main_arg9
  let main_cst_12 : FVec F S_ .f32 := constant S_ .f32 0x7F800000#32
  let main_v35 : FVec F S42x256 .f32 := broadcastInDim S42x256 ![] bcast_S_S42x256 main_cst_12
  let main_v36 : IVec S42x256 1 := cmpf .olt main_v34 main_v35
  let main_c_13 : IVec S_ 1 := constantI S_ 1 1#1
  let main_v37 : IVec S_ 1 := (fun x v => Host.reduce IntOp.andi x v reducesTo_S42x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg3 main_arg4 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg3 : IVec S2x250000 32) (main_arg4 : IVec S50000 32) (main_arg6 : FVec F S256 .f32) (main_arg7 : FVec F S294x256 .f32) (main_arg8 : FVec F S256x256 .f32) (main_arg9 : FVec F S42x256 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S512x256 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S294x256 .f32 := Host.absf main_arg7
  let main_cst_8 : FVec F S_ .f32 := constant S_ .f32 0x7F800000#32
  let main_v25 : FVec F S294x256 .f32 := broadcastInDim S294x256 ![] bcast_S_S294x256 main_cst_8
  let main_v26 : IVec S294x256 1 := cmpf .olt main_v24 main_v25
  let main_c_9 : IVec S_ 1 := constantI S_ 1 1#1
  let main_v27 : IVec S_ 1 := (fun x v => Host.reduce IntOp.andi x v reducesTo_S294x256_S_d0_1 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x256 .f32) (main_arg1 : FVec F S250000x294 .f32) (main_arg2 : FVec F S250000x42 .f32) (main_arg3 : IVec S2x250000 32) (main_arg4 : IVec S50000 32) (main_arg5 : FVec F S256x256 .f32) (main_arg6 : FVec F S256 .f32) (main_arg7 : FVec F S294x256 .f32) (main_arg8 : FVec F S256x256 .f32) (main_arg9 : FVec F S42x256 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S512x256 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S250000x294 .f32 := Host.absf main_arg1
  let main_cst_0 : FVec F S_ .f32 := constant S_ .f32 0x7F800000#32
  let main_v5 : FVec F S250000x294 .f32 := broadcastInDim S250000x294 ![] bcast_S_S250000x294 main_cst_0
  let main_v6 : IVec S250000x294 1 := cmpf .olt main_v4 main_v5
  let main_c_1 : IVec S_ 1 := constantI S_ 1 1#1
  let main_v7 : IVec S_ 1 := (fun x v => Host.reduce IntOp.andi x v reducesTo_S250000x294_S_d0_1 h_S_) main_v6 main_c_1
  let main_v8 : IVec S_ 1 := andi main_v3 main_v7
  let main_v9 : FVec F S250000x42 .f32 := Host.absf main_arg2
  let main_cst_2 : FVec F S_ .f32 := constant S_ .f32 0x7F800000#32
  let main_v10 : FVec F S250000x42 .f32 := broadcastInDim S250000x42 ![] bcast_S_S250000x42 main_cst_2
  let main_v11 : IVec S250000x42 1 := cmpf .olt main_v9 main_v10
  let main_c_3 : IVec S_ 1 := constantI S_ 1 1#1
  let main_v12 : IVec S_ 1 := (fun x v => Host.reduce IntOp.andi x v reducesTo_S250000x42_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x256 : Shape := ⟨2, ![50000, 256]⟩
abbrev S250000x294 : Shape := ⟨2, ![250000, 294]⟩
abbrev S250000x42 : Shape := ⟨2, ![250000, 42]⟩
abbrev S2x250000 : Shape := ⟨2, ![2, 250000]⟩
abbrev S50000 : Shape := ⟨1, ![50000]⟩
abbrev S256x256 : Shape := ⟨2, ![256, 256]⟩
abbrev S256 : Shape := ⟨1, ![256]⟩
abbrev S294x256 : Shape := ⟨2, ![294, 256]⟩
abbrev S42x256 : Shape := ⟨2, ![42, 256]⟩
abbrev S512x256 : Shape := ⟨2, ![512, 256]⟩
abbrev S3x256x256 : Shape := ⟨3, ![3, 256, 256]⟩
abbrev S3x256 : Shape := ⟨2, ![3, 256]⟩
abbrev S1x250000 : Shape := ⟨2, ![1, 250000]⟩
abbrev S250000 : Shape := ⟨1, ![250000]⟩
abbrev S2000x256 : Shape := ⟨2, ![2000, 256]⟩
abbrev S1x256 : Shape := ⟨2, ![1, 256]⟩
abbrev S_ : Shape := ⟨0, ![]⟩
abbrev S250000x1 : Shape := ⟨2, ![250000, 1]⟩
abbrev S1 : Shape := ⟨1, ![1]⟩
abbrev S1x1 : Shape := ⟨2, ![1, 1]⟩
abbrev S250000x256 : Shape := ⟨2, ![250000, 256]⟩
abbrev S250000x512 : Shape := ⟨2, ![250000, 512]⟩
abbrev S2000x294 : Shape := ⟨2, ![2000, 294]⟩
abbrev S2000x42 : Shape := ⟨2, ![2000, 42]⟩
abbrev S2000x512 : Shape := ⟨2, ![2000, 512]⟩
abbrev S50000x512 : Shape := ⟨2, ![50000, 512]⟩
abbrev S1x256x256 : Shape := ⟨3, ![1, 256, 256]⟩
abbrev S50000x1 : Shape := ⟨2, ![50000, 1]⟩
abbrev S512x1 : Shape := ⟨2, ![512, 1]⟩
abbrev S512x512 : Shape := ⟨2, ![512, 512]⟩
abbrev S2000x1 : Shape := ⟨2, ![2000, 1]⟩

abbrev nBuf : Space → Nat
  | .hbm => 118
  | .vmem => 48
  | .smem => 0
  | _ => 0

abbrev bufTy : (tb : Table) → Fin (tcTables nBuf tb) → BufTy
  | .hbm, ⟨0, _⟩ => ⟨S50000x256, .f32⟩
  | .hbm, ⟨1, _⟩ => ⟨S250000x294, .f32⟩
  | .hbm, ⟨2, _⟩ => ⟨S250000x42, .f32⟩
  | .hbm, ⟨3, _⟩ => ⟨S2x250000, .i32⟩
  | .hbm, ⟨4, _⟩ => ⟨S50000, .i32⟩
  | .hbm, ⟨5, _⟩ => ⟨S256x256, .f32⟩
  | .hbm, ⟨6, _⟩ => ⟨S256, .f32⟩
  | .hbm, ⟨7, _⟩ => ⟨S294x256, .f32⟩
  | .hbm, ⟨8, _⟩ => ⟨S256x256, .f32⟩
  | .hbm, ⟨9, _⟩ => ⟨S42x256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256x256, .f32⟩
  | .hbm, ⟨18, _⟩ => ⟨S256, .f32⟩
  | .hbm, ⟨19, _⟩ => ⟨S256x256, .f32⟩
  | .hbm, ⟨20, _⟩ => ⟨S256, .f32⟩
  | .hbm, ⟨21, _⟩ => ⟨S512x256, .f32⟩
  | .hbm, ⟨22, _⟩ => ⟨S256, .f32⟩
  | .hbm, ⟨23, _⟩ => ⟨S3x256x256, .f32⟩
  | .hbm, ⟨24, _⟩ => ⟨S3x256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256x256, .f32⟩
  | .hbm, ⟨29, _⟩ => ⟨S256, .f32⟩
  | .hbm, ⟨30, _⟩ => ⟨S1x250000, .i32⟩
  | .hbm, ⟨31, _⟩ => ⟨S250000, .i32⟩
  | .hbm, ⟨32, _⟩ => ⟨S1x250000, .i32⟩
  | .hbm, ⟨33, _⟩ => ⟨S250000, .i32⟩
  | .hbm, ⟨34, _⟩ => ⟨S50000x256, .f32⟩
  | .hbm, ⟨35, _⟩ => ⟨S294x256, .f32⟩
  | .hbm, ⟨36, _⟩ => ⟨S42x256, .f32⟩
  | .hbm, ⟨37, _⟩ => ⟨S_, .i32⟩
  | .hbm, ⟨38, _⟩ => ⟨S250000, .i32⟩
  | .hbm, ⟨39, _⟩ => ⟨S250000, .i1⟩
  | .hbm, ⟨40, _⟩ => ⟨S_, .i32⟩
  | .hbm, ⟨41, _⟩ => ⟨S250000, .i32⟩
  | .hbm, ⟨42, _⟩ => ⟨S250000, .i32⟩
  | .hbm, ⟨43, _⟩ => ⟨S250000, .i32⟩
  | .hbm, ⟨44, _⟩ => ⟨S250000x1, .i32⟩
  | .hbm, ⟨45, _⟩ => ⟨S1, .i32⟩
  | .hbm, ⟨46, _⟩ => ⟨S_, .i32⟩
  | .hbm, ⟨47, _⟩ => ⟨S250000x1, .i32⟩
  | .hbm, ⟨48, _⟩ => ⟨S250000x1, .i1⟩
  | .hbm, ⟨49, _⟩ => ⟨S1x1, .i32⟩
  | .hbm, ⟨50, _⟩ => ⟨S250000x1, .i32⟩
  | .hbm, ⟨51, _⟩ => ⟨S250000x1, .i1⟩
  | .hbm, ⟨52, _⟩ => ⟨S250000x1, .i1⟩
  | .hbm, ⟨53, _⟩ => ⟨S_, .i1⟩
  | .hbm, ⟨54, _⟩ => ⟨S250000, .i1⟩
  | .hbm, ⟨55, _⟩ => ⟨S250000x256, .f32⟩
  | .hbm, ⟨56, _⟩ => ⟨S250000x256, .i1⟩
  | .hbm, ⟨57, _⟩ => ⟨S_, .f32⟩
  | .hbm, ⟨58, _⟩ => ⟨S250000x256, .f32⟩
  | .hbm, ⟨59, _⟩ => ⟨S250000x256, .f32⟩
  | .hbm, ⟨60, _⟩ => ⟨S250000x512, .f32⟩
  | .hbm, ⟨61, _⟩ => ⟨S_, .f32⟩
  | .hbm, ⟨62, _⟩ => ⟨S50000x512, .f32⟩
  | .hbm, ⟨63, _⟩ => ⟨S250000x1, .i32⟩
  | .hbm, ⟨64, _⟩ => ⟨S50000x512, .f32⟩
  | .hbm, ⟨65, _⟩ => ⟨S50000x256, .f32⟩
  | .hbm, ⟨66, _⟩ => ⟨S_, .f32⟩
  | .hbm, ⟨67, _⟩ => ⟨S50000x1, .f32⟩
  | .hbm, ⟨68, _⟩ => ⟨S_, .f32⟩
  | .hbm, ⟨69, _⟩ => ⟨S512x1, .f32⟩
  | .hbm, ⟨70, _⟩ => ⟨S50000x1, .i32⟩
  | .hbm, ⟨71, _⟩ => ⟨S512x1, .f32⟩
  | .hbm, ⟨72, _⟩ => ⟨S_, .f32⟩
  | .hbm, ⟨73, _⟩ => ⟨S512x1, .f32⟩
  | .hbm, ⟨74, _⟩ => ⟨S512x1, .f32⟩
  | .hbm, ⟨75, _⟩ => ⟨S_, .f32⟩
  | .hbm, ⟨76, _⟩ => ⟨S512x256, .f32⟩
  | .hbm, ⟨77, _⟩ => ⟨S50000x1, .i32⟩
  | .hbm, ⟨78, _⟩ => ⟨S512x256, .f32⟩
  | .hbm, ⟨79, _⟩ => ⟨S512x256, .f32⟩
  | .hbm, ⟨80, _⟩ => ⟨S512x256, .f32⟩
  | .hbm, ⟨81, _⟩ => ⟨S_, .i32⟩
  | .hbm, ⟨82, _⟩ => ⟨S50000, .i32⟩
  | .hbm, ⟨83, _⟩ => ⟨S50000, .i1⟩
  | .hbm, ⟨84, _⟩ => ⟨S_, .i32⟩
  | .hbm, ⟨85, _⟩ => ⟨S50000, .i32⟩
  | .hbm, ⟨86, _⟩ => ⟨S50000, .i32⟩
  | .hbm, ⟨87, _⟩ => ⟨S50000, .i32⟩
  | .hbm, ⟨88, _⟩ => ⟨S50000x1, .i32⟩
  | .hbm, ⟨89, _⟩ => ⟨S1, .i32⟩
  | .hbm, ⟨90, _⟩ => ⟨S_, .i32⟩
  | .hbm, ⟨91, _⟩ => ⟨S50000x1, .i32⟩
  | .hbm, ⟨92, _⟩ => ⟨S50000x1, .i1⟩
  | .hbm, ⟨93, _⟩ => ⟨S1x1, .i32⟩
  | .hbm, ⟨94, _⟩ => ⟨S50000x1, .i32⟩
  | .hbm, ⟨95, _⟩ => ⟨S50000x1, .i1⟩
  | .hbm, ⟨96, _⟩ => ⟨S50000x1, .i1⟩
  | .hbm, ⟨97, _⟩ => ⟨S_, .i1⟩
  | .hbm, ⟨98, _⟩ => ⟨S50000, .i1⟩
  | .hbm, ⟨99, _⟩ => ⟨S50000x256, .f32⟩
  | .hbm, ⟨100, _⟩ => ⟨S50000x256, .i1⟩
  | .hbm, ⟨101, _⟩ => ⟨S_, .f32⟩
  | .hbm, ⟨102, _⟩ => ⟨S50000x256, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | .hbm, ⟨107, _⟩ => ⟨S50000x256, .f32⟩
  | .hbm, ⟨108, _⟩ => ⟨S50000x256, .f32⟩
  | .hbm, ⟨109, _⟩ => ⟨S_, .f32⟩
  | .hbm, ⟨110, _⟩ => ⟨S512x256, .f32⟩
  | .hbm, ⟨111, _⟩ => ⟨S50000x1, .i32⟩
  | .hbm, ⟨112, _⟩ => ⟨S512x256, .f32⟩
  | .hbm, ⟨113, _⟩ => ⟨S512x256, .f32⟩
  | .hbm, ⟨114, _⟩ => ⟨S512x256, .f32⟩
  | .hbm, ⟨115, _⟩ => ⟨S512x512, .f32⟩
  | .hbm, ⟨116, _⟩ => ⟨S50000x1, .i32⟩
  | .hbm, ⟨117, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x294, .f32⟩
  | .local _ .vmem, ⟨7, _⟩ => ⟨S2000x294, .f32⟩
  | .local _ .vmem, ⟨8, _⟩ => ⟨S2000x42, .f32⟩
  | .local _ .vmem, ⟨9, _⟩ => ⟨S2000x42, .f32⟩
  | .local _ .vmem, ⟨10, _⟩ => ⟨S294x256, .f32⟩
  | .local _ .vmem, ⟨11, _⟩ => ⟨S42x256, .f32⟩
  | .local _ .vmem, ⟨12, _⟩ => ⟨S2000x256, .f32⟩
  | .local _ .vmem, ⟨13, _⟩ => ⟨S2000x256, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S256, .f32⟩
  | .local _ .vmem, ⟨22, _⟩ => ⟨S256x256, .f32⟩
  | .local _ .vmem, ⟨23, _⟩ => ⟨S256x256, .f32⟩
  | .local _ .vmem, ⟨24, _⟩ => ⟨S256, .f32⟩
  | .local _ .vmem, ⟨25, _⟩ => ⟨S256x256, .f32⟩
  | .local _ .vmem, ⟨26, _⟩ => ⟨S256, .f32⟩
  | .local _ .vmem, ⟨27, _⟩ => ⟨S256x256, .f32⟩
  | .local _ .vmem, ⟨28, _⟩ => ⟨S256x256, .f32⟩
  | .local _ .vmem, ⟨29, _⟩ => ⟨S256, .f32⟩
  | .local _ .vmem, ⟨30, _⟩ => ⟨S512x256, .f32⟩
  | .local _ .vmem, ⟨31, _⟩ => ⟨S256, .f32⟩
  | .local _ .vmem, ⟨32, _⟩ => ⟨S3x256x256, .f32⟩
  | .local _ .vmem, ⟨33, _⟩ => ⟨S3x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x1, .i32⟩
  | .local _ .vmem, ⟨39, _⟩ => ⟨S2000x1, .i32⟩
  | .local _ .vmem, ⟨40, _⟩ => ⟨S512x512, .f32⟩
  | .local _ .vmem, ⟨41, _⟩ => ⟨S256, .f32⟩
  | .local _ .vmem, ⟨42, _⟩ => ⟨S256, .f32⟩
  | .local _ .vmem, ⟨43, _⟩ => ⟨S256, .f32⟩
  | .local _ .vmem, ⟨44, _⟩ => ⟨S256x256, .f32⟩
  | .local _ .vmem, ⟨45, _⟩ => ⟨S256, .f32⟩
  | .local _ .vmem, ⟨46, _⟩ => ⟨S2000x256, .f32⟩
  | .local _ .vmem, ⟨47, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v7 : Ref sig .tc := ⟨.hbm, 59, rfl⟩
abbrev main_v8 : Ref sig .tc := ⟨.hbm, 60, rfl⟩
abbrev main_cst : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_cst_1 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_2 : Ref sig .tc := ⟨.hbm, 72, rfl⟩
abbrev main_v17 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_c_1 : Ref sig .tc := ⟨.hbm, 89, rfl⟩
abbrev main_call1_c_2 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_3 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_call1_cst : Ref sig .tc := ⟨.hbm, 101, rfl⟩
abbrev main_call1_v15 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_cst_4 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg14_0 : Ref sig .tc := ⟨.vmem, 32, rfl⟩
abbrev cc2_stg15_0 : Ref sig .tc := ⟨.vmem, 33, rfl⟩
abbrev cc2_stg16_0 : Ref sig .tc := ⟨.vmem, 34, rfl⟩
abbrev cc2_stg16_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem15_0 : DmaSem sig := 33
abbrev cc2_sem16_0 : DmaSem sig := 34
abbrev cc2_sem16_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x294 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x42 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S294x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S42x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S3x256x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S3x256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S2000x256 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  reducesTo_S250000x1_S250000_d1 : S250000x1.ReducesTo [1] S250000
  h_S_ : 0 < S_.numel
  bcast_S250000_S250000x256_0 : S250000.BroadcastsInDim S250000x256 (![0] : Fin 1 → Fin S250000x256.rank)
  bcast_S_S250000x256 : S_.BroadcastsInDim S250000x256 (![] : Fin 0 → Fin S250000x256.rank)
  inb_S2000x294_S2000x294_0_0 : ∀ a, (![0, 0] : Fin 2 → Nat) a + S2000x294.size a ≤ S2000x294.size a
  h_S2000x294 : 0 < S2000x294.numel
  inb_S294x256_S294x256_0_0 : ∀ a, (![0, 0] : Fin 2 → Nat) a + S294x256.size a ≤ S294x256.size a
  h_S294x256 : 0 < S294x256.numel
  shapeCasts_S294x256_S294x256 : S294x256.ShapeCasts S294x256
  inb_S2000x42_S2000x42_0_0 : ∀ a, (![0, 0] : Fin 2 → Nat) a + S2000x42.size a ≤ S2000x42.size a
  h_S2000x42 : 0 < S2000x42.numel
  inb_S42x256_S42x256_0_0 : ∀ a, (![0, 0] : Fin 2 → Nat) a + S42x256.size a ≤ S42x256.size a
  h_S42x256 : 0 < S42x256.numel
  shapeCasts_S42x256_S42x256 : S42x256.ShapeCasts S42x256
  shapeCasts_S2000x256_S2000x256 : S2000x256.ShapeCasts S2000x256
  concatenates_S2000x256_S2000x256_S2000x512_d1 : Shape.Concatenates [S2000x256, S2000x256] S2000x512 1
  inb_S2000x512_S2000x512_0_0 : ∀ a, (![0, 0] : Fin 2 → Nat) a + S2000x512.size a ≤ S2000x512.size a
  h_S2000x512 : 0 < S2000x512.numel
  bcast_S_S50000x512 : S_.BroadcastsInDim S50000x512 (![] : Fin 0 → Fin S50000x512.rank)
  shapeCasts_S2000x512_S2000x512 : S2000x512.ShapeCasts S2000x512
  slices_S2000x512_o0_0_S2000x256 : S2000x512.Slices ![0, 0] S2000x256
  slices_S2000x512_o0_256_S2000x256 : S2000x512.Slices ![0, 256] S2000x256
  inb_S512x256_S512x256_0_0 : ∀ a, (![0, 0] : Fin 2 → Nat) a + S512x256.size a ≤ S512x256.size a
  h_S512x256 : 0 < S512x256.numel
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x256 : S_.BroadcastsInDim S512x256 (![] : Fin 0 → Fin S512x256.rank)
  bcast_S512x1_S512x256_0_1 : S512x1.BroadcastsInDim S512x256 (![0, 1] : Fin 2 → Fin S512x256.rank)
  bcast_S_S50000 : S_.BroadcastsInDim S50000 (![] : Fin 0 → Fin S50000.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x256_0 : S50000.BroadcastsInDim S50000x256 (![0] : Fin 1 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S512x256_S512x256_S512x512_d1 : Shape.Concatenates [S512x256, S512x256] S512x512 1
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2000x256_S256x256_S2000x256_1_0_0_1_n_n_wf : DotDims.WF S2000x256 S256x256 S2000x256 [1] [0] [0] [1] [] []
  dot_S294x256_S256x256_S294x256_1_0_0_1_n_n_wf : DotDims.WF S294x256 S256x256 S294x256 [1] [0] [0] [1] [] []
  dot_S42x256_S256x256_S42x256_1_0_0_1_n_n_wf : DotDims.WF S42x256 S256x256 S42x256 [1] [0] [0] [1] [] []
  gather_S50000x256_S250000x1_S250000x256_1_0_n_n_0_1_1256_wf : GatherDims.WF S50000x256 S250000x1 S250000x256 [1] [0] [] [0] [] 1 ![1, 256]
  dot_S2000x294_S294x256_S2000x256_1_0_0_1_n_n_wf : DotDims.WF S2000x294 S294x256 S2000x256 [1] [0] [0] [1] [] []
  dot_S2000x42_S42x256_S2000x256_1_0_0_1_n_n_wf : DotDims.WF S2000x42 S42x256 S2000x256 [1] [0] [0] [1] [] []
  scatter_S50000x512_S250000x1_S250000x512_1_0_0_1_wf : ScatterDims.WF S50000x512 S250000x1 S250000x512 [1] [0] [0] 1
  dot_S2000x512_S512x256_S2000x256_1_0_0_1_n_n_wf : DotDims.WF S2000x512 S512x256 S2000x256 [1] [0] [0] [1] [] []
  scatter_S512x1_S50000x1_S50000x1_1_0_0_1_wf : ScatterDims.WF S512x1 S50000x1 S50000x1 [1] [0] [0] 1
  scatter_S512x256_S50000x1_S50000x256_1_0_0_1_wf : ScatterDims.WF S512x256 S50000x1 S50000x256 [1] [0] [0] 1
  gather_S512x256_S50000x1_S50000x256_1_0_n_n_0_1_1256_wf : GatherDims.WF S512x256 S50000x1 S50000x256 [1] [0] [] [0] [] 1 ![1, 256]
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x294.size a ≤ S250000x294.size a
  hwx1_0 : ∀ i : grid1.Coords, EltTy.bits .f32 = 32 ∨ (Rect.block (s := S250000x294) S2000x294.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x42.size a ≤ S250000x42.size a
  hwx1_1 : ∀ i : grid1.Coords, EltTy.bits .f32 = 32 ∨ (Rect.block (s := S250000x42) S2000x42.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S294x256.size a ≤ S294x256.size a
  hwx1_2 : ∀ i : grid1.Coords, EltTy.bits .f32 = 32 ∨ (Rect.block (s := S294x256) S294x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S42x256.size a ≤ S42x256.size a
  hwx1_3 : ∀ i : grid1.Coords, EltTy.bits .f32 = 32 ∨ (Rect.block (s := S42x256) S42x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S250000x256.size a
  hwx1_4 : ∀ i : grid1.Coords, EltTy.bits .f32 = 32 ∨ (Rect.block (s := S250000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S250000x512.size a
  hwx1_5 : ∀ i : grid1.Coords, EltTy.bits .f32 = 32 ∨ (Rect.block (s := S250000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256.size a ≤ S256.size a
  hwx2_8 : ∀ i : grid2.Coords, EltTy.bits .f32 = 32 ∨ (Rect.block (s := S256) S256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x256.size a ≤ S256x256.size a
  hwx2_9 : ∀ i : grid2.Coords, EltTy.bits .f32 = 32 ∨ (Rect.block (s := S256x256) S256x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x256.size a ≤ S256x256.size a
  hwx2_10 : ∀ i : grid2.Coords, EltTy.bits .f32 = 32 ∨ (Rect.block (s := S256x256) S256x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256.size a ≤ S256.size a
  hwx2_11 : ∀ i : grid2.Coords, EltTy.bits .f32 = 32 ∨ (Rect.block (s := S256) S256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S512x256.size a ≤ S512x256.size a
  hwx2_12 : ∀ i : grid2.Coords, EltTy.bits .f32 = 32 ∨ (Rect.block (s := S512x256) S512x256.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S256.size a ≤ S256.size a
  hwx2_13 : ∀ i : grid2.Coords, EltTy.bits .f32 = 32 ∨ (Rect.block (s := S256) S256.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S3x256x256.size a ≤ S3x256x256.size a
  hwx2_14 : ∀ i : grid2.Coords, EltTy.bits .f32 = 32 ∨ (Rect.block (s := S3x256x256) S3x256x256.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S3x256.size a ≤ S3x256.size a
  hwx2_15 : ∀ i : grid2.Coords, EltTy.bits .f32 = 32 ∨ (Rect.block (s := S3x256) S3x256.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x256.size a ≤ S50000x256.size a
  hwx2_16 : ∀ i : grid2.Coords, EltTy.bits .f32 = 32 ∨ (Rect.block (s := S50000x256) S2000x256.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256.size a ≤ S256.size a
  hwx3_7 : ∀ i : grid3.Coords, EltTy.bits .f32 = 32 ∨ (Rect.block (s := S256) S256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S294x256_S256x256_S294x256_1_0_0_1_n_n : DotDims S294x256 S256x256 S294x256 where
  lhsContracting := [1]
  rhsContracting := [0]
  lhsNonContracting := [0]
  rhsNonContracting := [1]
  lhsBatch := []
  rhsBatch := []
  wf := dot_S294x256_S256x256_S294x256_1_0_0_1_n_n_wf
def dot_S42x256_S256x256_S42x256_1_0_0_1_n_n : DotDims S42x256 S256x256 S42x256 where
  lhsContracting := [1]
  rhsContracting := [0]
  lhsNonContracting := [0]
  rhsNonContracting := [1]
  lhsBatch := []
  rhsBatch := []
  wf := dot_S42x256_S256x256_S42x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def dot_S2000x294_S294x256_S2000x256_1_0_0_1_n_n : DotDims S2000x294 S294x256 S2000x256 where
  lhsContracting := [1]
  rhsContracting := [0]
  lhsNonContracting := [0]
  rhsNonContracting := [1]
  lhsBatch := []
  rhsBatch := []
  wf := dot_S2000x294_S294x256_S2000x256_1_0_0_1_n_n_wf
def dot_S2000x42_S42x256_S2000x256_1_0_0_1_n_n : DotDims S2000x42 S42x256 S2000x256 where
  lhsContracting := [1]
  rhsContracting := [0]
  lhsNonContracting := [0]
  rhsNonContracting := [1]
  lhsBatch := []
  rhsBatch := []
  wf := dot_S2000x42_S42x256_S2000x256_1_0_0_1_n_n_wf
def scatter_S50000x512_S250000x1_S250000x512_1_0_0_1 : ScatterDims S50000x512 S250000x1 S250000x512 where
  updateWindowDims := [1]
  insertedWindowDims := [0]
  scatterDimsToOperandDims := [0]
  indexVectorDim := 1
  wf := scatter_S50000x512_S250000x1_S250000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def gather_S512x256_S50000x1_S50000x256_1_0_n_n_0_1_1256 : GatherDims S512x256 S50000x1 S50000x256 where
  offsetDims := [1]
  collapsedSliceDims := [0]
  operandBatchingDims := []
  startIndicesBatchingDims := []
  startIndexMap := [0]
  indexVectorDim := 1
  sliceSizes := ![1, 256]
  wf := gather_S512x256_S50000x1_S50000x256_1_0_n_n_0_1_1256_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x294.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x42.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S294x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S42x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S256x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg19) S256x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg20) S256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg21) S512x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg22) S256.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg23) S3x256x256.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg24) S3x256.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v12) S2000x256.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_v12) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg25) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg26) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg27) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg28) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg29) S256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v37) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x256 : Shape := ⟨2, ![50000, 256]⟩
abbrev S250000x294 : Shape := ⟨2, ![250000, 294]⟩
abbrev S250000x42 : Shape := ⟨2, ![250000, 42]⟩
abbrev S2x250000 : Shape := ⟨2, ![2, 250000]⟩
abbrev S50000 : Shape := ⟨1, ![50000]⟩
abbrev S256x256 : Shape := ⟨2, ![256, 256]⟩
abbrev S256 : Shape := ⟨1, ![256]⟩
abbrev S294x256 : Shape := ⟨2, ![294, 256]⟩
abbrev S42x256 : Shape := ⟨2, ![42, 256]⟩
abbrev S512x256 : Shape := ⟨2, ![512, 256]⟩
abbrev S3x256x256 : Shape := ⟨3, ![3, 256, 256]⟩
abbrev S3x256 : Shape := ⟨2, ![3, 256]⟩
abbrev S1x250000 : Shape := ⟨2, ![1, 250000]⟩
abbrev S250000 : Shape := ⟨1, ![250000]⟩
abbrev S1x256 : Shape := ⟨2, ![1, 256]⟩
abbrev S_ : Shape := ⟨0, ![]⟩
abbrev S250000x256 : Shape := ⟨2, ![250000, 256]⟩
abbrev S250000x1 : Shape := ⟨2, ![250000, 1]⟩
abbrev S50000x512 : Shape := ⟨2, ![50000, 512]⟩
abbrev S1x256x256 : Shape := ⟨3, ![1, 256, 256]⟩
abbrev S50000x1 : Shape := ⟨2, ![50000, 1]⟩
abbrev S512x1 : Shape := ⟨2, ![512, 1]⟩

abbrev nBuf : Space → Nat
  | .hbm => 236
  | .vmem => 0
  | .smem => 0
  | _ => 0

abbrev hbmTy0_0 (i : Nat) : BufTy := match i % 128 with
  | 0 => ⟨S50000x256, .f32⟩
  | 1 => ⟨S250000x294, .f32⟩
  | 2 => ⟨S250000x42, .f32⟩
  | 3 => ⟨S2x250000, .i32⟩
  | 4 => ⟨S50000, .i32⟩
  | 5 => ⟨S256x256, .f32⟩
  | 6 => ⟨S256, .f32⟩
  | 7 => ⟨S294x256, .f32⟩
  | 8 => ⟨S256x256, .f32⟩
  | 9 => ⟨S42x256, .f32⟩
  | 10 => ⟨S256x256, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S256, .f32⟩
  | 21 => ⟨S512x256, .f32⟩
  | 22 => ⟨S256, .f32⟩
  | 23 => ⟨S3x256x256, .f32⟩
  | 24 => ⟨S3x256, .f32⟩
  | 25 => ⟨S256, .f32⟩
  | 26 => ⟨S256, .f32⟩
  | 27 => ⟨S256, .f32⟩
  | 28 => ⟨S256x256, .f32⟩
  | 29 => ⟨S256, .f32⟩
  | 30 => ⟨S1x250000, .i32⟩
  | 31 => ⟨S250000, .i32⟩
  | 32 => ⟨S1x250000, .i32⟩
  | 33 => ⟨S250000, .i32⟩
  | 34 => ⟨S50000x256, .f32⟩
  | 35 => ⟨S1x256, .f32⟩
  | 36 => ⟨S50000x256, .f32⟩
  | 37 => ⟨S50000x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S50000x256, .f32⟩
  | 47 => ⟨S250000x256, .f32⟩
  | 48 => ⟨S250000x256, .f32⟩
  | 49 => ⟨S_, .i32⟩
  | 50 => ⟨S250000, .i32⟩
  | 51 => ⟨S250000, .i1⟩
  | 52 => ⟨S_, .i32⟩
  | 53 => ⟨S250000, .i32⟩
  | 54 => ⟨S250000, .i32⟩
  | 55 => ⟨S250000, .i32⟩
  | 56 => ⟨S250000x1, .i32⟩
  | 57 => ⟨S250000x256, .f32⟩
  | 58 => ⟨S250000x256, .f32⟩
  | 59 => ⟨S_, .f32⟩
  | 60 => ⟨S50000x256, .f32⟩
  | 61 => ⟨S250000x1, .i32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S50000x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S50000x256, .f32⟩
  | 82 => ⟨S250000x256, .f32⟩
  | 83 => ⟨S250000x256, .f32⟩
  | 84 => ⟨S_, .i32⟩
  | 85 => ⟨S250000, .i32⟩
  | 86 => ⟨S250000, .i1⟩
  | 87 => ⟨S_, .i32⟩
  | 88 => ⟨S250000, .i32⟩
  | 89 => ⟨S250000, .i32⟩
  | 90 => ⟨S250000, .i32⟩
  | 91 => ⟨S250000x1, .i32⟩
  | 92 => ⟨S250000x256, .f32⟩
  | 93 => ⟨S250000x256, .f32⟩
  | 94 => ⟨S_, .f32⟩
  | 95 => ⟨S50000x256, .f32⟩
  | 96 => ⟨S250000x1, .i32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S50000x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S50000x256, .f32⟩
  | 109 => ⟨S50000x256, .f32⟩
  | 110 => ⟨S_, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S50000x256, .f32⟩
  | 117 => ⟨S50000x512, .f32⟩
  | 118 => ⟨S50000x256, .f32⟩
  | 119 => ⟨S1x256, .f32⟩
  | 120 => ⟨S50000x256, .f32⟩
  | 121 => ⟨S50000x256, .f32⟩
  | 122 => ⟨S50000x256, .f32⟩
  | 123 => ⟨S1x256x256, .f32⟩
  | 124 => ⟨S256x256, .f32⟩
  | 125 => ⟨S50000x256, .f32⟩
  | 126 => ⟨S1x256, .f32⟩
  | 127 => ⟨S256, .f32⟩
  | _ => ⟨S50000x256, .f32⟩

abbrev hbmTy0_1 (i : Nat) : BufTy := match i % 128 with
  | 0 => ⟨S1x256, .f32⟩
  | 1 => ⟨S50000x256, .f32⟩
  | 2 => ⟨S50000x256, .f32⟩
  | 3 => ⟨S50000x256, .f32⟩
  | 4 => ⟨S50000x256, .f32⟩
  | 5 => ⟨S_, .f32⟩
  | 6 => ⟨S50000x256, .f32⟩
  | 7 => ⟨S50000x256, .f32⟩
  | 8 => ⟨S_, .f32⟩
  | 9 => ⟨S50000x256, .f32⟩
  | 10 => ⟨S50000x256, .f32⟩
  | 11 => ⟨S50000x256, .f32⟩
  | 12 => ⟨S50000x256, .f32⟩
  | 13 => ⟨S1x256x256, .f32⟩
  | 14 => ⟨S256x256, .f32⟩
  | 15 => ⟨S50000x256, .f32⟩
  | 16 => ⟨S1x256, .f32⟩
  | 17 => ⟨S256, .f32⟩
  | 18 => ⟨S1x256, .f32⟩
  | 19 => ⟨S50000x256, .f32⟩
  | 20 => ⟨S50000x256, .f32⟩
  | 21 => ⟨S50000x256, .f32⟩
  | 22 => ⟨S50000x256, .f32⟩
  | 23 => ⟨S_, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S50000x256, .f32⟩
  | 30 => ⟨S50000x256, .f32⟩
  | 31 => ⟨S1x256x256, .f32⟩
  | 32 => ⟨S256x256, .f32⟩
  | 33 => ⟨S50000x256, .f32⟩
  | 34 => ⟨S1x256, .f32⟩
  | 35 => ⟨S256, .f32⟩
  | 36 => ⟨S1x256, .f32⟩
  | 37 => ⟨S50000x256, .f32⟩
  | 38 => ⟨S50000x256, .f32⟩
  | 39 => ⟨S50000x256, .f32⟩
  | 40 => ⟨S50000x256, .f32⟩
  | 41 => ⟨S_, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S50000x256, .f32⟩
  | 48 => ⟨S50000x256, .f32⟩
  | 49 => ⟨S_, .f32⟩
  | 50 => ⟨S50000x1, .f32⟩
  | 51 => ⟨S_, .f32⟩
  | 52 => ⟨S512x1, .f32⟩
  | 53 => ⟨S50000x1, .i32⟩
  | 54 => ⟨S512x1, .f32⟩
  | 55 => ⟨S_, .f32⟩
  | 56 => ⟨S512x1, .f32⟩
  | 57 => ⟨S512x1, .f32⟩
  | 58 => ⟨S_, .f32⟩
  | 59 => ⟨S512x256, .f32⟩
  | 60 => ⟨S50000x1, .i32⟩
  | 61 => ⟨S512x256, .f32⟩
  | 62 => ⟨S512x256, .f32⟩
  | 63 => ⟨S512x256, .f32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000x256, .f32⟩
  | 73 => ⟨S1x256, .f32⟩
  | 74 => ⟨S50000x256, .f32⟩
  | 75 => ⟨S50000x256, .f32⟩
  | 76 => ⟨S50000x256, .f32⟩
  | 77 => ⟨S50000x256, .f32⟩
  | 78 => ⟨S_, .f32⟩
  | 79 => ⟨S512x256, .f32⟩
  | 80 => ⟨S50000x1, .i32⟩
  | 81 => ⟨S512x256, .f32⟩
  | 82 => ⟨S512x256, .f32⟩
  | 83 => ⟨S512x256, .f32⟩
  | 84 => ⟨S1x256, .f32⟩
  | 85 => ⟨S50000x256, .f32⟩
  | 86 => ⟨S50000x256, .f32⟩
  | 87 => ⟨S_, .i32⟩
  | 88 => ⟨S50000, .i32⟩
  | 89 => ⟨S50000, .i1⟩
  | 90 => ⟨S_, .i32⟩
  | 91 => ⟨S50000, .i32⟩
  | 92 => ⟨S50000, .i32⟩
  | 93 => ⟨S50000, .i32⟩
  | 94 => ⟨S50000x1, .i32⟩
  | 95 => ⟨S50000x256, .f32⟩
  | 96 => ⟨S_, .f32⟩
  | 97 => ⟨S50000x256, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c : Ref sig .tc := ⟨.hbm, 49, rfl⟩
abbrev main_v11 : Ref sig .tc := ⟨.hbm, 50, rfl⟩
abbrev main_v12 : Ref sig .tc := ⟨.hbm, 51, rfl⟩
abbrev main_c_0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_1 : Ref sig .tc := ⟨.hbm, 84, rfl⟩
abbrev main_v35 : Ref sig .tc := ⟨.hbm, 85, rfl⟩
abbrev main_v36 : Ref sig .tc := ⟨.hbm, 86, rfl⟩
abbrev main_c_2 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_3 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_call3_v0 : Ref sig .tc := ⟨.hbm, 131, rfl⟩
abbrev main_call3_v1 : Ref sig .tc := ⟨.hbm, 132, rfl⟩
abbrev main_call3_cst : Ref sig .tc := ⟨.hbm, 133, rfl⟩
abbrev main_call3_v2 : Ref sig .tc := ⟨.hbm, 134, rfl⟩
abbrev main_call3_v3 : Ref sig .tc := ⟨.hbm, 135, rfl⟩
abbrev main_call3_cst_0 : Ref sig .tc := ⟨.hbm, 136, rfl⟩
abbrev main_call3_v4 : Ref sig .tc := ⟨.hbm, 137, rfl⟩
abbrev main_call3_v5 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_call4_v0 : Ref sig .tc := ⟨.hbm, 149, rfl⟩
abbrev main_call4_v1 : Ref sig .tc := ⟨.hbm, 150, rfl⟩
abbrev main_call4_cst : Ref sig .tc := ⟨.hbm, 151, rfl⟩
abbrev main_call4_v2 : Ref sig .tc := ⟨.hbm, 152, rfl⟩
abbrev main_call4_v3 : Ref sig .tc := ⟨.hbm, 153, rfl⟩
abbrev main_call4_cst_0 : Ref sig .tc := ⟨.hbm, 154, rfl⟩
abbrev main_call4_v4 : Ref sig .tc := ⟨.hbm, 155, rfl⟩
abbrev main_call4_v5 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v91 : Ref sig .tc := ⟨.hbm, 175, rfl⟩
abbrev main_v92 : Ref sig .tc := ⟨.hbm, 176, rfl⟩
abbrev main_cst_4 : Ref sig .tc := ⟨.hbm, 177, rfl⟩
abbrev main_v93 : Ref sig .tc := ⟨.hbm, 178, rfl⟩
abbrev main_cst_5 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_6 : Ref sig .tc := ⟨.hbm, 183, rfl⟩
abbrev main_v97 : Ref sig .tc := ⟨.hbm, 184, rfl⟩
abbrev main_v98 : Ref sig .tc := ⟨.hbm, 185, rfl⟩
abbrev main_cst_7 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_c_8 : Ref sig .tc := ⟨.hbm, 192, rfl⟩
abbrev main_v104 : Ref sig .tc := ⟨.hbm, 193, rfl⟩
abbrev main_v105 : Ref sig .tc := ⟨.hbm, 194, rfl⟩
abbrev main_c_9 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_cst_10 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_c_11 : Ref sig .tc := ⟨.hbm, 215, rfl⟩
abbrev main_v124 : Ref sig .tc := ⟨.hbm, 216, rfl⟩
abbrev main_v125 : Ref sig .tc := ⟨.hbm, 217, rfl⟩
abbrev main_c_12 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_13 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S250000 : S_.BroadcastsInDim S250000 (![] : Fin 0 → Fin S250000.rank)
  bcast_S250000_S250000x1_0 : S250000.BroadcastsInDim S250000x1 (![0] : Fin 1 → Fin S250000x1.rank)
  concatenates_S50000x256_S50000x256_S50000x512_d1 : Shape.Concatenates [S50000x256, S50000x256] S50000x512 1
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x256 : S_.BroadcastsInDim S512x256 (![] : Fin 0 → Fin S512x256.rank)
  bcast_S512x1_S512x256_0_1 : S512x1.BroadcastsInDim S512x256 (![0, 1] : Fin 2 → Fin S512x256.rank)
  bcast_S_S50000 : S_.BroadcastsInDim S50000 (![] : Fin 0 → Fin S50000.rank)
  dot_S50000x256_S256x256_S50000x256_1_0_0_1_n_n_wf : DotDims.WF S50000x256 S256x256 S50000x256 [1] [0] [0] [1] [] []
  dot_S250000x294_S294x256_S250000x256_1_0_0_1_n_n_wf : DotDims.WF S250000x294 S294x256 S250000x256 [1] [0] [0] [1] [] []
  dot_S250000x256_S256x256_S250000x256_1_0_0_1_n_n_wf : DotDims.WF S250000x256 S256x256 S250000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S250000x42_S42x256_S250000x256_1_0_0_1_n_n_wf : DotDims.WF S250000x42 S42x256 S250000x256 [1] [0] [0] [1] [] []
  dot_S50000x512_S512x256_S50000x256_1_0_0_1_n_n_wf : DotDims.WF S50000x512 S512x256 S50000x256 [1] [0] [0] [1] [] []
  scatter_S512x1_S50000x1_S50000x1_1_0_0_1_wf : ScatterDims.WF S512x1 S50000x1 S50000x1 [1] [0] [0] 1
  scatter_S512x256_S50000x1_S50000x256_1_0_0_1_wf : ScatterDims.WF S512x256 S50000x1 S50000x256 [1] [0] [0] 1
  gather_S512x256_S50000x1_S50000x256_1_0_n_n_0_1_1256_wf : GatherDims.WF S512x256 S50000x1 S50000x256 [1] [0] [] [0] [] 1 ![1, 256]

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S250000x294_S294x256_S250000x256_1_0_0_1_n_n : DotDims S250000x294 S294x256 S250000x256 where
  lhsContracting := [1]
  rhsContracting := [0]
  lhsNonContracting := [0]
  rhsNonContracting := [1]
  lhsBatch := []
  rhsBatch := []
  wf := dot_S250000x294_S294x256_S250000x256_1_0_0_1_n_n_wf
def dot_S250000x256_S256x256_S250000x256_1_0_0_1_n_n : DotDims S250000x256 S256x256 S250000x256 where
  lhsContracting := [1]
  rhsContracting := [0]
  lhsNonContracting := [0]
  rhsNonContracting := [1]
  lhsBatch := []
  rhsBatch := []
  wf := dot_S250000x256_S256x256_S250000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S250000x42_S42x256_S250000x256_1_0_0_1_n_n : DotDims S250000x42 S42x256 S250000x256 where
  lhsContracting := [1]
  rhsContracting := [0]
  lhsNonContracting := [0]
  rhsNonContracting := [1]
  lhsBatch := []
  rhsBatch := []
  wf := dot_S250000x42_S42x256_S250000x256_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def gather_S512x256_S50000x1_S50000x256_1_0_n_n_0_1_1256 : GatherDims S512x256 S50000x1 S50000x256 where
  offsetDims := [1]
  collapsedSliceDims := [0]
  operandBatchingDims := []
  startIndicesBatchingDims := []
  startIndexMap := [0]
  indexVectorDim := 1
  sliceSizes := ![1, 256]
  wf := gather_S512x256_S50000x1_S50000x256_1_0_n_n_0_1_1256_wf

class Facts : Prop extends Facts₀ where

variable [Facts]
-- ==== Proof.RefRun1.lean ====
/-
  The reference's run, first stretch: operations %0 … %8 (the two rows of the edge index as vectors, and the first dense
  layer `silu (x · W + b)` with its logistic written out). The stretch is stated from ANY contents `V` of the buffers:
  what it leaves at a buffer it does not write is what `V` had there, and what it leaves at %1, %3 and %8 is the reading
  module's stage function of the arguments, given that `V` holds the arguments at their buffers.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations %0 … %8, in order. -/
def c1 : List (HloOp τ sig (Elt F)) :=
  [ unary main_arg3 main_v0 ((extractStridedSlice S1x250000 ![0, 0] · slices_S2x250000_S1x250000_0_0) : (⟨S2x250000, .i32⟩ : BufTy).Contents (Elt F) → (⟨S1x250000, .i32⟩ : BufTy).Contents (Elt F)),
    reshape main_v0 main_v1 rfl shapeCasts_S1x250000_S250000,
    unary main_arg3 main_v2 ((extractStridedSlice S1x250000 ![1, 0] · slices_S2x250000_S1x250000_1_0) : (⟨S2x250000, .i32⟩ : BufTy).Contents (Elt F) → (⟨S1x250000, .i32⟩ : BufTy).Contents (Elt F)),
    reshape main_v2 main_v3 rfl shapeCasts_S1x250000_S250000,
    binary main_arg0 main_arg5 main_v4 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v5 (broadcastInDim S1x256 ![1] bcast_S256_S1x256_1 : (⟨S256, .f32⟩ : BufTy).Contents (Elt F) → (⟨S1x256, .f32⟩ : BufTy).Contents (Elt F)),
    unary main_v5 main_v6 (broadcastInDim S50000x256 ![0, 1] bcast_S1x256_S50000x256_0_1 : (⟨S1x256, .f32⟩ : BufTy).Contents (Elt F) → (⟨S50000x256, .f32⟩ : BufTy).Contents (Elt F)),
    binary main_v4 main_v6 main_v7 (addf : (⟨S50000x256, .f32⟩ : BufTy).Contents (Elt F) → (⟨S50000x256, .f32⟩ : BufTy).Contents (Elt F) → (⟨S50000x256, .f32⟩ : BufTy).Contents (Elt F)),
    TRef.unary (TRef.of (T := ⟨S50000x256, .f32⟩) main_v7) (TRef.of (T := ⟨S50000x256, .f32⟩) main_call0_v0) Host.negf,
    TRef.unary (TRef.of (T := ⟨S50000x256, .f32⟩) main_call0_v0) (TRef.of (T := ⟨S50000x256, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S50000x256, .f32⟩) main_call0_v2) (broadcastInDim S50000x256 ![] bcast_S_S50000x256),
    TRef.binary (TRef.of (T := ⟨S50000x256, .f32⟩) main_call0_v2) (TRef.of (T := ⟨S50000x256, .f32⟩) main_call0_v1) (TRef.of (T := ⟨S50000x256, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S50000x256, .f32⟩) main_call0_v4) (broadcastInDim S50000x256 ![] bcast_S_S50000x256),
    TRef.binary (TRef.of (T := ⟨S50000x256, .f32⟩) main_call0_v4) (TRef.of (T := ⟨S50000x256, .f32⟩) main_call0_v3) (TRef.of (T := ⟨S50000x256, .f32⟩) main_call0_v5) Host.divf,
    TRef.binary (TRef.of (T := ⟨S50000x256, .f32⟩) main_v7) (TRef.of (T := ⟨S50000x256, .f32⟩) main_call0_v5) (TRef.of (T := ⟨S50000x256, .f32⟩) main_v8) mulf ]

/-- The buffers the stretch writes. -/
def W1 : List (Ref sig .tc) :=
  [main_v0, main_v1, main_v2, main_v3, main_v4, main_v5, main_v6, main_v7, main_call0_v0, main_call0_v1, main_call0_cst,
   main_call0_v2, main_call0_v3, main_call0_cst_0, main_call0_v4, main_call0_v5, main_v8]

theorem c1_writes : (c1 (F := F)).Forall fun op => op.writes ⊆ (W1.map (Proc.devRef (τ := τ) .tc)).toFinset := by
  simp only [c1, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c1_keep (V : Valuation τ sig (Elt F)) {r : Ref sig .tc} (hr : r ∉ W1) :
    after c1 V (Proc.devRef .tc r) = V (Proc.devRef .tc r) :=
  after_of_writes_sub c1 V c1_writes hr

/-- %1: the source ids. -/
theorem c1_v1 (V : Valuation τ sig (Elt F)) (x3 : (⟨S2x250000, .i32⟩ : BufTy).Contents (Elt F))
    (h3 : V (Proc.devRef .tc main_arg3) = x3) :
    after c1 V (Proc.devRef .tc main_v1) = val_main_v1 (F := F) x3 := by
  simp only [c1]
  after_results_simp
  rw [h3]
  rfl

/-- %3: the destination ids. -/
theorem c1_v3 (V : Valuation τ sig (Elt F)) (x3 : (⟨S2x250000, .i32⟩ : BufTy).Contents (Elt F))
    (h3 : V (Proc.devRef .tc main_arg3) = x3) :
    after c1 V (Proc.devRef .tc main_v3) = val_main_v3 (F := F) x3 := by
  simp only [c1]
  after_results_simp
  rw [h3]
  rfl

/-- %8: the first layer's output. -/
theorem c1_v8 (V : Valuation τ sig (Elt F)) (x0 : (⟨S50000x256, .f32⟩ : BufTy).Contents (Elt F))
    (x5 : (⟨S256x256, .f32⟩ : BufTy).Contents (Elt F)) (x6 : (⟨S256, .f32⟩ : BufTy).Contents (Elt F))
    (h0 : V (Proc.devRef .tc main_arg0) = x0) (h5 : V (Proc.devRef .tc main_arg5) = x5)
    (h6 : V (Proc.devRef .tc main_arg6) = x6) :
    after c1 V (Proc.devRef .tc main_v8) = val_main_v8 (F := F) x0 x5 x6 := by
  simp only [c1]
  after_results_simp
  rw [h0, h5, h6]
  rfl

end Cert.ReferenceIdeal.RunP

end
-- ==== Proof.RefRun2.lean ====
/-
  The reference's run, second stretch: operations %9 … %21 (the first radial filter `f₁ · Wf₁ · Wf₁'`, the source ids
  wrapped into range, the gather of the source rows of %8, the message as their product, and its scatter-add onto the
  destination ids). Stated from ANY contents `V`: given that `V` holds the arguments and the earlier stages %1, %3, %8
  at their buffers, the stretch leaves the reading module's %21 at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %9 … %21, in order. -/
def c2 : List (HloOp τ sig (Elt F)) :=
  [ binary main_arg1 main_arg7 main_v9 ((fun l r => Host.dotGeneral dot_S250000x294_S294x256_S250000x256_1_0_0_1_n_n none l r) : (⟨S250000x294, .f32⟩ : BufTy).Contents (Elt F) → (⟨S294x256, .f32⟩ : BufTy).Contents (Elt F) → (⟨S250000x256, .f32⟩ : BufTy).Contents (Elt F)),
    binary main_v9 main_arg8 main_v10 ((fun l r => Host.dotGeneral dot_S250000x256_S256x256_S250000x256_1_0_0_1_n_n none l r) : (⟨S250000x256, .f32⟩ : BufTy).Contents (Elt F) → (⟨S256x256, .f32⟩ : BufTy).Contents (Elt F) → (⟨S250000x256, .f32⟩ : BufTy).Contents (Elt F)),
    nullary main_c (constantI S_ 32 0#32),
    unary main_c main_v11 (broadcastInDim S250000 ![] bcast_S_S250000 : (⟨S_, .i32⟩ : BufTy).Contents (Elt F) → (⟨S250000, .i32⟩ : BufTy).Contents (Elt F)),
    binary main_v1 main_v11 main_v12 (cmpi .slt : (⟨S250000, .i32⟩ : BufTy).Contents (Elt F) → (⟨S250000, .i32⟩ : BufTy).Contents (Elt F) → (⟨S250000, .i1⟩ : BufTy).Contents (Elt F)),
    nullary main_c_0 (constantI S_ 32 50000#32),
    unary main_c_0 main_v13 (broadcastInDim S250000 ![] bcast_S_S250000 : (⟨S_, .i32⟩ : BufTy).Contents (Elt F) → (⟨S250000, .i32⟩ : BufTy).Contents (Elt F)),
    binary main_v1 main_v13 main_v14 (addi : (⟨S250000, .i32⟩ : BufTy).Contents (Elt F) → (⟨S250000, .i32⟩ : BufTy).Contents (Elt F) → (⟨S250000, .i32⟩ : BufTy).Contents (Elt F)),
    ternary main_v12 main_v14 main_v1 main_v15 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v15 main_v16 (broadcastInDim S250000x1 ![0] bcast_S250000_S250000x1_0 : (⟨S250000, .i32⟩ : BufTy).Contents (Elt F) → (⟨S250000x1, .i32⟩ : BufTy).Contents (Elt F)),
    binary main_v8 main_v16 main_v17 ((fun x i => Host.gather gather_S50000x256_S250000x1_S250000x256_1_0_n_n_0_1_1256 x i) : (⟨S50000x256, .f32⟩ : BufTy).Contents (Elt F) → (⟨S250000x1, .i32⟩ : BufTy).Contents (Elt F) → (⟨S250000x256, .f32⟩ : BufTy).Contents (Elt F)),
    binary main_v10 main_v17 main_v18 (mulf : (⟨S250000x256, .f32⟩ : BufTy).Contents (Elt F) → (⟨S250000x256, .f32⟩ : BufTy).Contents (Elt F) → (⟨S250000x256, .f32⟩ : BufTy).Contents (Elt F)),
    nullary main_cst (constant S_ .f32 0x00000000#32),
    unary main_cst main_v19 (broadcastInDim S50000x256 ![] bcast_S_S50000x256 : (⟨S_, .f32⟩ : BufTy).Contents (Elt F) → (⟨S50000x256, .f32⟩ : BufTy).Contents (Elt F)),
    unary main_v3 main_v20 (broadcastInDim S250000x1 ![0] bcast_S250000_S250000x1_0 : (⟨S250000, .i32⟩ : BufTy).Contents (Elt F) → (⟨S250000x1, .i32⟩ : BufTy).Contents (Elt F)),
    ternary main_v19 main_v20 main_v18 main_v21 ((fun x i u => Host.scatterAdd scatter_S50000x256_S250000x1_S250000x256_1_0_0_1 x i u) : (⟨S50000x256, .f32⟩ : BufTy).Contents (Elt F) → (⟨S250000x1, .i32⟩ : BufTy).Contents (Elt F) → (⟨S250000x256, .f32⟩ : BufTy).Contents (Elt F) → (⟨S50000x256, .f32⟩ : BufTy).Contents (Elt F)) ]

/-- The buffers the stretch writes. -/
def W2 : List (Ref sig .tc) :=
  [main_v9, main_v10, main_c, main_v11, main_v12, main_c_0, main_v13, main_v14, main_v15, main_v16, main_v17, main_v18,
   main_cst, main_v19, main_v20, main_v21]

theorem c2_writes : (c2 (F := F)).Forall fun op => op.writes ⊆ (W2.map (Proc.devRef (τ := τ) .tc)).toFinset := by
  simp only [c2, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c2_keep (V : Valuation τ sig (Elt F)) {r : Ref sig .tc} (hr : r ∉ W2) :
    after c2 V (Proc.devRef .tc r) = V (Proc.devRef .tc r) :=
  after_of_writes_sub c2 V c2_writes hr

/-- %21: the first half's messages summed onto their destination nodes. -/
theorem c2_v21 (V : Valuation τ sig (Elt F))
    (h1 : V (Proc.devRef .tc main_arg1) = x1) (h7 : V (Proc.devRef .tc main_arg7) = x7)
    (h8 : V (Proc.devRef .tc main_arg8) = x8)
    (hv1 : V (Proc.devRef .tc main_v1) = val_main_v1 (F := F) x3)
    (hv3 : V (Proc.devRef .tc main_v3) = val_main_v3 (F := F) x3)
    (hv8 : V (Proc.devRef .tc main_v8) = val_main_v8 (F := F) x0 x5 x6) :
    after c2 V (Proc.devRef .tc main_v21) = val_main_v21 (F := F) x0 x1 x3 x5 x6 x7 x8 := by
  simp only [c2]
  after_results_simp
  rw [h1, h7, h8, hv1, hv3, hv8]
  rfl

end Cert.ReferenceIdeal.RunP

end
-- ==== Proof.RefRun3.lean ====
/-
  The reference's run, third stretch: operations %22 … %32 (the first edge convolution's combine
  `agg₁ · Wl₁ + bl₁ + x₁ · Wr₁`, then the dense layer `silu (· W₁ + b₁)` with its logistic written out). Stated from ANY
  contents `V`: given the arguments and the earlier stages %8, %21 at their buffers, the stretch leaves the reading
  module's %32 at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %22 … %32, in order. -/
def c3 : List (HloOp τ sig (Elt F)) :=
  [ binary main_v21 main_arg11 main_v22 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg12 main_v23 (broadcastInDim S1x256 ![1] bcast_S256_S1x256_1 : (⟨S256, .f32⟩ : BufTy).Contents (Elt F) → (⟨S1x256, .f32⟩ : BufTy).Contents (Elt F)),
    unary main_v23 main_v24 (broadcastInDim S50000x256 ![0, 1] bcast_S1x256_S50000x256_0_1 : (⟨S1x256, .f32⟩ : BufTy).Contents (Elt F) → (⟨S50000x256, .f32⟩ : BufTy).Contents (Elt F)),
    binary main_v22 main_v24 main_v25 (addf : (⟨S50000x256, .f32⟩ : BufTy).Contents (Elt F) → (⟨S50000x256, .f32⟩ : BufTy).Contents (Elt F) → (⟨S50000x256, .f32⟩ : BufTy).Contents (Elt F)),
    binary main_v8 main_arg13 main_v26 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v25 main_v26 main_v27 (addf : (⟨S50000x256, .f32⟩ : BufTy).Contents (Elt F) → (⟨S50000x256, .f32⟩ : BufTy).Contents (Elt F) → (⟨S50000x256, .f32⟩ : BufTy).Contents (Elt F)),
    binary main_v27 main_arg17 main_v28 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg18 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v28 main_v30 main_v31 (addf : (⟨S50000x256, .f32⟩ : BufTy).Contents (Elt F) → (⟨S50000x256, .f32⟩ : BufTy).Contents (Elt F) → (⟨S50000x256, .f32⟩ : BufTy).Contents (Elt F)),
    TRef.unary (TRef.of (T := ⟨S50000x256, .f32⟩) main_v31) (TRef.of (T := ⟨S50000x256, .f32⟩) main_call1_v0) Host.negf,
    TRef.unary (TRef.of (T := ⟨S50000x256, .f32⟩) main_call1_v0) (TRef.of (T := ⟨S50000x256, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S50000x256, .f32⟩) main_call1_v2) (broadcastInDim S50000x256 ![] bcast_S_S50000x256),
    TRef.binary (TRef.of (T := ⟨S50000x256, .f32⟩) main_call1_v2) (TRef.of (T := ⟨S50000x256, .f32⟩) main_call1_v1) (TRef.of (T := ⟨S50000x256, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S50000x256, .f32⟩) main_call1_v4) (broadcastInDim S50000x256 ![] bcast_S_S50000x256),
    TRef.binary (TRef.of (T := ⟨S50000x256, .f32⟩) main_call1_v4) (TRef.of (T := ⟨S50000x256, .f32⟩) main_call1_v3) (TRef.of (T := ⟨S50000x256, .f32⟩) main_call1_v5) Host.divf,
    TRef.binary (TRef.of (T := ⟨S50000x256, .f32⟩) main_v31) (TRef.of (T := ⟨S50000x256, .f32⟩) main_call1_v5) (TRef.of (T := ⟨S50000x256, .f32⟩) main_v32) mulf ]

/-- The buffers the stretch writes. -/
def W3 : List (Ref sig .tc) :=
  [main_v22, main_v23, main_v24, main_v25, main_v26, main_v27, main_v28, main_v29, main_v30, main_v31, main_call1_v0,
   main_call1_v1, main_call1_cst, main_call1_v2, main_call1_v3, main_call1_cst_0, main_call1_v4, main_call1_v5, main_v32]

theorem c3_writes : (c3 (F := F)).Forall fun op => op.writes ⊆ (W3.map (Proc.devRef (τ := τ) .tc)).toFinset := by
  simp only [c3, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c3_keep (V : Valuation τ sig (Elt F)) {r : Ref sig .tc} (hr : r ∉ W3) :
    after c3 V (Proc.devRef .tc r) = V (Proc.devRef .tc r) :=
  after_of_writes_sub c3 V c3_writes hr

/-- %32: the first branch's hidden row. -/
theorem c3_v32 (V : Valuation τ sig (Elt F))
    (h11 : V (Proc.devRef .tc main_arg11) = x11) (h12 : V (Proc.devRef .tc main_arg12) = x12)
    (h13 : V (Proc.devRef .tc main_arg13) = x13) (h17 : V (Proc.devRef .tc main_arg17) = x17)
    (h18 : V (Proc.devRef .tc main_arg18) = x18)
    (hv8 : V (Proc.devRef .tc main_v8) = val_main_v8 (F := F) x0 x5 x6)
    (hv21 : V (Proc.devRef .tc main_v21) = val_main_v21 (F := F) x0 x1 x3 x5 x6 x7 x8) :
    after c3 V (Proc.devRef .tc main_v32) = val_main_v32 (F := F) x0 x1 x3 x5 x6 x7 x8 x11 x12 x13 x17 x18 := by
  simp only [c3]
  after_results_simp
  rw [h11, h12, h13, h17, h18, hv8, hv21]
  rfl

end Cert.ReferenceIdeal.RunP

end
-- ==== Proof.RefRun4.lean ====
/-
  The reference's run, fourth stretch: operations %33 … %45 (the second radial filter `f₂ · Wf₂ · Wf₂'`, the source ids
  wrapped into range once more, the gather of the source rows of %8, the message as their product, and its scatter-add
  onto the destination ids). Stated from ANY contents `V`: given the arguments and the earlier stages %1, %3, %8 at
  their buffers, the stretch leaves the reading module's %45 at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %33 … %45, in order. -/
def c4 : List (HloOp τ sig (Elt F)) :=
  [ binary main_arg2 main_arg9 main_v33 ((fun l r => Host.dotGeneral dot_S250000x42_S42x256_S250000x256_1_0_0_1_n_n none l r) : (⟨S250000x42, .f32⟩ : BufTy).Contents (Elt F) → (⟨S42x256, .f32⟩ : BufTy).Contents (Elt F) → (⟨S250000x256, .f32⟩ : BufTy).Contents (Elt F)),
    binary main_v33 main_arg10 main_v34 ((fun l r => Host.dotGeneral dot_S250000x256_S256x256_S250000x256_1_0_0_1_n_n none l r) : (⟨S250000x256, .f32⟩ : BufTy).Contents (Elt F) → (⟨S256x256, .f32⟩ : BufTy).Contents (Elt F) → (⟨S250000x256, .f32⟩ : BufTy).Contents (Elt F)),
    nullary main_c_1 (constantI S_ 32 0#32),
    unary main_c_1 main_v35 (broadcastInDim S250000 ![] bcast_S_S250000 : (⟨S_, .i32⟩ : BufTy).Contents (Elt F) → (⟨S250000, .i32⟩ : BufTy).Contents (Elt F)),
    binary main_v1 main_v35 main_v36 (cmpi .slt : (⟨S250000, .i32⟩ : BufTy).Contents (Elt F) → (⟨S250000, .i32⟩ : BufTy).Contents (Elt F) → (⟨S250000, .i1⟩ : BufTy).Contents (Elt F)),
    nullary main_c_2 (constantI S_ 32 50000#32),
    unary main_c_2 main_v37 (broadcastInDim S250000 ![] bcast_S_S250000 : (⟨S_, .i32⟩ : BufTy).Contents (Elt F) → (⟨S250000, .i32⟩ : BufTy).Contents (Elt F)),
    binary main_v1 main_v37 main_v38 (addi : (⟨S250000, .i32⟩ : BufTy).Contents (Elt F) → (⟨S250000, .i32⟩ : BufTy).Contents (Elt F) → (⟨S250000, .i32⟩ : BufTy).Contents (Elt F)),
    ternary main_v36 main_v38 main_v1 main_v39 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v39 main_v40 (broadcastInDim S250000x1 ![0] bcast_S250000_S250000x1_0 : (⟨S250000, .i32⟩ : BufTy).Contents (Elt F) → (⟨S250000x1, .i32⟩ : BufTy).Contents (Elt F)),
    binary main_v8 main_v40 main_v41 ((fun x i => Host.gather gather_S50000x256_S250000x1_S250000x256_1_0_n_n_0_1_1256 x i) : (⟨S50000x256, .f32⟩ : BufTy).Contents (Elt F) → (⟨S250000x1, .i32⟩ : BufTy).Contents (Elt F) → (⟨S250000x256, .f32⟩ : BufTy).Contents (Elt F)),
    binary main_v34 main_v41 main_v42 (mulf : (⟨S250000x256, .f32⟩ : BufTy).Contents (Elt F) → (⟨S250000x256, .f32⟩ : BufTy).Contents (Elt F) → (⟨S250000x256, .f32⟩ : BufTy).Contents (Elt F)),
    nullary main_cst_3 (constant S_ .f32 0x00000000#32),
    unary main_cst_3 main_v43 (broadcastInDim S50000x256 ![] bcast_S_S50000x256 : (⟨S_, .f32⟩ : BufTy).Contents (Elt F) → (⟨S50000x256, .f32⟩ : BufTy).Contents (Elt F)),
    unary main_v3 main_v44 (broadcastInDim S250000x1 ![0] bcast_S250000_S250000x1_0 : (⟨S250000, .i32⟩ : BufTy).Contents (Elt F) → (⟨S250000x1, .i32⟩ : BufTy).Contents (Elt F)),
    ternary main_v43 main_v44 main_v42 main_v45 ((fun x i u => Host.scatterAdd scatter_S50000x256_S250000x1_S250000x256_1_0_0_1 x i u) : (⟨S50000x256, .f32⟩ : BufTy).Contents (Elt F) → (⟨S250000x1, .i32⟩ : BufTy).Contents (Elt F) → (⟨S250000x256, .f32⟩ : BufTy).Contents (Elt F) → (⟨S50000x256, .f32⟩ : BufTy).Contents (Elt F)) ]

/-- The buffers the stretch writes. -/
def W4 : List (Ref sig .tc) :=
  [main_v33, main_v34, main_c_1, main_v35, main_v36, main_c_2, main_v37, main_v38, main_v39, main_v40, main_v41, main_v42,
   main_cst_3, main_v43, main_v44, main_v45]

theorem c4_writes : (c4 (F := F)).Forall fun op => op.writes ⊆ (W4.map (Proc.devRef (τ := τ) .tc)).toFinset := by
  simp only [c4, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c4_keep (V : Valuation τ sig (Elt F)) {r : Ref sig .tc} (hr : r ∉ W4) :
    after c4 V (Proc.devRef .tc r) = V (Proc.devRef .tc r) :=
  after_of_writes_sub c4 V c4_writes hr

/-- %45: the second half's messages summed onto their destination nodes. -/
theorem c4_v45 (V : Valuation τ sig (Elt F))
    (h2 : V (Proc.devRef .tc main_arg2) = x2) (h9 : V (Proc.devRef .tc main_arg9) = x9)
    (h10 : V (Proc.devRef .tc main_arg10) = x10)
    (hv1 : V (Proc.devRef .tc main_v1) = val_main_v1 (F := F) x3)
    (hv3 : V (Proc.devRef .tc main_v3) = val_main_v3 (F := F) x3)
    (hv8 : V (Proc.devRef .tc main_v8) = val_main_v8 (F := F) x0 x5 x6) :
    after c4 V (Proc.devRef .tc main_v45) = val_main_v45 (F := F) x0 x2 x3 x5 x6 x9 x10 := by
  simp only [c4]
  after_results_simp
  rw [h2, h9, h10, hv1, hv3, hv8]
  rfl

end Cert.ReferenceIdeal.RunP

end
-- ==== Proof.RefRun5.lean ====
/-
  The reference's run, fifth stretch: operations %46 … %56 (the second edge convolution's combine
  `agg₂ · Wl₂ + bl₂ + x₁ · Wr₂`, then the dense layer `silu (· W₂ + b₂)` with its logistic written out). Stated from ANY
  contents `V`: given the arguments and the earlier stages %8, %45 at their buffers, the stretch leaves the reading
  module's %56 at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %46 … %56, in order. -/
def c5 : List (HloOp τ sig (Elt F)) :=
  [ binary main_v45 main_arg14 main_v46 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg15 main_v47 (broadcastInDim S1x256 ![1] bcast_S256_S1x256_1 : (⟨S256, .f32⟩ : BufTy).Contents (Elt F) → (⟨S1x256, .f32⟩ : BufTy).Contents (Elt F)),
    unary main_v47 main_v48 (broadcastInDim S50000x256 ![0, 1] bcast_S1x256_S50000x256_0_1 : (⟨S1x256, .f32⟩ : BufTy).Contents (Elt F) → (⟨S50000x256, .f32⟩ : BufTy).Contents (Elt F)),
    binary main_v46 main_v48 main_v49 (addf : (⟨S50000x256, .f32⟩ : BufTy).Contents (Elt F) → (⟨S50000x256, .f32⟩ : BufTy).Contents (Elt F) → (⟨S50000x256, .f32⟩ : BufTy).Contents (Elt F)),
    binary main_v8 main_arg16 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v49 main_v50 main_v51 (addf : (⟨S50000x256, .f32⟩ : BufTy).Contents (Elt F) → (⟨S50000x256, .f32⟩ : BufTy).Contents (Elt F) → (⟨S50000x256, .f32⟩ : BufTy).Contents (Elt F)),
    binary main_v51 main_arg19 main_v52 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg20 main_v53 (broadcastInDim S1x256 ![1] bcast_S256_S1x256_1 : (⟨S256, .f32⟩ : BufTy).Contents (Elt F) → (⟨S1x256, .f32⟩ : BufTy).Contents (Elt F)),
    unary main_v53 main_v54 (broadcastInDim S50000x256 ![0, 1] bcast_S1x256_S50000x256_0_1 : (⟨S1x256, .f32⟩ : BufTy).Contents (Elt F) → (⟨S50000x256, .f32⟩ : BufTy).Contents (Elt F)),
    binary main_v52 main_v54 main_v55 (addf : (⟨S50000x256, .f32⟩ : BufTy).Contents (Elt F) → (⟨S50000x256, .f32⟩ : BufTy).Contents (Elt F) → (⟨S50000x256, .f32⟩ : BufTy).Contents (Elt F)),
    TRef.unary (TRef.of (T := ⟨S50000x256, .f32⟩) main_v55) (TRef.of (T := ⟨S50000x256, .f32⟩) main_call2_v0) Host.negf,
    TRef.unary (TRef.of (T := ⟨S50000x256, .f32⟩) main_call2_v0) (TRef.of (T := ⟨S50000x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S50000x256, .f32⟩) main_call2_v2) (broadcastInDim S50000x256 ![] bcast_S_S50000x256),
    TRef.binary (TRef.of (T := ⟨S50000x256, .f32⟩) main_call2_v2) (TRef.of (T := ⟨S50000x256, .f32⟩) main_call2_v1) (TRef.of (T := ⟨S50000x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S50000x256, .f32⟩) main_call2_v4) (broadcastInDim S50000x256 ![] bcast_S_S50000x256),
    TRef.binary (TRef.of (T := ⟨S50000x256, .f32⟩) main_call2_v4) (TRef.of (T := ⟨S50000x256, .f32⟩) main_call2_v3) (TRef.of (T := ⟨S50000x256, .f32⟩) main_call2_v5) Host.divf,
    TRef.binary (TRef.of (T := ⟨S50000x256, .f32⟩) main_v55) (TRef.of (T := ⟨S50000x256, .f32⟩) main_call2_v5) (TRef.of (T := ⟨S50000x256, .f32⟩) main_v56) mulf ]

/-- The buffers the stretch writes. -/
def W5 : List (Ref sig .tc) :=
  [main_v46, main_v47, main_v48, main_v49, main_v50, main_v51, main_v52, main_v53, main_v54, main_v55, main_call2_v0,
   main_call2_v1, main_call2_cst, main_call2_v2, main_call2_v3, main_call2_cst_0, main_call2_v4, main_call2_v5, main_v56]

theorem c5_writes : (c5 (F := F)).Forall fun op => op.writes ⊆ (W5.map (Proc.devRef (τ := τ) .tc)).toFinset := by
  simp only [c5, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c5_keep (V : Valuation τ sig (Elt F)) {r : Ref sig .tc} (hr : r ∉ W5) :
    after c5 V (Proc.devRef .tc r) = V (Proc.devRef .tc r) :=
  after_of_writes_sub c5 V c5_writes hr

/-- %56: the second branch's hidden row. -/
theorem c5_v56 (V : Valuation τ sig (Elt F))
    (h14 : V (Proc.devRef .tc main_arg14) = x14) (h15 : V (Proc.devRef .tc main_arg15) = x15)
    (h16 : V (Proc.devRef .tc main_arg16) = x16) (h19 : V (Proc.devRef .tc main_arg19) = x19)
    (h20 : V (Proc.devRef .tc main_arg20) = x20)
    (hv8 : V (Proc.devRef .tc main_v8) = val_main_v8 (F := F) x0 x5 x6)
    (hv45 : V (Proc.devRef .tc main_v45) = val_main_v45 (F := F) x0 x2 x3 x5 x6 x9 x10) :
    after c5 V (Proc.devRef .tc main_v56) = val_main_v56 (F := F) x0 x2 x3 x5 x6 x9 x10 x14 x15 x16 x19 x20 := by
  simp only [c5]
  after_results_simp
  rw [h14, h15, h16, h19, h20, hv8, hv45]
  rfl

end Cert.ReferenceIdeal.RunP

end
-- ==== Proof.RefRun6.lean ====
/-
  The reference's run, sixth stretch: operations %57 … %62 (the two branches' hidden rows side by side, projected
  `· Wcat + bcat`, plus the skip `+ x₁`). Stated from ANY contents `V`: given the arguments and the earlier stages %8,
  %32, %56 at their buffers, the stretch leaves the reading module's %62 at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %57 … %62, in order. -/
def c6 : List (HloOp τ sig (Elt F)) :=
  [ binary main_v32 main_v56 main_v57 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    binary main_v57 main_arg21 main_v58 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg22 main_v59 (broadcastInDim S1x256 ![1] bcast_S256_S1x256_1 : (⟨S256, .f32⟩ : BufTy).Contents (Elt F) → (⟨S1x256, .f32⟩ : BufTy).Contents (Elt F)),
    unary main_v59 main_v60 (broadcastInDim S50000x256 ![0, 1] bcast_S1x256_S50000x256_0_1 : (⟨S1x256, .f32⟩ : BufTy).Contents (Elt F) → (⟨S50000x256, .f32⟩ : BufTy).Contents (Elt F)),
    binary main_v58 main_v60 main_v61 (addf : (⟨S50000x256, .f32⟩ : BufTy).Contents (Elt F) → (⟨S50000x256, .f32⟩ : BufTy).Contents (Elt F) → (⟨S50000x256, .f32⟩ : BufTy).Contents (Elt F)),
    binary main_v61 main_v8 main_v62 (addf : (⟨S50000x256, .f32⟩ : BufTy).Contents (Elt F) → (⟨S50000x256, .f32⟩ : BufTy).Contents (Elt F) → (⟨S50000x256, .f32⟩ : BufTy).Contents (Elt F)) ]

/-- The buffers the stretch writes. -/
def W6 : List (Ref sig .tc) := [main_v57, main_v58, main_v59, main_v60, main_v61, main_v62]

theorem c6_writes : (c6 (F := F)).Forall fun op => op.writes ⊆ (W6.map (Proc.devRef (τ := τ) .tc)).toFinset := by
  simp only [c6, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c6_keep (V : Valuation τ sig (Elt F)) {r : Ref sig .tc} (hr : r ∉ W6) :
    after c6 V (Proc.devRef .tc r) = V (Proc.devRef .tc r) :=
  after_of_writes_sub c6 V c6_writes hr

/-- %62: the node features entering the residual layers. -/
theorem c6_v62 (V : Valuation τ sig (Elt F))
    (h21 : V (Proc.devRef .tc main_arg21) = x21) (h22 : V (Proc.devRef .tc main_arg22) = x22)
    (hv8 : V (Proc.devRef .tc main_v8) = val_main_v8 (F := F) x0 x5 x6)
    (hv32 : V (Proc.devRef .tc main_v32) = val_main_v32 (F := F) x0 x1 x3 x5 x6 x7 x8 x11 x12 x13 x17 x18)
    (hv56 : V (Proc.devRef .tc main_v56) = val_main_v56 (F := F) x0 x2 x3 x5 x6 x9 x10 x14 x15 x16 x19 x20) :
    after c6 V (Proc.devRef .tc main_v62) = val_main_v62 (F := F) x0 x1 x2 x3 x5 x6 x7 x8 x9 x10 x11 x12 x13 x14 x15 x16 x17 x18 x19 x20 x21 x22 := by
  simp only [c6]
  after_results
  rw [h21, h22, hv8, hv32, hv56]
  rfl

end Cert.ReferenceIdeal.RunP

end
-- ==== Proof.RefRun7.lean ====
/-
  The reference's run, seventh stretch: operations %63 … %72 (the first residual layer: slab 0 of the
  stacked weights and biases, `silu (h · W + b) + h` with its logistic written out). Stated from ANY contents `V`: given
  the two stacked arguments and the earlier stage %62 at their buffers, the stretch leaves the reading module's %72 at
  its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %63 … %72, in order. -/
def c7 : List (HloOp τ sig (Elt F)) :=
  [ unary main_arg23 main_v63 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v63 main_v64 rfl shapeCasts_S1x256x256_S256x256,
    binary main_v62 main_v64 main_v65 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg24 main_v66 ((extractStridedSlice S1x256 ![0, 0] · slices_S3x256_S1x256_0_0) : (⟨S3x256, .f32⟩ : BufTy).Contents (Elt F) → (⟨S1x256, .f32⟩ : BufTy).Contents (Elt F)),
    reshape main_v66 main_v67 rfl shapeCasts_S1x256_S256,
    unary main_v67 main_v68 (broadcastInDim S1x256 ![1] bcast_S256_S1x256_1 : (⟨S256, .f32⟩ : BufTy).Contents (Elt F) → (⟨S1x256, .f32⟩ : BufTy).Contents (Elt F)),
    unary main_v68 main_v69 (broadcastInDim S50000x256 ![0, 1] bcast_S1x256_S50000x256_0_1 : (⟨S1x256, .f32⟩ : BufTy).Contents (Elt F) → (⟨S50000x256, .f32⟩ : BufTy).Contents (Elt F)),
    binary main_v65 main_v69 main_v70 (addf : (⟨S50000x256, .f32⟩ : BufTy).Contents (Elt F) → (⟨S50000x256, .f32⟩ : BufTy).Contents (Elt F) → (⟨S50000x256, .f32⟩ : BufTy).Contents (Elt F)),
    TRef.unary (TRef.of (T := ⟨S50000x256, .f32⟩) main_v70) (TRef.of (T := ⟨S50000x256, .f32⟩) main_call3_v0) Host.negf,
    TRef.unary (TRef.of (T := ⟨S50000x256, .f32⟩) main_call3_v0) (TRef.of (T := ⟨S50000x256, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S50000x256, .f32⟩) main_call3_v2) (broadcastInDim S50000x256 ![] bcast_S_S50000x256),
    TRef.binary (TRef.of (T := ⟨S50000x256, .f32⟩) main_call3_v2) (TRef.of (T := ⟨S50000x256, .f32⟩) main_call3_v1) (TRef.of (T := ⟨S50000x256, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S50000x256, .f32⟩) main_call3_v4) (broadcastInDim S50000x256 ![] bcast_S_S50000x256),
    TRef.binary (TRef.of (T := ⟨S50000x256, .f32⟩) main_call3_v4) (TRef.of (T := ⟨S50000x256, .f32⟩) main_call3_v3) (TRef.of (T := ⟨S50000x256, .f32⟩) main_call3_v5) Host.divf,
    TRef.binary (TRef.of (T := ⟨S50000x256, .f32⟩) main_v70) (TRef.of (T := ⟨S50000x256, .f32⟩) main_call3_v5) (TRef.of (T := ⟨S50000x256, .f32⟩) main_v71) mulf,
    binary main_v71 main_v62 main_v72 (addf : (⟨S50000x256, .f32⟩ : BufTy).Contents (Elt F) → (⟨S50000x256, .f32⟩ : BufTy).Contents (Elt F) → (⟨S50000x256, .f32⟩ : BufTy).Contents (Elt F)) ]

/-- The buffers the stretch writes. -/
def W7 : List (Ref sig .tc) :=
  [main_v63, main_v64, main_v65, main_v66, main_v67, main_v68, main_v69, main_v70, main_call3_v0,
   main_call3_v1, main_call3_cst, main_call3_v2, main_call3_v3, main_call3_cst_0, main_call3_v4, main_call3_v5, main_v71, main_v72]

theorem c7_writes : (c7 (F := F)).Forall fun op => op.writes ⊆ (W7.map (Proc.devRef (τ := τ) .tc)).toFinset := by
  simp only [c7, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c7_keep (V : Valuation τ sig (Elt F)) {r : Ref sig .tc} (hr : r ∉ W7) :
    after c7 V (Proc.devRef .tc r) = V (Proc.devRef .tc r) :=
  after_of_writes_sub c7 V c7_writes hr

/-- %72: the node features after the first residual layer. -/
theorem c7_v72 (V : Valuation τ sig (Elt F))
    (h23 : V (Proc.devRef .tc main_arg23) = x23) (h24 : V (Proc.devRef .tc main_arg24) = x24)
    (hv62 : V (Proc.devRef .tc main_v62) = val_main_v62 (F := F) x0 x1 x2 x3 x5 x6 x7 x8 x9 x10 x11 x12 x13 x14 x15 x16 x17 x18 x19 x20 x21 x22) :
    after c7 V (Proc.devRef .tc main_v72) = val_main_v72 (F := F) x0 x1 x2 x3 x5 x6 x7 x8 x9 x10 x11 x12 x13 x14 x15 x16 x17 x18 x19 x20 x21 x22 x23 x24 := by
  simp only [c7]
  after_results_simp
  rw [h23, h24, hv62]
  rfl

end Cert.ReferenceIdeal.RunP

end
-- ==== Proof.RefRun8.lean ====
/-
  The reference's run, eighth stretch: operations %73 … %82 (the second residual layer: slab 1 of the
  stacked weights and biases, `silu (h · W + b) + h` with its logistic written out). Stated from ANY contents `V`: given
  the two stacked arguments and the earlier stage %72 at their buffers, the stretch leaves the reading module's %82 at
  its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %73 … %82, in order. -/
def c8 : List (HloOp τ sig (Elt F)) :=
  [ unary main_arg23 main_v73 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v73 main_v74 rfl shapeCasts_S1x256x256_S256x256,
    binary main_v72 main_v74 main_v75 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg24 main_v76 ((extractStridedSlice S1x256 ![1, 0] · slices_S3x256_S1x256_1_0) : (⟨S3x256, .f32⟩ : BufTy).Contents (Elt F) → (⟨S1x256, .f32⟩ : BufTy).Contents (Elt F)),
    reshape main_v76 main_v77 rfl shapeCasts_S1x256_S256,
    unary main_v77 main_v78 (broadcastInDim S1x256 ![1] bcast_S256_S1x256_1 : (⟨S256, .f32⟩ : BufTy).Contents (Elt F) → (⟨S1x256, .f32⟩ : BufTy).Contents (Elt F)),
    unary main_v78 main_v79 (broadcastInDim S50000x256 ![0, 1] bcast_S1x256_S50000x256_0_1 : (⟨S1x256, .f32⟩ : BufTy).Contents (Elt F) → (⟨S50000x256, .f32⟩ : BufTy).Contents (Elt F)),
    binary main_v75 main_v79 main_v80 (addf : (⟨S50000x256, .f32⟩ : BufTy).Contents (Elt F) → (⟨S50000x256, .f32⟩ : BufTy).Contents (Elt F) → (⟨S50000x256, .f32⟩ : BufTy).Contents (Elt F)),
    TRef.unary (TRef.of (T := ⟨S50000x256, .f32⟩) main_v80) (TRef.of (T := ⟨S50000x256, .f32⟩) main_call4_v0) Host.negf,
    TRef.unary (TRef.of (T := ⟨S50000x256, .f32⟩) main_call4_v0) (TRef.of (T := ⟨S50000x256, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S50000x256, .f32⟩) main_call4_v2) (broadcastInDim S50000x256 ![] bcast_S_S50000x256),
    TRef.binary (TRef.of (T := ⟨S50000x256, .f32⟩) main_call4_v2) (TRef.of (T := ⟨S50000x256, .f32⟩) main_call4_v1) (TRef.of (T := ⟨S50000x256, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S50000x256, .f32⟩) main_call4_v4) (broadcastInDim S50000x256 ![] bcast_S_S50000x256),
    TRef.binary (TRef.of (T := ⟨S50000x256, .f32⟩) main_call4_v4) (TRef.of (T := ⟨S50000x256, .f32⟩) main_call4_v3) (TRef.of (T := ⟨S50000x256, .f32⟩) main_call4_v5) Host.divf,
    TRef.binary (TRef.of (T := ⟨S50000x256, .f32⟩) main_v80) (TRef.of (T := ⟨S50000x256, .f32⟩) main_call4_v5) (TRef.of (T := ⟨S50000x256, .f32⟩) main_v81) mulf,
    binary main_v81 main_v72 main_v82 (addf : (⟨S50000x256, .f32⟩ : BufTy).Contents (Elt F) → (⟨S50000x256, .f32⟩ : BufTy).Contents (Elt F) → (⟨S50000x256, .f32⟩ : BufTy).Contents (Elt F)) ]

/-- The buffers the stretch writes. -/
def W8 : List (Ref sig .tc) :=
  [main_v73, main_v74, main_v75, main_v76, main_v77, main_v78, main_v79, main_v80, main_call4_v0,
   main_call4_v1, main_call4_cst, main_call4_v2, main_call4_v3, main_call4_cst_0, main_call4_v4, main_call4_v5, main_v81, main_v82]

theorem c8_writes : (c8 (F := F)).Forall fun op => op.writes ⊆ (W8.map (Proc.devRef (τ := τ) .tc)).toFinset := by
  simp only [c8, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c8_keep (V : Valuation τ sig (Elt F)) {r : Ref sig .tc} (hr : r ∉ W8) :
    after c8 V (Proc.devRef .tc r) = V (Proc.devRef .tc r) :=
  after_of_writes_sub c8 V c8_writes hr

/-- %82: the node features after the second residual layer. -/
theorem c8_v82 (V : Valuation τ sig (Elt F))
    (h23 : V (Proc.devRef .tc main_arg23) = x23) (h24 : V (Proc.devRef .tc main_arg24) = x24)
    (hv72 : V (Proc.devRef .tc main_v72) = val_main_v72 (F := F) x0 x1 x2 x3 x5 x6 x7 x8 x9 x10 x11 x12 x13 x14 x15 x16 x17 x18 x19 x20 x21 x22 x23 x24) :
    after c8 V (Proc.devRef .tc main_v82) = val_main_v82 (F := F) x0 x1 x2 x3 x5 x6 x7 x8 x9 x10 x11 x12 x13 x14 x15 x16 x17 x18 x19 x20 x21 x22 x23 x24 := by
  simp only [c8]
  after_results_simp
  rw [h23, h24, hv72]
  rfl

end Cert.ReferenceIdeal.RunP

end
-- ==== Proof.RefRun9.lean ====
/-
  The reference's run, ninth stretch: operations %83 … %92 (the third residual layer: slab 2 of the
  stacked weights and biases, `silu (h · W + b) + h` with its logistic written out). Stated from ANY contents `V`: given
  the two stacked arguments and the earlier stage %82 at their buffers, the stretch leaves the reading module's %92 at
  its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %83 … %92, in order. -/
def c9 : List (HloOp τ sig (Elt F)) :=
  [ unary main_arg23 main_v83 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v83 main_v84 rfl shapeCasts_S1x256x256_S256x256,
    binary main_v82 main_v84 main_v85 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg24 main_v86 ((extractStridedSlice S1x256 ![2, 0] · slices_S3x256_S1x256_2_0) : (⟨S3x256, .f32⟩ : BufTy).Contents (Elt F) → (⟨S1x256, .f32⟩ : BufTy).Contents (Elt F)),
    reshape main_v86 main_v87 rfl shapeCasts_S1x256_S256,
    unary main_v87 main_v88 (broadcastInDim S1x256 ![1] bcast_S256_S1x256_1 : (⟨S256, .f32⟩ : BufTy).Contents (Elt F) → (⟨S1x256, .f32⟩ : BufTy).Contents (Elt F)),
    unary main_v88 main_v89 (broadcastInDim S50000x256 ![0, 1] bcast_S1x256_S50000x256_0_1 : (⟨S1x256, .f32⟩ : BufTy).Contents (Elt F) → (⟨S50000x256, .f32⟩ : BufTy).Contents (Elt F)),
    binary main_v85 main_v89 main_v90 (addf : (⟨S50000x256, .f32⟩ : BufTy).Contents (Elt F) → (⟨S50000x256, .f32⟩ : BufTy).Contents (Elt F) → (⟨S50000x256, .f32⟩ : BufTy).Contents (Elt F)),
    TRef.unary (TRef.of (T := ⟨S50000x256, .f32⟩) main_v90) (TRef.of (T := ⟨S50000x256, .f32⟩) main_call5_v0) Host.negf,
    TRef.unary (TRef.of (T := ⟨S50000x256, .f32⟩) main_call5_v0) (TRef.of (T := ⟨S50000x256, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S50000x256, .f32⟩) main_call5_v2) (broadcastInDim S50000x256 ![] bcast_S_S50000x256),
    TRef.binary (TRef.of (T := ⟨S50000x256, .f32⟩) main_call5_v2) (TRef.of (T := ⟨S50000x256, .f32⟩) main_call5_v1) (TRef.of (T := ⟨S50000x256, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S50000x256, .f32⟩) main_call5_v4) (broadcastInDim S50000x256 ![] bcast_S_S50000x256),
    TRef.binary (TRef.of (T := ⟨S50000x256, .f32⟩) main_call5_v4) (TRef.of (T := ⟨S50000x256, .f32⟩) main_call5_v3) (TRef.of (T := ⟨S50000x256, .f32⟩) main_call5_v5) Host.divf,
    TRef.binary (TRef.of (T := ⟨S50000x256, .f32⟩) main_v90) (TRef.of (T := ⟨S50000x256, .f32⟩) main_call5_v5) (TRef.of (T := ⟨S50000x256, .f32⟩) main_v91) mulf,
    binary main_v91 main_v82 main_v92 (addf : (⟨S50000x256, .f32⟩ : BufTy).Contents (Elt F) → (⟨S50000x256, .f32⟩ : BufTy).Contents (Elt F) → (⟨S50000x256, .f32⟩ : BufTy).Contents (Elt F)) ]

/-- The buffers the stretch writes. -/
def W9 : List (Ref sig .tc) :=
  [main_v83, main_v84, main_v85, main_v86, main_v87, main_v88, main_v89, main_v90, main_call5_v0,
   main_call5_v1, main_call5_cst, main_call5_v2, main_call5_v3, main_call5_cst_0, main_call5_v4, main_call5_v5, main_v91, main_v92]

theorem c9_writes : (c9 (F := F)).Forall fun op => op.writes ⊆ (W9.map (Proc.devRef (τ := τ) .tc)).toFinset := by
  simp only [c9, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c9_keep (V : Valuation τ sig (Elt F)) {r : Ref sig .tc} (hr : r ∉ W9) :
    after c9 V (Proc.devRef .tc r) = V (Proc.devRef .tc r) :=
  after_of_writes_sub c9 V c9_writes hr

/-- %92: the node features after the third residual layer. -/
theorem c9_v92 (V : Valuation τ sig (Elt F))
    (h23 : V (Proc.devRef .tc main_arg23) = x23) (h24 : V (Proc.devRef .tc main_arg24) = x24)
    (hv82 : V (Proc.devRef .tc main_v82) = val_main_v82 (F := F) x0 x1 x2 x3 x5 x6 x7 x8 x9 x10 x11 x12 x13 x14 x15 x16 x17 x18 x19 x20 x21 x22 x23 x24) :
    after c9 V (Proc.devRef .tc main_v92) = val_main_v92 (F := F) x0 x1 x2 x3 x5 x6 x7 x8 x9 x10 x11 x12 x13 x14 x15 x16 x17 x18 x19 x20 x21 x22 x23 x24 := by
  simp only [c9]
  after_results_simp
  rw [h23, h24, hv82]
  rfl

end Cert.ReferenceIdeal.RunP

end
-- ==== Proof.RefRun10.lean ====
/-
  The reference's run, tenth stretch: operations %93 … %103 (the node count of every graph, floored at one, and the
  per-graph mean of the node features: the scatter-add of the rows of %92 onto their graph ids, divided by the count).
  Stated from ANY contents `V`: given the graph ids and the earlier stage %92 at their buffers, the stretch leaves the
  reading module's %98 and %103 at their buffers.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %93 … %103, in order. -/
def c10 : List (HloOp τ sig (Elt F)) :=
  [ nullary main_cst_4 (constant S_ .f32 0x3F800000#32),
    unary main_cst_4 main_v93 (broadcastInDim S50000x1 ![] bcast_S_S50000x1 : (⟨S_, .f32⟩ : BufTy).Contents (Elt F) → (⟨S50000x1, .f32⟩ : BufTy).Contents (Elt F)),
    nullary main_cst_5 (constant S_ .f32 0x00000000#32),
    unary main_cst_5 main_v94 (broadcastInDim S512x1 ![] bcast_S_S512x1 : (⟨S_, .f32⟩ : BufTy).Contents (Elt F) → (⟨S512x1, .f32⟩ : BufTy).Contents (Elt F)),
    unary main_arg4 main_v95 (broadcastInDim S50000x1 ![0] bcast_S50000_S50000x1_0 : (⟨S50000, .i32⟩ : BufTy).Contents (Elt F) → (⟨S50000x1, .i32⟩ : BufTy).Contents (Elt F)),
    ternary main_v94 main_v95 main_v93 main_v96 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    nullary main_cst_6 (constant S_ .f32 0x3F800000#32),
    unary main_cst_6 main_v97 (broadcastInDim S512x1 ![] bcast_S_S512x1 : (⟨S_, .f32⟩ : BufTy).Contents (Elt F) → (⟨S512x1, .f32⟩ : BufTy).Contents (Elt F)),
    binary main_v96 main_v97 main_v98 (maximumf : (⟨S512x1, .f32⟩ : BufTy).Contents (Elt F) → (⟨S512x1, .f32⟩ : BufTy).Contents (Elt F) → (⟨S512x1, .f32⟩ : BufTy).Contents (Elt F)),
    nullary main_cst_7 (constant S_ .f32 0x00000000#32),
    unary main_cst_7 main_v99 (broadcastInDim S512x256 ![] bcast_S_S512x256 : (⟨S_, .f32⟩ : BufTy).Contents (Elt F) → (⟨S512x256, .f32⟩ : BufTy).Contents (Elt F)),
    unary main_arg4 main_v100 (broadcastInDim S50000x1 ![0] bcast_S50000_S50000x1_0 : (⟨S50000, .i32⟩ : BufTy).Contents (Elt F) → (⟨S50000x1, .i32⟩ : BufTy).Contents (Elt F)),
    ternary main_v99 main_v100 main_v92 main_v101 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    unary main_v98 main_v102 (broadcastInDim S512x256 ![0, 1] bcast_S512x1_S512x256_0_1 : (⟨S512x1, .f32⟩ : BufTy).Contents (Elt F) → (⟨S512x256, .f32⟩ : BufTy).Contents (Elt F)),
    binary main_v101 main_v102 main_v103 (Host.divf : (⟨S512x256, .f32⟩ : BufTy).Contents (Elt F) → (⟨S512x256, .f32⟩ : BufTy).Contents (Elt F) → (⟨S512x256, .f32⟩ : BufTy).Contents (Elt F)) ]

/-- The buffers the stretch writes. -/
def W10 : List (Ref sig .tc) :=
  [main_cst_4, main_v93, main_cst_5, main_v94, main_v95, main_v96, main_cst_6, main_v97, main_v98, main_cst_7, main_v99,
   main_v100, main_v101, main_v102, main_v103]

theorem c10_writes : (c10 (F := F)).Forall fun op => op.writes ⊆ (W10.map (Proc.devRef (τ := τ) .tc)).toFinset := by
  simp only [c10, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c10_keep (V : Valuation τ sig (Elt F)) {r : Ref sig .tc} (hr : r ∉ W10) :
    after c10 V (Proc.devRef .tc r) = V (Proc.devRef .tc r) :=
  after_of_writes_sub c10 V c10_writes hr

/-- %98: the floored node counts. -/
theorem c10_v98 (V : Valuation τ sig (Elt F)) (h4 : V (Proc.devRef .tc main_arg4) = x4) :
    after c10 V (Proc.devRef .tc main_v98) = val_main_v98 (F := F) x4 := by
  simp only [c10]
  after_results_simp
  rw [h4]
  rfl

/-- %103: the per-graph means. -/
theorem c10_v103 (V : Valuation τ sig (Elt F)) (h4 : V (Proc.devRef .tc main_arg4) = x4)
    (hv92 : V (Proc.devRef .tc main_v92) = val_main_v92 (F := F) x0 x1 x2 x3 x5 x6 x7 x8 x9 x10 x11 x12 x13 x14 x15 x16 x17 x18 x19 x20 x21 x22 x23 x24) :
    after c10 V (Proc.devRef .tc main_v103) = val_main_v103 (F := F) x0 x1 x2 x3 x4 x5 x6 x7 x8 x9 x10 x11 x12 x13 x14 x15 x16 x17 x18 x19 x20 x21 x22 x23 x24 := by
  simp only [c10]
  after_results_simp
  rw [h4, hv92]
  rfl

end Cert.ReferenceIdeal.RunP

end
-- ==== Proof.RefRun11.lean ====
/-
  The reference's run, eleventh stretch: operations %104 … %114 (the graph ids wrapped into range, each node's mean
  gathered from the table of means, scaled by the mean-scale vector and subtracted from the node's features). Stated
  from ANY contents `V`: given the graph ids, the mean-scale vector and the earlier stages %92, %103 at their buffers,
  the stretch leaves the reading module's %114 at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %104 … %114, in order. -/
def c11 : List (HloOp τ sig (Elt F)) :=
  [ nullary main_c_8 (constantI S_ 32 0#32),
    unary main_c_8 main_v104 (broadcastInDim S50000 ![] bcast_S_S50000 : (⟨S_, .i32⟩ : BufTy).Contents (Elt F) → (⟨S50000, .i32⟩ : BufTy).Contents (Elt F)),
    binary main_arg4 main_v104 main_v105 (cmpi .slt : (⟨S50000, .i32⟩ : BufTy).Contents (Elt F) → (⟨S50000, .i32⟩ : BufTy).Contents (Elt F) → (⟨S50000, .i1⟩ : BufTy).Contents (Elt F)),
    nullary main_c_9 (constantI S_ 32 512#32),
    unary main_c_9 main_v106 (broadcastInDim S50000 ![] bcast_S_S50000 : (⟨S_, .i32⟩ : BufTy).Contents (Elt F) → (⟨S50000, .i32⟩ : BufTy).Contents (Elt F)),
    binary main_arg4 main_v106 main_v107 (addi : (⟨S50000, .i32⟩ : BufTy).Contents (Elt F) → (⟨S50000, .i32⟩ : BufTy).Contents (Elt F) → (⟨S50000, .i32⟩ : BufTy).Contents (Elt F)),
    ternary main_v105 main_v107 main_arg4 main_v108 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v108 main_v109 (broadcastInDim S50000x1 ![0] bcast_S50000_S50000x1_0 : (⟨S50000, .i32⟩ : BufTy).Contents (Elt F) → (⟨S50000x1, .i32⟩ : BufTy).Contents (Elt F)),
    binary main_v103 main_v109 main_v110 ((fun x i => Host.gather gather_S512x256_S50000x1_S50000x256_1_0_n_n_0_1_1256 x i) : (⟨S512x256, .f32⟩ : BufTy).Contents (Elt F) → (⟨S50000x1, .i32⟩ : BufTy).Contents (Elt F) → (⟨S50000x256, .f32⟩ : BufTy).Contents (Elt F)),
    unary main_arg27 main_v111 (broadcastInDim S1x256 ![1] bcast_S256_S1x256_1 : (⟨S256, .f32⟩ : BufTy).Contents (Elt F) → (⟨S1x256, .f32⟩ : BufTy).Contents (Elt F)),
    unary main_v111 main_v112 (broadcastInDim S50000x256 ![0, 1] bcast_S1x256_S50000x256_0_1 : (⟨S1x256, .f32⟩ : BufTy).Contents (Elt F) → (⟨S50000x256, .f32⟩ : BufTy).Contents (Elt F)),
    binary main_v110 main_v112 main_v113 (mulf : (⟨S50000x256, .f32⟩ : BufTy).Contents (Elt F) → (⟨S50000x256, .f32⟩ : BufTy).Contents (Elt F) → (⟨S50000x256, .f32⟩ : BufTy).Contents (Elt F)),
    binary main_v92 main_v113 main_v114 (subf : (⟨S50000x256, .f32⟩ : BufTy).Contents (Elt F) → (⟨S50000x256, .f32⟩ : BufTy).Contents (Elt F) → (⟨S50000x256, .f32⟩ : BufTy).Contents (Elt F)) ]

/-- The buffers the stretch writes. -/
def W11 : List (Ref sig .tc) :=
  [main_c_8, main_v104, main_v105, main_c_9, main_v106, main_v107, main_v108, main_v109, main_v110, main_v111, main_v112,
   main_v113, main_v114]

theorem c11_writes : (c11 (F := F)).Forall fun op => op.writes ⊆ (W11.map (Proc.devRef (τ := τ) .tc)).toFinset := by
  simp only [c11, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c11_keep (V : Valuation τ sig (Elt F)) {r : Ref sig .tc} (hr : r ∉ W11) :
    after c11 V (Proc.devRef .tc r) = V (Proc.devRef .tc r) :=
  after_of_writes_sub c11 V c11_writes hr

/-- %114: the centred node features. -/
theorem c11_v114 (V : Valuation τ sig (Elt F)) (h4 : V (Proc.devRef .tc main_arg4) = x4)
    (h27 : V (Proc.devRef .tc main_arg27) = x27)
    (hv92 : V (Proc.devRef .tc main_v92) = val_main_v92 (F := F) x0 x1 x2 x3 x5 x6 x7 x8 x9 x10 x11 x12 x13 x14 x15 x16 x17 x18 x19 x20 x21 x22 x23 x24)
    (hv103 : V (Proc.devRef .tc main_v103) = val_main_v103 (F := F) x0 x1 x2 x3 x4 x5 x6 x7 x8 x9 x10 x11 x12 x13 x14 x15 x16 x17 x18 x19 x20 x21 x22 x23 x24) :
    after c11 V (Proc.devRef .tc main_v114) = val_main_v114 (F := F) x0 x1 x2 x3 x4 x5 x6 x7 x8 x9 x10 x11 x12 x13 x14 x15 x16 x17 x18 x19 x20 x21 x22 x23 x24 x27 := by
  simp only [c11]
  after_results_simp
  rw [h4, h27, hv92, hv103]
  rfl

end Cert.ReferenceIdeal.RunP

end
-- ==== Proof.RefRun12.lean ====
/-
  The reference's run, twelfth stretch: operations %115 … %120 (the per-graph variance: the squares of the centred
  features scatter-added onto their graph ids and divided by the floored count). Stated from ANY contents `V`: given the
  graph ids and the earlier stages %98, %114 at their buffers, the stretch leaves the reading module's %120 at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %115 … %120, in order. -/
def c12 : List (HloOp τ sig (Elt F)) :=
  [ binary main_v114 main_v114 main_v115 (mulf : (⟨S50000x256, .f32⟩ : BufTy).Contents (Elt F) → (⟨S50000x256, .f32⟩ : BufTy).Contents (Elt F) → (⟨S50000x256, .f32⟩ : BufTy).Contents (Elt F)),
    nullary main_cst_10 (constant S_ .f32 0x00000000#32),
    unary main_cst_10 main_v116 (broadcastInDim S512x256 ![] bcast_S_S512x256 : (⟨S_, .f32⟩ : BufTy).Contents (Elt F) → (⟨S512x256, .f32⟩ : BufTy).Contents (Elt F)),
    unary main_arg4 main_v117 (broadcastInDim S50000x1 ![0] bcast_S50000_S50000x1_0 : (⟨S50000, .i32⟩ : BufTy).Contents (Elt F) → (⟨S50000x1, .i32⟩ : BufTy).Contents (Elt F)),
    ternary main_v116 main_v117 main_v115 main_v118 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    unary main_v98 main_v119 (broadcastInDim S512x256 ![0, 1] bcast_S512x1_S512x256_0_1 : (⟨S512x1, .f32⟩ : BufTy).Contents (Elt F) → (⟨S512x256, .f32⟩ : BufTy).Contents (Elt F)),
    binary main_v118 main_v119 main_v120 (Host.divf : (⟨S512x256, .f32⟩ : BufTy).Contents (Elt F) → (⟨S512x256, .f32⟩ : BufTy).Contents (Elt F) → (⟨S512x256, .f32⟩ : BufTy).Contents (Elt F)) ]

/-- The buffers the stretch writes. -/
def W12 : List (Ref sig .tc) := [main_v115, main_cst_10, main_v116, main_v117, main_v118, main_v119, main_v120]

theorem c12_writes : (c12 (F := F)).Forall fun op => op.writes ⊆ (W12.map (Proc.devRef (τ := τ) .tc)).toFinset := by
  simp only [c12, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c12_keep (V : Valuation τ sig (Elt F)) {r : Ref sig .tc} (hr : r ∉ W12) :
    after c12 V (Proc.devRef .tc r) = V (Proc.devRef .tc r) :=
  after_of_writes_sub c12 V c12_writes hr

/-- %120: the per-graph variances. -/
theorem c12_v120 (V : Valuation τ sig (Elt F)) (h4 : V (Proc.devRef .tc main_arg4) = x4)
    (hv98 : V (Proc.devRef .tc main_v98) = val_main_v98 (F := F) x4)
    (hv114 : V (Proc.devRef .tc main_v114) = val_main_v114 (F := F) x0 x1 x2 x3 x4 x5 x6 x7 x8 x9 x10 x11 x12 x13 x14 x15 x16 x17 x18 x19 x20 x21 x22 x23 x24 x27) :
    after c12 V (Proc.devRef .tc main_v120) = val_main_v120 (F := F) x0 x1 x2 x3 x4 x5 x6 x7 x8 x9 x10 x11 x12 x13 x14 x15 x16 x17 x18 x19 x20 x21 x22 x23 x24 x27 := by
  simp only [c12]
  after_results_simp
  rw [h4, hv98, hv114]
  rfl

end Cert.ReferenceIdeal.RunP

end
-- ==== Proof.RefRun13.lean ====
/-
  The reference's run, last stretch: operations %121 … %141 (the weight times the centred features, over the root of
  each node's gathered variance plus the floor, plus the bias; then the final projection `· Wfin + bfin`). Stated from ANY
  contents `V`: given the arguments and the earlier stages %114, %120 at their buffers, the stretch leaves the reading
  module's %141, the program's result, at its buffer.
-/
import proofs.«408299_j82652350644685_2_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S50000x256, .f32⟩ : BufTy).Contents (Elt F)} {x1 : (⟨S250000x294, .f32⟩ : BufTy).Contents (Elt F)}
  {x2 : (⟨S250000x42, .f32⟩ : BufTy).Contents (Elt F)} {x3 : (⟨S2x250000, .i32⟩ : BufTy).Contents (Elt F)}
  {x4 : (⟨S50000, .i32⟩ : BufTy).Contents (Elt F)} {x5 : (⟨S256x256, .f32⟩ : BufTy).Contents (Elt F)}
  {x6 : (⟨S256, .f32⟩ : BufTy).Contents (Elt F)} {x7 : (⟨S294x256, .f32⟩ : BufTy).Contents (Elt F)}
  {x8 : (⟨S256x256, .f32⟩ : BufTy).Contents (Elt F)} {x9 : (⟨S42x256, .f32⟩ : BufTy).Contents (Elt F)}
  {x10 x11 : (⟨S256x256, .f32⟩ : BufTy).Contents (Elt F)} {x12 : (⟨S256, .f32⟩ : BufTy).Contents (Elt F)}
  {x13 x14 : (⟨S256x256, .f32⟩ : BufTy).Contents (Elt F)} {x15 : (⟨S256, .f32⟩ : BufTy).Contents (Elt F)}
  {x16 x17 : (⟨S256x256, .f32⟩ : BufTy).Contents (Elt F)} {x18 : (⟨S256, .f32⟩ : BufTy).Contents (Elt F)}
  {x19 : (⟨S256x256, .f32⟩ : BufTy).Contents (Elt F)} {x20 : (⟨S256, .f32⟩ : BufTy).Contents (Elt F)}
  {x21 : (⟨S512x256, .f32⟩ : BufTy).Contents (Elt F)} {x22 : (⟨S256, .f32⟩ : BufTy).Contents (Elt F)}
  {x23 : (⟨S3x256x256, .f32⟩ : BufTy).Contents (Elt F)} {x24 : (⟨S3x256, .f32⟩ : BufTy).Contents (Elt F)}
  {x25 x26 x27 : (⟨S256, .f32⟩ : BufTy).Contents (Elt F)} {x28 : (⟨S256x256, .f32⟩ : BufTy).Contents (Elt F)}
  {x29 : (⟨S256, .f32⟩ : BufTy).Contents (Elt F)}

/-- Operations %121 … %141, in order. -/
def c13 : List (HloOp τ sig (Elt F)) :=
  [ unary main_arg25 main_v121 (broadcastInDim S1x256 ![1] bcast_S256_S1x256_1 : (⟨S256, .f32⟩ : BufTy).Contents (Elt F) → (⟨S1x256, .f32⟩ : BufTy).Contents (Elt F)),
    unary main_v121 main_v122 (broadcastInDim S50000x256 ![0, 1] bcast_S1x256_S50000x256_0_1 : (⟨S1x256, .f32⟩ : BufTy).Contents (Elt F) → (⟨S50000x256, .f32⟩ : BufTy).Contents (Elt F)),
    binary main_v122 main_v114 main_v123 (mulf : (⟨S50000x256, .f32⟩ : BufTy).Contents (Elt F) → (⟨S50000x256, .f32⟩ : BufTy).Contents (Elt F) → (⟨S50000x256, .f32⟩ : BufTy).Contents (Elt F)),
    nullary main_c_11 (constantI S_ 32 0#32),
    unary main_c_11 main_v124 (broadcastInDim S50000 ![] bcast_S_S50000 : (⟨S_, .i32⟩ : BufTy).Contents (Elt F) → (⟨S50000, .i32⟩ : BufTy).Contents (Elt F)),
    binary main_arg4 main_v124 main_v125 (cmpi .slt : (⟨S50000, .i32⟩ : BufTy).Contents (Elt F) → (⟨S50000, .i32⟩ : BufTy).Contents (Elt F) → (⟨S50000, .i1⟩ : BufTy).Contents (Elt F)),
    nullary main_c_12 (constantI S_ 32 512#32),
    unary main_c_12 main_v126 (broadcastInDim S50000 ![] bcast_S_S50000 : (⟨S_, .i32⟩ : BufTy).Contents (Elt F) → (⟨S50000, .i32⟩ : BufTy).Contents (Elt F)),
    binary main_arg4 main_v126 main_v127 (addi : (⟨S50000, .i32⟩ : BufTy).Contents (Elt F) → (⟨S50000, .i32⟩ : BufTy).Contents (Elt F) → (⟨S50000, .i32⟩ : BufTy).Contents (Elt F)),
    ternary main_v125 main_v127 main_arg4 main_v128 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v128 main_v129 (broadcastInDim S50000x1 ![0] bcast_S50000_S50000x1_0 : (⟨S50000, .i32⟩ : BufTy).Contents (Elt F) → (⟨S50000x1, .i32⟩ : BufTy).Contents (Elt F)),
    binary main_v120 main_v129 main_v130 ((fun x i => Host.gather gather_S512x256_S50000x1_S50000x256_1_0_n_n_0_1_1256 x i) : (⟨S512x256, .f32⟩ : BufTy).Contents (Elt F) → (⟨S50000x1, .i32⟩ : BufTy).Contents (Elt F) → (⟨S50000x256, .f32⟩ : BufTy).Contents (Elt F)),
    nullary main_cst_13 (constant S_ .f32 0x3727C5AC#32),
    unary main_cst_13 main_v131 (broadcastInDim S50000x256 ![] bcast_S_S50000x256 : (⟨S_, .f32⟩ : BufTy).Contents (Elt F) → (⟨S50000x256, .f32⟩ : BufTy).Contents (Elt F)),
    binary main_v130 main_v131 main_v132 (addf : (⟨S50000x256, .f32⟩ : BufTy).Contents (Elt F) → (⟨S50000x256, .f32⟩ : BufTy).Contents (Elt F) → (⟨S50000x256, .f32⟩ : BufTy).Contents (Elt F)),
    unary main_v132 main_v133 (Host.sqrt : (⟨S50000x256, .f32⟩ : BufTy).Contents (Elt F) → (⟨S50000x256, .f32⟩ : BufTy).Contents (Elt F)),
    binary main_v123 main_v133 main_v134 (Host.divf : (⟨S50000x256, .f32⟩ : BufTy).Contents (Elt F) → (⟨S50000x256, .f32⟩ : BufTy).Contents (Elt F) → (⟨S50000x256, .f32⟩ : BufTy).Contents (Elt F)),
    unary main_arg26 main_v135 (broadcastInDim S1x256 ![1] bcast_S256_S1x256_1 : (⟨S256, .f32⟩ : BufTy).Contents (Elt F) → (⟨S1x256, .f32⟩ : BufTy).Contents (Elt F)),
    unary main_v135 main_v136 (broadcastInDim S50000x256 ![0, 1] bcast_S1x256_S50000x256_0_1 : (⟨S1x256, .f32⟩ : BufTy).Contents (Elt F) → (⟨S50000x256, .f32⟩ : BufTy).Contents (Elt F)),
    binary main_v134 main_v136 main_v137 (addf : (⟨S50000x256, .f32⟩ : BufTy).Contents (Elt F) → (⟨S50000x256, .f32⟩ : BufTy).Contents (Elt F) → (⟨S50000x256, .f32⟩ : BufTy).Contents (Elt F)),
    binary main_v137 main_arg28 main_v138 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg29 main_v139 (broadcastInDim S1x256 ![1] bcast_S256_S1x256_1 : (⟨S256, .f32⟩ : BufTy).Contents (Elt F) → (⟨S1x256, .f32⟩ : BufTy).Contents (Elt F)),
    unary main_v139 main_v140 (broadcastInDim S50000x256 ![0, 1] bcast_S1x256_S50000x256_0_1 : (⟨S1x256, .f32⟩ : BufTy).Contents (Elt F) → (⟨S50000x256, .f32⟩ : BufTy).Contents (Elt F)),
    binary main_v138 main_v140 main_v141 (addf : (⟨S50000x256, .f32⟩ : BufTy).Contents (Elt F) → (⟨S50000x256, .f32⟩ : BufTy).Contents (Elt F) → (⟨S50000x256, .f32⟩ : BufTy).Contents (Elt F)) ]

/-- The buffers the stretch writes. -/
def W13 : List (Ref sig .tc) :=
  [main_v121, main_v122, main_v123, main_c_11, main_v124, main_v125, main_c_12, main_v126, main_v127, main_v128, main_v129,
   main_v130, main_cst_13, main_v131, main_v132, main_v133, main_v134, main_v135, main_v136, main_v137, main_v138, main_v139,
   main_v140, main_v141]

theorem c13_writes : (c13 (F := F)).Forall fun op => op.writes ⊆ (W13.map (Proc.devRef (τ := τ) .tc)).toFinset := by
  simp only [c13, List.Forall, nullary_writes, unary_writes, binary_writes, ternary_writes, reshape_writes,
    Finset.singleton_subset_iff, List.mem_toFinset]
  repeat' apply And.intro
  all_goals exact List.mem_map_of_mem (by decide)

/-- A buffer outside the write list keeps its contents across the stretch. -/
theorem c13_keep (V : Valuation τ sig (Elt F)) {r : Ref sig .tc} (hr : r ∉ W13) :
    after c13 V (Proc.devRef .tc r) = V (Proc.devRef .tc r) :=
  after_of_writes_sub c13 V c13_writes hr

/-- %141: the result. -/
theorem c13_v141 (V : Valuation τ sig (Elt F)) (h4 : V (Proc.devRef .tc main_arg4) = x4)
    (h25 : V (Proc.devRef .tc main_arg25) = x25) (h26 : V (Proc.devRef .tc main_arg26) = x26)
    (h28 : V (Proc.devRef .tc main_arg28) = x28) (h29 : V (Proc.devRef .tc main_arg29) = x29)
    (hv114 : V (Proc.devRef .tc main_v114) = val_main_v114 (F := F) x0 x1 x2 x3 x4 x5 x6 x7 x8 x9 x10 x11 x12 x13 x14 x15 x16 x17 x18 x19 x20 x21 x22 x23 x24 x27)
    (hv120 : V (Proc.devRef .tc main_v120) = val_main_v120 (F := F) x0 x1 x2 x3 x4 x5 x6 x7 x8 x9 x10 x11 x12 x13 x14 x15 x16 x17 x18 x19 x20 x21 x22 x23 x24 x27) :
    after c13 V (Proc.devRef .tc main_v141) = val_main_v141 (F := F) x0 x1 x2 x3 x4 x5 x6 x7 x8 x9 x10 x11 x12 x13 x14 x15 x16 x17 x18 x19 x20 x21 x22 x23 x24 x25 x26 x27 x28 x29 := by
  simp only [c13]
  after_results_simp
  rw [h4, h25, h26, h28, h29, hv114, hv120]
  rfl

end Cert.ReferenceIdeal.RunP

end
-- ==== Proof.RefRun.lean ====
/-
  The reference's run, joined. The operation list is the thirteen stretches one after the other, so its fold from the
  launch contents is the thirteen folds composed: `U₀` the launch contents, `Uⱼ = after cⱼ Uⱼ₋₁`. An argument's buffer is
  written by no stretch, so every `Uⱼ` holds the argument there. Each stretch's theorem, fed the facts of the levels
  before it (carried across the stretches between by "a buffer outside the write list keeps its contents"), gives the
  reading module's stage function at the level after it; the last gives the result buffer.
-/
import proofs.«408299_j82652350644685_2_alg».proof.Proof.RefOps
import proofs.«408299_j82652350644685_2_alg».proof.Proof.RefRun1
import proofs.«408299_j82652350644685_2_alg».proof.Proof.RefRun2
import proofs.«408299_j82652350644685_2_alg».proof.Proof.RefRun3
import proofs.«408299_j82652350644685_2_alg».proof.Proof.RefRun4
import proofs.«408299_j82652350644685_2_alg».proof.Proof.RefRun5
import proofs.«408299_j82652350644685_2_alg».proof.Proof.RefRun6
import proofs.«408299_j82652350644685_2_alg».proof.Proof.RefRun7
import proofs.«408299_j82652350644685_2_alg».proof.Proof.RefRun8
import proofs.«408299_j82652350644685_2_alg».proof.Proof.RefRun9
import proofs.«408299_j82652350644685_2_alg».proof.Proof.RefRun10
import proofs.«408299_j82652350644685_2_alg».proof.Proof.RefRun11
import proofs.«408299_j82652350644685_2_alg».proof.Proof.RefRun12
import proofs.«408299_j82652350644685_2_alg».proof.Proof.RefRun13

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The fold over two lists one after the other is the fold of the second over the fold of the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 8192 in
/-- The operation list is the thirteen stretches in order. -/
theorem ops_eq : Cert.ReferenceIdeal.ValueP.ops (F := F)
    = c1 ++ (c2 ++ (c3 ++ (c4 ++ (c5 ++ (c6 ++ (c7 ++ (c8 ++ (c9 ++ (c10 ++ (c11 ++ (c12 ++ c13))))))))))) := rfl

variable (m : (ℓ : Loc nD τ sig) → Buf (Elt F) ℓ) (c : Dev nD)

/-! ## The levels -/
def U0 : Valuation τ sig (Elt F) := launchContents m c
def U1 : Valuation τ sig (Elt F) := after c1 (U0 m c)
def U2 : Valuation τ sig (Elt F) := after c2 (U1 m c)
def U3 : Valuation τ sig (Elt F) := after c3 (U2 m c)
def U4 : Valuation τ sig (Elt F) := after c4 (U3 m c)
def U5 : Valuation τ sig (Elt F) := after c5 (U4 m c)
def U6 : Valuation τ sig (Elt F) := after c6 (U5 m c)
def U7 : Valuation τ sig (Elt F) := after c7 (U6 m c)
def U8 : Valuation τ sig (Elt F) := after c8 (U7 m c)
def U9 : Valuation τ sig (Elt F) := after c9 (U8 m c)
def U10 : Valuation τ sig (Elt F) := after c10 (U9 m c)
def U11 : Valuation τ sig (Elt F) := after c11 (U10 m c)
def U12 : Valuation τ sig (Elt F) := after c12 (U11 m c)
def U13 : Valuation τ sig (Elt F) := after c13 (U12 m c)

theorem fold_eq : after (Cert.ReferenceIdeal.ValueP.ops (F := F)) (launchContents m c) = U13 m c := by
  rw [ops_eq]
  simp only [after_append']
  rfl

/-! ## A buffer no stretch so far writes holds what the launch gave it -/
theorem U1_old {r : Ref sig .tc} (hr : r ∉ W1) : U1 m c (Proc.devRef .tc r) = U0 m c (Proc.devRef .tc r) := c1_keep _ hr
theorem U2_old {r : Ref sig .tc} (hr : r ∉ W1 ++ W2) : U2 m c (Proc.devRef .tc r) = U0 m c (Proc.devRef .tc r) :=
  (c2_keep _ fun h => hr (List.mem_append_right _ h)).trans (U1_old m c fun h => hr (List.mem_append_left _ h))
theorem U3_old {r : Ref sig .tc} (hr : r ∉ W1 ++ W2 ++ W3) : U3 m c (Proc.devRef .tc r) = U0 m c (Proc.devRef .tc r) :=
  (c3_keep _ fun h => hr (List.mem_append_right _ h)).trans (U2_old m c fun h => hr (List.mem_append_left _ h))
theorem U4_old {r : Ref sig .tc} (hr : r ∉ W1 ++ W2 ++ W3 ++ W4) : U4 m c (Proc.devRef .tc r) = U0 m c (Proc.devRef .tc r) :=
  (c4_keep _ fun h => hr (List.mem_append_right _ h)).trans (U3_old m c fun h => hr (List.mem_append_left _ h))
theorem U5_old {r : Ref sig .tc} (hr : r ∉ W1 ++ W2 ++ W3 ++ W4 ++ W5) : U5 m c (Proc.devRef .tc r) = U0 m c (Proc.devRef .tc r) :=
  (c5_keep _ fun h => hr (List.mem_append_right _ h)).trans (U4_old m c fun h => hr (List.mem_append_left _ h))
theorem U6_old {r : Ref sig .tc} (hr : r ∉ W1 ++ W2 ++ W3 ++ W4 ++ W5 ++ W6) :
    U6 m c (Proc.devRef .tc r) = U0 m c (Proc.devRef .tc r) :=
  (c6_keep _ fun h => hr (List.mem_append_right _ h)).trans (U5_old m c fun h => hr (List.mem_append_left _ h))
theorem U7_old {r : Ref sig .tc} (hr : r ∉ W1 ++ W2 ++ W3 ++ W4 ++ W5 ++ W6 ++ W7) :
    U7 m c (Proc.devRef .tc r) = U0 m c (Proc.devRef .tc r) :=
  (c7_keep _ fun h => hr (List.mem_append_right _ h)).trans (U6_old m c fun h => hr (List.mem_append_left _ h))
theorem U8_old {r : Ref sig .tc} (hr : r ∉ W1 ++ W2 ++ W3 ++ W4 ++ W5 ++ W6 ++ W7 ++ W8) :
    U8 m c (Proc.devRef .tc r) = U0 m c (Proc.devRef .tc r) :=
  (c8_keep _ fun h => hr (List.mem_append_right _ h)).trans (U7_old m c fun h => hr (List.mem_append_left _ h))
theorem U9_old {r : Ref sig .tc} (hr : r ∉ W1 ++ W2 ++ W3 ++ W4 ++ W5 ++ W6 ++ W7 ++ W8 ++ W9) :
    U9 m c (Proc.devRef .tc r) = U0 m c (Proc.devRef .tc r) :=
  (c9_keep _ fun h => hr (List.mem_append_right _ h)).trans (U8_old m c fun h => hr (List.mem_append_left _ h))
theorem U10_old {r : Ref sig .tc} (hr : r ∉ W1 ++ W2 ++ W3 ++ W4 ++ W5 ++ W6 ++ W7 ++ W8 ++ W9 ++ W10) :
    U10 m c (Proc.devRef .tc r) = U0 m c (Proc.devRef .tc r) :=
  (c10_keep _ fun h => hr (List.mem_append_right _ h)).trans (U9_old m c fun h => hr (List.mem_append_left _ h))
theorem U11_old {r : Ref sig .tc} (hr : r ∉ W1 ++ W2 ++ W3 ++ W4 ++ W5 ++ W6 ++ W7 ++ W8 ++ W9 ++ W10 ++ W11) :
    U11 m c (Proc.devRef .tc r) = U0 m c (Proc.devRef .tc r) :=
  (c11_keep _ fun h => hr (List.mem_append_right _ h)).trans (U10_old m c fun h => hr (List.mem_append_left _ h))
theorem U12_old {r : Ref sig .tc} (hr : r ∉ W1 ++ W2 ++ W3 ++ W4 ++ W5 ++ W6 ++ W7 ++ W8 ++ W9 ++ W10 ++ W11 ++ W12) :
    U12 m c (Proc.devRef .tc r) = U0 m c (Proc.devRef .tc r) :=
  (c12_keep _ fun h => hr (List.mem_append_right _ h)).trans (U11_old m c fun h => hr (List.mem_append_left _ h))

/-! ## The arguments as launched, `a0 … a29` -/
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
local notation "a17" => m ((c.tc : Thread nD τ).loc main_arg17)
local notation "a18" => m ((c.tc : Thread nD τ).loc main_arg18)
local notation "a19" => m ((c.tc : Thread nD τ).loc main_arg19)
local notation "a20" => m ((c.tc : Thread nD τ).loc main_arg20)
local notation "a21" => m ((c.tc : Thread nD τ).loc main_arg21)
local notation "a22" => m ((c.tc : Thread nD τ).loc main_arg22)
local notation "a23" => m ((c.tc : Thread nD τ).loc main_arg23)
local notation "a24" => m ((c.tc : Thread nD τ).loc main_arg24)
local notation "a25" => m ((c.tc : Thread nD τ).loc main_arg25)
local notation "a26" => m ((c.tc : Thread nD τ).loc main_arg26)
local notation "a27" => m ((c.tc : Thread nD τ).loc main_arg27)
local notation "a28" => m ((c.tc : Thread nD τ).loc main_arg28)
local notation "a29" => m ((c.tc : Thread nD τ).loc main_arg29)
set_option quotPrecheck true

/-! ## The stages, level by level -/
theorem L1_v1 : U1 m c (Proc.devRef .tc main_v1) = val_main_v1 (F := F) a3 := c1_v1 (U0 m c) a3 rfl
theorem L1_v3 : U1 m c (Proc.devRef .tc main_v3) = val_main_v3 (F := F) a3 := c1_v3 (U0 m c) a3 rfl
theorem L1_v8 : U1 m c (Proc.devRef .tc main_v8) = val_main_v8 (F := F) a0 a5 a6 := c1_v8 (U0 m c) a0 a5 a6 rfl rfl rfl

theorem L2_v1 : U2 m c (Proc.devRef .tc main_v1) = val_main_v1 (F := F) a3 := (c2_keep _ (by decide)).trans (L1_v1 m c)
theorem L2_v3 : U2 m c (Proc.devRef .tc main_v3) = val_main_v3 (F := F) a3 := (c2_keep _ (by decide)).trans (L1_v3 m c)
theorem L2_v8 : U2 m c (Proc.devRef .tc main_v8) = val_main_v8 (F := F) a0 a5 a6 := (c2_keep _ (by decide)).trans (L1_v8 m c)
theorem L2_v21 : U2 m c (Proc.devRef .tc main_v21) = val_main_v21 (F := F) a0 a1 a3 a5 a6 a7 a8 :=
  c2_v21 (U1 m c) (U1_old m c (by decide)) (U1_old m c (by decide)) (U1_old m c (by decide)) (L1_v1 m c) (L1_v3 m c) (L1_v8 m c)

theorem L3_v1 : U3 m c (Proc.devRef .tc main_v1) = val_main_v1 (F := F) a3 := (c3_keep _ (by decide)).trans (L2_v1 m c)
theorem L3_v3 : U3 m c (Proc.devRef .tc main_v3) = val_main_v3 (F := F) a3 := (c3_keep _ (by decide)).trans (L2_v3 m c)
theorem L3_v8 : U3 m c (Proc.devRef .tc main_v8) = val_main_v8 (F := F) a0 a5 a6 := (c3_keep _ (by decide)).trans (L2_v8 m c)
theorem L3_v32 : U3 m c (Proc.devRef .tc main_v32) = val_main_v32 (F := F) a0 a1 a3 a5 a6 a7 a8 a11 a12 a13 a17 a18 :=
  c3_v32 (U2 m c) (U2_old m c (by decide)) (U2_old m c (by decide)) (U2_old m c (by decide)) (U2_old m c (by decide))
    (U2_old m c (by decide)) (L2_v8 m c) (L2_v21 m c)

theorem L4_v8 : U4 m c (Proc.devRef .tc main_v8) = val_main_v8 (F := F) a0 a5 a6 := (c4_keep _ (by decide)).trans (L3_v8 m c)
theorem L4_v32 : U4 m c (Proc.devRef .tc main_v32) = val_main_v32 (F := F) a0 a1 a3 a5 a6 a7 a8 a11 a12 a13 a17 a18 :=
  (c4_keep _ (by decide)).trans (L3_v32 m c)
theorem L4_v45 : U4 m c (Proc.devRef .tc main_v45) = val_main_v45 (F := F) a0 a2 a3 a5 a6 a9 a10 :=
  c4_v45 (U3 m c) (U3_old m c (by decide)) (U3_old m c (by decide)) (U3_old m c (by decide)) (L3_v1 m c) (L3_v3 m c) (L3_v8 m c)

theorem L5_v8 : U5 m c (Proc.devRef .tc main_v8) = val_main_v8 (F := F) a0 a5 a6 := (c5_keep _ (by decide)).trans (L4_v8 m c)
theorem L5_v32 : U5 m c (Proc.devRef .tc main_v32) = val_main_v32 (F := F) a0 a1 a3 a5 a6 a7 a8 a11 a12 a13 a17 a18 :=
  (c5_keep _ (by decide)).trans (L4_v32 m c)
theorem L5_v56 : U5 m c (Proc.devRef .tc main_v56) = val_main_v56 (F := F) a0 a2 a3 a5 a6 a9 a10 a14 a15 a16 a19 a20 :=
  c5_v56 (U4 m c) (U4_old m c (by decide)) (U4_old m c (by decide)) (U4_old m c (by decide)) (U4_old m c (by decide))
    (U4_old m c (by decide)) (L4_v8 m c) (L4_v45 m c)

theorem L6_v62 : U6 m c (Proc.devRef .tc main_v62) = val_main_v62 (F := F) a0 a1 a2 a3 a5 a6 a7 a8 a9 a10 a11 a12 a13 a14 a15 a16 a17 a18 a19 a20 a21 a22 :=
  c6_v62 (U5 m c) (U5_old m c (by decide)) (U5_old m c (by decide)) (L5_v8 m c) (L5_v32 m c) (L5_v56 m c)

theorem L7_v72 : U7 m c (Proc.devRef .tc main_v72) = val_main_v72 (F := F) a0 a1 a2 a3 a5 a6 a7 a8 a9 a10 a11 a12 a13 a14 a15 a16 a17 a18 a19 a20 a21 a22 a23 a24 :=
  c7_v72 (U6 m c) (U6_old m c (by decide)) (U6_old m c (by decide)) (L6_v62 m c)

theorem L8_v82 : U8 m c (Proc.devRef .tc main_v82) = val_main_v82 (F := F) a0 a1 a2 a3 a5 a6 a7 a8 a9 a10 a11 a12 a13 a14 a15 a16 a17 a18 a19 a20 a21 a22 a23 a24 :=
  c8_v82 (U7 m c) (U7_old m c (by decide)) (U7_old m c (by decide)) (L7_v72 m c)

theorem L9_v92 : U9 m c (Proc.devRef .tc main_v92) = val_main_v92 (F := F) a0 a1 a2 a3 a5 a6 a7 a8 a9 a10 a11 a12 a13 a14 a15 a16 a17 a18 a19 a20 a21 a22 a23 a24 :=
  c9_v92 (U8 m c) (U8_old m c (by decide)) (U8_old m c (by decide)) (L8_v82 m c)

theorem L10_v92 : U10 m c (Proc.devRef .tc main_v92) = val_main_v92 (F := F) a0 a1 a2 a3 a5 a6 a7 a8 a9 a10 a11 a12 a13 a14 a15 a16 a17 a18 a19 a20 a21 a22 a23 a24 := (c10_keep _ (by decide)).trans (L9_v92 m c)
theorem L10_v98 : U10 m c (Proc.devRef .tc main_v98) = val_main_v98 (F := F) a4 := c10_v98 (U9 m c) (U9_old m c (by decide))
theorem L10_v103 : U10 m c (Proc.devRef .tc main_v103) = val_main_v103 (F := F) a0 a1 a2 a3 a4 a5 a6 a7 a8 a9 a10 a11 a12 a13 a14 a15 a16 a17 a18 a19 a20 a21 a22 a23 a24 :=
  c10_v103 (U9 m c) (U9_old m c (by decide)) (L9_v92 m c)

theorem L11_v98 : U11 m c (Proc.devRef .tc main_v98) = val_main_v98 (F := F) a4 := (c11_keep _ (by decide)).trans (L10_v98 m c)
theorem L11_v114 : U11 m c (Proc.devRef .tc main_v114) = val_main_v114 (F := F) a0 a1 a2 a3 a4 a5 a6 a7 a8 a9 a10 a11 a12 a13 a14 a15 a16 a17 a18 a19 a20 a21 a22 a23 a24 a27 :=
  c11_v114 (U10 m c) (U10_old m c (by decide)) (U10_old m c (by decide)) (L10_v92 m c) (L10_v103 m c)

theorem L12_v114 : U12 m c (Proc.devRef .tc main_v114) = val_main_v114 (F := F) a0 a1 a2 a3 a4 a5 a6 a7 a8 a9 a10 a11 a12 a13 a14 a15 a16 a17 a18 a19 a20 a21 a22 a23 a24 a27 :=
  (c12_keep _ (by decide)).trans (L11_v114 m c)
theorem L12_v120 : U12 m c (Proc.devRef .tc main_v120) = val_main_v120 (F := F) a0 a1 a2 a3 a4 a5 a6 a7 a8 a9 a10 a11 a12 a13 a14 a15 a16 a17 a18 a19 a20 a21 a22 a23 a24 a27 :=
  c12_v120 (U11 m c) (U11_old m c (by decide)) (L11_v98 m c) (L11_v114 m c)

theorem L13_v141 : U13 m c (Proc.devRef .tc main_v141) = val_main_v141 (F := F) a0 a1 a2 a3 a4 a5 a6 a7 a8 a9 a10 a11 a12 a13 a14 a15 a16 a17 a18 a19 a20 a21 a22 a23 a24 a25 a26 a27 a28 a29 :=
  c13_v141 (U12 m c) (U12_old m c (by decide)) (U12_old m c (by decide)) (U12_old m c (by decide)) (U12_old m c (by decide))
    (U12_old m c (by decide)) (L12_v114 m c) (L12_v120 m c)

/-- The fold's result buffer is the reading module's last stage function of the arguments. -/
theorem fold_result :
    after (Cert.ReferenceIdeal.ValueP.ops (F := F)) (launchContents m c) (Proc.devRef .tc main_v141)
      = Cert.ReferenceIdeal.ReadP.val_main_v141 (F := F) a0 a1 a2 a3 a4 a5 a6 a7 a8 a9 a10 a11 a12 a13 a14 a15 a16 a17 a18 a19 a20 a21 a22 a23 a24 a25 a26 a27 a28 a29 := by
  rw [fold_eq m c]
  exact L13_v141 m c

end Cert.ReferenceIdeal.RunP

end
-- ==== Proof.Rows.lean ====
/-
  The row functions of the four dense stages. Every stage of this network acts row by row: an output row is a function of the
  same row of the row-tiled inputs and of whole weight arrays. Stating each stage once as a function on rows, generic in
  nothing but the row itself, lets the kernel's 2000-row blocks and the reference's full arrays meet at one term: row
  `2000·t + p` of the array is row `p` of block `t`.

  Notation: a row is `Fin n → EReal`, a weight matrix `Fin K → Fin M → EReal`; `dot v W q = ∑ k, v k · W k q`.
-/
import Idealize.ShloMosaic.PureOps.Ideal
import Idealize.ShloMosaic.Lib.ValueIdx

noncomputable section

namespace Cert.Rows

open Idealize.ShloMosaic

/-- `y · 1 / (1 + e^{-y})` on the extended reals. -/
def silu (y : EReal) : EReal := y * Ideal.logistic y

/-- Entry `q` of the row `v` times the matrix `W`. -/
def dot {K M : ℕ} (v : Fin K → EReal) (W : Fin K → Fin M → EReal) (q : Fin M) : EReal := ∑ k : Fin K, v k * W k q

/-- One row of `silu (v · W + b)`. -/
def dense {K M : ℕ} (v : Fin K → EReal) (W : Fin K → Fin M → EReal) (b : Fin M → EReal) : Fin M → EReal :=
  fun q => silu (dot v W q + b q)

/-- The left and right halves of a row of 512, and two rows of 256 joined. -/
def lo (v : Fin 512 → EReal) : Fin 256 → EReal := fun k => v ⟨k.val, by omega⟩
def hi (v : Fin 512 → EReal) : Fin 256 → EReal := fun k => v ⟨256 + k.val, by omega⟩
def join (a b : Fin 256 → EReal) : Fin 512 → EReal :=
  fun j => if h : j.val < 256 then a ⟨j.val, h⟩ else b ⟨j.val - 256, by omega⟩

/-- Stage 1, a node's row: `silu (x · W + b)`. -/
def rowK1 (x : Fin 256 → EReal) (W : Fin 256 → Fin 256 → EReal) (b : Fin 256 → EReal) : Fin 256 → EReal := dense x W b

/-- Stage 2, an edge's row: the two radial filters `f₁ · Wf₁`, `f₂ · Wf₂`, each times the source node's row, side by side. -/
def rowK2 (f1 : Fin 294 → EReal) (f2 : Fin 42 → EReal) (Wf1 : Fin 294 → Fin 256 → EReal) (Wf2 : Fin 42 → Fin 256 → EReal)
    (xs : Fin 256 → EReal) : Fin 512 → EReal :=
  join (fun q => dot f1 Wf1 q * xs q) (fun q => dot f2 Wf2 q * xs q)

/-- The edge convolution's combine on one node: `a · Wl + bl + x · Wr`. -/
def edge (a x : Fin 256 → EReal) (Wl : Fin 256 → Fin 256 → EReal) (bl : Fin 256 → EReal) (Wr : Fin 256 → Fin 256 → EReal) :
    Fin 256 → EReal := fun q => dot a Wl q + bl q + dot x Wr q

/-- A residual dense layer on one row: `silu (h · W + b) + h`. -/
def res (h : Fin 256 → EReal) (W : Fin 256 → Fin 256 → EReal) (b : Fin 256 → EReal) : Fin 256 → EReal :=
  fun q => dense h W b q + h q

/-- Stage 3, a node's row: the two edge convolutions of the aggregated halves, each through a dense layer, joined and
    projected with the skip `+ x₁`, then three residual layers. -/
def rowK3 (agg : Fin 512 → EReal) (x1 : Fin 256 → EReal)
    (Wl1 : Fin 256 → Fin 256 → EReal) (bl1 : Fin 256 → EReal) (Wr1 W1 : Fin 256 → Fin 256 → EReal) (b1 : Fin 256 → EReal)
    (Wl2 : Fin 256 → Fin 256 → EReal) (bl2 : Fin 256 → EReal) (Wr2 W2 : Fin 256 → Fin 256 → EReal) (b2 : Fin 256 → EReal)
    (Wcat : Fin 512 → Fin 256 → EReal) (bcat : Fin 256 → EReal)
    (Wa : Fin 256 → Fin 256 → EReal) (ba : Fin 256 → EReal) (Wb : Fin 256 → Fin 256 → EReal) (bb : Fin 256 → EReal)
    (Wc : Fin 256 → Fin 256 → EReal) (bc : Fin 256 → EReal) : Fin 256 → EReal :=
  let h1 := dense (edge (lo agg) x1 Wl1 bl1 Wr1) W1 b1
  let h2 := dense (edge (hi agg) x1 Wl2 bl2 Wr2) W2 b2
  let h0 : Fin 256 → EReal := fun q => dot (join h1 h2) Wcat q + bcat q + x1 q
  res (res (res h0 Wa ba) Wb bb) Wc bc

/-- The variance floor `1e-5` as the f32 word both programs carry. -/
def eps : EReal := Ideal.ofBits .f32 0x3727C5AC#32

/-- The indicator of "graph id `b` is `g`". -/
def onehot (b : BitVec 32) (g : Fin 512) : EReal := if b = BitVec.ofNat 32 g.val then 1 else 0

/-- The graph norm's affine part and the final projection on one row, from that row's graph mean and variance:
    `(gw · (h − mean · gms)) / √(var + ε) + gb`, then `· Wfin + bfin`. -/
def rowK4ref (h mean var gw gb gms : Fin 256 → EReal) (Wfin : Fin 256 → Fin 256 → EReal) (bfin : Fin 256 → EReal) :
    Fin 256 → EReal :=
  let normed : Fin 256 → EReal := fun k => Ideal.div (gw k * (h k - mean k * gms k)) (Ideal.sqrt (var k + eps)) + gb k
  fun q => dot normed Wfin q + bfin q

/-- Stage 4 as the kernel computes it: the row's mean and variance picked out of the 512 × 512 table (means left, variances
    right) by the indicator of its graph id, and the reciprocal square root in place of the quotient by the root. -/
def rowK4 (h : Fin 256 → EReal) (b : BitVec 32) (table : Fin 512 → Fin 512 → EReal) (gw gb gms : Fin 256 → EReal)
    (Wfin : Fin 256 → Fin 256 → EReal) (bfin : Fin 256 → EReal) : Fin 256 → EReal :=
  let stats : Fin 512 → EReal := fun j => ∑ g : Fin 512, onehot b g * table g j
  let normed : Fin 256 → EReal := fun k => gw k * (h k - lo stats k * gms k) * Ideal.rsqrt (hi stats k + eps) + gb k
  fun q => dot normed Wfin q + bfin q

/-- A rank-2 array as rows, a rank-1 array as a row, and slab `i` of a rank-3 array of three slabs. -/
def mat {n m : ℕ} (A : (⟨2, ![n, m]⟩ : Shape).Idx → EReal) : Fin n → Fin m → EReal := fun p q => A (ValueIdx.ix2 p q)
def vec {n : ℕ} (b : (⟨1, ![n]⟩ : Shape).Idx → EReal) : Fin n → EReal := fun q => b (ValueIdx.ix1 q)
def slab {a n m : ℕ} (i : Fin a) (A : (⟨3, ![a, n, m]⟩ : Shape).Idx → EReal) : Fin n → Fin m → EReal :=
  fun p q => A (ValueIdx.ix3 i p q)

end Cert.Rows

end
-- ==== Proof.Stages.lean ====
/-
  The stage boundaries of the two programs, named. On the kernel's side a boundary array is a buffer's contents at a segment
  boundary of @main (the generated frame's fold `W₀ … W₁₁`); on the reference's side it is the stage function of the
  generated reading module applied to the SAME argument arrays. The certificate's value claim is the chain
  "kernel boundary array = reference stage", one link per stage, each link proved from the one before it.
-/
import proofs.«408299_j82652350644685_2_alg».proof.Proof.Gen.KernelIdeal.Frame
import proofs.«408299_j82652350644685_2_alg».proof.Proof.RefRead
import proofs.«408299_j82652350644685_2_alg».proof.Proof.Rows

noncomputable section

namespace Cert.Stages

open Idealize.ShloMosaic Idealize.ShloMosaic.TcCoe Idealize.SL.Sem
open Cert.KernelIdeal Cert.KernelIdeal.Gen Cert.ReferenceIdeal.ReadP

variable (m : (ℓ : Loc nD τ sig) → Buf (Elt Ideal) ℓ) (ρ : Dev nD → PrngReg) (c : Dev nD)

/-! ## The argument arrays, as launched -/
abbrev A0 : (⟨S50000x256, .f32⟩ : BufTy).Contents (Elt Ideal) := m ((c : Thread nD τ).loc main_arg0)
abbrev A1 : (⟨S250000x294, .f32⟩ : BufTy).Contents (Elt Ideal) := m ((c : Thread nD τ).loc main_arg1)
abbrev A2 : (⟨S250000x42, .f32⟩ : BufTy).Contents (Elt Ideal) := m ((c : Thread nD τ).loc main_arg2)
abbrev A3 : (⟨S2x250000, .i32⟩ : BufTy).Contents (Elt Ideal) := m ((c : Thread nD τ).loc main_arg3)
abbrev A4 : (⟨S50000, .i32⟩ : BufTy).Contents (Elt Ideal) := m ((c : Thread nD τ).loc main_arg4)
abbrev A5 : (⟨S256x256, .f32⟩ : BufTy).Contents (Elt Ideal) := m ((c : Thread nD τ).loc main_arg5)
abbrev A6 : (⟨S256, .f32⟩ : BufTy).Contents (Elt Ideal) := m ((c : Thread nD τ).loc main_arg6)
abbrev A7 : (⟨S294x256, .f32⟩ : BufTy).Contents (Elt Ideal) := m ((c : Thread nD τ).loc main_arg7)
abbrev A8 : (⟨S256x256, .f32⟩ : BufTy).Contents (Elt Ideal) := m ((c : Thread nD τ).loc main_arg8)
abbrev A9 : (⟨S42x256, .f32⟩ : BufTy).Contents (Elt Ideal) := m ((c : Thread nD τ).loc main_arg9)
abbrev A10 : (⟨S256x256, .f32⟩ : BufTy).Contents (Elt Ideal) := m ((c : Thread nD τ).loc main_arg10)
abbrev A11 : (⟨S256x256, .f32⟩ : BufTy).Contents (Elt Ideal) := m ((c : Thread nD τ).loc main_arg11)
abbrev A12 : (⟨S256, .f32⟩ : BufTy).Contents (Elt Ideal) := m ((c : Thread nD τ).loc main_arg12)
abbrev A13 : (⟨S256x256, .f32⟩ : BufTy).Contents (Elt Ideal) := m ((c : Thread nD τ).loc main_arg13)
abbrev A14 : (⟨S256x256, .f32⟩ : BufTy).Contents (Elt Ideal) := m ((c : Thread nD τ).loc main_arg14)
abbrev A15 : (⟨S256, .f32⟩ : BufTy).Contents (Elt Ideal) := m ((c : Thread nD τ).loc main_arg15)
abbrev A16 : (⟨S256x256, .f32⟩ : BufTy).Contents (Elt Ideal) := m ((c : Thread nD τ).loc main_arg16)
abbrev A17 : (⟨S256x256, .f32⟩ : BufTy).Contents (Elt Ideal) := m ((c : Thread nD τ).loc main_arg17)
abbrev A18 : (⟨S256, .f32⟩ : BufTy).Contents (Elt Ideal) := m ((c : Thread nD τ).loc main_arg18)
abbrev A19 : (⟨S256x256, .f32⟩ : BufTy).Contents (Elt Ideal) := m ((c : Thread nD τ).loc main_arg19)
abbrev A20 : (⟨S256, .f32⟩ : BufTy).Contents (Elt Ideal) := m ((c : Thread nD τ).loc main_arg20)
abbrev A21 : (⟨S512x256, .f32⟩ : BufTy).Contents (Elt Ideal) := m ((c : Thread nD τ).loc main_arg21)
abbrev A22 : (⟨S256, .f32⟩ : BufTy).Contents (Elt Ideal) := m ((c : Thread nD τ).loc main_arg22)
abbrev A23 : (⟨S3x256x256, .f32⟩ : BufTy).Contents (Elt Ideal) := m ((c : Thread nD τ).loc main_arg23)
abbrev A24 : (⟨S3x256, .f32⟩ : BufTy).Contents (Elt Ideal) := m ((c : Thread nD τ).loc main_arg24)
abbrev A25 : (⟨S256, .f32⟩ : BufTy).Contents (Elt Ideal) := m ((c : Thread nD τ).loc main_arg25)
abbrev A26 : (⟨S256, .f32⟩ : BufTy).Contents (Elt Ideal) := m ((c : Thread nD τ).loc main_arg26)
abbrev A27 : (⟨S256, .f32⟩ : BufTy).Contents (Elt Ideal) := m ((c : Thread nD τ).loc main_arg27)
abbrev A28 : (⟨S256x256, .f32⟩ : BufTy).Contents (Elt Ideal) := m ((c : Thread nD τ).loc main_arg28)
abbrev A29 : (⟨S256, .f32⟩ : BufTy).Contents (Elt Ideal) := m ((c : Thread nD τ).loc main_arg29)

/-! ## The kernel program's boundary arrays -/
/-- Stage 1's result (region 0's output array after region 0). -/
abbrev kX1 : (⟨S50000x256, .f32⟩ : BufTy).Contents (Elt Ideal) := W2 m ρ c (Proc.devRef .tc main_v4)
/-- The gathered source rows (the host take before region 1). -/
abbrev kXS : (⟨S250000x256, .f32⟩ : BufTy).Contents (Elt Ideal) := W4 m ρ c (Proc.devRef .tc main_v7)
/-- The messages, both halves side by side (region 1's output). -/
abbrev kMsg : (⟨S250000x512, .f32⟩ : BufTy).Contents (Elt Ideal) := W5 m ρ c (Proc.devRef .tc main_v8)
/-- The aggregated messages (the host scatter before region 2). -/
abbrev kAgg : (⟨S50000x512, .f32⟩ : BufTy).Contents (Elt Ideal) := W6 m ρ c (Proc.devRef .tc main_v11)
/-- The node features before the graph norm (region 2's output). -/
abbrev kH : (⟨S50000x256, .f32⟩ : BufTy).Contents (Elt Ideal) := W7 m ρ c (Proc.devRef .tc main_v12)
/-- The table of per-graph means (left) and variances (right), and the graph ids as a column (region 3's inputs). -/
abbrev kTable : (⟨S512x512, .f32⟩ : BufTy).Contents (Elt Ideal) := W10 m ρ c (Proc.devRef .tc main_v35)
abbrev kBcol : (⟨S50000x1, .i32⟩ : BufTy).Contents (Elt Ideal) := W10 m ρ c (Proc.devRef .tc main_v36)
/-- The result (region 3's output). -/
abbrev kOut : (⟨S50000x256, .f32⟩ : BufTy).Contents (Elt Ideal) := W11 m ρ c (Proc.devRef .tc main_v37)

/-! ## The reference's stages at the same arguments -/
abbrev rX1 := val_main_v8 (F := Ideal) (A0 m c) (A5 m c) (A6 m c)
abbrev rXS := val_main_v17 (F := Ideal) (A0 m c) (A3 m c) (A5 m c) (A6 m c)
abbrev rXS' := val_main_v41 (F := Ideal) (A0 m c) (A3 m c) (A5 m c) (A6 m c)
abbrev rMsg1 := val_main_v18 (F := Ideal) (A0 m c) (A1 m c) (A3 m c) (A5 m c) (A6 m c) (A7 m c) (A8 m c)
abbrev rMsg2 := val_main_v42 (F := Ideal) (A0 m c) (A2 m c) (A3 m c) (A5 m c) (A6 m c) (A9 m c) (A10 m c)
abbrev rAgg1 := val_main_v21 (F := Ideal) (A0 m c) (A1 m c) (A3 m c) (A5 m c) (A6 m c) (A7 m c) (A8 m c)
abbrev rAgg2 := val_main_v45 (F := Ideal) (A0 m c) (A2 m c) (A3 m c) (A5 m c) (A6 m c) (A9 m c) (A10 m c)
abbrev rH := val_main_v92 (F := Ideal) (A0 m c) (A1 m c) (A2 m c) (A3 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c)
abbrev rMean := val_main_v103 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c)
abbrev rVar := val_main_v120 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A27 m c)
abbrev rOut := val_main_v141 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c)

/-! ## What the precondition gives -/
/-- Every edge's source id indexes a node. -/
def SrcOk : Prop := ∀ e : Fin 250000, 0 ≤ (A3 m c (ValueIdx.ix2 (0 : Fin 2) e)).toInt ∧ (A3 m c (ValueIdx.ix2 (0 : Fin 2) e)).toInt < 50000
/-- Every node's graph id is a graph. -/
def BatchOk : Prop := ∀ r : Fin 50000, 0 ≤ (A4 m c (ValueIdx.ix1 r)).toInt ∧ (A4 m c (ValueIdx.ix1 r)).toInt < 512
/-- The two radial-filter chains' operands are real numbers. -/
def FiltersReal : Prop :=
  (∀ i, ∃ x : ℝ, A1 m c i = (x : EReal)) ∧ (∀ i, ∃ x : ℝ, A7 m c i = (x : EReal)) ∧ (∀ i, ∃ x : ℝ, A8 m c i = (x : EReal))
  ∧ (∀ i, ∃ x : ℝ, A2 m c i = (x : EReal)) ∧ (∀ i, ∃ x : ℝ, A9 m c i = (x : EReal)) ∧ (∀ i, ∃ x : ℝ, A10 m c i = (x : EReal))

end Cert.Stages

end
-- ==== Proof.PreFacts.lean ====
/-
  The precondition, decoded. The predicate is one conjunction of thirty-two conjuncts, each of the form "for every entry …":
  for each of the twenty-eight float arguments, "the entry's absolute value is below +∞"; then "every source id is ≥ 0",
  "every source id is < 50000", "every graph id is ≥ 0", "every graph id is < 512". Its being all ones therefore says, entry
  by entry: the float arguments are real numbers (an extended real with |x| < +∞ is neither infinity), and the two index
  arrays lie in their ranges as signed integers. Only the facts the stages use are kept: the six operands of the two
  radial-filter chains, the source ids and the graph ids.
-/
import proofs.«408299_j82652350644685_2_alg».proof.Defs
import proofs.«408299_j82652350644685_2_alg».proof.Proof.Stages
import Idealize.ShloMosaic.Lib.ReduceAll
import Idealize.ShloMosaic.Lib.Pipeline.Value
import Idealize.ShloMosaic.Lib.ValueIdx

noncomputable section

namespace Cert.Stages

open Idealize.ShloMosaic Idealize.ShloMosaic.TcCoe Idealize.SL.Sem
open Cert.KernelIdeal

namespace PreFacts

/-! ## One "for every entry" conjunct, read at an index -/

/-- The word `0x7F800000` is `+∞`. -/
theorem inf_word : Ideal.ofBits .f32 0x7F800000#32 = (⊤ : EReal) := by
  simp [Ideal.ofBits, Ideal.ieee]

/-- An extended real with `|x| < +∞` is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The scalar shape has one index. -/
local instance subsingleton_scalar_idx : Subsingleton (⟨0, ![]⟩ : Shape).Idx := ⟨fun a b => funext fun d => d.elim0⟩

/-- "Every entry of `x` has `|x| < +∞`" being 1 makes every entry of `x` a real number. -/
theorem all_real {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] bc (constant ⟨0, ![]⟩ .f32 0x7F800000#32)))
      (constantI ⟨0, ![]⟩ 1 1#1) h hu j = 1#1) (i : s.Idx) : ∃ r : ℝ, x i = (r : EReal) :=
  real_of_abs_lt_inf (x i) (Host.reduce_andi_all _ _ h hu j e i)

/-- "Every entry of `x` is ≥ k" (signed) being 1, at an index. -/
theorem all_sge {s : Shape} {axes : List (Fin s.rank)} (x : IVec s 32) (k : BitVec 32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpi .sge x (broadcastInDim s ![] bc (constantI ⟨0, ![]⟩ 32 k)))
      (constantI ⟨0, ![]⟩ 1 1#1) h hu j = 1#1) (i : s.Idx) : k.toInt ≤ (x i).toInt :=
  IntOp.cmpi_sge.1 (Host.reduce_andi_all _ _ h hu j e i)

/-- "Every entry of `x` is < k" (signed) being 1, at an index. -/
theorem all_slt {s : Shape} {axes : List (Fin s.rank)} (x : IVec s 32) (k : BitVec 32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpi .slt x (broadcastInDim s ![] bc (constantI ⟨0, ![]⟩ 32 k)))
      (constantI ⟨0, ![]⟩ 1 1#1) h hu j = 1#1) (i : s.Idx) : (x i).toInt < k.toInt :=
  IntOp.cmpi_slt.1 (Host.reduce_andi_all _ _ h hu j e i)

/-- A conjunction of two one-bit scalars that is 1 has both 1. -/
theorem and_ix {a b : IVec (⟨0, ![]⟩ : Shape) 1} {j : (⟨0, ![]⟩ : Shape).Idx} (h : andi a b j = 1#1) : a j = 1#1 ∧ b j = 1#1 :=
  IntOp.andi_eq_one.1 h

/-! ## The predicate, walked -/

section Walk
open Cert.Pre_finite_inputs Cert.Pre_finite_inputs.Facts
variable [Cert.Pre_finite_inputs.Facts]

/-- Row 0 of the edge array, as the predicate slices and flattens it, read at edge `e`: row-major position `0 · 250000 + e`
    of the one-row slice, which is entry `(0, e)` of the array. -/
theorem src_read (a3 : IVec Cert.Pre_finite_inputs.S2x250000 32) (e : Fin 250000) :
    shapeCast Cert.Pre_finite_inputs.S250000
        (extractStridedSlice Cert.Pre_finite_inputs.S1x250000 ![0, 0] a3 slices_S2x250000_S1x250000_0_0)
        shapeCasts_S1x250000_S250000 (ValueIdx.ix1 e)
      = a3 (ValueIdx.ix2 (0 : Fin 2) e) := by
  refine (shapeCast_apply _ shapeCasts_S1x250000_S250000 (ValueIdx.ix1 e) (ValueIdx.ix2 (0 : Fin 1) e) ?_).trans ?_
  · rewrite [Shape.rowMajor_val_two, Shape.rowMajor_val_one]
    show 0 * 250000 + e.val = e.val
    omega
  · exact extractStridedSlice_apply ![0, 0] a3 slices_S2x250000_S1x250000_0_0 _ (ValueIdx.ix2 (0 : Fin 2) e)
      (fun a => match a with
        | ⟨0, _⟩ => by show (0 : ℕ) = 0 + 0; rfl
        | ⟨1, _⟩ => by show e.val = 0 + e.val; omega)

/-- The predicate being 1 gives, of its thirty-two conjuncts, the ten the stages use (six float arguments real, and the four
    range conjuncts, paired per index). The conjunction is nested to the left, so it is peeled from its last conjunct
    (graph ids < 512) back to its first two (arguments 0 and 1). -/
theorem fn_facts
    {a0 : FVec Ideal Cert.Pre_finite_inputs.S50000x256 .f32} {a1 : FVec Ideal Cert.Pre_finite_inputs.S250000x294 .f32} {a2 : FVec Ideal Cert.Pre_finite_inputs.S250000x42 .f32}
    {a3 : IVec Cert.Pre_finite_inputs.S2x250000 32} {a4 : IVec Cert.Pre_finite_inputs.S50000 32} {a5 : FVec Ideal Cert.Pre_finite_inputs.S256x256 .f32}
    {a6 : FVec Ideal Cert.Pre_finite_inputs.S256 .f32} {a7 : FVec Ideal Cert.Pre_finite_inputs.S294x256 .f32} {a8 : FVec Ideal Cert.Pre_finite_inputs.S256x256 .f32}
    {a9 : FVec Ideal Cert.Pre_finite_inputs.S42x256 .f32} {a10 : FVec Ideal Cert.Pre_finite_inputs.S256x256 .f32} {a11 : FVec Ideal Cert.Pre_finite_inputs.S256x256 .f32}
    {a12 : FVec Ideal Cert.Pre_finite_inputs.S256 .f32} {a13 : FVec Ideal Cert.Pre_finite_inputs.S256x256 .f32} {a14 : FVec Ideal Cert.Pre_finite_inputs.S256x256 .f32}
    {a15 : FVec Ideal Cert.Pre_finite_inputs.S256 .f32} {a16 : FVec Ideal Cert.Pre_finite_inputs.S256x256 .f32} {a17 : FVec Ideal Cert.Pre_finite_inputs.S256x256 .f32}
    {a18 : FVec Ideal Cert.Pre_finite_inputs.S256 .f32} {a19 : FVec Ideal Cert.Pre_finite_inputs.S256x256 .f32} {a20 : FVec Ideal Cert.Pre_finite_inputs.S256 .f32}
    {a21 : FVec Ideal Cert.Pre_finite_inputs.S512x256 .f32} {a22 : FVec Ideal Cert.Pre_finite_inputs.S256 .f32} {a23 : FVec Ideal Cert.Pre_finite_inputs.S3x256x256 .f32}
    {a24 : FVec Ideal Cert.Pre_finite_inputs.S3x256 .f32} {a25 : FVec Ideal Cert.Pre_finite_inputs.S256 .f32} {a26 : FVec Ideal Cert.Pre_finite_inputs.S256 .f32}
    {a27 : FVec Ideal Cert.Pre_finite_inputs.S256 .f32} {a28 : FVec Ideal Cert.Pre_finite_inputs.S256x256 .f32} {a29 : FVec Ideal Cert.Pre_finite_inputs.S256 .f32}
    (h : Cert.Pre_finite_inputs.fn (F := Ideal) a0 a1 a2 a3 a4 a5 a6 a7 a8 a9 a10 a11 a12 a13 a14 a15 a16 a17 a18 a19 a20 a21 a22 a23 a24 a25 a26 a27 a28 a29 ValueIdx.ix0 = 1#1) :
    (∀ i, ∃ r : ℝ, a1 i = (r : EReal)) ∧ (∀ i, ∃ r : ℝ, a2 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal))
    ∧ (∀ e : Fin 250000, 0 ≤ (a3 (ValueIdx.ix2 (0 : Fin 2) e)).toInt ∧ (a3 (ValueIdx.ix2 (0 : Fin 2) e)).toInt < 50000)
    ∧ (∀ r : Fin 50000, 0 ≤ (a4 (ValueIdx.ix1 r)).toInt ∧ (a4 (ValueIdx.ix1 r)).toInt < 512) := by
  dsimp only [Cert.Pre_finite_inputs.fn, fn_part1, fn_part2, fn_part3, fn_part4, fn_part5, fn_part6, fn_part7, fn_part8, fn_part9] at h
  obtain ⟨h, hb2⟩ := and_ix h
  obtain ⟨h, hb1⟩ := and_ix h
  obtain ⟨h, hs2⟩ := and_ix h
  obtain ⟨h, hs1⟩ := and_ix h
  obtain ⟨h, f29⟩ := and_ix h
  obtain ⟨h, f28⟩ := and_ix h
  obtain ⟨h, f27⟩ := and_ix h
  obtain ⟨h, f26⟩ := and_ix h
  obtain ⟨h, f25⟩ := and_ix h
  obtain ⟨h, f24⟩ := and_ix h
  obtain ⟨h, f23⟩ := and_ix h
  obtain ⟨h, f22⟩ := and_ix h
  obtain ⟨h, f21⟩ := and_ix h
  obtain ⟨h, f20⟩ := and_ix h
  obtain ⟨h, f19⟩ := and_ix h
  obtain ⟨h, f18⟩ := and_ix h
  obtain ⟨h, f17⟩ := and_ix h
  obtain ⟨h, f16⟩ := and_ix h
  obtain ⟨h, f15⟩ := and_ix h
  obtain ⟨h, f14⟩ := and_ix h
  obtain ⟨h, f13⟩ := and_ix h
  obtain ⟨h, f12⟩ := and_ix h
  obtain ⟨h, f11⟩ := and_ix h
  obtain ⟨h, f10⟩ := and_ix h
  obtain ⟨h, f9⟩ := and_ix h
  obtain ⟨h, f8⟩ := and_ix h
  obtain ⟨h, f7⟩ := and_ix h
  obtain ⟨h, f6⟩ := and_ix h
  obtain ⟨h, f5⟩ := and_ix h
  obtain ⟨h, f2⟩ := and_ix h
  obtain ⟨f0, f1⟩ := and_ix h
  have z0 : (0#32 : BitVec 32).toInt = 0 := by decide
  have z1 : (50000#32 : BitVec 32).toInt = 50000 := by decide
  have z2 : (512#32 : BitVec 32).toInt = 512 := by decide
  refine ⟨all_real a1 _ _ _ _ f1, all_real a2 _ _ _ _ f2, all_real a7 _ _ _ _ f7, all_real a8 _ _ _ _ f8,
    all_real a9 _ _ _ _ f9, all_real a10 _ _ _ _ f10, fun e => ⟨?_, ?_⟩, fun r => ⟨?_, ?_⟩⟩
  · have t := all_sge _ 0#32 _ _ _ _ hs1 (ValueIdx.ix1 e)
    rw [src_read, z0] at t
    exact t
  · have t := all_slt _ 50000#32 _ _ _ _ hs2 (ValueIdx.ix1 e)
    rw [src_read, z1] at t
    exact t
  · have t := all_sge a4 0#32 _ _ _ _ hb1 (ValueIdx.ix1 r)
    rw [z0] at t
    exact t
  · have t := all_slt a4 512#32 _ _ _ _ hb2 (ValueIdx.ix1 r)
    rw [z2] at t
    exact t

end Walk

end PreFacts

/-! ## The three facts -/

variable (m : (ℓ : Loc nD τ sig) → Buf (Elt Ideal) ℓ)

/-- The precondition gives the source ids' range, the graph ids' range and the realness of the filters' operands. -/
theorem pre_facts [Cert.Pre_finite_inputs.Facts] (hpre : Cert.Pre_KernelIdeal m) (c : Dev nD) :
    SrcOk m c ∧ BatchOk m c ∧ FiltersReal m c := by
  obtain ⟨h1, h2, h7, h8, h9, h10, hs, hb⟩ := PreFacts.fn_facts (congrFun (hpre c) ValueIdx.ix0)
  exact ⟨hs, hb, h1, h7, h8, h2, h9, h10⟩

end Cert.Stages

end
-- ==== Proof.Stage1K.lean ====
/-
  Stage 1 on the kernel's side. The first region computes, block of 2000 rows by block, the dense layer
  x₁ = silu (x · W + b): its body's value at row p, column q of a block is the row function Rows.rowK1 of row p of
  the staged block of x and of the whole W and b. The 25 blocks tile the 50000 rows, block t holding rows
  2000·t … 2000·t + 1999, so the array the region leaves is that row function at every row of x.
-/
import proofs.«408299_j82652350644685_2_alg».proof.Proof.Gen.KernelIdeal.Frame
import proofs.«408299_j82652350644685_2_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

namespace Cert.Stage1K

open Idealize.ShloMosaic Idealize.ShloMosaic.TcCoe Idealize.SL.Sem Idealize.ShloMosaic.ValueIdx
open Cert.KernelIdeal Cert.KernelIdeal.Gen
open Idealize.ShloMosaic.Pipeline (Dat)

/-! ## The block product at an index -/

/-- The left operand of the block product is read at the output's row … -/
theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and at the contraction index; -/
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- the right operand at the contraction index … -/
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and at the output's column. -/
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000 × 256 block times a 256 × 256 matrix into a zero accumulator, at row p and column q: the sum over k of the
    products of the entries (p, k) and (k, q). -/
theorem blockProduct_apply {φ₁ φ₂ : FTy} (L : FVec Ideal S2000x256 φ₁) (R : FVec Ideal S256x256 φ₂) (p : Fin 2000) (q : Fin 256) :
    matmul dot_S2000x256_S256x256_S2000x256_1_0_0_1_n_n none L R (constant (F := Ideal) S2000x256 .f32 0x00000000#32) (ix2 p q)
      = ∑ k : Fin 256, L (ix2 p k) * R (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## The body's value at an index -/

/-- The bias, cast to one row and broadcast down the 2000 rows, at row p and column q is its entry q. -/
theorem biasRows_apply (B : Vec Ideal S256 .f32) (p : Fin 2000) (q : Fin 256) :
    broadcastTo S2000x256 (shapeCast S1x256 B shapeCasts_S256_S1x256) broadcasts_S1x256_S2000x256 (ix2 p q) = B (ix1 q) := by
  rw [broadcastTo_1b_ab_apply, shapeCast_a_1a_apply]

/-- The body's stored value at row p, column q of its block: the dense layer's row function of row p of the block of x. -/
theorem pay_apply (X : Vec Ideal S2000x256 .f32) (W : Vec Ideal S256x256 .f32) (B : Vec Ideal S256 .f32) (p : Fin 2000) (q : Fin 256) :
    k0_pay1 (F := Ideal) X W B (ix2 p q) = Rows.rowK1 (fun k => X (ix2 p k)) (Rows.mat W) (Rows.vec B) q := by
  have hm := blockProduct_apply (truncf .bf16 X bitsLt_bf16_f32) (truncf .bf16 W bitsLt_bf16_f32) p q
  have hb := biasRows_apply B p q
  show (matmul dot_S2000x256_S256x256_S2000x256_1_0_0_1_n_n none (truncf .bf16 X bitsLt_bf16_f32) (truncf .bf16 W bitsLt_bf16_f32) (constant (F := Ideal) S2000x256 .f32 0x00000000#32) (ix2 p q)
        + broadcastTo S2000x256 (shapeCast S1x256 B shapeCasts_S256_S1x256) broadcasts_S1x256_S2000x256 (ix2 p q))
      * Ideal.logistic (matmul dot_S2000x256_S256x256_S2000x256_1_0_0_1_n_n none (truncf .bf16 X bitsLt_bf16_f32) (truncf .bf16 W bitsLt_bf16_f32) (constant (F := Ideal) S2000x256 .f32 0x00000000#32) (ix2 p q)
        + broadcastTo S2000x256 (shapeCast S1x256 B shapeCasts_S256_S1x256) broadcasts_S1x256_S2000x256 (ix2 p q)) = _
  rw [hm, hb]
  rfl

/-! ## From the blocks to the array -/

/-- The dense layer at every row: entry (r, q) is the row function of row r of x. -/
def layer (x : S50000x256.Idx → EReal) (W : S256x256.Idx → EReal) (B : S256.Idx → EReal) : S50000x256.Idx → EReal :=
  fun i => Rows.rowK1 (fun k => x (ix2 (i 0 : Fin 50000) k)) (Rows.mat W) (Rows.vec B) (i 1 : Fin 256)

theorem layer_apply (x : S50000x256.Idx → EReal) (W : S256x256.Idx → EReal) (B : S256.Idx → EReal) (r : Fin 50000) (q : Fin 256) :
    layer x W B (ix2 r q) = Rows.rowK1 (fun k => x (ix2 r k)) (Rows.mat W) (Rows.vec B) q := rfl

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 25 grid points: the block of x and the output block are block t of the rows, W and b
    are staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section Entry
-- the TensorCore's buffer contents when the region is entered
variable (V : (c : Dev nD) → (b : Ref sig .tc) → Buf (Elt Ideal) ((c : Thread nD τ).loc b))

/-- Row p of the block of x staged at point t is row 2000·t + p of x. -/
theorem xBlock_apply (c : Dev nD) (t : Fin cfg0.N) (p : Fin 2000) (k : Fin 256) (r : Fin 50000) (hr : r.val = 2000 * t.val + p.val) :
    (iblk0 V c 0 t : Vec Ideal S2000x256 .f32) (ix2 p k) = (V c main_arg0 : S50000x256.Idx → EReal) (ix2 r k) := by
  obtain ⟨e00, e01, -⟩ := idx_facts t
  unfold iblk0
  rw [View.read_apply]
  show V c main_arg0 (((cfg0.win 0).blk t).view.emb (ix2 p k)) = V c main_arg0 (ix2 r k)
  refine congrArg _ ?_
  funext a
  apply Fin.ext
  match a with
  | ⟨0, _⟩ => show win0_0.index t (0 : Fin 2) * 2000 + 1 * p.val = r.val; rw [e00, hr]; omega
  | ⟨1, _⟩ => show win0_0.index t (1 : Fin 2) * 256 + 1 * k.val = k.val; rw [e01]; omega

/-- The staged W is W. -/
theorem wBlock_eq (c : Dev nD) (t : Fin cfg0.N) :
    (iblk0 V c 1 t : Vec Ideal S256x256 .f32) = (V c main_arg5 : S256x256.Idx → EReal) := by
  obtain ⟨-, -, e10, e11, -⟩ := idx_facts t
  funext y
  unfold iblk0
  rw [View.read_apply]
  show V c main_arg5 (((cfg0.win 1).blk t).view.emb y) = V c main_arg5 y
  refine congrArg _ ?_
  funext a
  apply Fin.ext
  match a with
  | ⟨0, _⟩ => show win0_1.index t (0 : Fin 2) * 256 + 1 * (y 0).val = (y 0).val; rw [e10]; omega
  | ⟨1, _⟩ => show win0_1.index t (1 : Fin 2) * 256 + 1 * (y 1).val = (y 1).val; rw [e11]; omega

/-- The staged b is b. -/
theorem bBlock_eq (c : Dev nD) (t : Fin cfg0.N) :
    (iblk0 V c 2 t : Vec Ideal S256 .f32) = (V c main_arg6 : S256.Idx → EReal) := by
  obtain ⟨-, -, -, -, e2, -⟩ := idx_facts t
  funext y
  unfold iblk0
  rw [View.read_apply]
  show V c main_arg6 (((cfg0.win 2).blk t).view.emb y) = V c main_arg6 y
  refine congrArg _ ?_
  funext a
  apply Fin.ext
  match a with
  | ⟨0, _⟩ => show win0_2.index t (0 : Fin 1) * 256 + 1 * (y 0).val = (y 0).val; rw [e2]; omega

/-- Entry (p, q) of the output block at point t sits at row 2000·t + p, column q of the array. -/
theorem outBlock_emb (t : Fin cfg0.N) (p : Fin 2000) (q : Fin 256) (r : Fin 50000) (hr : r.val = 2000 * t.val + p.val) :
    ((cfg0.win 3).blk t).view.emb (ix2 p q) = (ix2 r q : S50000x256.Idx) := by
  obtain ⟨-, -, -, -, -, e30, e31⟩ := idx_facts t
  funext a
  apply Fin.ext
  match a with
  | ⟨0, _⟩ => show win0_3.index t (0 : Fin 2) * 2000 + 1 * p.val = r.val; rw [e30, hr]; omega
  | ⟨1, _⟩ => show win0_3.index t (1 : Fin 2) * 256 + 1 * q.val = q.val; rw [e31]; omega

/-- What point t writes back is block t of the dense layer of the arrays as the region finds them. -/
theorem flushed_eq (c : Dev nD) (t : Fin cfg0.N) :
    (dat0 V c).flushed 3 t = ((cfg0.win 3).blk t).view.read (Elt Ideal) (layer (V c main_arg0) (V c main_arg5) (V c main_arg6)) := by
  show (cfg0.win 3).cut (grid0.coords t) ((dat0 V c).after 3 t) = _
  rw [after0_3]
  unfold out0_3
  rw [View.canon_unit_zero zeros2]
  simp only [View.ld_unit_zero (S := S2000x256) zeros2, View.ld_unit_zero (S := S256x256) zeros2, View.ld_unit_zero (S := S256) zeros1]
  rw [wBlock_eq V c t, bBlock_eq V c t]
  funext j
  obtain ⟨p, q, rfl⟩ : ∃ (p : Fin 2000) (q : Fin 256), j = ix2 p q := ⟨j 0, j 1, eq_ix2 (n0 := 2000) (n1 := 256) j⟩
  have hN : cfg0.N = 25 := N_0
  have ht : t.val < 25 := hN ▸ t.isLt
  have hr : (⟨2000 * t.val + p.val, by have := p.isLt; omega⟩ : Fin 50000).val = 2000 * t.val + p.val := rfl
  show k0_pay1 (F := Ideal) (iblk0 V c 0 t) (V c main_arg5) (V c main_arg6) (ix2 p q)
      = layer (V c main_arg0) (V c main_arg5) (V c main_arg6) (((cfg0.win 3).blk t).view.emb (ix2 p q))
  rw [outBlock_emb t p q _ hr, layer_apply, pay_apply]
  refine congrArg (fun x => Rows.rowK1 x (Rows.mat (V c main_arg5)) (Rows.vec (V c main_arg6)) q) ?_
  funext k
  exact xBlock_apply V c t p k _ hr

/-- An index of the array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v4).slice (win0_3.rect t)).set ↔ _
  rw [View.set_slice_whole, Rect.mem_set_unit]
  exact Iff.rfl

/-- Row r lies in block r / 2000. -/
theorem cover (i : S50000x256.Idx) : ∃ t : Fin cfg0.N, (cfg0.win 3).flush t = true ∧ i ∈ ((cfg0.win 3).blk t).view.set := by
  have hi0 : (i 0).val < 50000 := idx2_lt0 i
  have hi1 : (i 1).val < 256 := idx2_lt1 i
  have hN : cfg0.N = 25 := N_0
  refine ⟨⟨(i 0).val / 2000, by rw [hN]; omega⟩, flush0_3 _, ?_⟩
  rw [mem_blk]
  obtain ⟨-, -, -, -, -, e30, e31⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e31]; omega

/-- The array region 0 leaves: the dense layer of the arrays as the region finds them, at every row. -/
theorem region0_array (c : Dev nD) :
    (dat0 V c).arrAt 3 cfg0.N = layer (V c main_arg0) (V c main_arg5) (V c main_arg6) :=
  (dat0 V c).arrAt_eq_of_cover 3 _ (fun t _ => flushed_eq V c t) cover

/-- The same at an entry. -/
theorem region0_apply (c : Dev nD) (r : Fin 50000) (q : Fin 256) :
    (dat0 V c).arrAt 3 cfg0.N (ix2 r q)
      = Rows.rowK1 (fun k => (V c main_arg0 : S50000x256.Idx → EReal) (ix2 r k)) (Rows.mat (V c main_arg5)) (Rows.vec (V c main_arg6)) q := by
  rw [region0_array V c]; rfl

end Entry

/-! ## The run: region 0's entry contents are the launch's, and its exit array is the dense layer of the arguments -/

section Run
variable (m : (ℓ : Loc nD τ sig) → Buf (Elt Ideal) ℓ) (ρ : Dev nD → PrngReg)

/-- The host operations before region 0 (two slices of the edge list and their reshapes) write none of x, W, b. -/
theorem entry_x (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem entry_W (c : Dev nD) : V1 m ρ c main_arg5 = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem entry_b (c : Dev nD) : V1 m ρ c main_arg6 = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Region 0's output array at its exit: the dense layer of the argument arrays x, W, b, at every row. -/
theorem exit_array (c : Dev nD) :
    W2 m ρ c (Proc.devRef .tc main_v4)
      = layer (m ((c : Thread nD τ).loc main_arg0)) (m ((c : Thread nD τ).loc main_arg5)) (m ((c : Thread nD τ).loc main_arg6)) :=
  (W2_arr m ρ c 3).trans ((region0_array (V1 m ρ) c).trans (by rw [entry_x m ρ c, entry_W m ρ c, entry_b m ρ c]))

/-- The same at an entry: row r, column q is the row function of row r of x. -/
theorem exit_apply (c : Dev nD) (r : Fin 50000) (q : Fin 256) :
    W2 m ρ c (Proc.devRef .tc main_v4) (ix2 r q)
      = Rows.rowK1 (fun k => (m ((c : Thread nD τ).loc main_arg0) : S50000x256.Idx → EReal) (ix2 r k))
          (Rows.mat (m ((c : Thread nD τ).loc main_arg5))) (Rows.vec (m ((c : Thread nD τ).loc main_arg6))) q := by
  rw [exit_array m ρ c]; rfl

end Run

end Cert.Stage1K

end
-- ==== Proof.Stage1.lean ====
/-
  The first link of the chain: the dense layer x₁ = silu (x · W + b). The reference computes it on the whole 50000 × 256 array
  (a product of x with W, the bias broadcast down the rows, then y · 1 / (1 + e^{-y}) written out as negate, exponential,
  1 + ·, 1 ÷ ·, multiply); the kernel computes it block of 2000 rows by block. Both are, at row r and column q, the row
  function Rows.rowK1 of row r of x, of W and of b.
-/
import proofs.«408299_j82652350644685_2_alg».proof.Proof.Stages
import proofs.«408299_j82652350644685_2_alg».proof.Proof.Stage1K

noncomputable section

namespace Cert.Stages

open Idealize.ShloMosaic Idealize.ShloMosaic.TcCoe Idealize.SL.Sem Idealize.ShloMosaic.ValueIdx
open Cert.KernelIdeal Cert.KernelIdeal.Gen Cert.ReferenceIdeal.ReadP

variable (m : (ℓ : Loc nD τ sig) → Buf (Elt Ideal) ℓ) (ρ : Dev nD → PrngReg) (c : Dev nD)

/-- The reference's stage at row r, column q: the product's sum over k, plus the bias at q, through silu with the logistic
    function spelt out; the word 0x3F800000 is 1. -/
theorem ref1_apply (x0 : (⟨S50000x256, .f32⟩ : BufTy).Contents (Elt Ideal)) (x5 : (⟨S256x256, .f32⟩ : BufTy).Contents (Elt Ideal))
    (x6 : (⟨S256, .f32⟩ : BufTy).Contents (Elt Ideal)) (r : Fin 50000) (q : Fin 256) :
    val_main_v8 (F := Ideal) x0 x5 x6 (ix2 r q) = Rows.rowK1 (fun k => x0 (ix2 r k)) (Rows.mat x5) (Rows.vec x6) q := by
  have hl : ∀ k : Fin 256, lidx_main_v4 (ix2 r q) k = ix2 r k := fun k => funext fun a => by
    match a with | ⟨0, _⟩ => rfl | ⟨1, _⟩ => rfl
  have hr : ∀ k : Fin 256, ridx_main_v4 (ix2 r q) k = ix2 k q := fun k => funext fun a => by
    match a with | ⟨0, _⟩ => rfl | ⟨1, _⟩ => rfl
  have hb : idx_main_v5 (idx_main_v6 (ix2 r q)) = ix1 q := funext fun a => by
    match a with | ⟨0, _⟩ => rfl
  have h4 : val_main_v4 (F := Ideal) x0 x5 (ix2 r q) = Rows.dot (fun k => x0 (ix2 r k)) (Rows.mat x5) q := by
    rw [val_main_v4_apply]
    simp only [hl, hr]
    rfl
  have h6 : val_main_v6 (F := Ideal) x6 (ix2 r q) = Rows.vec x6 q := by
    rw [val_main_v6_apply, val_main_v5_apply, hb]
    rfl
  have one : Ideal.ofBits .f32 0x3F800000#32 = 1 := IdealRules.sign_bit.ideal_onePat .f32
  rw [val_main_v8_apply, val_main_call0_v5_apply, val_main_call0_v4_apply, val_main_call0_cst_0_apply, val_main_call0_v3_apply,
    val_main_call0_v2_apply, val_main_call0_cst_apply, val_main_call0_v1_apply, val_main_call0_v0_apply, val_main_v7_apply, h4, h6]
  show (Rows.dot (fun k => x0 (ix2 r k)) (Rows.mat x5) q + Rows.vec x6 q)
      * Ideal.div (Ideal.ofBits .f32 0x3F800000#32) (Ideal.ofBits .f32 0x3F800000#32
        + Ideal.exp (-(Rows.dot (fun k => x0 (ix2 r k)) (Rows.mat x5) q + Rows.vec x6 q))) = _
  rw [one]
  rfl

/-- Stage 1: the array region 0 leaves is the reference's first dense layer. -/
theorem stage1 : kX1 m ρ c = rX1 m c := by
  funext i
  obtain ⟨r, q, rfl⟩ : ∃ (r : Fin 50000) (q : Fin 256), i = ix2 r q := ⟨i 0, i 1, eq_ix2 (n0 := 50000) (n1 := 256) i⟩
  exact (Cert.Stage1K.exit_apply m ρ c r q).trans (ref1_apply (A0 m c) (A5 m c) (A6 m c) r q).symm

end Cert.Stages

end
-- ==== Proof.Stage2.lean ====
/-
  Stage 2: the gathered source rows. The kernel's program takes rows of the stage-1 array at the edges' source ids in
  fill mode: ids below zero are shifted by the table's length, an id outside `[0, 50000)` after the shift reads the fill
  word, and the rest read the gathered row. The reference indexes plainly, with the same shift. Under the precondition
  every source id lies in `[0, 50000)`, so no id is shifted, every id passes the range test, the mask is 1 everywhere
  and the fill-mode take is the plain gather of the same table at the same index column.
-/
import proofs.«408299_j82652350644685_2_alg».proof.Proof.Stages
import Idealize.ShloMosaic.Lib.StableHlo.Run
import Idealize.ShloMosaic.Lib.StableHlo.Predicate
import Idealize.ShloMosaic.Lib.ValueIdx

noncomputable section

namespace Cert.Stages

open Idealize.ShloMosaic Idealize.ShloMosaic.TcCoe Idealize.SL.Sem
open Cert.KernelIdeal Cert.KernelIdeal.Gen Cert.ReferenceIdeal.ReadP

namespace S2

/-! ## Words and masks -/

/-- A left fold by `and` over one-bit words, all of them 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduce by `and` from 1 of an array of 1s is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun i _ => hx i

/-- A word in `[0, 50000)` is not shifted, and passes both range tests. -/
theorem wrap_word (w : BitVec 32) (h0 : 0 ≤ w.toInt) (h1 : w.toInt < 50000) :
    Scalar.select (IntOp.cmpi .slt w 0#32) (IntOp.addi w 50000#32) w = w
    ∧ IntOp.andi (IntOp.cmpi .sge w 0#32) (IntOp.cmpi .sle w 49999#32) = 1#1 := by
  have z : (0#32 : BitVec 32).toInt = 0 := by decide
  have k : (49999#32 : BitVec 32).toInt = 49999 := by decide
  refine ⟨if_neg fun hc => ?_, IntOp.andi_eq_one.2 ⟨IntOp.cmpi_sge.2 (by rw [z]; exact h0), IntOp.cmpi_sle.2 (by rw [k]; omega)⟩⟩
  have := IntOp.cmpi_slt.1 hc
  rw [z] at this
  omega

/-- What holds of every element of an array holds of every element of its broadcast. -/
theorem bcast_forall {s t : Shape} {α : Type} (dims : Fin s.rank → Fin t.rank) (h : s.BroadcastsInDim t dims) (x : s.Idx → α)
    (P : α → Prop) (hP : ∀ k, P (x k)) (j : t.Idx) : P (broadcastInDim t dims h x j) := hP _

/-! ## The fill-mode take as one term -/

/-- The index column: ids below zero shifted by the table's length, laid out as a column. -/
def takeIdx (src : (⟨S250000, .i32⟩ : BufTy).Contents (Elt Ideal)) : (⟨S250000x1, .i32⟩ : BufTy).Contents (Elt Ideal) :=
  broadcastInDim S250000x1 ![0] bcast_S250000_S250000x1_0
    (select (cmpi .slt src (broadcastInDim S250000 ![] bcast_S_S250000 (constantI S_ 32 0#32)))
      (addi src (broadcastInDim S250000 ![] bcast_S_S250000 (constantI S_ 32 50000#32))) src)

/-- The in-range mask of the index column. -/
def takeMask (src : (⟨S250000, .i32⟩ : BufTy).Contents (Elt Ideal)) : (⟨S250000, .i1⟩ : BufTy).Contents (Elt Ideal) :=
  Host.reduce IntOp.andi
    (andi (cmpi .sge (takeIdx src) (broadcastInDim S250000x1 ![] bcast_S_S250000x1 (constantI S_ 32 0#32)))
      (cmpi .sle (takeIdx src) (broadcastInDim S250000x1 ![0, 1] bcast_S1x1_S250000x1_0_1
        (broadcastInDim S1x1 ![1] bcast_S1_S1x1_1 (constantI S1 32 49999#32)))))
    (constantI S_ 1 1#1) reducesTo_S250000x1_S250000_d1 h_S_

/-- The fill-mode take: the gathered row where the id is in range, the fill word elsewhere. -/
def takeFill (X : (⟨S50000x256, .f32⟩ : BufTy).Contents (Elt Ideal)) (src : (⟨S250000, .i32⟩ : BufTy).Contents (Elt Ideal)) :
    (⟨S250000x256, .f32⟩ : BufTy).Contents (Elt Ideal) :=
  select (broadcastInDim S250000x256 ![0] bcast_S250000_S250000x256_0 (takeMask src))
    (Host.gather gather_S50000x256_S250000x1_S250000x256_1_0_n_n_0_1_1256 X (takeIdx src))
    (broadcastInDim S250000x256 ![] bcast_S_S250000x256 (constant (F := Ideal) S_ .f32 0x7FC00000#32))

/-- The take's operations, run from any contents, leave `takeFill` of the table and the ids they found. -/
theorem take_after (V : Valuation τ sig (Elt Ideal)) :
    StableHlo.after (hostOps1_1 (F := Ideal)) V (Proc.devRef .tc main_v7)
      = takeFill (V (Proc.devRef .tc main_v4)) (V (Proc.devRef .tc main_v1)) := by
  after_results_simp
  simp only [StableHlo.TRef.ofBuf, StableHlo.TRef.toBuf, cast_eq]
  rfl

/-- With every id in `[0, 50000)` the fill-mode take is the plain gather. -/
theorem takeFill_of_range (X : (⟨S50000x256, .f32⟩ : BufTy).Contents (Elt Ideal))
    (src : (⟨S250000, .i32⟩ : BufTy).Contents (Elt Ideal))
    (hsrc : ∀ k : S250000.Idx, 0 ≤ (src k).toInt ∧ (src k).toInt < 50000) :
    takeFill X src = Host.gather gather_S50000x256_S250000x1_S250000x256_1_0_n_n_0_1_1256 X (takeIdx src) := by
  have hidx : ∀ j, 0 ≤ (takeIdx src j).toInt ∧ (takeIdx src j).toInt < 50000 := by
    unfold takeIdx
    refine bcast_forall _ _ _ (fun w : BitVec 32 => 0 ≤ w.toInt ∧ w.toInt < 50000) (fun k => ?_)
    show 0 ≤ (Scalar.select (IntOp.cmpi .slt (src k) 0#32) (IntOp.addi (src k) 50000#32) (src k)).toInt
      ∧ (Scalar.select (IntOp.cmpi .slt (src k) 0#32) (IntOp.addi (src k) 50000#32) (src k)).toInt < 50000
    rw [(wrap_word (src k) (hsrc k).1 (hsrc k).2).1]
    exact hsrc k
  have hmask : ∀ k, takeMask src k = 1#1 := by
    unfold takeMask
    refine reduce_andi_one _ _ _ _ rfl (fun j => ?_)
    show IntOp.andi (IntOp.cmpi .sge (takeIdx src j) 0#32) (IntOp.cmpi .sle (takeIdx src j) 49999#32) = 1#1
    exact (wrap_word _ (hidx j).1 (hidx j).2).2
  funext i
  have hb : broadcastInDim S250000x256 ![0] bcast_S250000_S250000x256_0 (takeMask src) i = 1#1 :=
    bcast_forall _ _ (takeMask src) (fun b : BitVec 1 => b = 1#1) hmask i
  unfold takeFill
  rw [ValueIdx.select_apply, hb]
  exact ValueIdx.select_one _ _

/-! ## The two operands the take finds -/

section Walk

variable (m : (ℓ : Loc nD τ sig) → Buf (Elt Ideal) ℓ) (ρ : Dev nD → PrngReg) (c : Dev nD)

/-- The two matrix products between region 0 and the take leave the stage-1 array alone. -/
theorem W3_main_v4 : W3 m ρ c (Proc.devRef .tc main_v4) = kX1 m ρ c :=
  StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The source ids the take reads are the reshaped first row of the edge array, as launched: written before region 0,
    which does not touch them, and not by the two matrix products. -/
theorem W3_main_v1 : W3 m ρ c (Proc.devRef .tc main_v1) = val_main_v1 (F := Ideal) (A3 m c) :=
  calc W3 m ρ c (Proc.devRef .tc main_v1)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)
    _ = val_main_v1 (F := Ideal) (A3 m c) := by
      show StableHlo.after (hostOps0 (F := Ideal)) (W0 m ρ c) (Proc.devRef .tc main_v1) = _
      after_results
      rfl

/-- The reshaped first row of the edge array at `e` is the array at `(0, e)`. -/
theorem src_apply (x3 : (⟨S2x250000, .i32⟩ : BufTy).Contents (Elt Ideal)) (e : Fin 250000) :
    val_main_v1 (F := Ideal) x3 (ValueIdx.ix1 e) = x3 (ValueIdx.ix2 (0 : Fin 2) e) := by
  rw [val_main_v1_apply, val_main_v0_apply]
  refine congrArg x3 (funext fun a => ?_)
  match a with
  | ⟨0, _⟩ => exact Fin.ext rfl
  | ⟨1, _⟩ => exact Fin.ext (Nat.mod_eq_of_lt e.isLt)

end Walk

end S2

open S2

/-! ## The link -/

section Link

variable (m : (ℓ : Loc nD τ sig) → Buf (Elt Ideal) ℓ) (ρ : Dev nD → PrngReg) (c : Dev nD)

theorem stage2 (hs : SrcOk m c) (h1 : kX1 m ρ c = rX1 m c) : kXS m ρ c = rXS m c ∧ rXS' m c = rXS m c := by
  refine ⟨?_, rfl⟩
  have hsrc : ∀ k : S250000.Idx, 0 ≤ (val_main_v1 (F := Ideal) (A3 m c) k).toInt
      ∧ (val_main_v1 (F := Ideal) (A3 m c) k).toInt < 50000 := fun k => by
    obtain ⟨e, rfl⟩ : ∃ e : Fin 250000, k = ValueIdx.ix1 e := ⟨k 0, ValueIdx.eq_ix1 k⟩
    rw [src_apply]
    exact hs e
  calc kXS m ρ c
    _ = takeFill (W3 m ρ c (Proc.devRef .tc main_v4)) (W3 m ρ c (Proc.devRef .tc main_v1)) := take_after (W3 m ρ c)
    _ = takeFill (kX1 m ρ c) (val_main_v1 (F := Ideal) (A3 m c)) := by rw [W3_main_v4, W3_main_v1]
    _ = Host.gather gather_S50000x256_S250000x1_S250000x256_1_0_n_n_0_1_1256 (kX1 m ρ c)
          (takeIdx (val_main_v1 (F := Ideal) (A3 m c))) := takeFill_of_range _ _ hsrc
    _ = Host.gather gather_S50000x256_S250000x1_S250000x256_1_0_n_n_0_1_1256 (rX1 m c)
          (takeIdx (val_main_v1 (F := Ideal) (A3 m c))) :=
        congrArg (fun X => Host.gather gather_S50000x256_S250000x1_S250000x256_1_0_n_n_0_1_1256 X
          (takeIdx (val_main_v1 (F := Ideal) (A3 m c)))) h1
    _ = rXS m c := rfl

end Link

end Cert.Stages

end
-- ==== Proof.Stage3R.lean ====
/-
  Stage 3, the reference's half: the message halves read at an index, the filter chain reassociated.
-/
import proofs.«408299_j82652350644685_2_alg».proof.Proof.Stages

noncomputable section

namespace Cert.Stages

open Idealize.ShloMosaic Idealize.ShloMosaic.TcCoe Idealize.SL.Sem
open Cert.KernelIdeal Cert.KernelIdeal.Gen Cert.ReferenceIdeal.ReadP

/-! ## The triple product on the extended reals -/

/-- The coercion of the reals into the extended reals commutes with finite sums. -/
theorem coe_sum_ereal {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a triple product of matrices, entrywise:
    `∑ k, (∑ j, a j · b j k) · c k = ∑ j, a j · (∑ k, b j k · c k)`. On the extended reals a factor does not move
    across a sum in general (`∞ - ∞`); it does when every entry is a real number. -/
theorem triple_assoc_ereal {J K : Type*} [Fintype J] [Fintype K]
    (a : J → EReal) (b : J → K → EReal) (c : K → EReal)
    (ha : ∀ j, ∃ x : ℝ, a j = (x : EReal)) (hb : ∀ j k, ∃ x : ℝ, b j k = (x : EReal))
    (hc : ∀ k, ∃ x : ℝ, c k = (x : EReal)) :
    ∑ k, (∑ j, a j * b j k) * c k = ∑ j, a j * ∑ k, b j k * c k := by
  choose a' ha' using ha
  choose b' hb' using hb
  choose c' hc' using hc
  simp only [ha', hb', hc', ← EReal.coe_mul, ← coe_sum_ereal]
  congr 1
  simp only [Finset.sum_mul, Finset.mul_sum]
  rw [Finset.sum_comm]
  refine Finset.sum_congr rfl fun j _ => Finset.sum_congr rfl fun k _ => ?_
  ring

/-! ## The two filter chains at an index -/

/-- The first filter chain at edge `e`, column `q`: `∑ k, (∑ j, x₁[e,j] · x₇[j,k]) · x₈[k,q]`. -/
theorem filter1_at (x1 : (⟨S250000x294, .f32⟩ : BufTy).Contents (Elt Ideal)) (x7 : (⟨S294x256, .f32⟩ : BufTy).Contents (Elt Ideal))
    (x8 : (⟨S256x256, .f32⟩ : BufTy).Contents (Elt Ideal)) (e : Fin 250000) (q : Fin 256) :
    val_main_v10 (F := Ideal) x1 x7 x8 (ValueIdx.ix2 e q)
      = ∑ k : Fin 256, (∑ j : Fin 294, x1 (ValueIdx.ix2 e j) * x7 (ValueIdx.ix2 j k)) * x8 (ValueIdx.ix2 k q) := by
  rw [val_main_v10_apply]
  refine Finset.sum_congr rfl fun k _ => ?_
  rw [val_main_v9_apply]
  have er : ridx_main_v10 (ValueIdx.ix2 e q) k = ValueIdx.ix2 k q :=
    funext fun a => Fin.ext (by match a with | ⟨0, _⟩ => rfl | ⟨1, _⟩ => rfl)
  have el : ∀ j : Fin 294, lidx_main_v9 (lidx_main_v10 (ValueIdx.ix2 e q) k) j = ValueIdx.ix2 e j :=
    fun j => funext fun a => Fin.ext (by match a with | ⟨0, _⟩ => rfl | ⟨1, _⟩ => rfl)
  have em : ∀ j : Fin 294, ridx_main_v9 (lidx_main_v10 (ValueIdx.ix2 e q) k) j = ValueIdx.ix2 j k :=
    fun j => funext fun a => Fin.ext (by match a with | ⟨0, _⟩ => rfl | ⟨1, _⟩ => rfl)
  rw [er]
  congr 1
  exact Finset.sum_congr rfl fun j _ => by rw [el, em]

/-- The second filter chain at edge `e`, column `q`: `∑ k, (∑ j, x₂[e,j] · x₉[j,k]) · x₁₀[k,q]`. -/
theorem filter2_at (x2 : (⟨S250000x42, .f32⟩ : BufTy).Contents (Elt Ideal)) (x9 : (⟨S42x256, .f32⟩ : BufTy).Contents (Elt Ideal))
    (x10 : (⟨S256x256, .f32⟩ : BufTy).Contents (Elt Ideal)) (e : Fin 250000) (q : Fin 256) :
    val_main_v34 (F := Ideal) x2 x9 x10 (ValueIdx.ix2 e q)
      = ∑ k : Fin 256, (∑ j : Fin 42, x2 (ValueIdx.ix2 e j) * x9 (ValueIdx.ix2 j k)) * x10 (ValueIdx.ix2 k q) := by
  rw [val_main_v34_apply]
  refine Finset.sum_congr rfl fun k _ => ?_
  rw [val_main_v33_apply]
  have er : ridx_main_v34 (ValueIdx.ix2 e q) k = ValueIdx.ix2 k q :=
    funext fun a => Fin.ext (by match a with | ⟨0, _⟩ => rfl | ⟨1, _⟩ => rfl)
  have el : ∀ j : Fin 42, lidx_main_v33 (lidx_main_v34 (ValueIdx.ix2 e q) k) j = ValueIdx.ix2 e j :=
    fun j => funext fun a => Fin.ext (by match a with | ⟨0, _⟩ => rfl | ⟨1, _⟩ => rfl)
  have em : ∀ j : Fin 42, ridx_main_v33 (lidx_main_v34 (ValueIdx.ix2 e q) k) j = ValueIdx.ix2 j k :=
    fun j => funext fun a => Fin.ext (by match a with | ⟨0, _⟩ => rfl | ⟨1, _⟩ => rfl)
  rw [er]
  congr 1
  exact Finset.sum_congr rfl fun j _ => by rw [el, em]

variable (m : (ℓ : Loc nD τ sig) → Buf (Elt Ideal) ℓ) (ρ : Dev nD → PrngReg) (c : Dev nD)

/-- The reference's message halves at an edge and a column: the radial filter's two matrix products reassociated (the
    edge's filter row times the PRODUCT of the two weight matrices), times the gathered source row. Associativity of the
    triple product moves a factor across a sum, which holds where the factors are real numbers. -/
theorem ref_msg_row (hf : FiltersReal m c) (e : Fin 250000) (q : Fin 256) :
    rMsg1 m c (ValueIdx.ix2 e q)
      = Rows.dot (fun k : Fin 294 => A1 m c (ValueIdx.ix2 e k))
          (fun (j : Fin 294) (q' : Fin 256) => Rows.dot (fun k : Fin 256 => A7 m c (ValueIdx.ix2 j k)) (Rows.mat (A8 m c)) q') q
        * rXS m c (ValueIdx.ix2 e q)
    ∧ rMsg2 m c (ValueIdx.ix2 e q)
      = Rows.dot (fun k : Fin 42 => A2 m c (ValueIdx.ix2 e k))
          (fun (j : Fin 42) (q' : Fin 256) => Rows.dot (fun k : Fin 256 => A9 m c (ValueIdx.ix2 j k)) (Rows.mat (A10 m c)) q') q
        * rXS' m c (ValueIdx.ix2 e q) := by
  obtain ⟨h1, h7, h8, h2, h9, h10⟩ := hf
  constructor
  · show val_main_v10 (F := Ideal) (A1 m c) (A7 m c) (A8 m c) (ValueIdx.ix2 e q) * rXS m c (ValueIdx.ix2 e q) = _
    rw [filter1_at]
    congr 1
    exact triple_assoc_ereal (fun j : Fin 294 => A1 m c (ValueIdx.ix2 e j)) (fun (j : Fin 294) (k : Fin 256) => A7 m c (ValueIdx.ix2 j k))
      (fun k : Fin 256 => A8 m c (ValueIdx.ix2 k q)) (fun j => h1 _) (fun j k => h7 _) (fun k => h8 _)
  · show val_main_v34 (F := Ideal) (A2 m c) (A9 m c) (A10 m c) (ValueIdx.ix2 e q) * rXS' m c (ValueIdx.ix2 e q) = _
    rw [filter2_at]
    congr 1
    exact triple_assoc_ereal (fun j : Fin 42 => A2 m c (ValueIdx.ix2 e j)) (fun (j : Fin 42) (k : Fin 256) => A9 m c (ValueIdx.ix2 j k))
      (fun k : Fin 256 => A10 m c (ValueIdx.ix2 k q)) (fun j => h2 _) (fun j k => h9 _) (fun k => h10 _)

end Cert.Stages

end
-- ==== Proof.Stage3K.lean ====
/-
  Stage 3, the kernel's half: what region 1 leaves in the message array. The body multiplies each edge's two radial
  filter rows into the precombined filter matrices and then, entry by entry, into the edge's gathered source row, and
  sets the two products side by side. Read row by row that is `Rows.rowK2`; the 125 row blocks of 2000 tile the
  250000 edges, so the whole array is `Rows.rowK2` of the rows of the arrays the region finds.
-/
import proofs.«408299_j82652350644685_2_alg».proof.Proof.Gen.KernelIdeal.Frame
import proofs.«408299_j82652350644685_2_alg».proof.Proof.Rows
import Idealize.ShloMosaic.Lib.Pipeline.Value
import Idealize.ShloMosaic.Lib.ValueIdx
import Idealize.ShloMosaic.PureOps.Ideal.Laws

noncomputable section

namespace Cert.Stage3K

open Idealize.ShloMosaic Idealize.ShloMosaic.TcCoe Idealize.SL.Sem
open Idealize.ShloMosaic.Pipeline (Dat)
open Cert.KernelIdeal Cert.KernelIdeal.Gen

/-! ## The two matrix products of the body, read at an index -/

theorem lhsA_0 (i : S2000x256.Idx) (q : dot_S2000x294_S294x256_S2000x256_1_0_0_1_n_n.contr.Idx) :
    (dot_S2000x294_S294x256_S2000x256_1_0_0_1_n_n.lhsIdx i q 0).val = (i 0).val := by
  unfold DotDims.lhsIdx
  rw [dif_neg (show ¬(0 : Fin S2000x294.rank) ∈ dot_S2000x294_S294x256_S2000x256_1_0_0_1_n_n.lhsBatch by decide), dif_pos (show (0 : Fin S2000x294.rank) ∈ dot_S2000x294_S294x256_S2000x256_1_0_0_1_n_n.lhsNonContracting by decide)]
  rfl
theorem lhsA_1 (i : S2000x256.Idx) (q : dot_S2000x294_S294x256_S2000x256_1_0_0_1_n_n.contr.Idx) :
    (dot_S2000x294_S294x256_S2000x256_1_0_0_1_n_n.lhsIdx i q 1).val = (q ⟨0, by decide⟩).val :=
  dot_S2000x294_S294x256_S2000x256_1_0_0_1_n_n.lhsIdx_val_of_single rfl i q
theorem rhsA_0 (i : S2000x256.Idx) (q : dot_S2000x294_S294x256_S2000x256_1_0_0_1_n_n.contr.Idx) :
    (dot_S2000x294_S294x256_S2000x256_1_0_0_1_n_n.rhsIdx i q 0).val = (q ⟨0, by decide⟩).val :=
  dot_S2000x294_S294x256_S2000x256_1_0_0_1_n_n.rhsIdx_val_of_single rfl i q
theorem rhsA_1 (i : S2000x256.Idx) (q : dot_S2000x294_S294x256_S2000x256_1_0_0_1_n_n.contr.Idx) :
    (dot_S2000x294_S294x256_S2000x256_1_0_0_1_n_n.rhsIdx i q 1).val = (i 1).val := by
  unfold DotDims.rhsIdx
  rw [dif_neg (show ¬(1 : Fin S294x256.rank) ∈ dot_S2000x294_S294x256_S2000x256_1_0_0_1_n_n.rhsBatch by decide), dif_pos (show (1 : Fin S294x256.rank) ∈ dot_S2000x294_S294x256_S2000x256_1_0_0_1_n_n.rhsNonContracting by decide)]
  rfl

/-- The first product at row `p`, column `q`: row `p` of the left operand times column `q` of the right. -/
theorem mmA_apply (x : FVec Ideal S2000x294 .bf16) (w : FVec Ideal S294x256 .bf16) (p : Fin 2000) (q : Fin 256) :
    FloatOps.matmul dot_S2000x294_S294x256_S2000x256_1_0_0_1_n_n none x w (constant S2000x256 .f32 0x00000000#32) (ValueIdx.ix2 p q)
      = ∑ k : Fin 294, x (ValueIdx.ix2 p k) * w (ValueIdx.ix2 k q) := by
  rw [Ideal.matmul_constant_zero_apply, ← Equiv.sum_comp (ValueIdx.contrEquiv1 dot_S2000x294_S294x256_S2000x256_1_0_0_1_n_n 294 rfl rfl).symm]
  refine Finset.sum_congr rfl fun k _ => ?_
  have hk := ValueIdx.contrEquiv1_symm_val dot_S2000x294_S294x256_S2000x256_1_0_0_1_n_n 294 rfl rfl k
  have el : dot_S2000x294_S294x256_S2000x256_1_0_0_1_n_n.lhsIdx (ValueIdx.ix2 p q) ((ValueIdx.contrEquiv1 dot_S2000x294_S294x256_S2000x256_1_0_0_1_n_n 294 rfl rfl).symm k) = ValueIdx.ix2 p k := funext fun a => Fin.ext (by
    match a with
    | ⟨0, _⟩ => exact lhsA_0 _ _
    | ⟨1, _⟩ => exact (lhsA_1 _ _).trans hk)
  have er : dot_S2000x294_S294x256_S2000x256_1_0_0_1_n_n.rhsIdx (ValueIdx.ix2 p q) ((ValueIdx.contrEquiv1 dot_S2000x294_S294x256_S2000x256_1_0_0_1_n_n 294 rfl rfl).symm k) = ValueIdx.ix2 k q := funext fun a => Fin.ext (by
    match a with
    | ⟨0, _⟩ => exact (rhsA_0 _ _).trans hk
    | ⟨1, _⟩ => exact rhsA_1 _ _)
  rw [el, er]

theorem lhsB_0 (i : S2000x256.Idx) (q : dot_S2000x42_S42x256_S2000x256_1_0_0_1_n_n.contr.Idx) :
    (dot_S2000x42_S42x256_S2000x256_1_0_0_1_n_n.lhsIdx i q 0).val = (i 0).val := by
  unfold DotDims.lhsIdx
  rw [dif_neg (show ¬(0 : Fin S2000x42.rank) ∈ dot_S2000x42_S42x256_S2000x256_1_0_0_1_n_n.lhsBatch by decide), dif_pos (show (0 : Fin S2000x42.rank) ∈ dot_S2000x42_S42x256_S2000x256_1_0_0_1_n_n.lhsNonContracting by decide)]
  rfl
theorem lhsB_1 (i : S2000x256.Idx) (q : dot_S2000x42_S42x256_S2000x256_1_0_0_1_n_n.contr.Idx) :
    (dot_S2000x42_S42x256_S2000x256_1_0_0_1_n_n.lhsIdx i q 1).val = (q ⟨0, by decide⟩).val :=
  dot_S2000x42_S42x256_S2000x256_1_0_0_1_n_n.lhsIdx_val_of_single rfl i q
theorem rhsB_0 (i : S2000x256.Idx) (q : dot_S2000x42_S42x256_S2000x256_1_0_0_1_n_n.contr.Idx) :
    (dot_S2000x42_S42x256_S2000x256_1_0_0_1_n_n.rhsIdx i q 0).val = (q ⟨0, by decide⟩).val :=
  dot_S2000x42_S42x256_S2000x256_1_0_0_1_n_n.rhsIdx_val_of_single rfl i q
theorem rhsB_1 (i : S2000x256.Idx) (q : dot_S2000x42_S42x256_S2000x256_1_0_0_1_n_n.contr.Idx) :
    (dot_S2000x42_S42x256_S2000x256_1_0_0_1_n_n.rhsIdx i q 1).val = (i 1).val := by
  unfold DotDims.rhsIdx
  rw [dif_neg (show ¬(1 : Fin S42x256.rank) ∈ dot_S2000x42_S42x256_S2000x256_1_0_0_1_n_n.rhsBatch by decide), dif_pos (show (1 : Fin S42x256.rank) ∈ dot_S2000x42_S42x256_S2000x256_1_0_0_1_n_n.rhsNonContracting by decide)]
  rfl

/-- The second product at row `p`, column `q`. -/
theorem mmB_apply (x : FVec Ideal S2000x42 .bf16) (w : FVec Ideal S42x256 .bf16) (p : Fin 2000) (q : Fin 256) :
    FloatOps.matmul dot_S2000x42_S42x256_S2000x256_1_0_0_1_n_n none x w (constant S2000x256 .f32 0x00000000#32) (ValueIdx.ix2 p q)
      = ∑ k : Fin 42, x (ValueIdx.ix2 p k) * w (ValueIdx.ix2 k q) := by
  rw [Ideal.matmul_constant_zero_apply, ← Equiv.sum_comp (ValueIdx.contrEquiv1 dot_S2000x42_S42x256_S2000x256_1_0_0_1_n_n 42 rfl rfl).symm]
  refine Finset.sum_congr rfl fun k _ => ?_
  have hk := ValueIdx.contrEquiv1_symm_val dot_S2000x42_S42x256_S2000x256_1_0_0_1_n_n 42 rfl rfl k
  have el : dot_S2000x42_S42x256_S2000x256_1_0_0_1_n_n.lhsIdx (ValueIdx.ix2 p q) ((ValueIdx.contrEquiv1 dot_S2000x42_S42x256_S2000x256_1_0_0_1_n_n 42 rfl rfl).symm k) = ValueIdx.ix2 p k := funext fun a => Fin.ext (by
    match a with
    | ⟨0, _⟩ => exact lhsB_0 _ _
    | ⟨1, _⟩ => exact (lhsB_1 _ _).trans hk)
  have er : dot_S2000x42_S42x256_S2000x256_1_0_0_1_n_n.rhsIdx (ValueIdx.ix2 p q) ((ValueIdx.contrEquiv1 dot_S2000x42_S42x256_S2000x256_1_0_0_1_n_n 42 rfl rfl).symm k) = ValueIdx.ix2 k q := funext fun a => Fin.ext (by
    match a with
    | ⟨0, _⟩ => exact (rhsB_0 _ _).trans hk
    | ⟨1, _⟩ => exact rhsB_1 _ _)
  rw [el, er]

/-! ## The body's payload, read at an index -/

/-- The left half of the stored block: the first filter row times the first filter matrix, times the source row. -/
theorem pay_left (x0 : Vec Ideal S2000x294 .f32) (w1 : Vec Ideal S294x256 .f32) (x1 : Vec Ideal S2000x42 .f32)
    (w2 : Vec Ideal S42x256 .f32) (xs : Vec Ideal S2000x256 .f32) (p : Fin 2000) (q : Fin 256) :
    k1_pay1 (F := Ideal) x0 w1 x1 w2 xs (ValueIdx.ix2 p (⟨q.val, by omega⟩ : Fin 512))
      = Rows.dot (fun k : Fin 294 => x0 (ValueIdx.ix2 p k)) (Rows.mat w1) q * xs (ValueIdx.ix2 p q) := by
  unfold k1_pay1
  simp only [shapeCast_self]
  refine (concatenate_pair_apply_left (t := S2000x512) (s₁ := S2000x256) (s₂ := S2000x256) (1 : Fin 2) _ _
    concatenates_S2000x256_S2000x256_S2000x512_d1 (ValueIdx.ix2 p (⟨q.val, by omega⟩ : Fin 512)) rfl (ValueIdx.ix2 p q) (fun b => ?_)).trans ?_
  · match b with
    | ⟨0, _⟩ => rfl
    | ⟨1, _⟩ => rfl
  · rw [ValueIdx.mulf_apply]
    exact congrArg (· * xs (ValueIdx.ix2 p q)) (mmA_apply _ _ p q)

/-- The right half: the second filter row times the second filter matrix, times the source row. -/
theorem pay_right (x0 : Vec Ideal S2000x294 .f32) (w1 : Vec Ideal S294x256 .f32) (x1 : Vec Ideal S2000x42 .f32)
    (w2 : Vec Ideal S42x256 .f32) (xs : Vec Ideal S2000x256 .f32) (p : Fin 2000) (q : Fin 256) :
    k1_pay1 (F := Ideal) x0 w1 x1 w2 xs (ValueIdx.ix2 p (⟨256 + q.val, by omega⟩ : Fin 512))
      = Rows.dot (fun k : Fin 42 => x1 (ValueIdx.ix2 p k)) (Rows.mat w2) q * xs (ValueIdx.ix2 p q) := by
  unfold k1_pay1
  simp only [shapeCast_self]
  refine (concatenate_pair_apply_right (t := S2000x512) (s₁ := S2000x256) (s₂ := S2000x256) (1 : Fin 2) _ _
    concatenates_S2000x256_S2000x256_S2000x512_d1 (ValueIdx.ix2 p (⟨256 + q.val, by omega⟩ : Fin 512)) rfl rfl (ValueIdx.ix2 p q) (fun b hb => ?_) ?_).trans ?_
  · match b with
    | ⟨0, _⟩ => rfl
    | ⟨1, _⟩ => exact absurd rfl hb
  · show q.val + 256 = 256 + q.val
    omega
  · rw [ValueIdx.mulf_apply]
    exact congrArg (· * xs (ValueIdx.ix2 p q)) (mmB_apply _ _ p q)

/-- The stored block at row `p`: `Rows.rowK2` of row `p` of the three row-tiled blocks and the two whole filter matrices. -/
theorem pay_apply (x0 : Vec Ideal S2000x294 .f32) (w1 : Vec Ideal S294x256 .f32) (x1 : Vec Ideal S2000x42 .f32)
    (w2 : Vec Ideal S42x256 .f32) (xs : Vec Ideal S2000x256 .f32) (p : Fin 2000) (j : Fin 512) :
    k1_pay1 (F := Ideal) x0 w1 x1 w2 xs (ValueIdx.ix2 p j)
      = Rows.rowK2 (fun k : Fin 294 => x0 (ValueIdx.ix2 p k)) (fun k : Fin 42 => x1 (ValueIdx.ix2 p k)) (Rows.mat w1) (Rows.mat w2)
          (fun k : Fin 256 => xs (ValueIdx.ix2 p k)) j := by
  unfold Rows.rowK2 Rows.join
  by_cases h : j.val < 256
  · rw [dif_pos h]
    exact pay_left x0 w1 x1 w2 xs p ⟨j.val, h⟩
  · rw [dif_neg h]
    refine Eq.trans (congrArg (fun z => k1_pay1 (F := Ideal) x0 w1 x1 w2 xs (ValueIdx.ix2 p z)) (Fin.ext ?_))
      (pay_right x0 w1 x1 w2 xs p ⟨j.val - 256, by have := j.isLt; omega⟩)
    show j.val = 256 + (j.val - 256)
    omega

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 125 points: the row-tiled windows sit at row block `t`, the two filter
    matrices at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of row block `t` is row `2000·t + p` of the array. -/
def row (t : Fin cfg1.N) (p : Fin 2000) : Fin 250000 :=
  ⟨2000 * t.val + p.val, by have h : t.val < 125 := Nat.lt_of_lt_of_eq t.isLt (N_1 : cfg1.N = 125); have := p.isLt; omega⟩

/-- One row of the message array as the region's entry contents give it. -/
def msgRow (c : Dev nD) (e : Fin 250000) : Fin 512 → EReal :=
  Rows.rowK2 (fun k : Fin 294 => (V c main_arg1 : (⟨S250000x294, .f32⟩ : BufTy).Contents (Elt Ideal)) (ValueIdx.ix2 e k))
    (fun k : Fin 42 => (V c main_arg2 : (⟨S250000x42, .f32⟩ : BufTy).Contents (Elt Ideal)) (ValueIdx.ix2 e k))
    (Rows.mat (V c main_v5 : (⟨S294x256, .f32⟩ : BufTy).Contents (Elt Ideal)))
    (Rows.mat (V c main_v6 : (⟨S42x256, .f32⟩ : BufTy).Contents (Elt Ideal)))
    (fun k : Fin 256 => (V c main_v7 : (⟨S250000x256, .f32⟩ : BufTy).Contents (Elt Ideal)) (ValueIdx.ix2 e k))

/-- The whole array, row by row. -/
def G (c : Dev nD) : (⟨S250000x512, .f32⟩ : BufTy).Contents (Elt Ideal) := fun i => msgRow V c (i 0) (i 1)

/-- The first filter block at point `t` is rows `2000·t …` of its array. -/
theorem iblk0_apply (c : Dev nD) (t : Fin cfg1.N) (p : Fin 2000) (k : Fin 294) :
    (iblk1 V c 0 t : Vec Ideal S2000x294 .f32) (ValueIdx.ix2 p k)
      = (V c main_arg1 : (⟨S250000x294, .f32⟩ : BufTy).Contents (Elt Ideal)) (ValueIdx.ix2 (row t p) k) := by
  obtain ⟨e0, e1, -⟩ := idx_facts t
  show V c main_arg1 (((cfg1.win 0).blk t).view.emb (ValueIdx.ix2 p k)) = V c main_arg1 _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 294 + 1 * k.val = k.val; rw [e1]; omega

/-- The second filter block likewise. -/
theorem iblk1_apply (c : Dev nD) (t : Fin cfg1.N) (p : Fin 2000) (k : Fin 42) :
    (iblk1 V c 1 t : Vec Ideal S2000x42 .f32) (ValueIdx.ix2 p k)
      = (V c main_arg2 : (⟨S250000x42, .f32⟩ : BufTy).Contents (Elt Ideal)) (ValueIdx.ix2 (row t p) k) := by
  obtain ⟨-, -, e0, e1, -⟩ := idx_facts t
  show V c main_arg2 (((cfg1.win 1).blk t).view.emb (ValueIdx.ix2 p k)) = V c main_arg2 _
  refine congrArg _ (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 42 + 1 * k.val = k.val; rw [e1]; omega

/-- The first filter matrix's one block is the matrix. -/
theorem iblk2_apply (c : Dev nD) (t : Fin cfg1.N) (k : Fin 294) (q : Fin 256) :
    (iblk1 V c 2 t : Vec Ideal S294x256 .f32) (ValueIdx.ix2 k q)
      = (V c main_v5 : (⟨S294x256, .f32⟩ : BufTy).Contents (Elt Ideal)) (ValueIdx.ix2 k q) := by
  obtain ⟨-, -, -, -, e0, e1, -⟩ := idx_facts t
  show V c main_v5 (((cfg1.win 2).blk t).view.emb (ValueIdx.ix2 k q)) = V c main_v5 _
  refine congrArg _ (funext fun a => Fin.ext ?_)
  match a with
  | ⟨0, _⟩ => show win1_2.index t (0 : Fin 2) * 294 + 1 * k.val = k.val; rw [e0]; omega
  | ⟨1, _⟩ => show win1_2.index t (1 : Fin 2) * 256 + 1 * q.val = q.val; rw [e1]; omega

/-- The second filter matrix's one block is the matrix. -/
theorem iblk3_apply (c : Dev nD) (t : Fin cfg1.N) (k : Fin 42) (q : Fin 256) :
    (iblk1 V c 3 t : Vec Ideal S42x256 .f32) (ValueIdx.ix2 k q)
      = (V c main_v6 : (⟨S42x256, .f32⟩ : BufTy).Contents (Elt Ideal)) (ValueIdx.ix2 k q) := by
  obtain ⟨-, -, -, -, -, -, e0, e1, -⟩ := idx_facts t
  show V c main_v6 (((cfg1.win 3).blk t).view.emb (ValueIdx.ix2 k q)) = V c main_v6 _
  refine congrArg _ (funext fun a => Fin.ext ?_)
  match a with
  | ⟨0, _⟩ => show win1_3.index t (0 : Fin 2) * 42 + 1 * k.val = k.val; rw [e0]; omega
  | ⟨1, _⟩ => show win1_3.index t (1 : Fin 2) * 256 + 1 * q.val = q.val; rw [e1]; omega

/-- The source rows' block at point `t` is rows `2000·t …` of the gathered array. -/
theorem iblk4_apply (c : Dev nD) (t : Fin cfg1.N) (p : Fin 2000) (k : Fin 256) :
    (iblk1 V c 4 t : Vec Ideal S2000x256 .f32) (ValueIdx.ix2 p k)
      = (V c main_v7 : (⟨S250000x256, .f32⟩ : BufTy).Contents (Elt Ideal)) (ValueIdx.ix2 (row t p) k) := by
  obtain ⟨-, -, -, -, -, -, -, -, e0, e1, -⟩ := idx_facts t
  show V c main_v7 (((cfg1.win 4).blk t).view.emb (ValueIdx.ix2 p k)) = V c main_v7 _
  refine congrArg _ (funext fun a => Fin.ext ?_)
  match a with
  | ⟨0, _⟩ => show win1_4.index t (0 : Fin 2) * 2000 + 1 * p.val = 2000 * t.val + p.val; rw [e0]; omega
  | ⟨1, _⟩ => show win1_4.index t (1 : Fin 2) * 256 + 1 * k.val = k.val; rw [e1]; omega

/-- What the body stores at point `t`, row `p`: row `2000·t + p` of the array. -/
theorem blk_eq (c : Dev nD) (t : Fin cfg1.N) (p : Fin 2000) (j : Fin 512) :
    k1_pay1 (F := Ideal) (iblk1 V c 0 t) (iblk1 V c 2 t) (iblk1 V c 1 t) (iblk1 V c 3 t) (iblk1 V c 4 t) (ValueIdx.ix2 p j)
      = msgRow V c (row t p) j := by
  refine (pay_apply (iblk1 V c 0 t) (iblk1 V c 2 t) (iblk1 V c 1 t) (iblk1 V c 3 t) (iblk1 V c 4 t) p j).trans ?_
  unfold msgRow
  have h0 : (fun k : Fin 294 => (iblk1 V c 0 t : Vec Ideal S2000x294 .f32) (ValueIdx.ix2 p k))
      = fun k : Fin 294 => (V c main_arg1 : (⟨S250000x294, .f32⟩ : BufTy).Contents (Elt Ideal)) (ValueIdx.ix2 (row t p) k) :=
    funext fun k => iblk0_apply V c t p k
  have h1 : (fun k : Fin 42 => (iblk1 V c 1 t : Vec Ideal S2000x42 .f32) (ValueIdx.ix2 p k))
      = fun k : Fin 42 => (V c main_arg2 : (⟨S250000x42, .f32⟩ : BufTy).Contents (Elt Ideal)) (ValueIdx.ix2 (row t p) k) :=
    funext fun k => iblk1_apply V c t p k
  have h2 : Rows.mat (iblk1 V c 2 t : Vec Ideal S294x256 .f32) = Rows.mat (V c main_v5 : (⟨S294x256, .f32⟩ : BufTy).Contents (Elt Ideal)) :=
    funext fun k => funext fun q => iblk2_apply V c t k q
  have h3 : Rows.mat (iblk1 V c 3 t : Vec Ideal S42x256 .f32) = Rows.mat (V c main_v6 : (⟨S42x256, .f32⟩ : BufTy).Contents (Elt Ideal)) :=
    funext fun k => funext fun q => iblk3_apply V c t k q
  have h4 : (fun k : Fin 256 => (iblk1 V c 4 t : Vec Ideal S2000x256 .f32) (ValueIdx.ix2 p k))
      = fun k : Fin 256 => (V c main_v7 : (⟨S250000x256, .f32⟩ : BufTy).Contents (Elt Ideal)) (ValueIdx.ix2 (row t p) k) :=
    funext fun k => iblk4_apply V c t p k
  rw [h0, h1, h2, h3, h4]

/-- What point `t` writes back is block `t` of `G`. -/
theorem flushed5_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x294) hz, View.ld_unit_zero (S := S294x256) hz, View.ld_unit_zero (S := S2000x42) hz,
    View.ld_unit_zero (S := S42x256) hz, View.ld_unit_zero (S := S2000x256) hz]
  show (k1_pay1 (F := Ideal) (iblk1 V c 0 t) (iblk1 V c 2 t) (iblk1 V c 1 t) (iblk1 V c 3 t) (iblk1 V c 4 t) : S2000x512.Idx → EReal)
    = fun y : S2000x512.Idx => G V c (((cfg1.win 5).blk t).view.emb y)
  funext y
  obtain ⟨p, j, rfl⟩ : ∃ (p : Fin 2000) (j : Fin 512), y = ValueIdx.ix2 p j := ⟨y 0, y 1, ValueIdx.eq_ix2 y⟩
  refine (blk_eq V c t p j).trans ?_
  obtain ⟨-, -, -, -, -, -, -, -, -, -, e0, e1⟩ := idx_facts t
  have h0 : ((((cfg1.win 5).blk t).view.emb (ValueIdx.ix2 p j)) 0 : Fin 250000) = row t p :=
    Fin.ext (by show win1_5.index t (0 : Fin 2) * 2000 + 1 * p.val = 2000 * t.val + p.val; rw [e0]; omega)
  have h1 : ((((cfg1.win 5).blk t).view.emb (ValueIdx.ix2 p j)) 1 : Fin 512) = j :=
    Fin.ext (by show win1_5.index t (1 : Fin 2) * 512 + 1 * j.val = j.val; rw [e1]; omega)
  show msgRow V c (row t p) j
    = msgRow V c ((((cfg1.win 5).blk t).view.emb (ValueIdx.ix2 p j)) 0) ((((cfg1.win 5).blk t).view.emb (ValueIdx.ix2 p j)) 1)
  rw [h0, h1]

/-- An index of the array is in point `t`'s block iff each coordinate is in the block's range on its axis. -/
theorem mem_blk5 (t : Fin cfg1.N) (i : S250000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v8).slice (win1_5.rect t)).set ↔ _
  rw [View.set_slice_whole, Rect.mem_set_unit]
  exact Iff.rfl

/-- The 125 row blocks cover the array: row `r` is in block `r / 2000`. -/
theorem cover5 (i : S250000x512.Idx) : ∃ t : Fin cfg1.N, (cfg1.win 5).flush t = true ∧ i ∈ ((cfg1.win 5).blk t).view.set := by
  have hi0 : (i 0).val < 250000 := (i 0).isLt
  have hi1 : (i 1).val < 512 := (i 1).isLt
  obtain ⟨t, ht⟩ : ∃ t : Fin cfg1.N, t.val = (i 0).val / 2000 := ⟨⟨(i 0).val / 2000, by rw [show cfg1.N = 125 from N_1]; omega⟩, rfl⟩
  obtain ⟨-, -, -, -, -, -, -, -, -, -, e0, e1⟩ := idx_facts t
  refine ⟨t, flush1_5 t, ?_⟩
  rw [mem_blk5]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 512 ≤ (i 1).val ∧ (i 1).val < win1_5.index t (1 : Fin 2) * 512 + 512
    rw [e1]; omega

/-- So region 1 leaves the message array at `G`. -/
theorem arr5 (c : Dev nD) : (dat1 V c).arrAt 5 cfg1.N = G V c :=
  (dat1 V c).arrAt_eq_of_cover 5 (G V c) (fun t _ => flushed5_eq V c t) cover5

/-- Read at an edge and a column. -/
theorem arr5_apply (c : Dev nD) (e : Fin 250000) (j : Fin 512) :
    ((dat1 V c).arrAt 5 cfg1.N : (⟨S250000x512, .f32⟩ : BufTy).Contents (Elt Ideal)) (ValueIdx.ix2 e j) = msgRow V c e j := by
  rw [arr5]
  rfl

end Blocks

/-! ## The two precombined filter matrices, read at an index -/

theorem lhsH1_0 (i : S294x256.Idx) (q : dot_S294x256_S256x256_S294x256_1_0_0_1_n_n.contr.Idx) :
    (dot_S294x256_S256x256_S294x256_1_0_0_1_n_n.lhsIdx i q 0).val = (i 0).val := by
  unfold DotDims.lhsIdx
  rw [dif_neg (show ¬(0 : Fin S294x256.rank) ∈ dot_S294x256_S256x256_S294x256_1_0_0_1_n_n.lhsBatch by decide), dif_pos (show (0 : Fin S294x256.rank) ∈ dot_S294x256_S256x256_S294x256_1_0_0_1_n_n.lhsNonContracting by decide)]
  rfl
theorem lhsH1_1 (i : S294x256.Idx) (q : dot_S294x256_S256x256_S294x256_1_0_0_1_n_n.contr.Idx) :
    (dot_S294x256_S256x256_S294x256_1_0_0_1_n_n.lhsIdx i q 1).val = (q ⟨0, by decide⟩).val :=
  dot_S294x256_S256x256_S294x256_1_0_0_1_n_n.lhsIdx_val_of_single rfl i q
theorem rhsH1_0 (i : S294x256.Idx) (q : dot_S294x256_S256x256_S294x256_1_0_0_1_n_n.contr.Idx) :
    (dot_S294x256_S256x256_S294x256_1_0_0_1_n_n.rhsIdx i q 0).val = (q ⟨0, by decide⟩).val :=
  dot_S294x256_S256x256_S294x256_1_0_0_1_n_n.rhsIdx_val_of_single rfl i q
theorem rhsH1_1 (i : S294x256.Idx) (q : dot_S294x256_S256x256_S294x256_1_0_0_1_n_n.contr.Idx) :
    (dot_S294x256_S256x256_S294x256_1_0_0_1_n_n.rhsIdx i q 1).val = (i 1).val := by
  unfold DotDims.rhsIdx
  rw [dif_neg (show ¬(1 : Fin S256x256.rank) ∈ dot_S294x256_S256x256_S294x256_1_0_0_1_n_n.rhsBatch by decide), dif_pos (show (1 : Fin S256x256.rank) ∈ dot_S294x256_S256x256_S294x256_1_0_0_1_n_n.rhsNonContracting by decide)]
  rfl

/-- The host's product of the two filter weight matrices at row `j`, column `q`. -/
theorem wfH1_apply (a : (⟨S294x256, .f32⟩ : BufTy).Contents (Elt Ideal)) (b : (⟨S256x256, .f32⟩ : BufTy).Contents (Elt Ideal))
    (j : Fin 294) (q : Fin 256) :
    Host.dotGeneral (F := Ideal) (φ₁ := .f32) (φ₂ := .f32) dot_S294x256_S256x256_S294x256_1_0_0_1_n_n none a b (ValueIdx.ix2 j q)
      = Rows.dot (fun k : Fin 256 => a (ValueIdx.ix2 j k)) (Rows.mat b) q := by
  show _ = ∑ k : Fin 256, a (ValueIdx.ix2 j k) * b (ValueIdx.ix2 k q)
  simp only [Host.dotGeneral]
  rw [Ideal.dotGeneral_apply, ← Equiv.sum_comp (ValueIdx.contrEquiv1 dot_S294x256_S256x256_S294x256_1_0_0_1_n_n 256 rfl rfl).symm]
  refine Finset.sum_congr rfl fun k _ => ?_
  have hk := ValueIdx.contrEquiv1_symm_val dot_S294x256_S256x256_S294x256_1_0_0_1_n_n 256 rfl rfl k
  have el : dot_S294x256_S256x256_S294x256_1_0_0_1_n_n.lhsIdx (ValueIdx.ix2 j q) ((ValueIdx.contrEquiv1 dot_S294x256_S256x256_S294x256_1_0_0_1_n_n 256 rfl rfl).symm k) = ValueIdx.ix2 j k := funext fun a => Fin.ext (by
    match a with
    | ⟨0, _⟩ => exact lhsH1_0 _ _
    | ⟨1, _⟩ => exact (lhsH1_1 _ _).trans hk)
  have er : dot_S294x256_S256x256_S294x256_1_0_0_1_n_n.rhsIdx (ValueIdx.ix2 j q) ((ValueIdx.contrEquiv1 dot_S294x256_S256x256_S294x256_1_0_0_1_n_n 256 rfl rfl).symm k) = ValueIdx.ix2 k q := funext fun a => Fin.ext (by
    match a with
    | ⟨0, _⟩ => exact (rhsH1_0 _ _).trans hk
    | ⟨1, _⟩ => exact rhsH1_1 _ _)
  rw [el, er]

theorem lhsH2_0 (i : S42x256.Idx) (q : dot_S42x256_S256x256_S42x256_1_0_0_1_n_n.contr.Idx) :
    (dot_S42x256_S256x256_S42x256_1_0_0_1_n_n.lhsIdx i q 0).val = (i 0).val := by
  unfold DotDims.lhsIdx
  rw [dif_neg (show ¬(0 : Fin S42x256.rank) ∈ dot_S42x256_S256x256_S42x256_1_0_0_1_n_n.lhsBatch by decide), dif_pos (show (0 : Fin S42x256.rank) ∈ dot_S42x256_S256x256_S42x256_1_0_0_1_n_n.lhsNonContracting by decide)]
  rfl
theorem lhsH2_1 (i : S42x256.Idx) (q : dot_S42x256_S256x256_S42x256_1_0_0_1_n_n.contr.Idx) :
    (dot_S42x256_S256x256_S42x256_1_0_0_1_n_n.lhsIdx i q 1).val = (q ⟨0, by decide⟩).val :=
  dot_S42x256_S256x256_S42x256_1_0_0_1_n_n.lhsIdx_val_of_single rfl i q
theorem rhsH2_0 (i : S42x256.Idx) (q : dot_S42x256_S256x256_S42x256_1_0_0_1_n_n.contr.Idx) :
    (dot_S42x256_S256x256_S42x256_1_0_0_1_n_n.rhsIdx i q 0).val = (q ⟨0, by decide⟩).val :=
  dot_S42x256_S256x256_S42x256_1_0_0_1_n_n.rhsIdx_val_of_single rfl i q
theorem rhsH2_1 (i : S42x256.Idx) (q : dot_S42x256_S256x256_S42x256_1_0_0_1_n_n.contr.Idx) :
    (dot_S42x256_S256x256_S42x256_1_0_0_1_n_n.rhsIdx i q 1).val = (i 1).val := by
  unfold DotDims.rhsIdx
  rw [dif_neg (show ¬(1 : Fin S256x256.rank) ∈ dot_S42x256_S256x256_S42x256_1_0_0_1_n_n.rhsBatch by decide), dif_pos (show (1 : Fin S256x256.rank) ∈ dot_S42x256_S256x256_S42x256_1_0_0_1_n_n.rhsNonContracting by decide)]
  rfl

/-- The host's product of the two filter weight matrices at row `j`, column `q`. -/
theorem wfH2_apply (a : (⟨S42x256, .f32⟩ : BufTy).Contents (Elt Ideal)) (b : (⟨S256x256, .f32⟩ : BufTy).Contents (Elt Ideal))
    (j : Fin 42) (q : Fin 256) :
    Host.dotGeneral (F := Ideal) (φ₁ := .f32) (φ₂ := .f32) dot_S42x256_S256x256_S42x256_1_0_0_1_n_n none a b (ValueIdx.ix2 j q)
      = Rows.dot (fun k : Fin 256 => a (ValueIdx.ix2 j k)) (Rows.mat b) q := by
  show _ = ∑ k : Fin 256, a (ValueIdx.ix2 j k) * b (ValueIdx.ix2 k q)
  simp only [Host.dotGeneral]
  rw [Ideal.dotGeneral_apply, ← Equiv.sum_comp (ValueIdx.contrEquiv1 dot_S42x256_S256x256_S42x256_1_0_0_1_n_n 256 rfl rfl).symm]
  refine Finset.sum_congr rfl fun k _ => ?_
  have hk := ValueIdx.contrEquiv1_symm_val dot_S42x256_S256x256_S42x256_1_0_0_1_n_n 256 rfl rfl k
  have el : dot_S42x256_S256x256_S42x256_1_0_0_1_n_n.lhsIdx (ValueIdx.ix2 j q) ((ValueIdx.contrEquiv1 dot_S42x256_S256x256_S42x256_1_0_0_1_n_n 256 rfl rfl).symm k) = ValueIdx.ix2 j k := funext fun a => Fin.ext (by
    match a with
    | ⟨0, _⟩ => exact lhsH2_0 _ _
    | ⟨1, _⟩ => exact (lhsH2_1 _ _).trans hk)
  have er : dot_S42x256_S256x256_S42x256_1_0_0_1_n_n.rhsIdx (ValueIdx.ix2 j q) ((ValueIdx.contrEquiv1 dot_S42x256_S256x256_S42x256_1_0_0_1_n_n 256 rfl rfl).symm k) = ValueIdx.ix2 k q := funext fun a => Fin.ext (by
    match a with
    | ⟨0, _⟩ => exact (rhsH2_0 _ _).trans hk
    | ⟨1, _⟩ => exact rhsH2_1 _ _)
  rw [el, er]

/-! ## What region 1 finds in its input arrays -/

section Entry

variable (m : (ℓ : Loc nD τ sig) → Buf (Elt Ideal) ℓ) (ρ : Dev nD → PrngReg) (c : Dev nD)

/-- The first radial filter array enters region 1 as launched: no host operation and no earlier region writes it. -/
theorem V4_arg1 : V4 m ρ c main_arg1 = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- So does the second. -/
theorem V4_arg2 : V4 m ρ c main_arg2 = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The first precombined filter matrix is the host's product of its two weight matrices as launched. -/
theorem V4_v5 : (V4 m ρ c main_v5 : (⟨S294x256, .f32⟩ : BufTy).Contents (Elt Ideal))
    = Host.dotGeneral (F := Ideal) (φ₁ := .f32) (φ₂ := .f32) dot_S294x256_S256x256_S294x256_1_0_0_1_n_n none
        (m ((c : Thread nD τ).loc main_arg7) : (⟨S294x256, .f32⟩ : BufTy).Contents (Elt Ideal))
        (m ((c : Thread nD τ).loc main_arg8) : (⟨S256x256, .f32⟩ : BufTy).Contents (Elt Ideal)) := by
  have e1 : W4 m ρ c (Proc.devRef .tc main_v5) = W3 m ρ c (Proc.devRef .tc main_v5) :=
    StableHlo.after_of_forall_not_mem (b := Proc.devRef .tc main_v5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W3 m ρ c (Proc.devRef .tc main_v5)
      = Host.dotGeneral (F := Ideal) (φ₁ := .f32) (φ₂ := .f32) dot_S294x256_S256x256_S294x256_1_0_0_1_n_n none
          (W2 m ρ c (Proc.devRef .tc main_arg7)) (W2 m ρ c (Proc.devRef .tc main_arg8)) := by
    show StableHlo.after hostOps1 (W2 m ρ c) (Proc.devRef .tc main_v5) = _
    generalize W2 m ρ c = X
    after_results
  rw [← W2_arg7 m ρ c, ← W2_arg8 m ρ c]
  exact e1.trans e2

/-- The second likewise. -/
theorem V4_v6 : (V4 m ρ c main_v6 : (⟨S42x256, .f32⟩ : BufTy).Contents (Elt Ideal))
    = Host.dotGeneral (F := Ideal) (φ₁ := .f32) (φ₂ := .f32) dot_S42x256_S256x256_S42x256_1_0_0_1_n_n none
        (m ((c : Thread nD τ).loc main_arg9) : (⟨S42x256, .f32⟩ : BufTy).Contents (Elt Ideal))
        (m ((c : Thread nD τ).loc main_arg10) : (⟨S256x256, .f32⟩ : BufTy).Contents (Elt Ideal)) := by
  have e1 : W4 m ρ c (Proc.devRef .tc main_v6) = W3 m ρ c (Proc.devRef .tc main_v6) :=
    StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W3 m ρ c (Proc.devRef .tc main_v6)
      = Host.dotGeneral (F := Ideal) (φ₁ := .f32) (φ₂ := .f32) dot_S42x256_S256x256_S42x256_1_0_0_1_n_n none
          (W2 m ρ c (Proc.devRef .tc main_arg9)) (W2 m ρ c (Proc.devRef .tc main_arg10)) := by
    show StableHlo.after hostOps1 (W2 m ρ c) (Proc.devRef .tc main_v6) = _
    generalize W2 m ρ c = X
    after_results
  rw [← W2_arg9 m ρ c, ← W2_arg10 m ρ c]
  exact e1.trans e2

end Entry

/-! ## The message array after region 1, read at an edge and a column -/

/-- Two rows of 256 joined, read in the left half. -/
theorem join_left (a b : Fin 256 → EReal) (q : Fin 256) : Rows.join a b (⟨q.val, by omega⟩ : Fin 512) = a q := by
  unfold Rows.join
  rw [dif_pos (show ((⟨q.val, by omega⟩ : Fin 512) : Fin 512).val < 256 from q.isLt)]

/-- Two rows of 256 joined, read in the right half. -/
theorem join_right (a b : Fin 256 → EReal) (q : Fin 256) : Rows.join a b (⟨256 + q.val, by omega⟩ : Fin 512) = b q := by
  unfold Rows.join
  rw [dif_neg (show ¬((⟨256 + q.val, by omega⟩ : Fin 512) : Fin 512).val < 256 from by show ¬(256 + q.val < 256); omega)]
  exact congrArg b (Fin.ext (by show 256 + q.val - 256 = q.val; omega))

section Result

variable (m : (ℓ : Loc nD τ sig) → Buf (Elt Ideal) ℓ) (ρ : Dev nD → PrngReg) (c : Dev nD)

/-- A row of the message array at region 1's exit, over the arrays as launched and the gathered source rows. -/
theorem msg_row (e : Fin 250000) (j : Fin 512) :
    (W5 m ρ c (Proc.devRef .tc main_v8) : (⟨S250000x512, .f32⟩ : BufTy).Contents (Elt Ideal)) (ValueIdx.ix2 e j)
      = Rows.rowK2 (fun k : Fin 294 => (m ((c : Thread nD τ).loc main_arg1) : (⟨S250000x294, .f32⟩ : BufTy).Contents (Elt Ideal)) (ValueIdx.ix2 e k))
          (fun k : Fin 42 => (m ((c : Thread nD τ).loc main_arg2) : (⟨S250000x42, .f32⟩ : BufTy).Contents (Elt Ideal)) (ValueIdx.ix2 e k))
          (fun (j' : Fin 294) (q' : Fin 256) => Rows.dot (fun k : Fin 256 => (m ((c : Thread nD τ).loc main_arg7) : (⟨S294x256, .f32⟩ : BufTy).Contents (Elt Ideal)) (ValueIdx.ix2 j' k)) (Rows.mat (m ((c : Thread nD τ).loc main_arg8) : (⟨S256x256, .f32⟩ : BufTy).Contents (Elt Ideal))) q')
          (fun (j' : Fin 42) (q' : Fin 256) => Rows.dot (fun k : Fin 256 => (m ((c : Thread nD τ).loc main_arg9) : (⟨S42x256, .f32⟩ : BufTy).Contents (Elt Ideal)) (ValueIdx.ix2 j' k)) (Rows.mat (m ((c : Thread nD τ).loc main_arg10) : (⟨S256x256, .f32⟩ : BufTy).Contents (Elt Ideal))) q')
          (fun k : Fin 256 => (W4 m ρ c (Proc.devRef .tc main_v7) : (⟨S250000x256, .f32⟩ : BufTy).Contents (Elt Ideal)) (ValueIdx.ix2 e k)) j := by
  refine (congrFun (W5_arr m ρ c 5) (ValueIdx.ix2 e j)).trans ((arr5_apply (V4 m ρ) c e j).trans ?_)
  unfold msgRow
  have hA : Rows.mat (V4 m ρ c main_v5 : (⟨S294x256, .f32⟩ : BufTy).Contents (Elt Ideal))
      = fun (j' : Fin 294) (q' : Fin 256) => Rows.dot (fun k : Fin 256 => (m ((c : Thread nD τ).loc main_arg7) : (⟨S294x256, .f32⟩ : BufTy).Contents (Elt Ideal)) (ValueIdx.ix2 j' k)) (Rows.mat (m ((c : Thread nD τ).loc main_arg8) : (⟨S256x256, .f32⟩ : BufTy).Contents (Elt Ideal))) q' := by
    rw [V4_v5]
    exact funext fun j' => funext fun q' => wfH1_apply _ _ j' q'
  have hB : Rows.mat (V4 m ρ c main_v6 : (⟨S42x256, .f32⟩ : BufTy).Contents (Elt Ideal))
      = fun (j' : Fin 42) (q' : Fin 256) => Rows.dot (fun k : Fin 256 => (m ((c : Thread nD τ).loc main_arg9) : (⟨S42x256, .f32⟩ : BufTy).Contents (Elt Ideal)) (ValueIdx.ix2 j' k)) (Rows.mat (m ((c : Thread nD τ).loc main_arg10) : (⟨S256x256, .f32⟩ : BufTy).Contents (Elt Ideal))) q' := by
    rw [V4_v6]
    exact funext fun j' => funext fun q' => wfH2_apply _ _ j' q'
  rw [hA, hB, V4_arg1, V4_arg2]

/-- The left half at an edge and a column: the first filter row through the product of its two weight matrices, times the
    gathered source row's entry. -/
theorem msg_left (e : Fin 250000) (q : Fin 256) :
    (W5 m ρ c (Proc.devRef .tc main_v8) : (⟨S250000x512, .f32⟩ : BufTy).Contents (Elt Ideal)) (ValueIdx.ix2 e (⟨q.val, by omega⟩ : Fin 512))
      = Rows.dot (fun k : Fin 294 => (m ((c : Thread nD τ).loc main_arg1) : (⟨S250000x294, .f32⟩ : BufTy).Contents (Elt Ideal)) (ValueIdx.ix2 e k))
          (fun (j' : Fin 294) (q' : Fin 256) => Rows.dot (fun k : Fin 256 => (m ((c : Thread nD τ).loc main_arg7) : (⟨S294x256, .f32⟩ : BufTy).Contents (Elt Ideal)) (ValueIdx.ix2 j' k)) (Rows.mat (m ((c : Thread nD τ).loc main_arg8) : (⟨S256x256, .f32⟩ : BufTy).Contents (Elt Ideal))) q') q
        * (W4 m ρ c (Proc.devRef .tc main_v7) : (⟨S250000x256, .f32⟩ : BufTy).Contents (Elt Ideal)) (ValueIdx.ix2 e q) := by
  rw [msg_row]
  unfold Rows.rowK2
  rw [join_left]

/-- The right half likewise, with the second filter. -/
theorem msg_right (e : Fin 250000) (q : Fin 256) :
    (W5 m ρ c (Proc.devRef .tc main_v8) : (⟨S250000x512, .f32⟩ : BufTy).Contents (Elt Ideal)) (ValueIdx.ix2 e (⟨256 + q.val, by omega⟩ : Fin 512))
      = Rows.dot (fun k : Fin 42 => (m ((c : Thread nD τ).loc main_arg2) : (⟨S250000x42, .f32⟩ : BufTy).Contents (Elt Ideal)) (ValueIdx.ix2 e k))
          (fun (j' : Fin 42) (q' : Fin 256) => Rows.dot (fun k : Fin 256 => (m ((c : Thread nD τ).loc main_arg9) : (⟨S42x256, .f32⟩ : BufTy).Contents (Elt Ideal)) (ValueIdx.ix2 j' k)) (Rows.mat (m ((c : Thread nD τ).loc main_arg10) : (⟨S256x256, .f32⟩ : BufTy).Contents (Elt Ideal))) q') q
        * (W4 m ρ c (Proc.devRef .tc main_v7) : (⟨S250000x256, .f32⟩ : BufTy).Contents (Elt Ideal)) (ValueIdx.ix2 e q) := by
  rw [msg_row]
  unfold Rows.rowK2
  rw [join_right]

end Result

end Cert.Stage3K

end
-- ==== Proof.Stage3.lean ====
/-
  Stage 3, the link: the messages region 1 leaves are the reference's two message arrays, column range by column range.
  Both sides are, at an edge and a column, the edge's filter row through the product of the filter's two weight matrices,
  times the entry of the edge's gathered source row; the source rows agree by the link before this one.
-/
import proofs.«408299_j82652350644685_2_alg».proof.Proof.Stages
import proofs.«408299_j82652350644685_2_alg».proof.Proof.Stage3R
import proofs.«408299_j82652350644685_2_alg».proof.Proof.Stage3K

noncomputable section

namespace Cert.Stages

open Idealize.ShloMosaic Idealize.ShloMosaic.TcCoe Idealize.SL.Sem
open Cert.KernelIdeal Cert.KernelIdeal.Gen Cert.ReferenceIdeal.ReadP

variable (m : (ℓ : Loc nD τ sig) → Buf (Elt Ideal) ℓ) (ρ : Dev nD → PrngReg) (c : Dev nD)

theorem stage3 (hf : FiltersReal m c) (h2 : kXS m ρ c = rXS m c) (h2' : rXS' m c = rXS m c) (e : Fin 250000) (q : Fin 256) :
    kMsg m ρ c (ValueIdx.ix2 e (⟨q.val, by omega⟩ : Fin 512)) = rMsg1 m c (ValueIdx.ix2 e q)
    ∧ kMsg m ρ c (ValueIdx.ix2 e (⟨256 + q.val, by omega⟩ : Fin 512)) = rMsg2 m c (ValueIdx.ix2 e q) := by
  obtain ⟨r1, r2⟩ := ref_msg_row m c hf e q
  constructor
  · rw [r1, ← h2]
    exact Cert.Stage3K.msg_left m ρ c e q
  · rw [r2, h2', ← h2]
    exact Cert.Stage3K.msg_right m ρ c e q

end Cert.Stages

end
-- ==== Proof.Stage4.lean ====
/-
  Stage 4: the scatter-add of the messages onto their destination nodes. The kernel program scatters ONE array of 512
  columns (both message halves side by side), the reference TWO arrays of 256 columns. Both scatters add whole rows into a
  zero array, the row chosen by the same column of destination ids (row 1 of the edge array), so at node `n` and column
  `q` each is the sum, over the edges `e` whose destination id is `n`, of the update at `(e, q)`; an id outside `[0, 50000)`
  is dropped by both. The updates agree column by column by the previous link.
-/
import proofs.«408299_j82652350644685_2_alg».proof.Proof.Stages

noncomputable section

namespace Cert.Stages

open Idealize.ShloMosaic Idealize.ShloMosaic.TcCoe Idealize.SL.Sem Idealize.ShloMosaic.ValueIdx
open Cert.KernelIdeal Cert.KernelIdeal.Gen Cert.ReferenceIdeal.ReadP

/-! ## A scatter of rows, read at an index -/

namespace RowScatter

/-- The dimension numbers of a scatter of rows: updates `[E, M]` land whole rows of an operand `[N, M]`, the row
    chosen by a column `[E, 1]` of indices. -/
abbrev dims (N E M : ℕ) (wf : ScatterDims.WF ⟨2, ![N, M]⟩ ⟨2, ![E, 1]⟩ ⟨2, ![E, M]⟩ [1] [0] [0] 1) :
    ScatterDims ⟨2, ![N, M]⟩ ⟨2, ![E, 1]⟩ ⟨2, ![E, M]⟩ where
  updateWindowDims := [1]
  insertedWindowDims := [0]
  scatterDimsToOperandDims := [0]
  indexVectorDim := 1
  wf := wf

variable {N E M w : ℕ} (wf : ScatterDims.WF ⟨2, ![N, M]⟩ ⟨2, ![E, 1]⟩ ⟨2, ![E, M]⟩ [1] [0] [0] 1)

/-- The window's start on the row axis is row `e`'s index, read signed. -/
theorem start0 (j : (⟨2, ![E, M]⟩ : Shape).Idx) (idx : IVec ⟨2, ![E, 1]⟩ w) :
    (dims N E M wf).start j idx 0 = (idx (ix2 (j 0) (0 : Fin 1))).toInt := by
  unfold ScatterDims.start
  rw [dif_pos (show (0 : Fin 2) ∈ (dims N E M wf).scatterDimsToOperandDims from List.mem_singleton.mpr rfl)]
  have hsi : (dims N E M wf).siIdx j ⟨List.idxOf (0 : Fin 2) (dims N E M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]; rfl

/-- The window starts at column 0. -/
theorem start1 (j : (⟨2, ![E, M]⟩ : Shape).Idx) (idx : IVec ⟨2, ![E, 1]⟩ w) :
    (dims N E M wf).start j idx 1 = 0 := by
  unfold ScatterDims.start
  rw [dif_neg (show ¬ (1 : Fin 2) ∈ (dims N E M wf).scatterDimsToOperandDims by
    show ¬ (1 : Fin 2) ∈ ([0] : List (Fin 2)); decide)]

/-- The row axis is inserted: no window coordinate on it. -/
theorem window0 (j : (⟨2, ![E, M]⟩ : Shape).Idx) : (dims N E M wf).window j 0 = 0 := by
  unfold ScatterDims.window
  rw [dif_neg (show ¬ (0 : Fin 2) ∈ (dims N E M wf).sKept by
    show ¬ (0 : Fin 2) ∈ (List.finRange 2).filter (· ∉ ([0] : List (Fin 2))); decide)]

/-- The window coordinate on the column axis is the update's column. -/
theorem window1 (j : (⟨2, ![E, M]⟩ : Shape).Idx) : (dims N E M wf).window j 1 = (j 1).val := by
  unfold ScatterDims.window
  rw [dif_pos (show (1 : Fin 2) ∈ (dims N E M wf).sKept by
    show (1 : Fin 2) ∈ (List.finRange 2).filter (· ∉ ([0] : List (Fin 2))); decide)]
  rfl

/-- Where an update lands: update `(e, q')` lands at `(n, q)` exactly when `q' = q` and row `e`'s index, read signed,
    is `n`; an index outside `[0, N)` lands nowhere. -/
theorem resultIdx?_eq_some_iff (j : (⟨2, ![E, M]⟩ : Shape).Idx) (idx : IVec ⟨2, ![E, 1]⟩ w) (n : Fin N) (q : Fin M) :
    (dims N E M wf).resultIdx? j idx = some (ix2 n q) ↔ (idx (ix2 (j 0) (0 : Fin 1))).toInt = (n.val : ℤ) ∧ j 1 = q := by
  unfold ScatterDims.resultIdx?
  split_ifs with h
  · rw [Option.some.injEq]
    have h0 := h 0
    rw [start0, window0] at h0
    constructor
    · intro e
      have e0 := congrArg (fun i : (⟨2, ![N, M]⟩ : Shape).Idx => (i 0).val) e
      have e1 := congrArg (fun i : (⟨2, ![N, M]⟩ : Shape).Idx => (i 1).val) e
      simp only [start0, start1, window0, window1] at e0 e1
      refine ⟨?_, Fin.ext ?_⟩
      · show _ = (n.val : ℤ)
        change ((idx (ix2 (j 0) (0 : Fin 1))).toInt + ((0 : ℕ) : ℤ)).toNat = n.val at e0
        omega
      · change ((0 : ℤ) + ((j 1).val : ℤ)).toNat = q.val at e1
        omega
    · rintro ⟨e0, e1⟩
      funext a
      refine Fin.ext ?_
      match a with
      | ⟨0, _⟩ =>
        show ((dims N E M wf).start j idx 0 + ((dims N E M wf).window j 0 : ℤ)).toNat = n.val
        rw [start0, window0]; omega
      | ⟨1, _⟩ =>
        show ((dims N E M wf).start j idx 1 + ((dims N E M wf).window j 1 : ℤ)).toNat = q.val
        rw [start1, window1, ← e1]; omega
  · constructor
    · intro e; exact absurd e (by simp)
    · rintro ⟨e0, e1⟩
      refine absurd (fun a => ?_) h
      match a with
      | ⟨0, _⟩ =>
        show 0 ≤ (dims N E M wf).start j idx 0 + ((dims N E M wf).window j 0 : ℤ) ∧ (dims N E M wf).start j idx 0 + ((dims N E M wf).window j 0 : ℤ) < (N : ℤ)
        rw [start0, window0]; have := n.isLt; omega
      | ⟨1, _⟩ =>
        show 0 ≤ (dims N E M wf).start j idx 1 + ((dims N E M wf).window j 1 : ℤ) ∧ (dims N E M wf).start j idx 1 + ((dims N E M wf).window j 1 : ℤ) < (M : ℤ)
        rw [start1, window1]; have := idx2_lt1 j; omega

/-- THE SCATTER READ AT `(n, q)`: the operand there plus, over the rows `e` whose index is `n`, the update at `(e, q)`. -/
theorem scatterAdd_apply (x : (⟨2, ![N, M]⟩ : Shape).Idx → EReal) (idx : IVec ⟨2, ![E, 1]⟩ w)
    (upd : (⟨2, ![E, M]⟩ : Shape).Idx → EReal) (n : Fin N) (q : Fin M) :
    Ideal.hostScatterAdd (dims N E M wf) x idx upd (ix2 n q)
      = x (ix2 n q) + ∑ e : Fin E, if (idx (ix2 e (0 : Fin 1))).toInt = (n.val : ℤ) then upd (ix2 e q) else 0 := by
  unfold Ideal.hostScatterAdd
  congr 1
  rw [Finset.sum_filter, sum_idx2]
  refine Finset.sum_congr rfl fun e _ => ?_
  by_cases hd : (idx (ix2 e (0 : Fin 1))).toInt = (n.val : ℤ)
  · rw [if_pos hd, Finset.sum_eq_single q]
    · rw [if_pos ((resultIdx?_eq_some_iff wf (ix2 e q) idx n q).mpr ⟨hd, rfl⟩)]
    · intro b _ hb
      rw [if_neg (fun h => hb ((resultIdx?_eq_some_iff wf (ix2 e b) idx n q).mp h).2)]
    · intro h; exact absurd (Finset.mem_univ q) h
  · rw [if_neg hd]
    refine Finset.sum_eq_zero fun b _ => ?_
    rw [if_neg (fun h => hd ((resultIdx?_eq_some_iff wf (ix2 e b) idx n q).mp h).1)]

end RowScatter

variable (m : (ℓ : Loc nD τ sig) → Buf (Elt Ideal) ℓ) (ρ : Dev nD → PrngReg) (c : Dev nD)

/-! ## The destination ids -/

/-- The kernel program's destination ids when the scatter runs: row 1 of the edge array, flattened; no region and no host
    stretch in between writes that buffer. -/
theorem kDst : W5 m ρ c (Proc.devRef .tc main_v3) = val_main_v3 (F := Ideal) (A3 m c) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)
    _ = val_main_v3 (F := Ideal) (A3 m c) := by
          show StableHlo.after hostOps0 (W0 m ρ c) (Proc.devRef .tc main_v3) = _
          after_results
          rfl

/-- The destination column read at edge `e`: row 1 of the edge array at `e`. -/
theorem dstCol_apply (e : Fin 250000) :
    val_main_v20 (F := Ideal) (A3 m c) (ix2 e (0 : Fin 1)) = A3 m c (ix2 (1 : Fin 2) e) := by
  rw [val_main_v20_apply, val_main_v3_apply, val_main_v2_apply]
  refine congrArg (A3 m c) (funext fun a => Fin.ext ?_)
  match a with
  | ⟨0, _⟩ => rfl
  | ⟨1, _⟩ => exact Nat.mod_eq_of_lt e.isLt

/-! ## The two scatters at an index -/

/-- The kernel program's aggregate at node `n`, column `q`: the messages of the edges into `n`, summed. -/
theorem kAgg_apply (n : Fin 50000) (q : Fin 512) :
    kAgg m ρ c (ix2 n q)
      = ∑ e : Fin 250000, if (A3 m c (ix2 (1 : Fin 2) e)).toInt = (n.val : ℤ) then kMsg m ρ c (ix2 e q) else 0 := by
  show StableHlo.after hostOps2 (W5 m ρ c) (Proc.devRef .tc main_v11) (ix2 n q) = _
  after_results
  rw [kDst]
  show Ideal.hostScatterAdd (RowScatter.dims 50000 250000 512 _)
      _ (val_main_v20 (F := Ideal) (A3 m c)) (kMsg m ρ c) (ix2 n q) = _
  rw [RowScatter.scatterAdd_apply,
    broadcastInDim_apply _ bcast_S_S50000x512 _ (ix2 n q) (fun a => a.elim0) (fun a => a.elim0), constant_apply,
    Ideal.ofBits_zero_f32, zero_add]
  refine Finset.sum_congr rfl fun e _ => ?_
  rw [dstCol_apply]

/-- The reference's first aggregate at node `n`, column `q`. -/
theorem rAgg1_apply (n : Fin 50000) (q : Fin 256) :
    rAgg1 m c (ix2 n q)
      = ∑ e : Fin 250000, if (A3 m c (ix2 (1 : Fin 2) e)).toInt = (n.val : ℤ) then rMsg1 m c (ix2 e q) else 0 := by
  show Ideal.hostScatterAdd (RowScatter.dims 50000 250000 256 _)
      (val_main_v19 (F := Ideal)) (val_main_v20 (F := Ideal) (A3 m c)) (rMsg1 m c) (ix2 n q) = _
  rw [RowScatter.scatterAdd_apply, val_main_v19_apply, val_main_cst_apply]
  show Ideal.ofBits .f32 0x00000000#32 + _ = _
  rw [Ideal.ofBits_zero_f32, zero_add]
  refine Finset.sum_congr rfl fun e _ => ?_
  rw [dstCol_apply]

/-- The reference's second aggregate at node `n`, column `q`. -/
theorem rAgg2_apply (n : Fin 50000) (q : Fin 256) :
    rAgg2 m c (ix2 n q)
      = ∑ e : Fin 250000, if (A3 m c (ix2 (1 : Fin 2) e)).toInt = (n.val : ℤ) then rMsg2 m c (ix2 e q) else 0 := by
  show Ideal.hostScatterAdd (RowScatter.dims 50000 250000 256 _)
      (val_main_v43 (F := Ideal)) (val_main_v20 (F := Ideal) (A3 m c)) (rMsg2 m c) (ix2 n q) = _
  rw [RowScatter.scatterAdd_apply, val_main_v43_apply, val_main_cst_3_apply]
  show Ideal.ofBits .f32 0x00000000#32 + _ = _
  rw [Ideal.ofBits_zero_f32, zero_add]
  refine Finset.sum_congr rfl fun e _ => ?_
  rw [dstCol_apply]

/-! ## The link -/

/-- Stage 4: the aggregated messages agree, the left half with the reference's first aggregate and the right half with
    its second, given that the messages do. -/
theorem stage4 (h3 : ∀ (e : Fin 250000) (q : Fin 256),
      kMsg m ρ c (ValueIdx.ix2 e (⟨q.val, by omega⟩ : Fin 512)) = rMsg1 m c (ValueIdx.ix2 e q)
      ∧ kMsg m ρ c (ValueIdx.ix2 e (⟨256 + q.val, by omega⟩ : Fin 512)) = rMsg2 m c (ValueIdx.ix2 e q))
    (n : Fin 50000) (q : Fin 256) :
    kAgg m ρ c (ValueIdx.ix2 n (⟨q.val, by omega⟩ : Fin 512)) = rAgg1 m c (ValueIdx.ix2 n q)
    ∧ kAgg m ρ c (ValueIdx.ix2 n (⟨256 + q.val, by omega⟩ : Fin 512)) = rAgg2 m c (ValueIdx.ix2 n q) := by
  refine ⟨?_, ?_⟩
  · rw [kAgg_apply, rAgg1_apply]
    refine Finset.sum_congr rfl fun e _ => ?_
    rw [(h3 e q).1]
  · rw [kAgg_apply, rAgg2_apply]
    refine Finset.sum_congr rfl fun e _ => ?_
    rw [(h3 e q).2]

end Cert.Stages

end
-- ==== Proof.Stage5R.lean ====
/-
  Stage 5, the reference's half: the dense node stage read at an index as the row function.

  The reference computes the node features layer by layer on whole arrays. Each layer is read here at a node `r` and a
  column `q` as a row function of the layer below at the WHOLE row `r`: the two edge combines (`Rows.edge`), the two dense
  layers on them (`Rows.dense`), the concatenation (`Rows.join`) and its projection with the skip, and the three residual
  layers (`Rows.res`) whose weights are the three slabs of the stacked arrays. A matrix product at `(r, q)` is the sum over
  the contraction index `k` of (left operand at `(r, k)`) · (right operand at `(k, q)`); a bias broadcast at `(r, q)` is the
  bias at `q`; a slab `s` reshaped to a matrix at `(k, q)` is the stacked array at `(s, k, q)`. Composing the layers gives
  `Rows.rowK3`, once the halves of the joined aggregated row are recognised as the two aggregated rows.
-/
import proofs.«408299_j82652350644685_2_alg».proof.Proof.Stages

noncomputable section

namespace Cert.Stages.S5R

open Idealize.ShloMosaic Idealize.ShloMosaic.TcCoe Idealize.SL.Sem
open Cert.ReferenceIdeal Cert.ReferenceIdeal.Gen Cert.ReferenceIdeal.ReadP

/-- The f32 word `0x3F800000` denotes the real number one. -/
theorem one_bits : Ideal.ofBits .f32 0x3F800000#32 = 1 := by
  simp [Ideal.ofBits, Ideal.ieee]
  rw [← EReal.coe_mul, ← EReal.coe_one]
  congr 1
  norm_num

variable (x0 : (⟨S50000x256, .f32⟩ : BufTy).Contents (Elt Ideal)) (x1 : (⟨S250000x294, .f32⟩ : BufTy).Contents (Elt Ideal))
  (x2 : (⟨S250000x42, .f32⟩ : BufTy).Contents (Elt Ideal)) (x3 : (⟨S2x250000, .i32⟩ : BufTy).Contents (Elt Ideal))
  (x5 : (⟨S256x256, .f32⟩ : BufTy).Contents (Elt Ideal)) (x6 : (⟨S256, .f32⟩ : BufTy).Contents (Elt Ideal))
  (x7 : (⟨S294x256, .f32⟩ : BufTy).Contents (Elt Ideal)) (x8 : (⟨S256x256, .f32⟩ : BufTy).Contents (Elt Ideal))
  (x9 : (⟨S42x256, .f32⟩ : BufTy).Contents (Elt Ideal)) (x10 x11 : (⟨S256x256, .f32⟩ : BufTy).Contents (Elt Ideal))
  (x12 : (⟨S256, .f32⟩ : BufTy).Contents (Elt Ideal)) (x13 x14 : (⟨S256x256, .f32⟩ : BufTy).Contents (Elt Ideal))
  (x15 : (⟨S256, .f32⟩ : BufTy).Contents (Elt Ideal)) (x16 x17 : (⟨S256x256, .f32⟩ : BufTy).Contents (Elt Ideal))
  (x18 : (⟨S256, .f32⟩ : BufTy).Contents (Elt Ideal)) (x19 : (⟨S256x256, .f32⟩ : BufTy).Contents (Elt Ideal))
  (x20 : (⟨S256, .f32⟩ : BufTy).Contents (Elt Ideal)) (x21 : (⟨S512x256, .f32⟩ : BufTy).Contents (Elt Ideal))
  (x22 : (⟨S256, .f32⟩ : BufTy).Contents (Elt Ideal)) (x23 : (⟨S3x256x256, .f32⟩ : BufTy).Contents (Elt Ideal))
  (x24 : (⟨S3x256, .f32⟩ : BufTy).Contents (Elt Ideal))

/-- The word `0x3F800000` is one, as the float operations' constant. -/
theorem one_bits' : FloatOps.ofBits (F := Ideal) .f32 0x3F800000#32 = 1 := one_bits

/-- `y · (1 / (1 + e^{-y}))` spelled with the host's operations is `Rows.silu y`. -/
theorem silu_read (Y : Ideal .f32) :
    FloatOps.mulf Y (FloatOps.hostDivf (FloatOps.ofBits .f32 0x3F800000#32)
      (FloatOps.addf (FloatOps.ofBits .f32 0x3F800000#32) (FloatOps.hostUnary .exp (FloatOps.hostNegf Y)))) = Rows.silu Y := by
  rw [one_bits']
  rfl

/-- The edge combine at a node and a column, as `Rows.edge` of that node's aggregated row and its stage-1 row. -/
theorem edge1_row (r : Fin 50000) (q : Fin 256) :
    val_main_v27 (F := Ideal) x0 x1 x3 x5 x6 x7 x8 x11 x12 x13 (ValueIdx.ix2 r q)
      = Rows.edge (fun k => val_main_v21 (F := Ideal) x0 x1 x3 x5 x6 x7 x8 (ValueIdx.ix2 r k))
          (fun k => val_main_v8 (F := Ideal) x0 x5 x6 (ValueIdx.ix2 r k))
          (Rows.mat x11) (Rows.vec x12) (Rows.mat x13) q := by
  rw [val_main_v27_apply, val_main_v25_apply, val_main_v22_apply, val_main_v24_apply, val_main_v23_apply, val_main_v26_apply]
  generalize val_main_v21 (F := Ideal) x0 x1 x3 x5 x6 x7 x8 = yA
  generalize val_main_v8 (F := Ideal) x0 x5 x6 = y8
  have eL : ∀ k : Fin 256, lidx_main_v22 (ValueIdx.ix2 r q) k = ValueIdx.ix2 r k := fun k => funext fun a => by
    match a with | ⟨0, _⟩ => rfl | ⟨1, _⟩ => rfl
  have eR : ∀ k : Fin 256, ridx_main_v22 (ValueIdx.ix2 r q) k = ValueIdx.ix2 k q := fun k => funext fun a => by
    match a with | ⟨0, _⟩ => rfl | ⟨1, _⟩ => rfl
  have eL' : ∀ k : Fin 256, lidx_main_v26 (ValueIdx.ix2 r q) k = ValueIdx.ix2 r k := fun k => funext fun a => by
    match a with | ⟨0, _⟩ => rfl | ⟨1, _⟩ => rfl
  have eR' : ∀ k : Fin 256, ridx_main_v26 (ValueIdx.ix2 r q) k = ValueIdx.ix2 k q := fun k => funext fun a => by
    match a with | ⟨0, _⟩ => rfl | ⟨1, _⟩ => rfl
  have eB : idx_main_v23 (idx_main_v24 (ValueIdx.ix2 r q)) = ValueIdx.ix1 q := funext fun a => by
    match a with | ⟨0, _⟩ => rfl
  simp only [eL, eR, eL', eR', eB]
  rfl

/-- The dense layer at a node and a column, as `Rows.dense` of the layer below at that node's whole row. -/
theorem dense1_row (r : Fin 50000) (q : Fin 256) :
    val_main_v32 (F := Ideal) x0 x1 x3 x5 x6 x7 x8 x11 x12 x13 x17 x18 (ValueIdx.ix2 r q)
      = Rows.dense (fun k => val_main_v27 (F := Ideal) x0 x1 x3 x5 x6 x7 x8 x11 x12 x13 (ValueIdx.ix2 r k)) (Rows.mat x17) (Rows.vec x18) q := by
  rw [val_main_v32_apply, val_main_call1_v5_apply, val_main_call1_v4_apply, val_main_call1_cst_0_apply, val_main_call1_v3_apply, val_main_call1_v2_apply, val_main_call1_cst_apply, val_main_call1_v1_apply, val_main_call1_v0_apply, silu_read, val_main_v31_apply, val_main_v28_apply, val_main_v30_apply, val_main_v29_apply]
  generalize val_main_v27 (F := Ideal) x0 x1 x3 x5 x6 x7 x8 x11 x12 x13 = y
  have eL : ∀ k : Fin 256, lidx_main_v28 (ValueIdx.ix2 r q) k = ValueIdx.ix2 r k := fun k => funext fun a => by
    match a with | ⟨0, _⟩ => rfl | ⟨1, _⟩ => rfl
  have eR : ∀ k : Fin 256, ridx_main_v28 (ValueIdx.ix2 r q) k = ValueIdx.ix2 k q := fun k => funext fun a => by
    match a with | ⟨0, _⟩ => rfl | ⟨1, _⟩ => rfl
  have eB : idx_main_v29 (idx_main_v30 (ValueIdx.ix2 r q)) = ValueIdx.ix1 q := funext fun a => by
    match a with | ⟨0, _⟩ => rfl
  simp only [eL, eR, eB]
  rfl

/-- The edge combine at a node and a column, as `Rows.edge` of that node's aggregated row and its stage-1 row. -/
theorem edge2_row (r : Fin 50000) (q : Fin 256) :
    val_main_v51 (F := Ideal) x0 x2 x3 x5 x6 x9 x10 x14 x15 x16 (ValueIdx.ix2 r q)
      = Rows.edge (fun k => val_main_v45 (F := Ideal) x0 x2 x3 x5 x6 x9 x10 (ValueIdx.ix2 r k))
          (fun k => val_main_v8 (F := Ideal) x0 x5 x6 (ValueIdx.ix2 r k))
          (Rows.mat x14) (Rows.vec x15) (Rows.mat x16) q := by
  rw [val_main_v51_apply, val_main_v49_apply, val_main_v46_apply, val_main_v48_apply, val_main_v47_apply, val_main_v50_apply]
  generalize val_main_v45 (F := Ideal) x0 x2 x3 x5 x6 x9 x10 = yA
  generalize val_main_v8 (F := Ideal) x0 x5 x6 = y8
  have eL : ∀ k : Fin 256, lidx_main_v46 (ValueIdx.ix2 r q) k = ValueIdx.ix2 r k := fun k => funext fun a => by
    match a with | ⟨0, _⟩ => rfl | ⟨1, _⟩ => rfl
  have eR : ∀ k : Fin 256, ridx_main_v46 (ValueIdx.ix2 r q) k = ValueIdx.ix2 k q := fun k => funext fun a => by
    match a with | ⟨0, _⟩ => rfl | ⟨1, _⟩ => rfl
  have eL' : ∀ k : Fin 256, lidx_main_v50 (ValueIdx.ix2 r q) k = ValueIdx.ix2 r k := fun k => funext fun a => by
    match a with | ⟨0, _⟩ => rfl | ⟨1, _⟩ => rfl
  have eR' : ∀ k : Fin 256, ridx_main_v50 (ValueIdx.ix2 r q) k = ValueIdx.ix2 k q := fun k => funext fun a => by
    match a with | ⟨0, _⟩ => rfl | ⟨1, _⟩ => rfl
  have eB : idx_main_v47 (idx_main_v48 (ValueIdx.ix2 r q)) = ValueIdx.ix1 q := funext fun a => by
    match a with | ⟨0, _⟩ => rfl
  simp only [eL, eR, eL', eR', eB]
  rfl

/-- The dense layer at a node and a column, as `Rows.dense` of the layer below at that node's whole row. -/
theorem dense2_row (r : Fin 50000) (q : Fin 256) :
    val_main_v56 (F := Ideal) x0 x2 x3 x5 x6 x9 x10 x14 x15 x16 x19 x20 (ValueIdx.ix2 r q)
      = Rows.dense (fun k => val_main_v51 (F := Ideal) x0 x2 x3 x5 x6 x9 x10 x14 x15 x16 (ValueIdx.ix2 r k)) (Rows.mat x19) (Rows.vec x20) q := by
  rw [val_main_v56_apply, val_main_call2_v5_apply, val_main_call2_v4_apply, val_main_call2_cst_0_apply, val_main_call2_v3_apply, val_main_call2_v2_apply, val_main_call2_cst_apply, val_main_call2_v1_apply, val_main_call2_v0_apply, silu_read, val_main_v55_apply, val_main_v52_apply, val_main_v54_apply, val_main_v53_apply]
  generalize val_main_v51 (F := Ideal) x0 x2 x3 x5 x6 x9 x10 x14 x15 x16 = y
  have eL : ∀ k : Fin 256, lidx_main_v52 (ValueIdx.ix2 r q) k = ValueIdx.ix2 r k := fun k => funext fun a => by
    match a with | ⟨0, _⟩ => rfl | ⟨1, _⟩ => rfl
  have eR : ∀ k : Fin 256, ridx_main_v52 (ValueIdx.ix2 r q) k = ValueIdx.ix2 k q := fun k => funext fun a => by
    match a with | ⟨0, _⟩ => rfl | ⟨1, _⟩ => rfl
  have eB : idx_main_v53 (idx_main_v54 (ValueIdx.ix2 r q)) = ValueIdx.ix1 q := funext fun a => by
    match a with | ⟨0, _⟩ => rfl
  simp only [eL, eR, eB]
  rfl

/-- The concatenated row at a node: the two dense layers' rows joined. -/
theorem cat_row (r : Fin 50000) (j : Fin 512) :
    val_main_v57 (F := Ideal) x0 x1 x2 x3 x5 x6 x7 x8 x9 x10 x11 x12 x13 x14 x15 x16 x17 x18 x19 x20 (ValueIdx.ix2 r j)
      = Rows.join (fun k => val_main_v32 (F := Ideal) x0 x1 x3 x5 x6 x7 x8 x11 x12 x13 x17 x18 (ValueIdx.ix2 r k))
          (fun k => val_main_v56 (F := Ideal) x0 x2 x3 x5 x6 x9 x10 x14 x15 x16 x19 x20 (ValueIdx.ix2 r k)) j := by
  unfold val_main_v57
  generalize val_main_v32 (F := Ideal) x0 x1 x3 x5 x6 x7 x8 x11 x12 x13 x17 x18 = y32
  generalize val_main_v56 (F := Ideal) x0 x2 x3 x5 x6 x9 x10 x14 x15 x16 x19 x20 = y56
  unfold Rows.join
  by_cases h : j.val < 256
  · rw [dif_pos h]
    exact concatenate_pair_apply_left (t := S50000x512) 1 y32 y56 concatenates_S50000x256_S50000x256_S50000x512_d1
      (ValueIdx.ix2 r j) rfl (ValueIdx.ix2 r (⟨j.val, h⟩ : Fin 256)) (fun b => by
        match b with
        | ⟨0, _⟩ => rfl
        | ⟨1, _⟩ => rfl)
  · rw [dif_neg h]
    exact concatenate_pair_apply_right (t := S50000x512) 1 y32 y56 concatenates_S50000x256_S50000x256_S50000x512_d1
      (ValueIdx.ix2 r j) rfl rfl (ValueIdx.ix2 r (⟨j.val - 256, by omega⟩ : Fin 256))
      (fun b hb => by
        match b with
        | ⟨0, _⟩ => rfl
        | ⟨1, _⟩ => exact absurd rfl hb)
      (by show (j.val - 256) + 256 = j.val; omega)

/-- The projection of the joined row with its bias and the skip, at a node and a column. -/
theorem proj_row (r : Fin 50000) (q : Fin 256) :
    val_main_v62 (F := Ideal) x0 x1 x2 x3 x5 x6 x7 x8 x9 x10 x11 x12 x13 x14 x15 x16 x17 x18 x19 x20 x21 x22 (ValueIdx.ix2 r q)
      = Rows.dot (Rows.join (fun k => val_main_v32 (F := Ideal) x0 x1 x3 x5 x6 x7 x8 x11 x12 x13 x17 x18 (ValueIdx.ix2 r k))
          (fun k => val_main_v56 (F := Ideal) x0 x2 x3 x5 x6 x9 x10 x14 x15 x16 x19 x20 (ValueIdx.ix2 r k))) (Rows.mat x21) q
        + Rows.vec x22 q + val_main_v8 (F := Ideal) x0 x5 x6 (ValueIdx.ix2 r q) := by
  rw [val_main_v62_apply, val_main_v61_apply, val_main_v58_apply, val_main_v60_apply, val_main_v59_apply]
  have eL : ∀ k : Fin 512, lidx_main_v58 (ValueIdx.ix2 r q) k = ValueIdx.ix2 r k := fun k => funext fun a => by
    match a with | ⟨0, _⟩ => rfl | ⟨1, _⟩ => rfl
  have eR : ∀ k : Fin 512, ridx_main_v58 (ValueIdx.ix2 r q) k = ValueIdx.ix2 k q := fun k => funext fun a => by
    match a with | ⟨0, _⟩ => rfl | ⟨1, _⟩ => rfl
  have eB : idx_main_v59 (idx_main_v60 (ValueIdx.ix2 r q)) = ValueIdx.ix1 q := funext fun a => by
    match a with | ⟨0, _⟩ => rfl
  simp only [eL, eR, eB, cat_row]
  rfl

/-- A residual layer at a node and a column, as `Rows.res` of the layer below at that node's whole row, with slab 0 of the stacked weights. -/
theorem res1_row (r : Fin 50000) (q : Fin 256) :
    val_main_v72 (F := Ideal) x0 x1 x2 x3 x5 x6 x7 x8 x9 x10 x11 x12 x13 x14 x15 x16 x17 x18 x19 x20 x21 x22 x23 x24 (ValueIdx.ix2 r q)
      = Rows.res (fun k => val_main_v62 (F := Ideal) x0 x1 x2 x3 x5 x6 x7 x8 x9 x10 x11 x12 x13 x14 x15 x16 x17 x18 x19 x20 x21 x22 (ValueIdx.ix2 r k)) (Rows.slab (0 : Fin 3) x23)
          (fun k => x24 (ValueIdx.ix2 (0 : Fin 3) k)) q := by
  rw [val_main_v72_apply, val_main_v71_apply, val_main_call3_v5_apply, val_main_call3_v4_apply, val_main_call3_cst_0_apply, val_main_call3_v3_apply, val_main_call3_v2_apply, val_main_call3_cst_apply, val_main_call3_v1_apply, val_main_call3_v0_apply, silu_read, val_main_v70_apply, val_main_v65_apply, val_main_v69_apply, val_main_v68_apply, val_main_v67_apply, val_main_v66_apply]
  generalize val_main_v62 (F := Ideal) x0 x1 x2 x3 x5 x6 x7 x8 x9 x10 x11 x12 x13 x14 x15 x16 x17 x18 x19 x20 x21 x22 = y
  have eL : ∀ k : Fin 256, lidx_main_v65 (ValueIdx.ix2 r q) k = ValueIdx.ix2 r k := fun k => funext fun a => by
    match a with | ⟨0, _⟩ => rfl | ⟨1, _⟩ => rfl
  have eW : ∀ k : Fin 256, val_main_v64 (F := Ideal) x23 (ridx_main_v65 (ValueIdx.ix2 r q) k) = x23 (ValueIdx.ix3 (0 : Fin 3) k q) := fun k => by
    rw [val_main_v64_apply, val_main_v63_apply]
    congr 1
    funext a
    match a with
    | ⟨0, _⟩ => rfl
    | ⟨1, _⟩ => exact Fin.ext (by show (k.val * 256 + q.val) / 256 % 256 = k.val; omega)
    | ⟨2, _⟩ => exact Fin.ext (by show (k.val * 256 + q.val) % 256 = q.val; omega)
  have eB : idx_main_v66 (idx_main_v67 (idx_main_v68 (idx_main_v69 (ValueIdx.ix2 r q)))) = ValueIdx.ix2 (0 : Fin 3) q := funext fun a => by
    match a with
    | ⟨0, _⟩ => rfl
    | ⟨1, _⟩ => exact Fin.ext (by show q.val % 256 = q.val; omega)
  simp only [eL, eW, eB]
  rfl

/-- A residual layer at a node and a column, as `Rows.res` of the layer below at that node's whole row, with slab 1 of the stacked weights. -/
theorem res2_row (r : Fin 50000) (q : Fin 256) :
    val_main_v82 (F := Ideal) x0 x1 x2 x3 x5 x6 x7 x8 x9 x10 x11 x12 x13 x14 x15 x16 x17 x18 x19 x20 x21 x22 x23 x24 (ValueIdx.ix2 r q)
      = Rows.res (fun k => val_main_v72 (F := Ideal) x0 x1 x2 x3 x5 x6 x7 x8 x9 x10 x11 x12 x13 x14 x15 x16 x17 x18 x19 x20 x21 x22 x23 x24 (ValueIdx.ix2 r k)) (Rows.slab (1 : Fin 3) x23)
          (fun k => x24 (ValueIdx.ix2 (1 : Fin 3) k)) q := by
  rw [val_main_v82_apply, val_main_v81_apply, val_main_call4_v5_apply, val_main_call4_v4_apply, val_main_call4_cst_0_apply, val_main_call4_v3_apply, val_main_call4_v2_apply, val_main_call4_cst_apply, val_main_call4_v1_apply, val_main_call4_v0_apply, silu_read, val_main_v80_apply, val_main_v75_apply, val_main_v79_apply, val_main_v78_apply, val_main_v77_apply, val_main_v76_apply]
  generalize val_main_v72 (F := Ideal) x0 x1 x2 x3 x5 x6 x7 x8 x9 x10 x11 x12 x13 x14 x15 x16 x17 x18 x19 x20 x21 x22 x23 x24 = y
  have eL : ∀ k : Fin 256, lidx_main_v75 (ValueIdx.ix2 r q) k = ValueIdx.ix2 r k := fun k => funext fun a => by
    match a with | ⟨0, _⟩ => rfl | ⟨1, _⟩ => rfl
  have eW : ∀ k : Fin 256, val_main_v74 (F := Ideal) x23 (ridx_main_v75 (ValueIdx.ix2 r q) k) = x23 (ValueIdx.ix3 (1 : Fin 3) k q) := fun k => by
    rw [val_main_v74_apply, val_main_v73_apply]
    congr 1
    funext a
    match a with
    | ⟨0, _⟩ => rfl
    | ⟨1, _⟩ => exact Fin.ext (by show (k.val * 256 + q.val) / 256 % 256 = k.val; omega)
    | ⟨2, _⟩ => exact Fin.ext (by show (k.val * 256 + q.val) % 256 = q.val; omega)
  have eB : idx_main_v76 (idx_main_v77 (idx_main_v78 (idx_main_v79 (ValueIdx.ix2 r q)))) = ValueIdx.ix2 (1 : Fin 3) q := funext fun a => by
    match a with
    | ⟨0, _⟩ => rfl
    | ⟨1, _⟩ => exact Fin.ext (by show q.val % 256 = q.val; omega)
  simp only [eL, eW, eB]
  rfl

/-- A residual layer at a node and a column, as `Rows.res` of the layer below at that node's whole row, with slab 2 of the stacked weights. -/
theorem res3_row (r : Fin 50000) (q : Fin 256) :
    val_main_v92 (F := Ideal) x0 x1 x2 x3 x5 x6 x7 x8 x9 x10 x11 x12 x13 x14 x15 x16 x17 x18 x19 x20 x21 x22 x23 x24 (ValueIdx.ix2 r q)
      = Rows.res (fun k => val_main_v82 (F := Ideal) x0 x1 x2 x3 x5 x6 x7 x8 x9 x10 x11 x12 x13 x14 x15 x16 x17 x18 x19 x20 x21 x22 x23 x24 (ValueIdx.ix2 r k)) (Rows.slab (2 : Fin 3) x23)
          (fun k => x24 (ValueIdx.ix2 (2 : Fin 3) k)) q := by
  rw [val_main_v92_apply, val_main_v91_apply, val_main_call5_v5_apply, val_main_call5_v4_apply, val_main_call5_cst_0_apply, val_main_call5_v3_apply, val_main_call5_v2_apply, val_main_call5_cst_apply, val_main_call5_v1_apply, val_main_call5_v0_apply, silu_read, val_main_v90_apply, val_main_v85_apply, val_main_v89_apply, val_main_v88_apply, val_main_v87_apply, val_main_v86_apply]
  generalize val_main_v82 (F := Ideal) x0 x1 x2 x3 x5 x6 x7 x8 x9 x10 x11 x12 x13 x14 x15 x16 x17 x18 x19 x20 x21 x22 x23 x24 = y
  have eL : ∀ k : Fin 256, lidx_main_v85 (ValueIdx.ix2 r q) k = ValueIdx.ix2 r k := fun k => funext fun a => by
    match a with | ⟨0, _⟩ => rfl | ⟨1, _⟩ => rfl
  have eW : ∀ k : Fin 256, val_main_v84 (F := Ideal) x23 (ridx_main_v85 (ValueIdx.ix2 r q) k) = x23 (ValueIdx.ix3 (2 : Fin 3) k q) := fun k => by
    rw [val_main_v84_apply, val_main_v83_apply]
    congr 1
    funext a
    match a with
    | ⟨0, _⟩ => rfl
    | ⟨1, _⟩ => exact Fin.ext (by show (k.val * 256 + q.val) / 256 % 256 = k.val; omega)
    | ⟨2, _⟩ => exact Fin.ext (by show (k.val * 256 + q.val) % 256 = q.val; omega)
  have eB : idx_main_v86 (idx_main_v87 (idx_main_v88 (idx_main_v89 (ValueIdx.ix2 r q)))) = ValueIdx.ix2 (2 : Fin 3) q := funext fun a => by
    match a with
    | ⟨0, _⟩ => rfl
    | ⟨1, _⟩ => exact Fin.ext (by show q.val % 256 = q.val; omega)
  simp only [eL, eW, eB]
  rfl

/-- The left half of two joined rows is the first. -/
theorem lo_join (a b : Fin 256 → EReal) : Rows.lo (Rows.join a b) = a := by
  funext k
  simp only [Rows.lo, Rows.join]
  rw [dif_pos k.isLt]

/-- The right half of two joined rows is the second. -/
theorem hi_join (a b : Fin 256 → EReal) : Rows.hi (Rows.join a b) = b := by
  funext k
  simp only [Rows.hi, Rows.join]
  rw [dif_neg (by show ¬ (256 + k.val < 256); omega)]
  congr 1
  exact Fin.ext (by show 256 + k.val - 256 = k.val; omega)

end Cert.Stages.S5R

namespace Cert.Stages

open Idealize.ShloMosaic Idealize.ShloMosaic.TcCoe Idealize.SL.Sem
open Cert.KernelIdeal Cert.KernelIdeal.Gen Cert.ReferenceIdeal.ReadP

variable (m : (ℓ : Loc nD τ sig) → Buf (Elt Ideal) ℓ) (ρ : Dev nD → PrngReg) (c : Dev nD)

/-- The reference's node features before the graph norm, at a node and a column, as the row function of stage 3 applied to
    that node's aggregated row (its two halves joined), its stage-1 row, and the weights. -/
theorem ref_h_row (r : Fin 50000) (q : Fin 256) :
    rH m c (ValueIdx.ix2 r q)
      = Rows.rowK3 (Rows.join (fun k => rAgg1 m c (ValueIdx.ix2 r k)) (fun k => rAgg2 m c (ValueIdx.ix2 r k)))
          (fun k => rX1 m c (ValueIdx.ix2 r k))
          (Rows.mat (A11 m c)) (Rows.vec (A12 m c)) (Rows.mat (A13 m c)) (Rows.mat (A17 m c)) (Rows.vec (A18 m c))
          (Rows.mat (A14 m c)) (Rows.vec (A15 m c)) (Rows.mat (A16 m c)) (Rows.mat (A19 m c)) (Rows.vec (A20 m c))
          (Rows.mat (A21 m c)) (Rows.vec (A22 m c))
          (Rows.slab (0 : Fin 3) (A23 m c)) (fun k => A24 m c (ValueIdx.ix2 (0 : Fin 3) k))
          (Rows.slab (1 : Fin 3) (A23 m c)) (fun k => A24 m c (ValueIdx.ix2 (1 : Fin 3) k))
          (Rows.slab (2 : Fin 3) (A23 m c)) (fun k => A24 m c (ValueIdx.ix2 (2 : Fin 3) k)) q := by
  simp only [S5R.res3_row, S5R.res2_row, S5R.res1_row, S5R.proj_row, S5R.dense1_row, S5R.dense2_row, S5R.edge1_row,
    S5R.edge2_row]
  simp only [Rows.rowK3, S5R.lo_join, S5R.hi_join]

end Cert.Stages

end
-- ==== Proof.Stage5K.lean ====
/-
  Stage 5 on the kernel's side. The third region computes, block of 2000 rows by block, the dense node stage: from a node's
  aggregated messages a (a row of 512, two halves of 256) and its stage-1 row x₁, the two edge convolutions
  lo a · Wl₁ + bl₁ + x₁ · Wr₁ and hi a · Wl₂ + bl₂ + x₁ · Wr₂, each through a dense layer silu (· W + b); the two results side
  by side projected by · Wcat + bcat with the skip + x₁; then three residual layers silu (h · W + b) + h whose weights are the
  three slabs of one stacked array. Every operation of the body acts row by row — a product reads one row of its left factor,
  a bias is the same under every row, the halves and the join cut and glue columns — so row p of the stored block is the row
  function Rows.rowK3 of row p of the two staged row blocks and of the weights, which are staged whole. The 25 blocks tile the
  50000 rows, block t holding rows 2000·t … 2000·t + 1999, so the array the region leaves is that row function at every row.
  Last, the arrays the region finds at its entry are read back through the run: the weights are the arguments as launched and
  the stage-1 rows are what the first region left, since nothing in between writes them.
-/
import proofs.«408299_j82652350644685_2_alg».proof.Proof.Gen.KernelIdeal.Frame
import proofs.«408299_j82652350644685_2_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.Stage5K

open Idealize.ShloMosaic Idealize.ShloMosaic.TcCoe Idealize.SL.Sem Idealize.ShloMosaic.ValueIdx
open Cert.KernelIdeal Cert.KernelIdeal.Gen
open Idealize.ShloMosaic.Pipeline (Dat)

/-! ## A matrix product read at an index -/

theorem lhs256_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs256_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs256_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs256_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The 256-deep product into a zero accumulator, at row `p` and column `q`: the row of the left factor against the right factor. -/
theorem mm256_apply {φ₁ φ₂ : FTy} (A : FVec Ideal S2000x256 φ₁) (B : FVec Ideal S256x256 φ₂) (p : Fin 2000) (q : Fin 256) :
    matmul dot_S2000x256_S256x256_S2000x256_1_0_0_1_n_n none A B (constant S2000x256 .f32 0x00000000#32) (ix2 p q)
      = Rows.dot (Rows.mat A p) (Rows.mat B) q := by
  show FloatOps.matmul dot_S2000x256_S256x256_S2000x256_1_0_0_1_n_n none A B (constant S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  unfold Rows.dot Rows.mat
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs256_0 _ _).trans hk
    | ⟨1, _⟩ => exact rhs256_1 _ _)
  rw [el, er]

theorem lhs512_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs512_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs512_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs512_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The 512-deep product into a zero accumulator, at row `p` and column `q`. -/
theorem mm512_apply {φ₁ φ₂ : FTy} (A : FVec Ideal S2000x512 φ₁) (B : FVec Ideal S512x256 φ₂) (p : Fin 2000) (q : Fin 256) :
    matmul dot_S2000x512_S512x256_S2000x256_1_0_0_1_n_n none A B (constant S2000x256 .f32 0x00000000#32) (ix2 p q)
      = Rows.dot (Rows.mat A p) (Rows.mat B) q := by
  show FloatOps.matmul dot_S2000x512_S512x256_S2000x256_1_0_0_1_n_n none A B (constant S2000x256 .f32 0x00000000#32) (ix2 p q) = _
  rw [Ideal.matmul_constant_zero_apply, ← Equiv.sum_comp (ValueIdx.contrEquiv1 dot_S2000x512_S512x256_S2000x256_1_0_0_1_n_n 512 rfl rfl).symm]
  unfold Rows.dot Rows.mat
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx (ix2 p q) ((ValueIdx.contrEquiv1 dot_S2000x512_S512x256_S2000x256_1_0_0_1_n_n 512 rfl rfl).symm k) = ix2 p k := funext fun a => Fin.ext (by
    match a with
    | ⟨0, _⟩ => exact lhs512_0 _ _
    | ⟨1, _⟩ => exact (lhs512_1 _ _).trans hk)
  have er : dot_S2000x512_S512x256_S2000x256_1_0_0_1_n_n.rhsIdx (ix2 p q) ((ValueIdx.contrEquiv1 dot_S2000x512_S512x256_S2000x256_1_0_0_1_n_n 512 rfl rfl).symm k) = ix2 k q := funext fun a => Fin.ext (by
    match a with
    | ⟨0, _⟩ => exact (rhs512_0 _ _).trans hk
    | ⟨1, _⟩ => exact rhs512_1 _ _)
  rw [el, er]

/-! ## A bias row under every row of a block -/

/-- A vector of 256 laid as one row and repeated down 2000 rows reads, at `(p, q)`, its entry `q`. -/
theorem bias_apply (b : FVec Ideal S256 .f32) (p : Fin 2000) (q : Fin 256) :
    broadcastTo S2000x256 (shapeCast S1x256 b shapeCasts_S256_S1x256) broadcasts_S1x256_S2000x256 (ix2 p q) = Rows.vec b q := by
  rw [broadcastTo_1b_ab_apply, shapeCast_a_1a_apply]
  rfl

/-! ## The dense layers as blocks of 2000 rows -/

/-- `h · W + b`, every row of the block at once. -/
def kLin (h : FVec Ideal S2000x256 .f32) (W : FVec Ideal S256x256 .f32) (b : FVec Ideal S256 .f32) : FVec Ideal S2000x256 .f32 :=
  addf (matmul dot_S2000x256_S256x256_S2000x256_1_0_0_1_n_n none (truncf .bf16 h bitsLt_bf16_f32) (truncf .bf16 W bitsLt_bf16_f32) (constant S2000x256 .f32 0x00000000#32))
    (broadcastTo S2000x256 (shapeCast S1x256 b shapeCasts_S256_S1x256) broadcasts_S1x256_S2000x256)

/-- `silu (h · W + b)`. -/
def kDense (h : FVec Ideal S2000x256 .f32) (W : FVec Ideal S256x256 .f32) (b : FVec Ideal S256 .f32) : FVec Ideal S2000x256 .f32 :=
  mulf (kLin h W b) (logistic (kLin h W b))

/-- `silu (h · W + b) + h`. -/
def kRes (h : FVec Ideal S2000x256 .f32) (W : FVec Ideal S256x256 .f32) (b : FVec Ideal S256 .f32) : FVec Ideal S2000x256 .f32 :=
  addf (kDense h W b) h

theorem kLin_apply (h : FVec Ideal S2000x256 .f32) (W : FVec Ideal S256x256 .f32) (b : FVec Ideal S256 .f32) (p : Fin 2000) (q : Fin 256) :
    kLin h W b (ix2 p q) = Rows.dot (Rows.mat h p) (Rows.mat W) q + Rows.vec b q := by
  unfold kLin
  rw [addf_apply, mm256_apply, bias_apply]
  rfl

theorem kDense_row (h : FVec Ideal S2000x256 .f32) (W : FVec Ideal S256x256 .f32) (b : FVec Ideal S256 .f32) (p : Fin 2000) :
    Rows.mat (kDense h W b) p = Rows.dense (Rows.mat h p) (Rows.mat W) (Rows.vec b) := by
  funext q
  show kDense h W b (ix2 p q) = _
  unfold kDense
  rw [mulf_apply]
  show kLin h W b (ix2 p q) * Ideal.logistic (kLin h W b (ix2 p q)) = _
  rw [kLin_apply]
  rfl

theorem kRes_row (h : FVec Ideal S2000x256 .f32) (W : FVec Ideal S256x256 .f32) (b : FVec Ideal S256 .f32) (p : Fin 2000) :
    Rows.mat (kRes h W b) p = Rows.res (Rows.mat h p) (Rows.mat W) (Rows.vec b) := by
  funext q
  show kRes h W b (ix2 p q) = _
  unfold kRes
  rw [addf_apply]
  show Rows.mat (kDense h W b) p q + h (ix2 p q) = _
  rw [kDense_row]
  rfl

/-- The last payload is two residual layers on top of the block it is handed. -/
theorem pay1_eq (v74 : FVec Ideal S2000x256 .f32) (v76 : FVec Ideal S256x256 .f32) (v77 : Vec Ideal S1x256 .f32) (v88 : Vec Ideal S1x256x256 .f32) (v90 : Vec Ideal S1x256 .f32) :
    k2_pay1 (F := Ideal) v74 v76 v77 v88 v90
      = kRes (kRes v74 v76 (shapeCast S256 v77 shapeCasts_S1x256_S256)) (shapeCast S256x256 v88 shapeCasts_S1x256x256_S256x256) (shapeCast S256 v90 shapeCasts_S1x256_S256) := rfl

/-! ## The two halves of a row of 512, and two blocks joined side by side -/

theorem lo_row (X : FVec Ideal S2000x512 .f32) (p : Fin 2000) :
    Rows.mat (extractStridedSlice S2000x256 ![0, 0] X slices_S2000x512_o0_0_S2000x256) p = Rows.lo (Rows.mat X p) := by
  funext k
  show extractStridedSlice S2000x256 ![0, 0] X slices_S2000x512_o0_0_S2000x256 (ix2 p k) = _
  rw [slice2_axis1_apply 0 X slices_S2000x512_o0_0_S2000x256 p k ⟨k.val, by omega⟩ (by show k.val = 0 + k.val; omega)]
  rfl

theorem hi_row (X : FVec Ideal S2000x512 .f32) (p : Fin 2000) :
    Rows.mat (extractStridedSlice S2000x256 ![0, 256] X slices_S2000x512_o0_256_S2000x256) p = Rows.hi (Rows.mat X p) := by
  funext k
  show extractStridedSlice S2000x256 ![0, 256] X slices_S2000x512_o0_256_S2000x256 (ix2 p k) = _
  rw [slice2_axis1_apply 256 X slices_S2000x512_o0_256_S2000x256 p k ⟨256 + k.val, by omega⟩ rfl]
  rfl

theorem join_row (a b : FVec Ideal S2000x256 .f32) (p : Fin 2000) :
    Rows.mat (concatenate S2000x512 1 [⟨S2000x256, a⟩, ⟨S2000x256, b⟩] concatenates_S2000x256_S2000x256_S2000x512_d1) p
      = Rows.join (Rows.mat a p) (Rows.mat b p) := by
  funext j
  show concatenate S2000x512 1 [⟨S2000x256, a⟩, ⟨S2000x256, b⟩] concatenates_S2000x256_S2000x256_S2000x512_d1 (ix2 p j) = _
  unfold Rows.join
  by_cases h : j.val < 256
  · rw [dif_pos h]
    exact concatenate_pair_apply_left (1 : Fin S2000x512.rank) a b concatenates_S2000x256_S2000x256_S2000x512_d1 (ix2 p j) rfl (ix2 p ⟨j.val, h⟩)
      (fun ax => by match ax with | ⟨0, _⟩ => rfl | ⟨1, _⟩ => rfl)
  · rw [dif_neg h]
    exact concatenate_pair_apply_right (1 : Fin S2000x512.rank) a b concatenates_S2000x256_S2000x256_S2000x512_d1 (ix2 p j) rfl rfl (ix2 p ⟨j.val - 256, by omega⟩)
      (fun ax hax => by match ax with | ⟨0, _⟩ => rfl | ⟨1, _⟩ => exact absurd rfl hax)
      (by show j.val - 256 + 256 = j.val; omega)

/-! ## One slab of the stacked weights, one row of the stacked biases -/

theorem slabW_eq (x : Vec Ideal S3x256x256 .f32) (o : Nat) (ho : o < 3)
    (inb : ∀ a, (![o, 0, 0] : Fin 3 → Nat) a + S1x256x256.size a ≤ S3x256x256.size a) :
    Rows.mat (shapeCast S256x256 (View.ld (Val := Elt Ideal) (e' := EltTy.f32) x (Rect.unit (s := S3x256x256) ![o, 0, 0] S1x256x256.size inb)) shapeCasts_S1x256x256_S256x256)
      = Rows.slab (⟨o, ho⟩ : Fin 3) x := by
  funext a b
  show shapeCast S256x256 (View.ld (Val := Elt Ideal) (e' := EltTy.f32) x (Rect.unit (s := S3x256x256) ![o, 0, 0] S1x256x256.size inb)) shapeCasts_S1x256x256_S256x256 (ix2 a b) = x (ix3 (⟨o, ho⟩ : Fin 3) a b)
  rw [shapeCast_1ab_ab_apply]
  show x ((Rect.unit (s := S3x256x256) ![o, 0, 0] S1x256x256.size inb).idx (ix3 (0 : Fin 1) a b)) = _
  refine congrArg x (funext fun ax => Fin.ext ?_)
  match ax with
  | ⟨0, _⟩ => show o + 1 * 0 = o; omega
  | ⟨1, _⟩ => show 0 + 1 * a.val = a.val; omega
  | ⟨2, _⟩ => show 0 + 1 * b.val = b.val; omega

theorem slabB_eq (x : Vec Ideal S3x256 .f32) (o : Nat) (ho : o < 3)
    (inb : ∀ a, (![o, 0] : Fin 2 → Nat) a + S1x256.size a ≤ S3x256.size a) :
    Rows.vec (shapeCast S256 (View.ld (Val := Elt Ideal) (e' := EltTy.f32) x (Rect.unit (s := S3x256) ![o, 0] S1x256.size inb)) shapeCasts_S1x256_S256)
      = fun k => x (ix2 (⟨o, ho⟩ : Fin 3) k) := by
  funext k
  show shapeCast S256 (View.ld (Val := Elt Ideal) (e' := EltTy.f32) x (Rect.unit (s := S3x256) ![o, 0] S1x256.size inb)) shapeCasts_S1x256_S256 (ix1 k) = _
  rw [shapeCast_1a_a_apply]
  show x ((Rect.unit (s := S3x256) ![o, 0] S1x256.size inb).idx (ix2 (0 : Fin 1) k)) = _
  refine congrArg x (funext fun ax => Fin.ext ?_)
  match ax with
  | ⟨0, _⟩ => show o + 1 * 0 = o; omega
  | ⟨1, _⟩ => show 0 + 1 * k.val = k.val; omega

/-! ## The body's payloads, row by row -/

/-- The first edge convolution's output through its dense layer. -/
theorem pay4_row (v0 : FVec Ideal S2000x256 .f32) (v2 : FVec Ideal S2000x512 .f32) (v7 : FVec Ideal S256x256 .f32) (v10 : FVec Ideal S256 .f32)
    (v15 : FVec Ideal S256x256 .f32) (v20 : FVec Ideal S256x256 .f32) (v23 : FVec Ideal S256 .f32) (p : Fin 2000) :
    Rows.mat (k2_pay4 (F := Ideal) v0 v2 v7 v10 v15 v20 v23) p
      = Rows.dense (Rows.edge (Rows.lo (Rows.mat v2 p)) (Rows.mat v0 p) (Rows.mat v7) (Rows.vec v10) (Rows.mat v15)) (Rows.mat v20) (Rows.vec v23) := by
  have e : k2_pay4 (F := Ideal) v0 v2 v7 v10 v15 v20 v23
      = kDense (addf (kLin (extractStridedSlice S2000x256 ![0, 0] v2 slices_S2000x512_o0_0_S2000x256) v7 v10)
          (matmul dot_S2000x256_S256x256_S2000x256_1_0_0_1_n_n none (truncf .bf16 v0 bitsLt_bf16_f32) (truncf .bf16 v15 bitsLt_bf16_f32) (constant S2000x256 .f32 0x00000000#32))) v20 v23 := by
    unfold k2_pay4 k2_pay3 k2_pay2
    rw [shapeCast_self, shapeCast_self]
    rfl
  rw [e, kDense_row]
  refine congrArg (fun r => Rows.dense r (Rows.mat v20) (Rows.vec v23)) (funext fun q => ?_)
  show addf _ _ (ix2 p q) = _
  rw [addf_apply, kLin_apply, mm256_apply, lo_row]
  rfl

/-- The second edge convolution's left part, `a · Wl + bl` on the right half of the aggregated row. -/
theorem pay5_row (v2 : FVec Ideal S2000x512 .f32) (v30 : FVec Ideal S256x256 .f32) (v33 : FVec Ideal S256 .f32) (p : Fin 2000) :
    Rows.mat (k2_pay5 (F := Ideal) v2 v30 v33) p = fun q => Rows.dot (Rows.hi (Rows.mat v2 p)) (Rows.mat v30) q + Rows.vec v33 q := by
  have e : k2_pay5 (F := Ideal) v2 v30 v33 = kLin (extractStridedSlice S2000x256 ![0, 256] v2 slices_S2000x512_o0_256_S2000x256) v30 v33 := by
    unfold k2_pay5 k2_pay3
    rw [shapeCast_self]
    rfl
  funext q
  show k2_pay5 (F := Ideal) v2 v30 v33 (ix2 p q) = _
  rw [e, kLin_apply, hi_row]

/-- The rest of the second edge convolution, its dense layer, the join, the projection with the skip, and the first residual layer. -/
theorem pay7_row (v1 : FVec Ideal S2000x256 .f32) (v28 : FVec Ideal S2000x256 .f32) (v36 : FVec Ideal S2000x256 .f32) (v37 : FVec Ideal S2000x256 .bf16)
    (v38 : FVec Ideal S256x256 .f32) (v43 : FVec Ideal S256x256 .f32) (v46 : FVec Ideal S256 .f32) (v54 : FVec Ideal S512x256 .f32) (v57 : FVec Ideal S256 .f32)
    (v62 : FVec Ideal S1x256x256 .f32) (v64 : FVec Ideal S1x256 .f32) (p : Fin 2000) :
    Rows.mat (k2_pay7 (F := Ideal) v1 v28 v36 v37 v38 v43 v46 v54 v57 v62 v64) p
      = Rows.res (fun q => Rows.dot (Rows.join (Rows.mat v28 p)
            (Rows.dense (fun q' => Rows.mat v36 p q' + Rows.dot (Rows.mat v37 p) (Rows.mat v38) q') (Rows.mat v43) (Rows.vec v46))) (Rows.mat v54) q
          + Rows.vec v57 q + Rows.mat v1 p q)
        (Rows.mat (shapeCast S256x256 v62 shapeCasts_S1x256x256_S256x256)) (Rows.vec (shapeCast S256 v64 shapeCasts_S1x256_S256)) := by
  have e : k2_pay7 (F := Ideal) v1 v28 v36 v37 v38 v43 v46 v54 v57 v62 v64
      = kRes (addf (addf (matmul dot_S2000x512_S512x256_S2000x256_1_0_0_1_n_n none
              (truncf .bf16 (concatenate S2000x512 1 [⟨S2000x256, v28⟩, ⟨S2000x256,
                kDense (addf v36 (matmul dot_S2000x256_S256x256_S2000x256_1_0_0_1_n_n none v37 (truncf .bf16 v38 bitsLt_bf16_f32) (constant S2000x256 .f32 0x00000000#32))) v43 v46⟩]
                concatenates_S2000x256_S2000x256_S2000x512_d1) bitsLt_bf16_f32)
              (truncf .bf16 v54 bitsLt_bf16_f32) (constant S2000x256 .f32 0x00000000#32))
            (broadcastTo S2000x256 (shapeCast S1x256 v57 shapeCasts_S256_S1x256) broadcasts_S1x256_S2000x256)) v1)
          (shapeCast S256x256 v62 shapeCasts_S1x256x256_S256x256) (shapeCast S256 v64 shapeCasts_S1x256_S256) := rfl
  rw [e, kRes_row]
  refine congrArg (fun r => Rows.res r _ _) (funext fun q => ?_)
  show addf (addf _ _) v1 (ix2 p q) = _
  rw [addf_apply, addf_apply, mm512_apply, bias_apply]
  show Rows.dot (Rows.mat (concatenate S2000x512 1 [⟨S2000x256, v28⟩, ⟨S2000x256, _⟩] concatenates_S2000x256_S2000x256_S2000x512_d1) p) (Rows.mat v54) q + Rows.vec v57 q + v1 (ix2 p q) = _
  rw [join_row, kDense_row]
  refine congrArg (fun r => Rows.dot (Rows.join (Rows.mat v28 p) (Rows.dense r (Rows.mat v43) (Rows.vec v46))) (Rows.mat v54) q + Rows.vec v57 q + v1 (ix2 p q)) (funext fun q' => ?_)
  show addf v36 _ (ix2 p q') = _
  rw [addf_apply, mm256_apply]
  rfl

/-! ## The block the body leaves -/

theorem zeros2 : (![0, 0] : Fin 2 → Nat) = fun _ => 0 := funext fun a => by fin_cases a <;> rfl
theorem zeros1 : (![0] : Fin 1 → Nat) = fun _ => 0 := funext fun a => by fin_cases a <;> rfl

/-- The node's stage-1 row passes through the body's identity cast and its change of format unchanged. -/
theorem pay2_eq (v0 : Vec Ideal S2000x256 .f32) : k2_pay2 (F := Ideal) v0 = v0 := by
  unfold k2_pay2; rw [shapeCast_self]
theorem pay6_row (v0 : Vec Ideal S2000x256 .f32) (p : Fin 2000) : Rows.mat (k2_pay6 (F := Ideal) v0) p = Rows.mat v0 p := by
  unfold k2_pay6; rw [pay2_eq]; rfl
theorem pay8_eq (v75 : Vec Ideal S1x256x256 .f32) : k2_pay8 (F := Ideal) v75 = shapeCast S256x256 v75 shapeCasts_S1x256x256_S256x256 := rfl

/-- Row `p` of the block the body stores is the stage's row function of row `p` of the two row-tiled blocks and of the weights. -/
theorem out_row (x0 : Vec Ideal S2000x512 .f32) (x1 : Vec Ideal S2000x256 .f32) (x2 : Vec Ideal S256x256 .f32) (x3 : Vec Ideal S256 .f32)
    (x4 : Vec Ideal S256x256 .f32) (x5 : Vec Ideal S256x256 .f32) (x6 : Vec Ideal S256 .f32) (x7 : Vec Ideal S256x256 .f32) (x8 : Vec Ideal S256 .f32)
    (x9 : Vec Ideal S256x256 .f32) (x10 : Vec Ideal S256x256 .f32) (x11 : Vec Ideal S256 .f32) (x12 : Vec Ideal S512x256 .f32) (x13 : Vec Ideal S256 .f32)
    (x14 : Vec Ideal S3x256x256 .f32) (x15 : Vec Ideal S3x256 .f32) (p : Fin 2000) :
    Rows.mat (out2_16 (F := Ideal) x0 x1 x2 x3 x4 x5 x6 x7 x8 x9 x10 x11 x12 x13 x14 x15) p
      = Rows.rowK3 (Rows.mat x0 p) (Rows.mat x1 p) (Rows.mat x2) (Rows.vec x3) (Rows.mat x4) (Rows.mat x5) (Rows.vec x6)
          (Rows.mat x7) (Rows.vec x8) (Rows.mat x9) (Rows.mat x10) (Rows.vec x11) (Rows.mat x12) (Rows.vec x13)
          (Rows.slab (0 : Fin 3) x14) (fun k => x15 (ix2 (0 : Fin 3) k)) (Rows.slab (1 : Fin 3) x14) (fun k => x15 (ix2 (1 : Fin 3) k))
          (Rows.slab (2 : Fin 3) x14) (fun k => x15 (ix2 (2 : Fin 3) k)) := by
  unfold out2_16
  rw [View.canon_unit_zero zeros2]
  simp only [View.ld_unit_zero (S := S2000x256) zeros2, View.ld_unit_zero (S := S2000x512) zeros2, View.ld_unit_zero (S := S256x256) zeros2,
    View.ld_unit_zero (S := S256) zeros1, View.ld_unit_zero (S := S512x256) zeros2]
  rw [pay1_eq, kRes_row, kRes_row, pay7_row, pay4_row, pay5_row, pay6_row, pay2_eq, pay8_eq]
  rw [slabW_eq x14 0 (by omega), slabW_eq x14 1 (by omega), slabW_eq x14 2 (by omega),
    slabB_eq x15 0 (by omega), slabB_eq x15 1 (by omega), slabB_eq x15 2 (by omega)]
  rfl

/-- A matrix's row at a column is its entry. -/
theorem mat_apply {n k : ℕ} (A : (⟨2, ![n, k]⟩ : Shape).Idx → EReal) (p : Fin n) (q : Fin k) : Rows.mat A p q = A (ix2 p q) := rfl

/-- The same at an entry of the block. -/
theorem out_apply (x0 : Vec Ideal S2000x512 .f32) (x1 : Vec Ideal S2000x256 .f32) (x2 : Vec Ideal S256x256 .f32) (x3 : Vec Ideal S256 .f32)
    (x4 : Vec Ideal S256x256 .f32) (x5 : Vec Ideal S256x256 .f32) (x6 : Vec Ideal S256 .f32) (x7 : Vec Ideal S256x256 .f32) (x8 : Vec Ideal S256 .f32)
    (x9 : Vec Ideal S256x256 .f32) (x10 : Vec Ideal S256x256 .f32) (x11 : Vec Ideal S256 .f32) (x12 : Vec Ideal S512x256 .f32) (x13 : Vec Ideal S256 .f32)
    (x14 : Vec Ideal S3x256x256 .f32) (x15 : Vec Ideal S3x256 .f32) (p : Fin 2000) (q : Fin 256) :
    out2_16 (F := Ideal) x0 x1 x2 x3 x4 x5 x6 x7 x8 x9 x10 x11 x12 x13 x14 x15 (ix2 p q)
      = Rows.rowK3 (Rows.mat x0 p) (Rows.mat x1 p) (Rows.mat x2) (Rows.vec x3) (Rows.mat x4) (Rows.mat x5) (Rows.vec x6)
          (Rows.mat x7) (Rows.vec x8) (Rows.mat x9) (Rows.mat x10) (Rows.vec x11) (Rows.mat x12) (Rows.vec x13)
          (Rows.slab (0 : Fin 3) x14) (fun k => x15 (ix2 (0 : Fin 3) k)) (Rows.slab (1 : Fin 3) x14) (fun k => x15 (ix2 (1 : Fin 3) k))
          (Rows.slab (2 : Fin 3) x14) (fun k => x15 (ix2 (2 : Fin 3) k)) q :=
  (mat_apply (out2_16 (F := Ideal) x0 x1 x2 x3 x4 x5 x6 x7 x8 x9 x10 x11 x12 x13 x14 x15) p q).symm.trans (congrFun (out_row x0 x1 x2 x3 x4 x5 x6 x7 x8 x9 x10 x11 x12 x13 x14 x15 p) q)

/-! ## From the blocks to the array -/

/-- The stage at every row of the arrays: entry `(r, q)` is the row function of row `r` of the aggregated messages and of the stage-1 rows. -/
def rowsOut (agg : S50000x512.Idx → EReal) (x1v : S50000x256.Idx → EReal) (x2 : S256x256.Idx → EReal) (x3 : S256.Idx → EReal)
    (x4 : S256x256.Idx → EReal) (x5 : S256x256.Idx → EReal) (x6 : S256.Idx → EReal) (x7 : S256x256.Idx → EReal) (x8 : S256.Idx → EReal)
    (x9 : S256x256.Idx → EReal) (x10 : S256x256.Idx → EReal) (x11 : S256.Idx → EReal) (x12 : S512x256.Idx → EReal) (x13 : S256.Idx → EReal)
    (x14 : S3x256x256.Idx → EReal) (x15 : S3x256.Idx → EReal) : S50000x256.Idx → EReal :=
  fun i => Rows.rowK3 (Rows.mat agg (i 0 : Fin 50000)) (Rows.mat x1v (i 0 : Fin 50000)) (Rows.mat x2) (Rows.vec x3) (Rows.mat x4) (Rows.mat x5) (Rows.vec x6)
          (Rows.mat x7) (Rows.vec x8) (Rows.mat x9) (Rows.mat x10) (Rows.vec x11) (Rows.mat x12) (Rows.vec x13)
          (Rows.slab (0 : Fin 3) x14) (fun k => x15 (ix2 (0 : Fin 3) k)) (Rows.slab (1 : Fin 3) x14) (fun k => x15 (ix2 (1 : Fin 3) k))
          (Rows.slab (2 : Fin 3) x14) (fun k => x15 (ix2 (2 : Fin 3) k)) (i 1 : Fin 256)

/-- The printed index maps over the 25 grid points: the two row-tiled inputs and the output are at block `t` of the rows … -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_16.index t (0 : Fin 2) = t.val ∧ win2_16.index t (1 : Fin 2) = 0 :=
  (by decide +kernel : ∀ t : Fin grid2.N, _)

/-- … and every weight is staged whole. -/
theorem idx_whole : ∀ t : Fin cfg2.N, (win2_2.index t (0 : Fin 2) = 0 ∧ win2_2.index t (1 : Fin 2) = 0)
    ∧ (win2_3.index t (0 : Fin 1) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 1) = 0)
    ∧ (win2_7.index t (0 : Fin 2) = 0 ∧ win2_7.index t (1 : Fin 2) = 0)
    ∧ (win2_8.index t (0 : Fin 1) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 1) = 0)
    ∧ (win2_12.index t (0 : Fin 2) = 0 ∧ win2_12.index t (1 : Fin 2) = 0)
    ∧ (win2_13.index t (0 : Fin 1) = 0)
    ∧ (win2_14.index t (0 : Fin 3) = 0 ∧ win2_14.index t (1 : Fin 3) = 0 ∧ win2_14.index t (2 : Fin 3) = 0)
    ∧ (win2_15.index t (0 : Fin 2) = 0 ∧ win2_15.index t (1 : Fin 2) = 0) :=
  (by decide +kernel : ∀ t : Fin grid2.N, _)

section Entry
-- the TensorCore's buffer contents when the region is entered
variable (V : (c : Dev nD) → (b : Ref sig .tc) → Buf (Elt Ideal) ((c : Thread nD τ).loc b))

/-- Row `p` of the block of aggregated messages staged at point `t` is row `2000·t + p` of the array. -/
theorem aggBlock_row (c : Dev nD) (t : Fin cfg2.N) (p : Fin 2000) (r : Fin 50000) (hr : r.val = 2000 * t.val + p.val) :
    Rows.mat (iblk2 V c 0 t : Vec Ideal S2000x512 .f32) p = Rows.mat (V c main_v11 : S50000x512.Idx → EReal) r := by
  obtain ⟨e0, e1, -⟩ := idx_rows t
  funext k
  show (iblk2 V c 0 t : Vec Ideal S2000x512 .f32) (ix2 p k) = (V c main_v11 : S50000x512.Idx → EReal) (ix2 r k)
  unfold iblk2
  rw [View.read_apply]
  show V c main_v11 (((cfg2.win 0).blk t).view.emb (ix2 p k)) = V c main_v11 (ix2 r k)
  refine congrArg _ ?_
  funext a
  apply Fin.ext
  match a with
  | ⟨0, _⟩ => show win2_0.index t (0 : Fin 2) * 2000 + 1 * p.val = r.val; rw [e0, hr]; omega
  | ⟨1, _⟩ => show win2_0.index t (1 : Fin 2) * 512 + 1 * k.val = k.val; rw [e1]; omega

/-- The same for the block of stage-1 rows. -/
theorem x1Block_row (c : Dev nD) (t : Fin cfg2.N) (p : Fin 2000) (r : Fin 50000) (hr : r.val = 2000 * t.val + p.val) :
    Rows.mat (iblk2 V c 1 t : Vec Ideal S2000x256 .f32) p = Rows.mat (V c main_v4 : S50000x256.Idx → EReal) r := by
  obtain ⟨-, -, e0, e1, -⟩ := idx_rows t
  funext k
  show (iblk2 V c 1 t : Vec Ideal S2000x256 .f32) (ix2 p k) = (V c main_v4 : S50000x256.Idx → EReal) (ix2 r k)
  unfold iblk2
  rw [View.read_apply]
  show V c main_v4 (((cfg2.win 1).blk t).view.emb (ix2 p k)) = V c main_v4 (ix2 r k)
  refine congrArg _ ?_
  funext a
  apply Fin.ext
  match a with
  | ⟨0, _⟩ => show win2_1.index t (0 : Fin 2) * 2000 + 1 * p.val = r.val; rw [e0, hr]; omega
  | ⟨1, _⟩ => show win2_1.index t (1 : Fin 2) * 256 + 1 * k.val = k.val; rw [e1]; omega

/-! Each staged weight is the weight. -/
theorem blk2_eq (c : Dev nD) (t : Fin cfg2.N) : (iblk2 V c 2 t : Vec Ideal S256x256 .f32) = (V c main_arg11 : S256x256.Idx → EReal) := by
  obtain ⟨e, -, -, -, -, -, -, -, -, -, -, -, -, -⟩ := idx_whole t
  obtain ⟨e0, e1⟩ := e
  funext y
  unfold iblk2
  rw [View.read_apply]
  show V c main_arg11 (((cfg2.win 2).blk t).view.emb y) = V c main_arg11 y
  refine congrArg _ ?_
  funext a
  apply Fin.ext
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega
theorem blk3_eq (c : Dev nD) (t : Fin cfg2.N) : (iblk2 V c 3 t : Vec Ideal S256 .f32) = (V c main_arg12 : S256.Idx → EReal) := by
  obtain ⟨-, e, -, -, -, -, -, -, -, -, -, -, -, -⟩ := idx_whole t
  have e0 := e
  funext y
  unfold iblk2
  rw [View.read_apply]
  show V c main_arg12 (((cfg2.win 3).blk t).view.emb y) = V c main_arg12 y
  refine congrArg _ ?_
  funext a
  apply Fin.ext
  match a with
  | ⟨0, _⟩ => show win2_3.index t (0 : Fin 1) * 256 + 1 * (y 0).val = (y 0).val; rw [e0]; omega
theorem blk4_eq (c : Dev nD) (t : Fin cfg2.N) : (iblk2 V c 4 t : Vec Ideal S256x256 .f32) = (V c main_arg13 : S256x256.Idx → EReal) := by
  obtain ⟨-, -, e, -, -, -, -, -, -, -, -, -, -, -⟩ := idx_whole t
  obtain ⟨e0, e1⟩ := e
  funext y
  unfold iblk2
  rw [View.read_apply]
  show V c main_arg13 (((cfg2.win 4).blk t).view.emb y) = V c main_arg13 y
  refine congrArg _ ?_
  funext a
  apply Fin.ext
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega
theorem blk5_eq (c : Dev nD) (t : Fin cfg2.N) : (iblk2 V c 5 t : Vec Ideal S256x256 .f32) = (V c main_arg17 : S256x256.Idx → EReal) := by
  obtain ⟨-, -, -, e, -, -, -, -, -, -, -, -, -, -⟩ := idx_whole t
  obtain ⟨e0, e1⟩ := e
  funext y
  unfold iblk2
  rw [View.read_apply]
  show V c main_arg17 (((cfg2.win 5).blk t).view.emb y) = V c main_arg17 y
  refine congrArg _ ?_
  funext a
  apply Fin.ext
  match a with
  | ⟨0, _⟩ => show win2_5.index t (0 : Fin 2) * 256 + 1 * (y 0).val = (y 0).val; rw [e0]; omega
  | ⟨1, _⟩ => show win2_5.index t (1 : Fin 2) * 256 + 1 * (y 1).val = (y 1).val; rw [e1]; omega
theorem blk6_eq (c : Dev nD) (t : Fin cfg2.N) : (iblk2 V c 6 t : Vec Ideal S256 .f32) = (V c main_arg18 : S256.Idx → EReal) := by
  obtain ⟨-, -, -, -, e, -, -, -, -, -, -, -, -, -⟩ := idx_whole t
  have e0 := e
  funext y
  unfold iblk2
  rw [View.read_apply]
  show V c main_arg18 (((cfg2.win 6).blk t).view.emb y) = V c main_arg18 y
  refine congrArg _ ?_
  funext a
  apply Fin.ext
  match a with
  | ⟨0, _⟩ => show win2_6.index t (0 : Fin 1) * 256 + 1 * (y 0).val = (y 0).val; rw [e0]; omega
theorem blk7_eq (c : Dev nD) (t : Fin cfg2.N) : (iblk2 V c 7 t : Vec Ideal S256x256 .f32) = (V c main_arg14 : S256x256.Idx → EReal) := by
  obtain ⟨-, -, -, -, -, e, -, -, -, -, -, -, -, -⟩ := idx_whole t
  obtain ⟨e0, e1⟩ := e
  funext y
  unfold iblk2
  rw [View.read_apply]
  show V c main_arg14 (((cfg2.win 7).blk t).view.emb y) = V c main_arg14 y
  refine congrArg _ ?_
  funext a
  apply Fin.ext
  match a with
  | ⟨0, _⟩ => show win2_7.index t (0 : Fin 2) * 256 + 1 * (y 0).val = (y 0).val; rw [e0]; omega
  | ⟨1, _⟩ => show win2_7.index t (1 : Fin 2) * 256 + 1 * (y 1).val = (y 1).val; rw [e1]; omega
theorem blk8_eq (c : Dev nD) (t : Fin cfg2.N) : (iblk2 V c 8 t : Vec Ideal S256 .f32) = (V c main_arg15 : S256.Idx → EReal) := by
  obtain ⟨-, -, -, -, -, -, e, -, -, -, -, -, -, -⟩ := idx_whole t
  have e0 := e
  funext y
  unfold iblk2
  rw [View.read_apply]
  show V c main_arg15 (((cfg2.win 8).blk t).view.emb y) = V c main_arg15 y
  refine congrArg _ ?_
  funext a
  apply Fin.ext
  match a with
  | ⟨0, _⟩ => show win2_8.index t (0 : Fin 1) * 256 + 1 * (y 0).val = (y 0).val; rw [e0]; omega
theorem blk9_eq (c : Dev nD) (t : Fin cfg2.N) : (iblk2 V c 9 t : Vec Ideal S256x256 .f32) = (V c main_arg16 : S256x256.Idx → EReal) := by
  obtain ⟨-, -, -, -, -, -, -, e, -, -, -, -, -, -⟩ := idx_whole t
  obtain ⟨e0, e1⟩ := e
  funext y
  unfold iblk2
  rw [View.read_apply]
  show V c main_arg16 (((cfg2.win 9).blk t).view.emb y) = V c main_arg16 y
  refine congrArg _ ?_
  funext a
  apply Fin.ext
  match a with
  | ⟨0, _⟩ => show win2_9.index t (0 : Fin 2) * 256 + 1 * (y 0).val = (y 0).val; rw [e0]; omega
  | ⟨1, _⟩ => show win2_9.index t (1 : Fin 2) * 256 + 1 * (y 1).val = (y 1).val; rw [e1]; omega
theorem blk10_eq (c : Dev nD) (t : Fin cfg2.N) : (iblk2 V c 10 t : Vec Ideal S256x256 .f32) = (V c main_arg19 : S256x256.Idx → EReal) := by
  obtain ⟨-, -, -, -, -, -, -, -, e, -, -, -, -, -⟩ := idx_whole t
  obtain ⟨e0, e1⟩ := e
  funext y
  unfold iblk2
  rw [View.read_apply]
  show V c main_arg19 (((cfg2.win 10).blk t).view.emb y) = V c main_arg19 y
  refine congrArg _ ?_
  funext a
  apply Fin.ext
  match a with
  | ⟨0, _⟩ => show win2_10.index t (0 : Fin 2) * 256 + 1 * (y 0).val = (y 0).val; rw [e0]; omega
  | ⟨1, _⟩ => show win2_10.index t (1 : Fin 2) * 256 + 1 * (y 1).val = (y 1).val; rw [e1]; omega
theorem blk11_eq (c : Dev nD) (t : Fin cfg2.N) : (iblk2 V c 11 t : Vec Ideal S256 .f32) = (V c main_arg20 : S256.Idx → EReal) := by
  obtain ⟨-, -, -, -, -, -, -, -, -, e, -, -, -, -⟩ := idx_whole t
  have e0 := e
  funext y
  unfold iblk2
  rw [View.read_apply]
  show V c main_arg20 (((cfg2.win 11).blk t).view.emb y) = V c main_arg20 y
  refine congrArg _ ?_
  funext a
  apply Fin.ext
  match a with
  | ⟨0, _⟩ => show win2_11.index t (0 : Fin 1) * 256 + 1 * (y 0).val = (y 0).val; rw [e0]; omega
theorem blk12_eq (c : Dev nD) (t : Fin cfg2.N) : (iblk2 V c 12 t : Vec Ideal S512x256 .f32) = (V c main_arg21 : S512x256.Idx → EReal) := by
  obtain ⟨-, -, -, -, -, -, -, -, -, -, e, -, -, -⟩ := idx_whole t
  obtain ⟨e0, e1⟩ := e
  funext y
  unfold iblk2
  rw [View.read_apply]
  show V c main_arg21 (((cfg2.win 12).blk t).view.emb y) = V c main_arg21 y
  refine congrArg _ ?_
  funext a
  apply Fin.ext
  match a with
  | ⟨0, _⟩ => show win2_12.index t (0 : Fin 2) * 512 + 1 * (y 0).val = (y 0).val; rw [e0]; omega
  | ⟨1, _⟩ => show win2_12.index t (1 : Fin 2) * 256 + 1 * (y 1).val = (y 1).val; rw [e1]; omega
theorem blk13_eq (c : Dev nD) (t : Fin cfg2.N) : (iblk2 V c 13 t : Vec Ideal S256 .f32) = (V c main_arg22 : S256.Idx → EReal) := by
  obtain ⟨-, -, -, -, -, -, -, -, -, -, -, e, -, -⟩ := idx_whole t
  have e0 := e
  funext y
  unfold iblk2
  rw [View.read_apply]
  show V c main_arg22 (((cfg2.win 13).blk t).view.emb y) = V c main_arg22 y
  refine congrArg _ ?_
  funext a
  apply Fin.ext
  match a with
  | ⟨0, _⟩ => show win2_13.index t (0 : Fin 1) * 256 + 1 * (y 0).val = (y 0).val; rw [e0]; omega
theorem blk14_eq (c : Dev nD) (t : Fin cfg2.N) : (iblk2 V c 14 t : Vec Ideal S3x256x256 .f32) = (V c main_arg23 : S3x256x256.Idx → EReal) := by
  obtain ⟨-, -, -, -, -, -, -, -, -, -, -, -, e, -⟩ := idx_whole t
  obtain ⟨e0, e1, e2⟩ := e
  funext y
  unfold iblk2
  rw [View.read_apply]
  show V c main_arg23 (((cfg2.win 14).blk t).view.emb y) = V c main_arg23 y
  refine congrArg _ ?_
  funext a
  apply Fin.ext
  match a with
  | ⟨0, _⟩ => show win2_14.index t (0 : Fin 3) * 3 + 1 * (y 0).val = (y 0).val; rw [e0]; omega
  | ⟨1, _⟩ => show win2_14.index t (1 : Fin 3) * 256 + 1 * (y 1).val = (y 1).val; rw [e1]; omega
  | ⟨2, _⟩ => show win2_14.index t (2 : Fin 3) * 256 + 1 * (y 2).val = (y 2).val; rw [e2]; omega
theorem blk15_eq (c : Dev nD) (t : Fin cfg2.N) : (iblk2 V c 15 t : Vec Ideal S3x256 .f32) = (V c main_arg24 : S3x256.Idx → EReal) := by
  obtain ⟨-, -, -, -, -, -, -, -, -, -, -, -, -, e⟩ := idx_whole t
  obtain ⟨e0, e1⟩ := e
  funext y
  unfold iblk2
  rw [View.read_apply]
  show V c main_arg24 (((cfg2.win 15).blk t).view.emb y) = V c main_arg24 y
  refine congrArg _ ?_
  funext a
  apply Fin.ext
  match a with
  | ⟨0, _⟩ => show win2_15.index t (0 : Fin 2) * 3 + 1 * (y 0).val = (y 0).val; rw [e0]; omega
  | ⟨1, _⟩ => show win2_15.index t (1 : Fin 2) * 256 + 1 * (y 1).val = (y 1).val; rw [e1]; omega

/-- Entry `(p, q)` of the output block at point `t` sits at row `2000·t + p`, column `q` of the array. -/
theorem outBlock_emb (t : Fin cfg2.N) (p : Fin 2000) (q : Fin 256) (r : Fin 50000) (hr : r.val = 2000 * t.val + p.val) :
    ((cfg2.win 16).blk t).view.emb (ix2 p q) = (ix2 r q : S50000x256.Idx) := by
  obtain ⟨-, -, -, -, e0, e1⟩ := idx_rows t
  funext a
  apply Fin.ext
  match a with
  | ⟨0, _⟩ => show win2_16.index t (0 : Fin 2) * 2000 + 1 * p.val = r.val; rw [e0, hr]; omega
  | ⟨1, _⟩ => show win2_16.index t (1 : Fin 2) * 256 + 1 * q.val = q.val; rw [e1]; omega

/-- The stage of the arrays as the region finds them. -/
abbrev entryOut (c : Dev nD) : S50000x256.Idx → EReal :=
  rowsOut (V c main_v11) (V c main_v4) (V c main_arg11) (V c main_arg12) (V c main_arg13) (V c main_arg17) (V c main_arg18)
    (V c main_arg14) (V c main_arg15) (V c main_arg16) (V c main_arg19) (V c main_arg20) (V c main_arg21) (V c main_arg22)
    (V c main_arg23) (V c main_arg24)

/-- What point `t` writes back is block `t` of the stage of the arrays as the region finds them. -/
theorem flushed_eq (c : Dev nD) (t : Fin cfg2.N) :
    (dat2 V c).flushed 16 t = ((cfg2.win 16).blk t).view.read (Elt Ideal) (entryOut V c) := by
  show (cfg2.win 16).cut (grid2.coords t) ((dat2 V c).after 16 t) = _
  rw [after2_16]
  funext j
  obtain ⟨p, q, rfl⟩ : ∃ (p : Fin 2000) (q : Fin 256), j = ix2 p q := ⟨j 0, j 1, eq_ix2 (n0 := 2000) (n1 := 256) j⟩
  have hN : cfg2.N = 25 := N_2
  have ht : t.val < 25 := hN ▸ t.isLt
  have hr : (⟨2000 * t.val + p.val, by have := p.isLt; omega⟩ : Fin 50000).val = 2000 * t.val + p.val := rfl
  show out2_16 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (ix2 p q)
      = entryOut V c (((cfg2.win 16).blk t).view.emb (ix2 p q))
  refine (out_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) p q).trans ?_
  rw [outBlock_emb t p q _ hr, aggBlock_row V c t p _ hr, x1Block_row V c t p _ hr,
    blk2_eq V c t, blk3_eq V c t, blk4_eq V c t, blk5_eq V c t, blk6_eq V c t, blk7_eq V c t, blk8_eq V c t, blk9_eq V c t, blk10_eq V c t, blk11_eq V c t, blk12_eq V c t, blk13_eq V c t, blk14_eq V c t, blk15_eq V c t]
  rfl

/-- An index of the array is in point `t`'s block iff each coordinate is in the block's range on its axis. -/
theorem mem_blk (t : Fin cfg2.N) (i : S50000x256.Idx) :
    i ∈ ((cfg2.win 16).blk t).view.set ↔ ∀ a : Fin 2, win2_16.index t a * S2000x256.size a ≤ (i a).val ∧ (i a).val < win2_16.index t a * S2000x256.size a + S2000x256.size a := by
  show i ∈ ((View.whole main_v12).slice (win2_16.rect t)).set ↔ _
  rw [View.set_slice_whole, Rect.mem_set_unit]
  exact Iff.rfl

/-- Row `r` lies in block `r / 2000`. -/
theorem cover (i : S50000x256.Idx) : ∃ t : Fin cfg2.N, (cfg2.win 16).flush t = true ∧ i ∈ ((cfg2.win 16).blk t).view.set := by
  have hi0 : (i 0).val < 50000 := idx2_lt0 i
  have hi1 : (i 1).val < 256 := idx2_lt1 i
  have hN : cfg2.N = 25 := N_2
  refine ⟨⟨(i 0).val / 2000, by rw [hN]; omega⟩, flush2_16 _, ?_⟩
  rw [mem_blk]
  obtain ⟨-, -, -, -, e0, e1⟩ := idx_rows ⟨(i 0).val / 2000, by rw [hN]; omega⟩
  intro a
  match a with
  | ⟨0, _⟩ =>
    show win2_16.index _ (0 : Fin 2) * 2000 ≤ (i 0).val ∧ (i 0).val < win2_16.index _ (0 : Fin 2) * 2000 + 2000
    rw [e0]; show (i 0).val / 2000 * 2000 ≤ (i 0).val ∧ (i 0).val < (i 0).val / 2000 * 2000 + 2000; omega
  | ⟨1, _⟩ =>
    show win2_16.index _ (1 : Fin 2) * 256 ≤ (i 1).val ∧ (i 1).val < win2_16.index _ (1 : Fin 2) * 256 + 256
    rw [e1]; omega

/-- The array region 2 leaves: the stage of the arrays as the region finds them, at every row. -/
theorem region2_array (c : Dev nD) : (dat2 V c).arrAt 16 cfg2.N = entryOut V c :=
  (dat2 V c).arrAt_eq_of_cover 16 _ (fun t _ => flushed_eq V c t) cover

/-- The same with the entry contents named: whatever arrays the region finds, it leaves their stage. -/
theorem region2_array_of (c : Dev nD) (agg : S50000x512.Idx → EReal) (x1v : S50000x256.Idx → EReal) (x2 : S256x256.Idx → EReal) (x3 : S256.Idx → EReal) (x4 : S256x256.Idx → EReal) (x5 : S256x256.Idx → EReal) (x6 : S256.Idx → EReal) (x7 : S256x256.Idx → EReal) (x8 : S256.Idx → EReal) (x9 : S256x256.Idx → EReal) (x10 : S256x256.Idx → EReal) (x11 : S256.Idx → EReal) (x12 : S512x256.Idx → EReal) (x13 : S256.Idx → EReal) (x14 : S3x256x256.Idx → EReal) (x15 : S3x256.Idx → EReal)
    (h0 : (V c main_v11 : S50000x512.Idx → EReal) = agg)
    (h1 : (V c main_v4 : S50000x256.Idx → EReal) = x1v)
    (h2 : (V c main_arg11 : S256x256.Idx → EReal) = x2)
    (h3 : (V c main_arg12 : S256.Idx → EReal) = x3)
    (h4 : (V c main_arg13 : S256x256.Idx → EReal) = x4)
    (h5 : (V c main_arg17 : S256x256.Idx → EReal) = x5)
    (h6 : (V c main_arg18 : S256.Idx → EReal) = x6)
    (h7 : (V c main_arg14 : S256x256.Idx → EReal) = x7)
    (h8 : (V c main_arg15 : S256.Idx → EReal) = x8)
    (h9 : (V c main_arg16 : S256x256.Idx → EReal) = x9)
    (h10 : (V c main_arg19 : S256x256.Idx → EReal) = x10)
    (h11 : (V c main_arg20 : S256.Idx → EReal) = x11)
    (h12 : (V c main_arg21 : S512x256.Idx → EReal) = x12)
    (h13 : (V c main_arg22 : S256.Idx → EReal) = x13)
    (h14 : (V c main_arg23 : S3x256x256.Idx → EReal) = x14)
    (h15 : (V c main_arg24 : S3x256.Idx → EReal) = x15) :
    (dat2 V c).arrAt 16 cfg2.N = rowsOut agg x1v x2 x3 x4 x5 x6 x7 x8 x9 x10 x11 x12 x13 x14 x15 := by
  subst h0 h1 h2 h3 h4 h5 h6 h7 h8 h9 h10 h11 h12 h13 h14 h15
  exact region2_array V c

end Entry

/-! ## The run: region 2's entry contents, and the array it leaves -/

section Run
variable (m : (ℓ : Loc nD τ sig) → Buf (Elt Ideal) ℓ) (ρ : Dev nD → PrngReg)

/-- One stretch of host operations writes none of the buffer in hand: each operation's result is another buffer. -/
local macro "skip_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The stage-1 rows region 2 reads are the ones region 0 left: neither the host operations between nor region 1 write that array. -/
theorem entry_x1 (c : Dev nD) : V6 m ρ c main_v4 = W2 m ρ c (Proc.devRef .tc main_v4) :=
  calc W6 m ρ c (Proc.devRef .tc main_v4)
    _ = W5 m ρ c (Proc.devRef .tc main_v4) := by skip_host hostOps2
    _ = W4 m ρ c (Proc.devRef .tc main_v4) := W5_of_ne m ρ c main_v4 (by decide)
    _ = W3 m ρ c (Proc.devRef .tc main_v4) := by skip_host hostOps1_1
    _ = W2 m ρ c (Proc.devRef .tc main_v4) := by skip_host hostOps1

/-! Each weight region 2 reads is the argument as launched: no host operation and no earlier region writes an argument. -/
theorem entry_main_arg11 (c : Dev nD) : V6 m ρ c main_arg11 = m ((c : Thread nD τ).loc main_arg11) :=
  calc W6 m ρ c (Proc.devRef .tc main_arg11)
    _ = W5 m ρ c (Proc.devRef .tc main_arg11) := by skip_host hostOps2
    _ = W4 m ρ c (Proc.devRef .tc main_arg11) := W5_of_ne m ρ c main_arg11 (by decide)
    _ = W3 m ρ c (Proc.devRef .tc main_arg11) := by skip_host hostOps1_1
    _ = W2 m ρ c (Proc.devRef .tc main_arg11) := by skip_host hostOps1
    _ = W1 m ρ c (Proc.devRef .tc main_arg11) := W2_of_ne m ρ c main_arg11 (by decide)
    _ = W0 m ρ c (Proc.devRef .tc main_arg11) := by skip_host hostOps0
    _ = m ((c : Thread nD τ).loc main_arg11) := rfl
theorem entry_main_arg12 (c : Dev nD) : V6 m ρ c main_arg12 = m ((c : Thread nD τ).loc main_arg12) :=
  calc W6 m ρ c (Proc.devRef .tc main_arg12)
    _ = W5 m ρ c (Proc.devRef .tc main_arg12) := by skip_host hostOps2
    _ = W4 m ρ c (Proc.devRef .tc main_arg12) := W5_of_ne m ρ c main_arg12 (by decide)
    _ = W3 m ρ c (Proc.devRef .tc main_arg12) := by skip_host hostOps1_1
    _ = W2 m ρ c (Proc.devRef .tc main_arg12) := by skip_host hostOps1
    _ = W1 m ρ c (Proc.devRef .tc main_arg12) := W2_of_ne m ρ c main_arg12 (by decide)
    _ = W0 m ρ c (Proc.devRef .tc main_arg12) := by skip_host hostOps0
    _ = m ((c : Thread nD τ).loc main_arg12) := rfl
theorem entry_main_arg13 (c : Dev nD) : V6 m ρ c main_arg13 = m ((c : Thread nD τ).loc main_arg13) :=
  calc W6 m ρ c (Proc.devRef .tc main_arg13)
    _ = W5 m ρ c (Proc.devRef .tc main_arg13) := by skip_host hostOps2
    _ = W4 m ρ c (Proc.devRef .tc main_arg13) := W5_of_ne m ρ c main_arg13 (by decide)
    _ = W3 m ρ c (Proc.devRef .tc main_arg13) := by skip_host hostOps1_1
    _ = W2 m ρ c (Proc.devRef .tc main_arg13) := by skip_host hostOps1
    _ = W1 m ρ c (Proc.devRef .tc main_arg13) := W2_of_ne m ρ c main_arg13 (by decide)
    _ = W0 m ρ c (Proc.devRef .tc main_arg13) := by skip_host hostOps0
    _ = m ((c : Thread nD τ).loc main_arg13) := rfl
theorem entry_main_arg17 (c : Dev nD) : V6 m ρ c main_arg17 = m ((c : Thread nD τ).loc main_arg17) :=
  calc W6 m ρ c (Proc.devRef .tc main_arg17)
    _ = W5 m ρ c (Proc.devRef .tc main_arg17) := by skip_host hostOps2
    _ = W4 m ρ c (Proc.devRef .tc main_arg17) := W5_of_ne m ρ c main_arg17 (by decide)
    _ = W3 m ρ c (Proc.devRef .tc main_arg17) := by skip_host hostOps1_1
    _ = W2 m ρ c (Proc.devRef .tc main_arg17) := by skip_host hostOps1
    _ = W1 m ρ c (Proc.devRef .tc main_arg17) := W2_of_ne m ρ c main_arg17 (by decide)
    _ = W0 m ρ c (Proc.devRef .tc main_arg17) := by skip_host hostOps0
    _ = m ((c : Thread nD τ).loc main_arg17) := rfl
theorem entry_main_arg18 (c : Dev nD) : V6 m ρ c main_arg18 = m ((c : Thread nD τ).loc main_arg18) :=
  calc W6 m ρ c (Proc.devRef .tc main_arg18)
    _ = W5 m ρ c (Proc.devRef .tc main_arg18) := by skip_host hostOps2
    _ = W4 m ρ c (Proc.devRef .tc main_arg18) := W5_of_ne m ρ c main_arg18 (by decide)
    _ = W3 m ρ c (Proc.devRef .tc main_arg18) := by skip_host hostOps1_1
    _ = W2 m ρ c (Proc.devRef .tc main_arg18) := by skip_host hostOps1
    _ = W1 m ρ c (Proc.devRef .tc main_arg18) := W2_of_ne m ρ c main_arg18 (by decide)
    _ = W0 m ρ c (Proc.devRef .tc main_arg18) := by skip_host hostOps0
    _ = m ((c : Thread nD τ).loc main_arg18) := rfl
theorem entry_main_arg14 (c : Dev nD) : V6 m ρ c main_arg14 = m ((c : Thread nD τ).loc main_arg14) :=
  calc W6 m ρ c (Proc.devRef .tc main_arg14)
    _ = W5 m ρ c (Proc.devRef .tc main_arg14) := by skip_host hostOps2
    _ = W4 m ρ c (Proc.devRef .tc main_arg14) := W5_of_ne m ρ c main_arg14 (by decide)
    _ = W3 m ρ c (Proc.devRef .tc main_arg14) := by skip_host hostOps1_1
    _ = W2 m ρ c (Proc.devRef .tc main_arg14) := by skip_host hostOps1
    _ = W1 m ρ c (Proc.devRef .tc main_arg14) := W2_of_ne m ρ c main_arg14 (by decide)
    _ = W0 m ρ c (Proc.devRef .tc main_arg14) := by skip_host hostOps0
    _ = m ((c : Thread nD τ).loc main_arg14) := rfl
theorem entry_main_arg15 (c : Dev nD) : V6 m ρ c main_arg15 = m ((c : Thread nD τ).loc main_arg15) :=
  calc W6 m ρ c (Proc.devRef .tc main_arg15)
    _ = W5 m ρ c (Proc.devRef .tc main_arg15) := by skip_host hostOps2
    _ = W4 m ρ c (Proc.devRef .tc main_arg15) := W5_of_ne m ρ c main_arg15 (by decide)
    _ = W3 m ρ c (Proc.devRef .tc main_arg15) := by skip_host hostOps1_1
    _ = W2 m ρ c (Proc.devRef .tc main_arg15) := by skip_host hostOps1
    _ = W1 m ρ c (Proc.devRef .tc main_arg15) := W2_of_ne m ρ c main_arg15 (by decide)
    _ = W0 m ρ c (Proc.devRef .tc main_arg15) := by skip_host hostOps0
    _ = m ((c : Thread nD τ).loc main_arg15) := rfl
theorem entry_main_arg16 (c : Dev nD) : V6 m ρ c main_arg16 = m ((c : Thread nD τ).loc main_arg16) :=
  calc W6 m ρ c (Proc.devRef .tc main_arg16)
    _ = W5 m ρ c (Proc.devRef .tc main_arg16) := by skip_host hostOps2
    _ = W4 m ρ c (Proc.devRef .tc main_arg16) := W5_of_ne m ρ c main_arg16 (by decide)
    _ = W3 m ρ c (Proc.devRef .tc main_arg16) := by skip_host hostOps1_1
    _ = W2 m ρ c (Proc.devRef .tc main_arg16) := by skip_host hostOps1
    _ = W1 m ρ c (Proc.devRef .tc main_arg16) := W2_of_ne m ρ c main_arg16 (by decide)
    _ = W0 m ρ c (Proc.devRef .tc main_arg16) := by skip_host hostOps0
    _ = m ((c : Thread nD τ).loc main_arg16) := rfl
theorem entry_main_arg19 (c : Dev nD) : V6 m ρ c main_arg19 = m ((c : Thread nD τ).loc main_arg19) :=
  calc W6 m ρ c (Proc.devRef .tc main_arg19)
    _ = W5 m ρ c (Proc.devRef .tc main_arg19) := by skip_host hostOps2
    _ = W4 m ρ c (Proc.devRef .tc main_arg19) := W5_of_ne m ρ c main_arg19 (by decide)
    _ = W3 m ρ c (Proc.devRef .tc main_arg19) := by skip_host hostOps1_1
    _ = W2 m ρ c (Proc.devRef .tc main_arg19) := by skip_host hostOps1
    _ = W1 m ρ c (Proc.devRef .tc main_arg19) := W2_of_ne m ρ c main_arg19 (by decide)
    _ = W0 m ρ c (Proc.devRef .tc main_arg19) := by skip_host hostOps0
    _ = m ((c : Thread nD τ).loc main_arg19) := rfl
theorem entry_main_arg20 (c : Dev nD) : V6 m ρ c main_arg20 = m ((c : Thread nD τ).loc main_arg20) :=
  calc W6 m ρ c (Proc.devRef .tc main_arg20)
    _ = W5 m ρ c (Proc.devRef .tc main_arg20) := by skip_host hostOps2
    _ = W4 m ρ c (Proc.devRef .tc main_arg20) := W5_of_ne m ρ c main_arg20 (by decide)
    _ = W3 m ρ c (Proc.devRef .tc main_arg20) := by skip_host hostOps1_1
    _ = W2 m ρ c (Proc.devRef .tc main_arg20) := by skip_host hostOps1
    _ = W1 m ρ c (Proc.devRef .tc main_arg20) := W2_of_ne m ρ c main_arg20 (by decide)
    _ = W0 m ρ c (Proc.devRef .tc main_arg20) := by skip_host hostOps0
    _ = m ((c : Thread nD τ).loc main_arg20) := rfl
theorem entry_main_arg21 (c : Dev nD) : V6 m ρ c main_arg21 = m ((c : Thread nD τ).loc main_arg21) :=
  calc W6 m ρ c (Proc.devRef .tc main_arg21)
    _ = W5 m ρ c (Proc.devRef .tc main_arg21) := by skip_host hostOps2
    _ = W4 m ρ c (Proc.devRef .tc main_arg21) := W5_of_ne m ρ c main_arg21 (by decide)
    _ = W3 m ρ c (Proc.devRef .tc main_arg21) := by skip_host hostOps1_1
    _ = W2 m ρ c (Proc.devRef .tc main_arg21) := by skip_host hostOps1
    _ = W1 m ρ c (Proc.devRef .tc main_arg21) := W2_of_ne m ρ c main_arg21 (by decide)
    _ = W0 m ρ c (Proc.devRef .tc main_arg21) := by skip_host hostOps0
    _ = m ((c : Thread nD τ).loc main_arg21) := rfl
theorem entry_main_arg22 (c : Dev nD) : V6 m ρ c main_arg22 = m ((c : Thread nD τ).loc main_arg22) :=
  calc W6 m ρ c (Proc.devRef .tc main_arg22)
    _ = W5 m ρ c (Proc.devRef .tc main_arg22) := by skip_host hostOps2
    _ = W4 m ρ c (Proc.devRef .tc main_arg22) := W5_of_ne m ρ c main_arg22 (by decide)
    _ = W3 m ρ c (Proc.devRef .tc main_arg22) := by skip_host hostOps1_1
    _ = W2 m ρ c (Proc.devRef .tc main_arg22) := by skip_host hostOps1
    _ = W1 m ρ c (Proc.devRef .tc main_arg22) := W2_of_ne m ρ c main_arg22 (by decide)
    _ = W0 m ρ c (Proc.devRef .tc main_arg22) := by skip_host hostOps0
    _ = m ((c : Thread nD τ).loc main_arg22) := rfl
theorem entry_main_arg23 (c : Dev nD) : V6 m ρ c main_arg23 = m ((c : Thread nD τ).loc main_arg23) :=
  calc W6 m ρ c (Proc.devRef .tc main_arg23)
    _ = W5 m ρ c (Proc.devRef .tc main_arg23) := by skip_host hostOps2
    _ = W4 m ρ c (Proc.devRef .tc main_arg23) := W5_of_ne m ρ c main_arg23 (by decide)
    _ = W3 m ρ c (Proc.devRef .tc main_arg23) := by skip_host hostOps1_1
    _ = W2 m ρ c (Proc.devRef .tc main_arg23) := by skip_host hostOps1
    _ = W1 m ρ c (Proc.devRef .tc main_arg23) := W2_of_ne m ρ c main_arg23 (by decide)
    _ = W0 m ρ c (Proc.devRef .tc main_arg23) := by skip_host hostOps0
    _ = m ((c : Thread nD τ).loc main_arg23) := rfl
theorem entry_main_arg24 (c : Dev nD) : V6 m ρ c main_arg24 = m ((c : Thread nD τ).loc main_arg24) :=
  calc W6 m ρ c (Proc.devRef .tc main_arg24)
    _ = W5 m ρ c (Proc.devRef .tc main_arg24) := by skip_host hostOps2
    _ = W4 m ρ c (Proc.devRef .tc main_arg24) := W5_of_ne m ρ c main_arg24 (by decide)
    _ = W3 m ρ c (Proc.devRef .tc main_arg24) := by skip_host hostOps1_1
    _ = W2 m ρ c (Proc.devRef .tc main_arg24) := by skip_host hostOps1
    _ = W1 m ρ c (Proc.devRef .tc main_arg24) := W2_of_ne m ρ c main_arg24 (by decide)
    _ = W0 m ρ c (Proc.devRef .tc main_arg24) := by skip_host hostOps0
    _ = m ((c : Thread nD τ).loc main_arg24) := rfl

/-- Region 2's output array at its exit: the stage of the aggregated messages as the region finds them, of region 0's rows, and
    of the weight arguments, at every row. -/
theorem exit_array (c : Dev nD) :
    W7 m ρ c (Proc.devRef .tc main_v12)
      = rowsOut (W6 m ρ c (Proc.devRef .tc main_v11)) (W2 m ρ c (Proc.devRef .tc main_v4))
          (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg14)) (m ((c : Thread nD τ).loc main_arg15)) (m ((c : Thread nD τ).loc main_arg16)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (W7_arr m ρ c 16).trans (region2_array_of (V6 m ρ) c _ _ _ _ _ _ _ _ _ _ _ _ _ _ _ _ rfl (entry_x1 m ρ c)
    (entry_main_arg11 m ρ c) (entry_main_arg12 m ρ c) (entry_main_arg13 m ρ c) (entry_main_arg17 m ρ c) (entry_main_arg18 m ρ c) (entry_main_arg14 m ρ c) (entry_main_arg15 m ρ c) (entry_main_arg16 m ρ c) (entry_main_arg19 m ρ c) (entry_main_arg20 m ρ c) (entry_main_arg21 m ρ c) (entry_main_arg22 m ρ c) (entry_main_arg23 m ρ c) (entry_main_arg24 m ρ c))

/-- The same at an entry: row `r`, column `q` is the stage's row function of row `r` of the two row-tiled arrays. -/
theorem exit_apply (c : Dev nD) (r : Fin 50000) (q : Fin 256) :
    W7 m ρ c (Proc.devRef .tc main_v12) (ix2 r q)
      = Rows.rowK3 (Rows.mat (W6 m ρ c (Proc.devRef .tc main_v11) : S50000x512.Idx → EReal) r)
          (Rows.mat (W2 m ρ c (Proc.devRef .tc main_v4) : S50000x256.Idx → EReal) r)
          (Rows.mat (m ((c : Thread nD τ).loc main_arg11))) (Rows.vec (m ((c : Thread nD τ).loc main_arg12))) (Rows.mat (m ((c : Thread nD τ).loc main_arg13))) (Rows.mat (m ((c : Thread nD τ).loc main_arg17))) (Rows.vec (m ((c : Thread nD τ).loc main_arg18)))
          (Rows.mat (m ((c : Thread nD τ).loc main_arg14))) (Rows.vec (m ((c : Thread nD τ).loc main_arg15))) (Rows.mat (m ((c : Thread nD τ).loc main_arg16))) (Rows.mat (m ((c : Thread nD τ).loc main_arg19))) (Rows.vec (m ((c : Thread nD τ).loc main_arg20)))
          (Rows.mat (m ((c : Thread nD τ).loc main_arg21))) (Rows.vec (m ((c : Thread nD τ).loc main_arg22)))
          (Rows.slab (0 : Fin 3) (m ((c : Thread nD τ).loc main_arg23))) (fun k => (m ((c : Thread nD τ).loc main_arg24)) (ix2 (0 : Fin 3) k))
          (Rows.slab (1 : Fin 3) (m ((c : Thread nD τ).loc main_arg23))) (fun k => (m ((c : Thread nD τ).loc main_arg24)) (ix2 (1 : Fin 3) k))
          (Rows.slab (2 : Fin 3) (m ((c : Thread nD τ).loc main_arg23))) (fun k => (m ((c : Thread nD τ).loc main_arg24)) (ix2 (2 : Fin 3) k)) q := by
  rw [exit_array m ρ c]; rfl

end Run

end Cert.Stage5K

end
-- ==== Proof.Stage5.lean ====
/-
  The fifth link of the chain: the dense node stage. On a node's row the reference and the kernel compute the same thing — the
  two edge convolutions `a · Wl + bl + x₁ · Wr` of the left and right halves `a` of the node's aggregated messages, each
  through a dense layer `silu (· W + b)`, the two results side by side projected by `· Wcat + bcat` with the skip `+ x₁`,
  then three residual layers `silu (h · W + b) + h` — the reference on the whole arrays, the kernel on blocks of 2000 rows.
  Both are, at row r and column q, the row function Rows.rowK3 of row r of the aggregated messages, of row r of stage 1's
  result, and of the weights. The kernel's aggregated row is the reference's two halves joined, by the link before; its
  stage-1 row is the reference's, by the first link.
-/
import proofs.«408299_j82652350644685_2_alg».proof.Proof.Stages
import proofs.«408299_j82652350644685_2_alg».proof.Proof.Stage5R
import proofs.«408299_j82652350644685_2_alg».proof.Proof.Stage5K

noncomputable section

namespace Cert.Stages

open Idealize.ShloMosaic Idealize.ShloMosaic.TcCoe Idealize.SL.Sem Idealize.ShloMosaic.ValueIdx
open Cert.KernelIdeal Cert.KernelIdeal.Gen Cert.ReferenceIdeal.ReadP

variable (m : (ℓ : Loc nD τ sig) → Buf (Elt Ideal) ℓ) (ρ : Dev nD → PrngReg) (c : Dev nD)

/-- A row of the kernel's aggregated messages is the reference's two aggregated halves joined: columns below 256 are the
    first half's, the others the second half's at the column less 256. -/
theorem agg_row_join
    (h4 : ∀ (n : Fin 50000) (q : Fin 256),
      kAgg m ρ c (ValueIdx.ix2 n (⟨q.val, by omega⟩ : Fin 512)) = rAgg1 m c (ValueIdx.ix2 n q)
      ∧ kAgg m ρ c (ValueIdx.ix2 n (⟨256 + q.val, by omega⟩ : Fin 512)) = rAgg2 m c (ValueIdx.ix2 n q))
    (r : Fin 50000) :
    Rows.mat (kAgg m ρ c) r = Rows.join (fun k => rAgg1 m c (ix2 r k)) (fun k => rAgg2 m c (ix2 r k)) := by
  funext j
  unfold Rows.join
  by_cases h : j.val < 256
  · rw [dif_pos h]
    exact (h4 r ⟨j.val, h⟩).1
  · rw [dif_neg h]
    have e : (⟨256 + (j.val - 256), by omega⟩ : Fin 512) = j := Fin.ext (by show 256 + (j.val - 256) = j.val; omega)
    have h2 := (h4 r ⟨j.val - 256, by omega⟩).2
    rw [show (⟨256 + (⟨j.val - 256, by omega⟩ : Fin 256).val, by omega⟩ : Fin 512) = j from e] at h2
    exact h2

/-- Stage 5: the array region 2 leaves is the reference's node features before the graph norm. -/
theorem stage5 (h1 : kX1 m ρ c = rX1 m c)
    (h4 : ∀ (n : Fin 50000) (q : Fin 256),
      kAgg m ρ c (ValueIdx.ix2 n (⟨q.val, by omega⟩ : Fin 512)) = rAgg1 m c (ValueIdx.ix2 n q)
      ∧ kAgg m ρ c (ValueIdx.ix2 n (⟨256 + q.val, by omega⟩ : Fin 512)) = rAgg2 m c (ValueIdx.ix2 n q)) :
    kH m ρ c = rH m c := by
  funext i
  obtain ⟨r, q, rfl⟩ : ∃ (r : Fin 50000) (q : Fin 256), i = ix2 r q := ⟨i 0, i 1, eq_ix2 (n0 := 50000) (n1 := 256) i⟩
  refine (Cert.Stage5K.exit_apply m ρ c r q).trans ?_
  rw [ref_h_row m c r q]
  have hagg := agg_row_join m ρ c h4 r
  have hx1 : Rows.mat (kX1 m ρ c) r = fun k => rX1 m c (ix2 r k) := by rw [h1]; rfl
  show Rows.rowK3 (Rows.mat (kAgg m ρ c) r) (Rows.mat (kX1 m ρ c) r) _ _ _ _ _ _ _ _ _ _ _ _ _ _ _ _ _ _ q = _
  rw [hagg, hx1]

end Cert.Stages

end
-- ==== Proof.Stage6.lean ====
/-
  Stage 6: the graph norm's statistics, formed on the host between the third and the fourth dense stage.

  Every node `r` carries a graph id `b r`, one of `0 … 511`. From the node features `x` (stage 5's result) both programs
  form, in the same order and by the same operations,
    the number of rows of each graph, at least one:    n g   = max (∑_{r : b r = g} 1) 1,
    the per-graph mean:                                μ g q = (∑_{r : b r = g} x r q) / n g,
    the mean carried back to the rows:                 μ (b r) q,
    the centred rows:                                  d r q = x r q − μ (b r) q · s q        (`s` the mean scale),
    the per-graph variance:                            v g q = (∑_{r : b r = g} (d r q)²) / n g,
  and the kernel's program then lays `μ` and `v` side by side in one 512 × 512 table and keeps the ids as a column.

  The two programs differ in one place only. The kernel's program carries the means back to the rows by a take that tests
  every start index against `0 … 511` and writes a fill value where the test fails; the reference gathers unguarded. With
  every graph id a graph the test passes on every row, so the two gathers are one array.

  Nothing here opens a scatter, a gather or a quotient: each statistic is stated once as a function of the ids and the rows
  (`gcount`, `gavg`, `gtake`, `centred`, `gvar` below), the kernel program's buffers and the reference's stages are both that
  function of the same arrays, and the link follows from stage 5's by congruence.
-/
import proofs.«408299_j82652350644685_2_alg».proof.Proof.Stages
import Idealize.ShloMosaic.Lib.StableHlo.Run
import Idealize.ShloMosaic.Lib.Pipeline.Value
import Idealize.ShloMosaic.Lib.ValueIdx

noncomputable section

namespace Cert.Stages

open Idealize.ShloMosaic Idealize.ShloMosaic.TcCoe Idealize.SL.Sem
open Cert.KernelIdeal Cert.KernelIdeal.Gen Cert.ReferenceIdeal.ReadP
open Idealize.ShloMosaic.ValueIdx

namespace GraphStats

/-! ## The statistics as functions of the graph ids and the rows -/

/-- The number of rows of each graph, at least one: ones added up by graph id, then the maximum with one. -/
def gcount (b : (⟨S50000, .i32⟩ : BufTy).Contents (Elt Ideal)) : (⟨S512x1, .f32⟩ : BufTy).Contents (Elt Ideal) :=
  maximumf
    (Host.scatterAdd scatter_S512x1_S50000x1_S50000x1_1_0_0_1
      (broadcastInDim S512x1 ![] bcast_S_S512x1 (constant (F := Ideal) S_ .f32 0x00000000#32))
      (broadcastInDim S50000x1 ![0] bcast_S50000_S50000x1_0 b)
      (broadcastInDim S50000x1 ![] bcast_S_S50000x1 (constant (F := Ideal) S_ .f32 0x3F800000#32)))
    (broadcastInDim S512x1 ![] bcast_S_S512x1 (constant (F := Ideal) S_ .f32 0x3F800000#32))

/-- The rows of `x` added up graph by graph. -/
def gsum (b : (⟨S50000, .i32⟩ : BufTy).Contents (Elt Ideal)) (x : (⟨S50000x256, .f32⟩ : BufTy).Contents (Elt Ideal)) :
    (⟨S512x256, .f32⟩ : BufTy).Contents (Elt Ideal) :=
  Host.scatterAdd scatter_S512x256_S50000x1_S50000x256_1_0_0_1
    (broadcastInDim S512x256 ![] bcast_S_S512x256 (constant (F := Ideal) S_ .f32 0x00000000#32))
    (broadcastInDim S50000x1 ![0] bcast_S50000_S50000x1_0 b) x

/-- A per-graph sum over the graph's row count. -/
def perCount (s : (⟨S512x256, .f32⟩ : BufTy).Contents (Elt Ideal)) (n : (⟨S512x1, .f32⟩ : BufTy).Contents (Elt Ideal)) :
    (⟨S512x256, .f32⟩ : BufTy).Contents (Elt Ideal) :=
  Host.divf (F := Ideal) (φ := .f32) s (broadcastInDim S512x256 ![0, 1] bcast_S512x1_S512x256_0_1 n)

/-- The per-graph mean of the rows of `x`. -/
def gavg (b : (⟨S50000, .i32⟩ : BufTy).Contents (Elt Ideal)) (x : (⟨S50000x256, .f32⟩ : BufTy).Contents (Elt Ideal)) :
    (⟨S512x256, .f32⟩ : BufTy).Contents (Elt Ideal) :=
  perCount (gsum b x) (gcount b)

/-- The graph ids as the start indices of a take from a table of 512 rows: an id below zero has 512 added; as a column. -/
def wrapIdx (b : (⟨S50000, .i32⟩ : BufTy).Contents (Elt Ideal)) : (⟨S50000x1, .i32⟩ : BufTy).Contents (Elt Ideal) :=
  broadcastInDim S50000x1 ![0] bcast_S50000_S50000x1_0
    (select (cmpi .slt b (broadcastInDim S50000 ![] bcast_S_S50000 (constantI S_ 32 0#32)))
      (addi b (broadcastInDim S50000 ![] bcast_S_S50000 (constantI S_ 32 512#32))) b)

/-- Row `r` of the result is the table's row at row `r`'s start index. -/
def gtake (t : (⟨S512x256, .f32⟩ : BufTy).Contents (Elt Ideal)) (b : (⟨S50000, .i32⟩ : BufTy).Contents (Elt Ideal)) :
    (⟨S50000x256, .f32⟩ : BufTy).Contents (Elt Ideal) :=
  Host.gather gather_S512x256_S50000x1_S50000x256_1_0_n_n_0_1_1256 t (wrapIdx b)

/-- The bit "row `r`'s start index is one of `0 … 511`", repeated along the row. -/
def inRange (b : (⟨S50000, .i32⟩ : BufTy).Contents (Elt Ideal)) : (⟨S50000x256, .i1⟩ : BufTy).Contents (Elt Ideal) :=
  broadcastInDim S50000x256 ![0] bcast_S50000_S50000x256_0
    (Host.reduce IntOp.andi
      (andi (cmpi .sge (wrapIdx b) (broadcastInDim S50000x1 ![] bcast_S_S50000x1 (constantI S_ 32 0#32)))
        (cmpi .sle (wrapIdx b) (broadcastInDim S50000x1 ![0, 1] bcast_S1x1_S50000x1_0_1
          (broadcastInDim S1x1 ![1] bcast_S1_S1x1_1 (constantI S1 32 511#32)))))
      (constantI S_ 1 1#1) reducesTo_S50000x1_S50000_d1 h_S_)

/-- The value a guarded take writes where its test fails, everywhere. -/
def fillArr : (⟨S50000x256, .f32⟩ : BufTy).Contents (Elt Ideal) :=
  broadcastInDim S50000x256 ![] bcast_S_S50000x256 (constant (F := Ideal) S_ .f32 0x7FC00000#32)

/-- The rows of `x` less the rows of `mu` times the mean scale. -/
def centred (x mu : (⟨S50000x256, .f32⟩ : BufTy).Contents (Elt Ideal)) (gms : (⟨S256, .f32⟩ : BufTy).Contents (Elt Ideal)) :
    (⟨S50000x256, .f32⟩ : BufTy).Contents (Elt Ideal) :=
  subf (F := Ideal) (φ := .f32) x (mulf (F := Ideal) (φ := .f32) mu
    (broadcastInDim S50000x256 ![0, 1] bcast_S1x256_S50000x256_0_1 (broadcastInDim S1x256 ![1] bcast_S256_S1x256_1 gms)))

/-- The per-graph mean of the squares of the rows of `d`, over the counts `n`. -/
def gsq (b : (⟨S50000, .i32⟩ : BufTy).Contents (Elt Ideal)) (d : (⟨S50000x256, .f32⟩ : BufTy).Contents (Elt Ideal))
    (n : (⟨S512x1, .f32⟩ : BufTy).Contents (Elt Ideal)) : (⟨S512x256, .f32⟩ : BufTy).Contents (Elt Ideal) :=
  perCount (gsum b (mulf (F := Ideal) (φ := .f32) d d)) n

/-- The per-graph variance of the rows of `x` about their graph's scaled mean. -/
def gvar (b : (⟨S50000, .i32⟩ : BufTy).Contents (Elt Ideal)) (x : (⟨S50000x256, .f32⟩ : BufTy).Contents (Elt Ideal))
    (gms : (⟨S256, .f32⟩ : BufTy).Contents (Elt Ideal)) : (⟨S512x256, .f32⟩ : BufTy).Contents (Elt Ideal) :=
  gsq b (centred x (gtake (gavg b x) b) gms) (gcount b)

/-! ## With every graph id a graph, the take's test passes on every row -/

/-- A conjunction of bits that are all one is one. -/
theorem fold_andi_one {ι : Type} (S : Finset ι) (x : ι → BitVec 1) (h : ∀ i ∈ S, x i = 1#1) :
    S.fold IntOp.andi 1#1 x = 1#1 := by
  classical
  induction S using Finset.induction_on with
  | empty => rfl
  | insert a S ha ih =>
    rw [Finset.fold_insert ha, h a (Finset.mem_insert_self _ _), ih (fun i hi => h i (Finset.mem_insert_of_mem hi))]
    rfl

/-- A word that reads non-negative is not below zero … -/
theorem slt_zero_of_nonneg (x : BitVec 32) (h : 0 ≤ x.toInt) : IntOp.cmpi .slt x 0#32 = 0#1 := by
  have e : x.slt 0#32 = false := by
    simp only [BitVec.slt, BitVec.toInt_zero, decide_eq_false_iff_not, not_lt]; exact h
  show BitVec.ofBool (x.slt 0#32) = 0#1
  rw [e]; rfl

/-- … is at least zero … -/
theorem sge_zero_of_nonneg (x : BitVec 32) (h : 0 ≤ x.toInt) : IntOp.cmpi .sge x 0#32 = 1#1 := by
  have e : (0#32 : BitVec 32).sle x = true := by
    simp only [BitVec.sle, BitVec.toInt_zero, decide_eq_true_eq]; exact h
  show BitVec.ofBool ((0#32 : BitVec 32).sle x) = 1#1
  rw [e]; rfl

/-- … and one that reads below 512 is at most 511. -/
theorem sle_511_of_lt (x : BitVec 32) (h : x.toInt < 512) : IntOp.cmpi .sle x 511#32 = 1#1 := by
  have e : x.sle 511#32 = true := by
    have h5 : (511#32 : BitVec 32).toInt = 511 := by decide
    simp only [BitVec.sle, h5, decide_eq_true_eq]; omega
  show BitVec.ofBool (x.sle 511#32) = 1#1
  rw [e]; rfl

/-- A graph id that reads non-negative is its own start index. -/
theorem wrapIdx_apply (b : (⟨S50000, .i32⟩ : BufTy).Contents (Elt Ideal)) (r : Fin 50000) (z : Fin 1)
    (h0 : 0 ≤ (b (ix1 r)).toInt) : wrapIdx b (ix2 r z) = b (ix1 r) := by
  unfold wrapIdx
  rw [broadcastInDim_apply _ bcast_S50000_S50000x1_0 _ (ix2 r z) (ix1 r) (fun a => match a with
    | ⟨0, _⟩ => by show r.val = if (50000 : Nat) = 1 then 0 else r.val; rw [if_neg (by decide)])]
  show Scalar.select (IntOp.cmpi .slt (b (ix1 r)) 0#32) (IntOp.addi (b (ix1 r)) 512#32) (b (ix1 r)) = b (ix1 r)
  rw [slt_zero_of_nonneg _ h0, select_zero]

/-- With every graph id in `0 … 511` the range bit is one at every entry: the bit of row `r` is the conjunction, over the one
    column of the start indices, of "at least 0" and "at most 511" at the id itself. -/
theorem inRange_one (b : (⟨S50000, .i32⟩ : BufTy).Contents (Elt Ideal))
    (hb : ∀ r : Fin 50000, 0 ≤ (b (ix1 r)).toInt ∧ (b (ix1 r)).toInt < 512) (i : S50000x256.Idx) : inRange b i = 1#1 := by
  obtain ⟨r, q, rfl⟩ : ∃ (r : Fin 50000) (q : Fin 256), i = ix2 r q := ⟨i 0, i 1, eq_ix2 i⟩
  unfold inRange
  rw [broadcastInDim_apply _ bcast_S50000_S50000x256_0 _ (ix2 r q) (ix1 r) (fun a => match a with
    | ⟨0, _⟩ => by show r.val = if (50000 : Nat) = 1 then 0 else r.val; rw [if_neg (by decide)])]
  rw [Host.reduce_eq_fold]
  refine fold_andi_one _ _ (fun i _ => ?_)
  obtain ⟨r', z, rfl⟩ : ∃ (r' : Fin 50000) (z : Fin 1), i = ix2 r' z := ⟨i 0, i 1, eq_ix2 i⟩
  show IntOp.andi (IntOp.cmpi .sge (wrapIdx b (ix2 r' z)) 0#32) (IntOp.cmpi .sle (wrapIdx b (ix2 r' z)) 511#32) = 1#1
  rw [wrapIdx_apply b r' z (hb r').1, sge_zero_of_nonneg _ (hb r').1, sle_511_of_lt _ (hb r').2]
  rfl

/-- So the guarded take is the plain one. -/
theorem take_fill (t : (⟨S512x256, .f32⟩ : BufTy).Contents (Elt Ideal)) (b : (⟨S50000, .i32⟩ : BufTy).Contents (Elt Ideal))
    (hb : ∀ r : Fin 50000, 0 ≤ (b (ix1 r)).toInt ∧ (b (ix1 r)).toInt < 512) :
    select (inRange b) (gtake t b) fillArr = gtake t b := by
  funext i
  rw [select_apply, inRange_one b hb i, select_one]

/-! ## The kernel program's three host stretches between regions 2 and 3, from any contents `V` -/

set_option maxHeartbeats 2000000 in
/-- The first stretch leaves the per-graph means of the node features … -/
theorem ops3_v23 (V : Valuation τ sig (Elt Ideal)) :
    StableHlo.after hostOps3 V (Proc.devRef .tc main_v23) = gavg (V (Proc.devRef .tc main_arg4)) (V (Proc.devRef .tc main_v12)) := by
  after_results_simp
  rfl

set_option maxHeartbeats 2000000 in
/-- … and the row counts. -/
theorem ops3_v18 (V : Valuation τ sig (Elt Ideal)) :
    StableHlo.after hostOps3 V (Proc.devRef .tc main_v18) = gcount (V (Proc.devRef .tc main_arg4)) := by
  after_results_simp
  rfl

set_option maxHeartbeats 2000000 in
/-- The second stretch is the guarded take of the means at the graph ids. -/
theorem ops3_1_v24 (V : Valuation τ sig (Elt Ideal)) :
    StableHlo.after hostOps3_1 V (Proc.devRef .tc main_v24)
      = select (inRange (V (Proc.devRef .tc main_arg4))) (gtake (V (Proc.devRef .tc main_v23)) (V (Proc.devRef .tc main_arg4))) fillArr := by
  after_results_simp
  simp only [StableHlo.TRef.ofBuf, StableHlo.TRef.toBuf, cast_eq]
  rfl

set_option maxHeartbeats 2000000 in
/-- The third stretch leaves the table: the means it finds beside the per-graph means of the squared centred rows … -/
theorem ops3_2_v35 (V : Valuation τ sig (Elt Ideal)) :
    StableHlo.after hostOps3_2 V (Proc.devRef .tc main_v35)
      = concatenate S512x512 1 [⟨S512x256, V (Proc.devRef .tc main_v23)⟩,
          ⟨S512x256, gsq (V (Proc.devRef .tc main_arg4))
            (centred (V (Proc.devRef .tc main_v12)) (V (Proc.devRef .tc main_v24)) (V (Proc.devRef .tc main_arg27)))
            (V (Proc.devRef .tc main_v18))⟩]
          concatenates_S512x256_S512x256_S512x512_d1 := by
  after_results
  rfl

set_option maxHeartbeats 2000000 in
/-- … and the graph ids as a column. -/
theorem ops3_2_v36 (V : Valuation τ sig (Elt Ideal)) :
    StableHlo.after hostOps3_2 V (Proc.devRef .tc main_v36)
      = shapeCast S50000x1 (V (Proc.devRef .tc main_arg4)) shapeCasts_S50000_S50000x1 := by
  after_results_simp
  rfl

/-! What the three stretches do not write. -/

set_option maxHeartbeats 2000000 in
theorem ops3_arg4 (V : Valuation τ sig (Elt Ideal)) :
    StableHlo.after hostOps3 V (Proc.devRef .tc main_arg4) = V (Proc.devRef .tc main_arg4) := by after_results_simp
set_option maxHeartbeats 2000000 in
theorem ops3_v12 (V : Valuation τ sig (Elt Ideal)) :
    StableHlo.after hostOps3 V (Proc.devRef .tc main_v12) = V (Proc.devRef .tc main_v12) := by after_results_simp
set_option maxHeartbeats 2000000 in
theorem ops3_1_arg4 (V : Valuation τ sig (Elt Ideal)) :
    StableHlo.after hostOps3_1 V (Proc.devRef .tc main_arg4) = V (Proc.devRef .tc main_arg4) := by after_results_simp
set_option maxHeartbeats 2000000 in
theorem ops3_1_arg27 (V : Valuation τ sig (Elt Ideal)) :
    StableHlo.after hostOps3_1 V (Proc.devRef .tc main_arg27) = V (Proc.devRef .tc main_arg27) := by after_results_simp
set_option maxHeartbeats 2000000 in
theorem ops3_1_v12 (V : Valuation τ sig (Elt Ideal)) :
    StableHlo.after hostOps3_1 V (Proc.devRef .tc main_v12) = V (Proc.devRef .tc main_v12) := by after_results_simp
set_option maxHeartbeats 2000000 in
theorem ops3_1_v23 (V : Valuation τ sig (Elt Ideal)) :
    StableHlo.after hostOps3_1 V (Proc.devRef .tc main_v23) = V (Proc.devRef .tc main_v23) := by after_results_simp
set_option maxHeartbeats 2000000 in
theorem ops3_1_v18 (V : Valuation τ sig (Elt Ideal)) :
    StableHlo.after hostOps3_1 V (Proc.devRef .tc main_v18) = V (Proc.devRef .tc main_v18) := by after_results_simp
set_option maxHeartbeats 2000000 in
theorem ops3_2_arg4 (V : Valuation τ sig (Elt Ideal)) :
    StableHlo.after hostOps3_2 V (Proc.devRef .tc main_arg4) = V (Proc.devRef .tc main_arg4) := by after_results_simp
set_option maxHeartbeats 2000000 in
theorem ops3_2_arg27 (V : Valuation τ sig (Elt Ideal)) :
    StableHlo.after hostOps3_2 V (Proc.devRef .tc main_arg27) = V (Proc.devRef .tc main_arg27) := by after_results_simp

variable (m : (ℓ : Loc nD τ sig) → Buf (Elt Ideal) ℓ) (ρ : Dev nD → PrngReg) (c : Dev nD)

/-! ## The reference's statistics are the same functions of the same arrays

    Its mean and variance stages are, operation by operation, the terms above at the launched ids, stage 5's result and the
    launched mean scale; the two programs' dimension records have the same fields. -/

theorem rMean_eq : rMean m c = gavg (A4 m c) (rH m c) := rfl

theorem rVar_eq : rVar m c = gvar (A4 m c) (rH m c) (A27 m c) := rfl

/-! ## The kernel program's buffers before region 3 -/

/-- The graph ids are as launched at each of the three stretches' entries (no stretch and no region writes them) … -/
theorem k7_arg4 : W7 m ρ c (Proc.devRef .tc main_arg4) = A4 m c :=
  ((W11_of_ne m ρ c main_arg4 (by decide)).trans ((ops3_2_arg4 (W9 m ρ c)).trans
    ((ops3_1_arg4 (W8 m ρ c)).trans (ops3_arg4 (W7 m ρ c))))).symm.trans (W11_main_arg4 m ρ c)
theorem k8_arg4 : W8 m ρ c (Proc.devRef .tc main_arg4) = A4 m c := (ops3_arg4 (W7 m ρ c)).trans (k7_arg4 m ρ c)
theorem k9_arg4 : W9 m ρ c (Proc.devRef .tc main_arg4) = A4 m c := (ops3_1_arg4 (W8 m ρ c)).trans (k8_arg4 m ρ c)

/-- … and so is the mean scale at the third's (region 3 reads it through an input window). -/
theorem k9_arg27 : W9 m ρ c (Proc.devRef .tc main_arg27) = A27 m c :=
  (((W11_arr m ρ c 5).trans (((dat3 (V10 m ρ) c).arrAt_in 5 rfl _).trans (A_eq3 (V10 m ρ) c 5))).trans
    (ops3_2_arg27 (W9 m ρ c))).symm.trans (W11_main_arg27 m ρ c)

/-- The node features at the third stretch's entry are region 2's result. -/
theorem k9_v12 : W9 m ρ c (Proc.devRef .tc main_v12) = kH m ρ c :=
  (ops3_1_v12 (W8 m ρ c)).trans (ops3_v12 (W7 m ρ c))

/-- The means and the counts, after the first stretch and at the third's entry. -/
theorem k8_v23 : W8 m ρ c (Proc.devRef .tc main_v23) = gavg (A4 m c) (kH m ρ c) :=
  (ops3_v23 (W7 m ρ c)).trans (congrArg (fun b => gavg b (kH m ρ c)) (k7_arg4 m ρ c))
theorem k9_v23 : W9 m ρ c (Proc.devRef .tc main_v23) = gavg (A4 m c) (kH m ρ c) :=
  (ops3_1_v23 (W8 m ρ c)).trans (k8_v23 m ρ c)
theorem k9_v18 : W9 m ρ c (Proc.devRef .tc main_v18) = gcount (A4 m c) :=
  (ops3_1_v18 (W8 m ρ c)).trans ((ops3_v18 (W7 m ρ c)).trans (congrArg gcount (k7_arg4 m ρ c)))

/-- The gathered means: with every graph id a graph, the plain take. -/
theorem k9_v24 (hb : BatchOk m c) : W9 m ρ c (Proc.devRef .tc main_v24) = gtake (gavg (A4 m c) (kH m ρ c)) (A4 m c) := by
  refine (ops3_1_v24 (W8 m ρ c)).trans ?_
  rw [k8_arg4 m ρ c, k8_v23 m ρ c]
  exact take_fill _ _ hb

/-- The table before region 3: the per-graph means beside the per-graph variances. -/
theorem kTable_eq (hb : BatchOk m c) :
    kTable m ρ c = concatenate S512x512 1 [⟨S512x256, gavg (A4 m c) (kH m ρ c)⟩, ⟨S512x256, gvar (A4 m c) (kH m ρ c) (A27 m c)⟩]
      concatenates_S512x256_S512x256_S512x512_d1 := by
  refine (ops3_2_v35 (W9 m ρ c)).trans ?_
  rw [k9_v23 m ρ c, k9_arg4 m ρ c, k9_v12 m ρ c, k9_v24 m ρ c hb, k9_arg27 m ρ c, k9_v18 m ρ c]
  rfl

end GraphStats

open GraphStats

variable (m : (ℓ : Loc nD τ sig) → Buf (Elt Ideal) ℓ) (ρ : Dev nD → PrngReg) (c : Dev nD)

/-! ## The two links -/

/-- The table's left half is the reference's per-graph mean and its right half the reference's per-graph variance: both
    sides are the same functions of the graph ids, the node features and the mean scale, and the node features agree by
    stage 5. Column `q` of the left half is column `q` of the means; column `256 + q` is column `q` of the variances. -/
theorem stage6 (hb : BatchOk m c) (h5 : kH m ρ c = rH m c) (g : Fin 512) (q : Fin 256) :
    kTable m ρ c (ValueIdx.ix2 g (⟨q.val, by omega⟩ : Fin 512)) = rMean m c (ValueIdx.ix2 g q)
    ∧ kTable m ρ c (ValueIdx.ix2 g (⟨256 + q.val, by omega⟩ : Fin 512)) = rVar m c (ValueIdx.ix2 g q) := by
  rw [kTable_eq m ρ c hb, h5, rMean_eq m c, rVar_eq m c]
  constructor
  · exact concatenate_pair_apply_left (t := S512x512) (s₁ := S512x256) (s₂ := S512x256) (1 : Fin 2) _ _
      concatenates_S512x256_S512x256_S512x512_d1 _ rfl (ix2 g q)
      (fun b => match b with | ⟨0, _⟩ => rfl | ⟨1, _⟩ => rfl)
  · exact concatenate_pair_apply_right (t := S512x512) (s₁ := S512x256) (s₂ := S512x256) (1 : Fin 2) _ _
      concatenates_S512x256_S512x256_S512x512_d1 _ rfl rfl (ix2 g q)
      (fun b => match b with | ⟨0, _⟩ => fun _ => rfl | ⟨1, _⟩ => fun h => absurd rfl h)
      (by show q.val + 256 = 256 + q.val; omega)

/-- The graph ids as a column: entry `(r, 0)` is id `r` (the same row-major position). -/
theorem stage6b (r : Fin 50000) : kBcol m ρ c (ValueIdx.ix2 r (0 : Fin 1)) = A4 m c (ValueIdx.ix1 r) := by
  refine (congrFun (ops3_2_v36 (W9 m ρ c)) _).trans ?_
  rw [k9_arg4 m ρ c]
  exact shapeCast_apply _ shapeCasts_S50000_S50000x1 _ (ix1 r)
    (by rw [Shape.rowMajor_val_two, Shape.rowMajor_val_one]; show r.val = r.val * 1 + 0; omega)

end Cert.Stages

end
-- ==== Proof.Stage7RMath.lean ====
/-
  Stage 7, the mathematics on one row: the kernel's form of the graph norm equals the reference's.

  Two facts. The sum of a table's rows against the indicator of one graph id is that graph's row (one term survives;
  `0 · x = 0` on the extended reals, so nothing need be finite). And for `y > 0` the product with the reciprocal root
  is the quotient by the root: at `y = ⊤` both are `a · 0`, at a positive real both are `a · (√y)⁻¹`.
-/
import proofs.«408299_j82652350644685_2_alg».proof.Proof.Rows

noncomputable section

namespace Cert.Rows

open Idealize.ShloMosaic

/-- A word whose signed value is in `[0, 512)` has that value as its unsigned one. -/
theorem toNat_lt_of_toInt (b : BitVec 32) (h0 : 0 ≤ b.toInt) (h1 : b.toInt < 512) : b.toNat < 512 := by
  rw [BitVec.toInt_eq_toNat_cond] at h0 h1
  split at h0 <;> omega

/-- For `g < 512`, "the word is `g`" is "its unsigned value is `g`". -/
theorem eq_ofNat_iff (b : BitVec 32) (g : Fin 512) : b = BitVec.ofNat 32 g.val ↔ b.toNat = g.val := by
  have hg : g.val % 2 ^ 32 = g.val := Nat.mod_eq_of_lt (by have := g.isLt; omega)
  constructor
  · intro h; rw [h, BitVec.toNat_ofNat, hg]
  · intro h; apply BitVec.eq_of_toNat_eq; rw [BitVec.toNat_ofNat, hg, h]

/-- The indicator picks one row of a table. -/
theorem sum_onehot {M : ℕ} (b : BitVec 32) (hb : b.toNat < 512) (T : Fin 512 → Fin M → EReal) (j : Fin M) :
    ∑ g : Fin 512, onehot b g * T g j = T ⟨b.toNat, hb⟩ j := by
  rw [Finset.sum_eq_single (⟨b.toNat, hb⟩ : Fin 512)]
  · unfold onehot
    rw [if_pos ((eq_ofNat_iff b _).mpr rfl), one_mul]
  · intro g _ hg
    unfold onehot
    rw [if_neg (fun h => hg (Fin.ext ((eq_ofNat_iff b g).mp h).symm)), zero_mul]
  · intro h; exact absurd (Finset.mem_univ _) h

/-- For a positive `y`, the product with the reciprocal root is the quotient by the root. -/
theorem mul_rsqrt_eq_div_sqrt (a y : EReal) (hy : 0 < y) : a * Ideal.rsqrt y = Ideal.div a (Ideal.sqrt y) := by
  induction y using EReal.rec with
  | bot => exact absurd hy (not_lt.mpr bot_le)
  | top =>
    rw [Ideal.rsqrt_top, Ideal.sqrt_top, Ideal.div, if_neg EReal.top_ne_zero, EReal.inv_top]
  | coe r =>
    have hr : 0 < r := by exact_mod_cast hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

/-- The variance floor is a positive real number. -/
theorem eps_pos : 0 < eps := by
  have h1 : ((0x3727C5AC#32 : BitVec 32).extractLsb' (8 + 23) 1 == 1#1) = false := by decide
  have h2 : ((0x3727C5AC#32 : BitVec 32).extractLsb' 23 8).toNat = 110 := by decide
  have h3 : ((0x3727C5AC#32 : BitVec 32).extractLsb' 0 23).toNat = 2606508 := by decide
  show (0 : EReal) < Ideal.ieee 8 23 (0x3727C5AC#32 : BitVec 32)
  unfold Ideal.ieee
  simp only [h1, h2, h3]
  norm_num

/-- A quantity that is not negative, plus the floor, is positive. -/
theorem add_eps_pos (v : EReal) (hv : 0 ≤ v) : 0 < v + eps :=
  calc (0 : EReal) < eps := eps_pos
    _ = 0 + eps := (zero_add _).symm
    _ ≤ v + eps := add_le_add_left hv _

/-- Stage 4 in the kernel's form is the reference's form at the row's own graph, where the variances are not negative. -/
theorem rowK4_eq_ref (h : Fin 256 → EReal) (b : BitVec 32) (hb : b.toNat < 512)
    (mean var : Fin 512 → Fin 256 → EReal) (hvar : ∀ g k, 0 ≤ var g k)
    (gw gb gms : Fin 256 → EReal) (Wfin : Fin 256 → Fin 256 → EReal) (bfin : Fin 256 → EReal) (q : Fin 256) :
    rowK4ref h (mean ⟨b.toNat, hb⟩) (var ⟨b.toNat, hb⟩) gw gb gms Wfin bfin q
      = rowK4 h b (fun g => join (mean g) (var g)) gw gb gms Wfin bfin q := by
  have hlo : ∀ k, lo (fun j => ∑ g : Fin 512, onehot b g * join (mean g) (var g) j) k = mean ⟨b.toNat, hb⟩ k := by
    intro k
    show ∑ g : Fin 512, onehot b g * join (mean g) (var g) ⟨k.val, _⟩ = _
    rw [sum_onehot b hb (fun g => join (mean g) (var g))]
    unfold join
    rw [dif_pos (show (⟨k.val, _⟩ : Fin 512).val < 256 from k.isLt)]
  have hhi : ∀ k, hi (fun j => ∑ g : Fin 512, onehot b g * join (mean g) (var g) j) k = var ⟨b.toNat, hb⟩ k := by
    intro k
    show ∑ g : Fin 512, onehot b g * join (mean g) (var g) ⟨256 + k.val, _⟩ = _
    rw [sum_onehot b hb (fun g => join (mean g) (var g))]
    unfold join
    rw [dif_neg (show ¬ (⟨256 + k.val, _⟩ : Fin 512).val < 256 from by simp)]
    congr 1
    exact Fin.ext (by simp)
  unfold rowK4ref rowK4
  simp only [hlo, hhi]
  congr 1
  unfold dot
  refine Finset.sum_congr rfl fun k _ => ?_
  beta_reduce
  congr 2
  exact (mul_rsqrt_eq_div_sqrt _ _ (add_eps_pos _ (hvar _ _))).symm

end Cert.Rows

end
-- ==== Proof.Stage7R.lean ====
/-
  Stage 7, the reference's half: the graph norm and final projection read at an index, in the kernel's form.
-/
import proofs.«408299_j82652350644685_2_alg».proof.Proof.Stages
import proofs.«408299_j82652350644685_2_alg».proof.Proof.Stage7RMath
import Idealize.ShloMosaic.Lib.IdealHost

noncomputable section

namespace Cert.Stages

open Idealize.ShloMosaic Idealize.ShloMosaic.TcCoe Idealize.SL.Sem
open Cert.KernelIdeal Cert.KernelIdeal.Gen Cert.ReferenceIdeal.ReadP

variable (m : (ℓ : Loc nD τ sig) → Buf (Elt Ideal) ℓ) (ρ : Dev nD → PrngReg) (c : Dev nD)

/-! ## The row gather read at an index -/

/-- The gather of whole rows of a 512 × 256 table at a column of start indices, read at `(r, k)`: the table at the row
    the start index names, read signed and clamped into `[0, 511]`, and at column `k`. -/
theorem gather_row {α : Type} {w : Nat} (x : S512x256.Idx → α) (idx : IVec S50000x1 w) (r : Fin 50000) (k : Fin 256) :
    Host.gather Cert.ReferenceIdeal.gather_S512x256_S50000x1_S50000x256_1_0_n_n_0_1_1256 x idx (ValueIdx.ix2 r k)
      = x (ValueIdx.ix2 (⟨min (idx (ValueIdx.ix2 r (0 : Fin 1))).toInt.toNat 511, by omega⟩ : Fin 512) k) := by
  unfold Host.gather
  congr 1
  funext a
  refine Fin.ext ?_
  match a with
  | ⟨0, _⟩ =>
    show (Cert.ReferenceIdeal.gather_S512x256_S50000x1_S50000x256_1_0_n_n_0_1_1256).start (ValueIdx.ix2 r k) idx 0 + (Cert.ReferenceIdeal.gather_S512x256_S50000x1_S50000x256_1_0_n_n_0_1_1256).batchCoord (ValueIdx.ix2 r k) 0
      + (Cert.ReferenceIdeal.gather_S512x256_S50000x1_S50000x256_1_0_n_n_0_1_1256).offCoord (ValueIdx.ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (Cert.ReferenceIdeal.gather_S512x256_S50000x1_S50000x256_1_0_n_n_0_1_1256).startIndexMap from List.mem_singleton.mpr rfl)]
    have hsi : (Cert.ReferenceIdeal.gather_S512x256_S50000x1_S50000x256_1_0_n_n_0_1_1256).siIdx (ValueIdx.ix2 r k) ⟨List.idxOf (0 : Fin 2) (Cert.ReferenceIdeal.gather_S512x256_S50000x1_S50000x256_1_0_n_n_0_1_1256).startIndexMap,
        List.idxOf_lt_length_iff.2 (List.mem_singleton.mpr rfl)⟩ = ValueIdx.ix2 r (0 : Fin 1) := by
      funext b; refine Fin.ext ?_
      match b with
      | ⟨0, _⟩ => rfl
      | ⟨1, _⟩ => rfl
    rw [hsi]
    rfl
  | ⟨1, _⟩ =>
    show (Cert.ReferenceIdeal.gather_S512x256_S50000x1_S50000x256_1_0_n_n_0_1_1256).start (ValueIdx.ix2 r k) idx 1 + (Cert.ReferenceIdeal.gather_S512x256_S50000x1_S50000x256_1_0_n_n_0_1_1256).batchCoord (ValueIdx.ix2 r k) 1
      + (Cert.ReferenceIdeal.gather_S512x256_S50000x1_S50000x256_1_0_n_n_0_1_1256).offCoord (ValueIdx.ix2 r k) 1 = k.val
    rw [GatherDims.batchCoord_eq_zero _ _ _ List.not_mem_nil]
    unfold GatherDims.start
    rw [dif_neg (show ¬ (1 : Fin 2) ∈ (Cert.ReferenceIdeal.gather_S512x256_S50000x1_S50000x256_1_0_n_n_0_1_1256).startIndexMap from by decide)]
    unfold GatherDims.offCoord
    rw [dif_pos (show (1 : Fin 2) ∈ (Cert.ReferenceIdeal.gather_S512x256_S50000x1_S50000x256_1_0_n_n_0_1_1256).sKept from by decide)]
    have hod : ∀ (i : Nat) (h : i < (Cert.ReferenceIdeal.gather_S512x256_S50000x1_S50000x256_1_0_n_n_0_1_1256).offsetDims.length), (Cert.ReferenceIdeal.gather_S512x256_S50000x1_S50000x256_1_0_n_n_0_1_1256).offsetDims[i]'h = (1 : Fin 2) := by
      intro i h
      have hl : (Cert.ReferenceIdeal.gather_S512x256_S50000x1_S50000x256_1_0_n_n_0_1_1256).offsetDims.length = 1 := rfl
      have hi : i = 0 := by omega
      subst hi; rfl
    rw [hod]
    show 0 + 0 + k.val = k.val
    omega

/-- The wrapped graph id of a node whose id is not negative is the id. -/
theorem wrap109 (x4 : (⟨S50000, .i32⟩ : BufTy).Contents (Elt Ideal)) (r : Fin 50000) (h0 : 0 ≤ (x4 (ValueIdx.ix1 r)).toInt) :
    val_main_v109 (F := Ideal) x4 (ValueIdx.ix2 r (0 : Fin 1)) = x4 (ValueIdx.ix1 r) := by
  have hi : idx_main_v109 (ValueIdx.ix2 r (0 : Fin 1)) = ValueIdx.ix1 r := by
    funext a; match a with | ⟨0, _⟩ => rfl
  have hc : IntOp.cmpi .slt (x4 (ValueIdx.ix1 r)) 0#32 = 0#1 := by
    unfold IntOp.cmpi
    have : (x4 (ValueIdx.ix1 r)).slt 0#32 = false := by
      rw [BitVec.slt, decide_eq_false_iff_not, show (0#32 : BitVec 32).toInt = 0 from by decide]
      omega
    rw [this]; rfl
  rw [val_main_v109_apply, hi, val_main_v108_apply, val_main_v105_apply, val_main_v104_apply, val_main_c_8_apply, hc,
    ValueIdx.select_zero]

/-- The same for the second copy of the wrap (the one the variances are gathered at). -/
theorem wrap129 (x4 : (⟨S50000, .i32⟩ : BufTy).Contents (Elt Ideal)) (r : Fin 50000) (h0 : 0 ≤ (x4 (ValueIdx.ix1 r)).toInt) :
    val_main_v129 (F := Ideal) x4 (ValueIdx.ix2 r (0 : Fin 1)) = x4 (ValueIdx.ix1 r) := by
  have hi : idx_main_v129 (ValueIdx.ix2 r (0 : Fin 1)) = ValueIdx.ix1 r := by
    funext a; match a with | ⟨0, _⟩ => rfl
  have hc : IntOp.cmpi .slt (x4 (ValueIdx.ix1 r)) 0#32 = 0#1 := by
    unfold IntOp.cmpi
    have : (x4 (ValueIdx.ix1 r)).slt 0#32 = false := by
      rw [BitVec.slt, decide_eq_false_iff_not, show (0#32 : BitVec 32).toInt = 0 from by decide]
      omega
    rw [this]; rfl
  rw [val_main_v129_apply, hi, val_main_v128_apply, val_main_v125_apply, val_main_v124_apply, val_main_c_11_apply, hc,
    ValueIdx.select_zero]

/-- A graph id in range, read signed, clamped into `[0, 511]`, is its unsigned value. -/
theorem clamp_id (b : BitVec 32) (h0 : 0 ≤ b.toInt) (h1 : b.toInt < 512) : min b.toInt.toNat 511 = b.toNat := by
  rw [BitVec.toInt_eq_toNat_cond] at h0 h1 ⊢
  split at h0 <;> omega

/-- The same where the start index is a graph id in range: the table's row at that id. -/
theorem gather_row_of_id {α : Type} (x : S512x256.Idx → α) (idx : IVec S50000x1 32) (r : Fin 50000) (k : Fin 256)
    (b : BitVec 32) (hidx : idx (ValueIdx.ix2 r (0 : Fin 1)) = b) (h0 : 0 ≤ b.toInt) (h1 : b.toInt < 512) (hn : b.toNat < 512) :
    Host.gather Cert.ReferenceIdeal.gather_S512x256_S50000x1_S50000x256_1_0_n_n_0_1_1256 x idx (ValueIdx.ix2 r k) = x (ValueIdx.ix2 (⟨b.toNat, hn⟩ : Fin 512) k) := by
  rw [gather_row]
  refine congrArg x (congrArg (fun g : Fin 512 => ValueIdx.ix2 g k) (Fin.ext ?_))
  show min (idx (ValueIdx.ix2 r (0 : Fin 1))).toInt.toNat 511 = b.toNat
  rw [hidx]
  exact clamp_id b h0 h1

/-! ## The variances are not negative -/

/-- A square is not negative on the extended reals. -/
theorem mul_self_nonneg_ereal (z : EReal) : 0 ≤ z * z :=
  EReal.mul_nonneg_iff.mpr ((le_total 0 z).imp (fun h => ⟨h, h⟩) (fun h => ⟨h, h⟩))

/-- A graph's variance is a sum of squares (over the graph's rows) divided by a count that is at least one. -/
theorem rVar_nonneg (g : Fin 512) (k : Fin 256) : 0 ≤ rVar m c (ValueIdx.ix2 g k) := by
  show 0 ≤ val_main_v120 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A27 m c) (ValueIdx.ix2 g k)
  rw [val_main_v120_apply, val_main_v119_apply, val_main_v98_apply, val_main_v97_apply, val_main_cst_6_apply]
  show 0 ≤ Ideal.div (val_main_v118 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A27 m c) _)
    (max (val_main_v96 (F := Ideal) (A4 m c) _) (Ideal.ofBits .f32 0x3F800000#32))
  rw [Ideal.ofBits_one_f32]
  have hcnt : (1 : EReal) ≤ max (val_main_v96 (F := Ideal) (A4 m c) (idx_main_v119 (ValueIdx.ix2 g k))) 1 := le_max_right _ _
  generalize max (val_main_v96 (F := Ideal) (A4 m c) (idx_main_v119 (ValueIdx.ix2 g k))) 1 = cnt at hcnt ⊢
  have hpos : 0 < cnt := lt_of_lt_of_le zero_lt_one hcnt
  rw [Ideal.div, if_neg hpos.ne']
  refine EReal.mul_nonneg ?_ (EReal.inv_nonneg_of_nonneg hpos.le)
  unfold val_main_v118 Host.scatterAdd
  show 0 ≤ Ideal.hostScatterAdd _ _ _ _ _
  unfold Ideal.hostScatterAdd
  refine add_nonneg ?_ (Finset.sum_nonneg fun j _ => ?_)
  · rw [val_main_v116_apply, val_main_cst_10_apply]
    exact (Ideal.ofBits_zero_f32).ge
  · rw [val_main_v115_apply]
    exact mul_self_nonneg_ereal _

/-! ## The result read at a node and a column -/

/-- The reference's result at `(r, q)` in the reference's own form: the graph norm with the mean and variance of the
    row's graph `g₀`, the quotient by the root, and the final projection. -/
theorem ref_out_row_ref (hb : BatchOk m c) (r : Fin 50000) (q : Fin 256) (hn : (A4 m c (ValueIdx.ix1 r)).toNat < 512) :
    rOut m c (ValueIdx.ix2 r q)
      = Rows.rowK4ref (fun k => rH m c (ValueIdx.ix2 r k))
          (fun k => rMean m c (ValueIdx.ix2 (⟨(A4 m c (ValueIdx.ix1 r)).toNat, hn⟩ : Fin 512) k))
          (fun k => rVar m c (ValueIdx.ix2 (⟨(A4 m c (ValueIdx.ix1 r)).toNat, hn⟩ : Fin 512) k))
          (Rows.vec (A25 m c)) (Rows.vec (A26 m c)) (Rows.vec (A27 m c)) (Rows.mat (A28 m c)) (Rows.vec (A29 m c)) q := by
  obtain ⟨hb0, hb1⟩ := hb r
  show val_main_v141 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c) (ValueIdx.ix2 r q) = _
  rw [val_main_v141_apply, val_main_v138_apply, val_main_v140_apply, val_main_v139_apply]
  have hq : idx_main_v139 (idx_main_v140 (ValueIdx.ix2 r q)) = ValueIdx.ix1 q := by
    funext a; match a with | ⟨0, _⟩ => rfl
  rw [hq]
  unfold Rows.rowK4ref Rows.dot
  refine congrArg₂ (· + ·) (Finset.sum_congr rfl fun k _ => ?_) rfl
  have hl : lidx_main_v138 (ValueIdx.ix2 r q) k = ValueIdx.ix2 r k := by
    funext a; match a with | ⟨0, _⟩ => rfl | ⟨1, _⟩ => rfl
  have hr : ridx_main_v138 (ValueIdx.ix2 r q) k = ValueIdx.ix2 k q := by
    funext a; match a with | ⟨0, _⟩ => rfl | ⟨1, _⟩ => rfl
  rw [hl, hr]
  refine congrArg₂ (· * ·) ?_ rfl
  rw [val_main_v137_apply, val_main_v136_apply, val_main_v135_apply, val_main_v134_apply, val_main_v133_apply,
    val_main_v132_apply, val_main_v131_apply, val_main_cst_13_apply, val_main_v123_apply, val_main_v122_apply,
    val_main_v121_apply, val_main_v114_apply, val_main_v113_apply, val_main_v112_apply, val_main_v111_apply]
  have h1 : idx_main_v135 (idx_main_v136 (ValueIdx.ix2 r k)) = ValueIdx.ix1 k := by
    funext a; match a with | ⟨0, _⟩ => rfl
  have h2 : idx_main_v121 (idx_main_v122 (ValueIdx.ix2 r k)) = ValueIdx.ix1 k := by
    funext a; match a with | ⟨0, _⟩ => rfl
  have h3 : idx_main_v111 (idx_main_v112 (ValueIdx.ix2 r k)) = ValueIdx.ix1 k := by
    funext a; match a with | ⟨0, _⟩ => rfl
  rw [h1, h2, h3]
  unfold val_main_v110 val_main_v130
  rw [gather_row_of_id _ _ r k _ (wrap109 _ r hb0) hb0 hb1 hn, gather_row_of_id _ _ r k _ (wrap129 _ r hb0) hb0 hb1 hn]
  simp only [Ideal.addf_def, Ideal.hostDivf_def, Ideal.mulf_def, Ideal.subf_def, Ideal.hostUnary_sqrt_def, Ideal.ofBits_def]
  unfold Rows.vec Rows.eps
  rfl

/-- The reference's result at a node and a column, as the KERNEL's form of stage 4: the node's graph mean and variance picked
    out of the table "means left, variances right" by the indicator of its graph id (one term of the sum survives, the id
    being a graph), and the product with the reciprocal root in place of the quotient by the root (equal where the
    variance plus the floor is positive, which it is: a sum of squares over a count at least one). -/
theorem ref_out_row (hb : BatchOk m c) (r : Fin 50000) (q : Fin 256) :
    rOut m c (ValueIdx.ix2 r q)
      = Rows.rowK4 (fun k => rH m c (ValueIdx.ix2 r k)) (A4 m c (ValueIdx.ix1 r))
          (fun g => Rows.join (fun k => rMean m c (ValueIdx.ix2 g k)) (fun k => rVar m c (ValueIdx.ix2 g k)))
          (Rows.vec (A25 m c)) (Rows.vec (A26 m c)) (Rows.vec (A27 m c)) (Rows.mat (A28 m c)) (Rows.vec (A29 m c)) q := by
  have hn : (A4 m c (ValueIdx.ix1 r)).toNat < 512 := Rows.toNat_lt_of_toInt _ (hb r).1 (hb r).2
  exact (ref_out_row_ref m c hb r q hn).trans
    (Rows.rowK4_eq_ref (fun k => rH m c (ValueIdx.ix2 r k)) (A4 m c (ValueIdx.ix1 r)) hn
      (fun g k => rMean m c (ValueIdx.ix2 g k)) (fun g k => rVar m c (ValueIdx.ix2 g k)) (rVar_nonneg m c)
      (Rows.vec (A25 m c)) (Rows.vec (A26 m c)) (Rows.vec (A27 m c)) (Rows.mat (A28 m c)) (Rows.vec (A29 m c)) q)

end Cert.Stages

end
-- ==== Proof.Stage7K.lean ====
/-
  Stage 7 on the kernel's side. The fourth region computes, block of 2000 rows by block, the graph norm's affine part and
  the final projection. Its body picks each row's graph mean and variance out of the 512 × 512 table (means left, variances
  right) by multiplying the indicator of the row's graph id into the table, centres and scales the row with the
  reciprocal square root of the variance plus the floor, and projects. Read at row p, column q of a block, the stored value
  is the row function Rows.rowK4 of row p of the staged feature block, row p's graph id, the whole table and the five
  whole weight arrays. The 25 blocks tile the 50000 rows, block t holding rows 2000·t … 2000·t + 1999, so the array the
  region leaves is that row function at every row.
-/
import proofs.«408299_j82652350644685_2_alg».proof.Proof.Gen.KernelIdeal.Frame
import proofs.«408299_j82652350644685_2_alg».proof.Proof.Rows
import Idealize.ShloMosaic.Lib.Pipeline.Value
import Idealize.ShloMosaic.Lib.ValueIdx
import Idealize.ShloMosaic.PureOps.Ideal.Laws

noncomputable section

namespace Cert.Stage7K

open Idealize.ShloMosaic Idealize.ShloMosaic.TcCoe Idealize.SL.Sem
open Cert.KernelIdeal Cert.KernelIdeal.Gen
open Idealize.ShloMosaic.ValueIdx (ix1 ix2)
open Idealize.ShloMosaic.Pipeline (Dat)

/-! ## The layout operations of the body, each read at an index -/

/-- A row vector of 256 entries laid under every row of a 2000-row block: entry `(p, k)` is entry `k`. -/
theorem rowBcast_apply (v : Vec Ideal S256 .f32) (p : Fin 2000) (k : Fin 256) :
    (broadcastTo S2000x256 (shapeCast S1x256 v shapeCasts_S256_S1x256) broadcasts_S1x256_S2000x256 : FVec Ideal S2000x256 .f32) (ix2 p k)
      = v (ix1 k) := by
  refine (broadcastTo_apply _ broadcasts_S1x256_S2000x256 (ix2 p k) (ix2 (0 : Fin 1) k) (fun a => match a with
    | ⟨0, _⟩ => by show (0 : Nat) = if (1 : Nat) = 1 then 0 else p.val; rw [if_pos rfl]
    | ⟨1, _⟩ => by show k.val = if (256 : Nat) = 1 then 0 else k.val; rw [if_neg (by decide)])).trans ?_
  exact shapeCast_apply v shapeCasts_S256_S1x256 (ix2 (0 : Fin 1) k) (ix1 k)
    (by rewrite [Shape.rowMajor_val_one, Shape.rowMajor_val_two]; show k.val = 0 * 256 + k.val; omega)

/-- The graph-id column laid along 512 columns: entry `(p, g)` is the id of row `p`. -/
theorem colBcast_apply (v : Vec Ideal S2000x1 .i32) (p : Fin 2000) (g : Fin 512) :
    (broadcastTo S2000x512 (shapeCast S2000x1 v shapeCasts_S2000x1_S2000x1) broadcasts_S2000x1_S2000x512 : IVec S2000x512 32) (ix2 p g)
      = v (ix2 p (0 : Fin 1)) := by
  rw [shapeCast_self]
  exact broadcastTo_apply v broadcasts_S2000x1_S2000x512 (ix2 p g) (ix2 p (0 : Fin 1)) (fun a => match a with
    | ⟨0, _⟩ => by show p.val = if (2000 : Nat) = 1 then 0 else p.val; rw [if_neg (by decide)]
    | ⟨1, _⟩ => by show (0 : Nat) = if (1 : Nat) = 1 then 0 else g.val; rw [if_pos rfl])

/-- The left and the right half of a 512-wide block. -/
theorem sliceLo_apply (x : FVec Ideal S2000x512 .f32) (p : Fin 2000) (k : Fin 256) :
    (extractStridedSlice S2000x256 ![0, 0] x slices_S2000x512_o0_0_S2000x256 : FVec Ideal S2000x256 .f32) (ix2 p k)
      = x (ix2 p (⟨k.val, by omega⟩ : Fin 512)) :=
  extractStridedSlice_apply ![0, 0] x slices_S2000x512_o0_0_S2000x256 (ix2 p k) (ix2 p (⟨k.val, by omega⟩ : Fin 512)) (fun a => match a with
    | ⟨0, _⟩ => by show p.val = 0 + p.val; omega
    | ⟨1, _⟩ => by show k.val = 0 + k.val; omega)

theorem sliceHi_apply (x : FVec Ideal S2000x512 .f32) (p : Fin 2000) (k : Fin 256) :
    (extractStridedSlice S2000x256 ![0, 256] x slices_S2000x512_o0_256_S2000x256 : FVec Ideal S2000x256 .f32) (ix2 p k)
      = x (ix2 p (⟨256 + k.val, by omega⟩ : Fin 512)) :=
  extractStridedSlice_apply ![0, 256] x slices_S2000x512_o0_256_S2000x256 (ix2 p k) (ix2 p (⟨256 + k.val, by omega⟩ : Fin 512)) (fun a => match a with
    | ⟨0, _⟩ => by show p.val = 0 + p.val; omega
    | ⟨1, _⟩ => by show 256 + k.val = 256 + k.val; omega)

/-! ## The indicator of a row's graph id -/

/-- The word of "the row's graph id is the column's number", as a float: the indicator `Rows.onehot`. -/
theorem onehot_apply (v : Vec Ideal S2000x1 .i32) (p : Fin 2000) (g : Fin 512) :
    (sitofp .f32 (extui 32 (cmpi .eq
        (broadcastTo S2000x512 (shapeCast S2000x1 v shapeCasts_S2000x1_S2000x1) broadcasts_S2000x1_S2000x512)
        (iota .tc S2000x512 32 [1] iota_S2000x512_d1_w32)) natLt_1_32) : FVec Ideal S2000x512 .f32) (ix2 p g)
      = Rows.onehot (v (ix2 p (0 : Fin 1))) g := by
  show (((((IntOp.cmpi .eq
      ((broadcastTo S2000x512 (shapeCast S2000x1 v shapeCasts_S2000x1_S2000x1) broadcasts_S2000x1_S2000x512 : IVec S2000x512 32) (ix2 p g))
      ((iota .tc S2000x512 32 [1] iota_S2000x512_d1_w32 : IVec S2000x512 32) (ix2 p g))).setWidth 32).toInt : ℝ) : EReal)) = _
  rw [colBcast_apply, iota_single_apply]
  show _ = (if v (ix2 p (0 : Fin 1)) = BitVec.ofNat 32 g.val then (1 : EReal) else 0)
  by_cases h : v (ix2 p (0 : Fin 1)) = BitVec.ofNat 32 g.val
  · have e : IntOp.cmpi .eq (v (ix2 p (0 : Fin 1))) (BitVec.ofNat 32 g.val) = 1#1 := by
      simp only [IntOp.cmpi, h, beq_self_eq_true, BitVec.ofBool_true]; rfl
    rw [if_pos h, e]
    norm_num
  · have e : IntOp.cmpi .eq (v (ix2 p (0 : Fin 1))) (BitVec.ofNat 32 g.val) = 0#1 := by
      simp only [IntOp.cmpi, beq_eq_false_iff_ne.mpr h, BitVec.ofBool_false]; rfl
    rw [if_neg h, e]
    norm_num

/-! ## The two matrix products of the body, each read at an index -/

theorem lhsStats_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhsStats_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhsStats_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhsStats_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The indicator block times the table: entry `(p, j)` is the sum over the 512 graphs. -/
theorem statsMatmul_apply (O : FVec Ideal S2000x512 .f32) (T : FVec Ideal S512x512 .f32) (p : Fin 2000) (j : Fin 512) :
    (matmul dot_S2000x512_S512x512_S2000x512_1_0_0_1_n_n none O T (constant S2000x512 .f32 0x00000000#32) : FVec Ideal S2000x512 .f32) (ix2 p j)
      = ∑ g : Fin 512, O (ix2 p g) * T (ix2 g j) := by
  refine (Ideal.matmul_constant_zero_apply dot_S2000x512_S512x512_S2000x512_1_0_0_1_n_n none O T (ix2 p j)).trans ?_
  rw [← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p j) ((ValueIdx.contrEquiv1 dot_S2000x512_S512x512_S2000x512_1_0_0_1_n_n 512 rfl rfl).symm k) = ix2 p k := funext fun a => Fin.ext (by
    match a with
    | ⟨0, _⟩ => exact lhsStats_0 _ _
    | ⟨1, _⟩ => exact (lhsStats_1 _ _).trans hk)
  have er : dot_S2000x512_S512x512_S2000x512_1_0_0_1_n_n.rhsIdx (ix2 p j) ((ValueIdx.contrEquiv1 dot_S2000x512_S512x512_S2000x512_1_0_0_1_n_n 512 rfl rfl).symm k) = ix2 k j := funext fun a => Fin.ext (by
    match a with
    | ⟨0, _⟩ => exact (rhsStats_0 _ _).trans hk
    | ⟨1, _⟩ => exact rhsStats_1 _ _)
  rw [el, er]

theorem lhsFin_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsFin_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsFin_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsFin_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The normalised block times the projection's weights: entry `(p, q)` is the sum over the 256 features. -/
theorem finMatmul_apply (X : FVec Ideal S2000x256 .bf16) (W : FVec Ideal S256x256 .bf16) (p : Fin 2000) (q : Fin 256) :
    (matmul dot_S2000x256_S256x256_S2000x256_1_0_0_1_n_n none X W (constant S2000x256 .f32 0x00000000#32) : FVec Ideal S2000x256 .f32) (ix2 p q)
      = ∑ k : Fin 256, X (ix2 p k) * W (ix2 k q) := by
  refine (Ideal.matmul_constant_zero_apply dot_S2000x256_S256x256_S2000x256_1_0_0_1_n_n none X W (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhsFin_0 _ _
    | ⟨1, _⟩ => exact (lhsFin_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhsFin_0 _ _).trans hk
    | ⟨1, _⟩ => exact rhsFin_1 _ _)
  rw [el, er]

/-! ## The body's value, stage by stage

The body's one stored value is built in four steps: the indicator block, its product with the table (the picked means
left, the picked variances right), the normalised block, and the projection. Each step is named here and read at an
index; the stored value is their composition by unfolding. -/

/-- The indicator block: `(p, g)` is 1 where row `p`'s graph id is `g`. -/
def onehotBlk (v2 : Vec Ideal S2000x1 .i32) : FVec Ideal S2000x512 .f32 :=
  sitofp .f32 (extui 32 (cmpi .eq
    (broadcastTo S2000x512 (shapeCast S2000x1 v2 shapeCasts_S2000x1_S2000x1) broadcasts_S2000x1_S2000x512)
    (iota .tc S2000x512 32 [1] iota_S2000x512_d1_w32)) natLt_1_32)

/-- The picked statistics: the indicator block times the table. -/
def statsBlk (v2 : Vec Ideal S2000x1 .i32) (v9 : Vec Ideal S512x512 .f32) : FVec Ideal S2000x512 .f32 :=
  matmul dot_S2000x512_S512x512_S2000x512_1_0_0_1_n_n none (onehotBlk v2)
    (shapeCast S512x512 v9 shapeCasts_S512x512_S512x512 : FVec Ideal S512x512 .f32) (constant S2000x512 .f32 0x00000000#32)

theorem statsBlk_apply (v2 : Vec Ideal S2000x1 .i32) (v9 : Vec Ideal S512x512 .f32) (p : Fin 2000) (j : Fin 512) :
    statsBlk v2 v9 (ix2 p j) = ∑ g : Fin 512, Rows.onehot (v2 (ix2 p (0 : Fin 1))) g * v9 (ix2 g j) := by
  unfold statsBlk
  rw [statsMatmul_apply, shapeCast_self]
  refine Finset.sum_congr rfl fun g _ => ?_
  unfold onehotBlk
  rw [onehot_apply]

/-- The normalised block: the graph norm's affine part, with the picked mean and the picked variance. -/
def normedBlk (v0 : Vec Ideal S2000x256 .f32) (v2 : Vec Ideal S2000x1 .i32) (v9 : Vec Ideal S512x512 .f32)
    (gms gw gb : Vec Ideal S256 .f32) : FVec Ideal S2000x256 .f32 :=
  addf
    (mulf
      (mulf (broadcastTo S2000x256 (shapeCast S1x256 gw shapeCasts_S256_S1x256) broadcasts_S1x256_S2000x256)
        (subf (shapeCast S2000x256 v0 shapeCasts_S2000x256_S2000x256)
          (mulf (extractStridedSlice S2000x256 ![0, 0] (statsBlk v2 v9) slices_S2000x512_o0_0_S2000x256)
            (broadcastTo S2000x256 (shapeCast S1x256 gms shapeCasts_S256_S1x256) broadcasts_S1x256_S2000x256))))
      (rsqrt
        (addf (extractStridedSlice S2000x256 ![0, 256] (statsBlk v2 v9) slices_S2000x512_o0_256_S2000x256)
          (broadcast S2000x256 (FloatOps.ofBits (F := Ideal) .f32 0x3727C5AC#32)))))
    (broadcastTo S2000x256 (shapeCast S1x256 gb shapeCasts_S256_S1x256) broadcasts_S1x256_S2000x256)

theorem normedBlk_apply (v0 : Vec Ideal S2000x256 .f32) (v2 : Vec Ideal S2000x1 .i32) (v9 : Vec Ideal S512x512 .f32)
    (gms gw gb : Vec Ideal S256 .f32) (p : Fin 2000) (k : Fin 256) :
    normedBlk v0 v2 v9 gms gw gb (ix2 p k)
      = gw (ix1 k) * (v0 (ix2 p k) - statsBlk v2 v9 (ix2 p (⟨k.val, by omega⟩ : Fin 512)) * gms (ix1 k))
          * Ideal.rsqrt (statsBlk v2 v9 (ix2 p (⟨256 + k.val, by omega⟩ : Fin 512)) + Rows.eps) + gb (ix1 k) := by
  unfold normedBlk
  show (broadcastTo S2000x256 (shapeCast S1x256 gw shapeCasts_S256_S1x256) broadcasts_S1x256_S2000x256 : FVec Ideal S2000x256 .f32) (ix2 p k)
        * ((shapeCast S2000x256 v0 shapeCasts_S2000x256_S2000x256 : FVec Ideal S2000x256 .f32) (ix2 p k)
          - (extractStridedSlice S2000x256 ![0, 0] (statsBlk v2 v9) slices_S2000x512_o0_0_S2000x256 : FVec Ideal S2000x256 .f32) (ix2 p k)
            * (broadcastTo S2000x256 (shapeCast S1x256 gms shapeCasts_S256_S1x256) broadcasts_S1x256_S2000x256 : FVec Ideal S2000x256 .f32) (ix2 p k))
        * Ideal.rsqrt ((extractStridedSlice S2000x256 ![0, 256] (statsBlk v2 v9) slices_S2000x512_o0_256_S2000x256 : FVec Ideal S2000x256 .f32) (ix2 p k)
          + Ideal.ofBits .f32 0x3727C5AC#32)
      + (broadcastTo S2000x256 (shapeCast S1x256 gb shapeCasts_S256_S1x256) broadcasts_S1x256_S2000x256 : FVec Ideal S2000x256 .f32) (ix2 p k) = _
  rw [rowBcast_apply, rowBcast_apply, rowBcast_apply, sliceLo_apply, sliceHi_apply, shapeCast_self]
  rfl

/-- The stored value is the projection of the normalised block plus the bias row. -/
theorem pay_eq (v0 : Vec Ideal S2000x256 .f32) (v2 : Vec Ideal S2000x1 .i32) (v9 : Vec Ideal S512x512 .f32)
    (gms gw gb : Vec Ideal S256 .f32) (W : Vec Ideal S256x256 .f32) (bf : Vec Ideal S256 .f32) :
    k3_pay1 v0 v2 v9 gms gw gb W bf
      = addf (matmul dot_S2000x256_S256x256_S2000x256_1_0_0_1_n_n none
          (truncf .bf16 (normedBlk v0 v2 v9 gms gw gb) bitsLt_bf16_f32) (truncf .bf16 W bitsLt_bf16_f32)
          (constant S2000x256 .f32 0x00000000#32))
        (broadcastTo S2000x256 (shapeCast S1x256 bf shapeCasts_S256_S1x256) broadcasts_S1x256_S2000x256) := rfl

/-- THE BODY'S VALUE AT A ROW AND A COLUMN is stage 4's row function of that row of the feature block, that row's graph id,
    the table, and the five weight arrays. -/
theorem pay_apply (v0 : Vec Ideal S2000x256 .f32) (v2 : Vec Ideal S2000x1 .i32) (v9 : Vec Ideal S512x512 .f32)
    (gms gw gb : Vec Ideal S256 .f32) (W : Vec Ideal S256x256 .f32) (bf : Vec Ideal S256 .f32) (p : Fin 2000) (q : Fin 256) :
    k3_pay1 v0 v2 v9 gms gw gb W bf (ix2 p q)
      = Rows.rowK4 (fun k => v0 (ix2 p k)) (v2 (ix2 p (0 : Fin 1))) (Rows.mat v9) (Rows.vec gw) (Rows.vec gb) (Rows.vec gms)
          (Rows.mat W) (Rows.vec bf) q := by
  rw [pay_eq]
  refine (ValueIdx.addf_apply _ _ _).trans ?_
  rw [finMatmul_apply, rowBcast_apply]
  unfold Rows.rowK4 Rows.dot
  dsimp only
  refine congrArg (fun a : EReal => a + bf (ix1 q)) (Finset.sum_congr rfl fun k _ => ?_)
  refine congrArg (fun a : EReal => a * W (ix2 k q)) ?_
  refine (normedBlk_apply v0 v2 v9 gms gw gb p k).trans ?_
  rw [statsBlk_apply, statsBlk_apply]
  rfl

/-! ## From the blocks to the array -/

/-- Stage 4 at every row: entry `(r, q)` is the row function of row `r` of the features, row `r`'s graph id, the table
    and the weight arrays. -/
def normProj (h : S50000x256.Idx → EReal) (B : S50000x1.Idx → BitVec 32) (T : S512x512.Idx → EReal)
    (gw gb gms : S256.Idx → EReal) (Wf : S256x256.Idx → EReal) (bf : S256.Idx → EReal) : S50000x256.Idx → EReal :=
  fun i => Rows.rowK4 (fun k => h (ix2 (i 0 : Fin 50000) k)) (B (ix2 (i 0 : Fin 50000) (0 : Fin 1))) (Rows.mat T)
    (Rows.vec gw) (Rows.vec gb) (Rows.vec gms) (Rows.mat Wf) (Rows.vec bf) (i 1 : Fin 256)

theorem normProj_apply (h : S50000x256.Idx → EReal) (B : S50000x1.Idx → BitVec 32) (T : S512x512.Idx → EReal)
    (gw gb gms : S256.Idx → EReal) (Wf : S256x256.Idx → EReal) (bf : S256.Idx → EReal) (r : Fin 50000) (q : Fin 256) :
    normProj h B T gw gb gms Wf bf (ix2 r q)
      = Rows.rowK4 (fun k => h (ix2 r k)) (B (ix2 r (0 : Fin 1))) (Rows.mat T) (Rows.vec gw) (Rows.vec gb) (Rows.vec gms)
          (Rows.mat Wf) (Rows.vec bf) q := rfl

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 25 grid points: the feature block, the graph-id block and the output block are block
    `t` of the rows; the table and the five weight arrays are staged whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 1) = 0
    ∧ win3_5.index t (0 : Fin 1) = 0
    ∧ win3_6.index t (0 : Fin 2) = 0 ∧ win3_6.index t (1 : Fin 2) = 0
    ∧ win3_7.index t (0 : Fin 1) = 0
    ∧ win3_8.index t (0 : Fin 2) = t.val ∧ win3_8.index t (1 : Fin 2) = 0 :=
  (by decide +kernel : ∀ t : Fin grid3.N, _)

section Entry
-- the TensorCore's buffer contents when the region is entered
variable (V : (c : Dev nD) → (b : Ref sig .tc) → Buf (Elt Ideal) ((c : Thread nD τ).loc b))

/-- Row `p` of the feature block staged at point `t` is row `2000·t + p` of the features. -/
theorem hBlock_apply (c : Dev nD) (t : Fin cfg3.N) (p : Fin 2000) (k : Fin 256) (r : Fin 50000) (hr : r.val = 2000 * t.val + p.val) :
    (iblk3 V c 0 t : Vec Ideal S2000x256 .f32) (ix2 p k) = (V c main_v12 : S50000x256.Idx → EReal) (ix2 r k) := by
  obtain ⟨e0, e1, -⟩ := idx_facts t
  unfold iblk3
  rw [View.read_apply]
  show V c main_v12 (((cfg3.win 0).blk t).view.emb (ix2 p k)) = V c main_v12 (ix2 r k)
  refine congrArg _ ?_
  funext a
  apply Fin.ext
  match a with
  | ⟨0, _⟩ => show win3_0.index t (0 : Fin 2) * 2000 + 1 * p.val = r.val; rw [e0, hr]; omega
  | ⟨1, _⟩ => show win3_0.index t (1 : Fin 2) * 256 + 1 * k.val = k.val; rw [e1]; omega

/-- Row `p` of the graph-id block staged at point `t` is the graph id of node `2000·t + p`. -/
theorem idBlock_apply (c : Dev nD) (t : Fin cfg3.N) (p : Fin 2000) (r : Fin 50000) (hr : r.val = 2000 * t.val + p.val) :
    (iblk3 V c 1 t : Vec Ideal S2000x1 .i32) (ix2 p (0 : Fin 1)) = (V c main_v36 : S50000x1.Idx → BitVec 32) (ix2 r (0 : Fin 1)) := by
  obtain ⟨-, -, e0, e1, -⟩ := idx_facts t
  unfold iblk3
  rw [View.read_apply]
  show V c main_v36 (((cfg3.win 1).blk t).view.emb (ix2 p (0 : Fin 1))) = V c main_v36 (ix2 r (0 : Fin 1))
  refine congrArg _ ?_
  funext a
  apply Fin.ext
  match a with
  | ⟨0, _⟩ => show win3_1.index t (0 : Fin 2) * 2000 + 1 * p.val = r.val; rw [e0, hr]; omega
  | ⟨1, _⟩ => show win3_1.index t (1 : Fin 2) * 1 + 1 * 0 = 0; rw [e1]

/-- The staged table is the table. -/
theorem tableBlock_eq (c : Dev nD) (t : Fin cfg3.N) :
    (iblk3 V c 2 t : Vec Ideal S512x512 .f32) = (V c main_v35 : S512x512.Idx → EReal) := by
  obtain ⟨-, -, -, -, e0, e1, -⟩ := idx_facts t
  funext y
  unfold iblk3
  rw [View.read_apply]
  show V c main_v35 (((cfg3.win 2).blk t).view.emb y) = V c main_v35 y
  refine congrArg _ ?_
  funext a
  apply Fin.ext
  match a with
  | ⟨0, _⟩ => show win3_2.index t (0 : Fin 2) * 512 + 1 * (y 0).val = (y 0).val; rw [e0]; omega
  | ⟨1, _⟩ => show win3_2.index t (1 : Fin 2) * 512 + 1 * (y 1).val = (y 1).val; rw [e1]; omega

/-- The staged scale, shift and mean-scale rows of the graph norm are the arrays. -/
theorem gwBlock_eq (c : Dev nD) (t : Fin cfg3.N) :
    (iblk3 V c 3 t : Vec Ideal S256 .f32) = (V c main_arg25 : S256.Idx → EReal) := by
  obtain ⟨-, -, -, -, -, -, e, -⟩ := idx_facts t
  funext y
  unfold iblk3
  rw [View.read_apply]
  show V c main_arg25 (((cfg3.win 3).blk t).view.emb y) = V c main_arg25 y
  refine congrArg _ ?_
  funext a
  apply Fin.ext
  match a with
  | ⟨0, _⟩ => show win3_3.index t (0 : Fin 1) * 256 + 1 * (y 0).val = (y 0).val; rw [e]; omega

theorem gbBlock_eq (c : Dev nD) (t : Fin cfg3.N) :
    (iblk3 V c 4 t : Vec Ideal S256 .f32) = (V c main_arg26 : S256.Idx → EReal) := by
  obtain ⟨-, -, -, -, -, -, -, e, -⟩ := idx_facts t
  funext y
  unfold iblk3
  rw [View.read_apply]
  show V c main_arg26 (((cfg3.win 4).blk t).view.emb y) = V c main_arg26 y
  refine congrArg _ ?_
  funext a
  apply Fin.ext
  match a with
  | ⟨0, _⟩ => show win3_4.index t (0 : Fin 1) * 256 + 1 * (y 0).val = (y 0).val; rw [e]; omega

theorem gmsBlock_eq (c : Dev nD) (t : Fin cfg3.N) :
    (iblk3 V c 5 t : Vec Ideal S256 .f32) = (V c main_arg27 : S256.Idx → EReal) := by
  obtain ⟨-, -, -, -, -, -, -, -, e, -⟩ := idx_facts t
  funext y
  unfold iblk3
  rw [View.read_apply]
  show V c main_arg27 (((cfg3.win 5).blk t).view.emb y) = V c main_arg27 y
  refine congrArg _ ?_
  funext a
  apply Fin.ext
  match a with
  | ⟨0, _⟩ => show win3_5.index t (0 : Fin 1) * 256 + 1 * (y 0).val = (y 0).val; rw [e]; omega

/-- The staged projection weights and bias are the arrays. -/
theorem wBlock_eq (c : Dev nD) (t : Fin cfg3.N) :
    (iblk3 V c 6 t : Vec Ideal S256x256 .f32) = (V c main_arg28 : S256x256.Idx → EReal) := by
  obtain ⟨-, -, -, -, -, -, -, -, -, e0, e1, -⟩ := idx_facts t
  funext y
  unfold iblk3
  rw [View.read_apply]
  show V c main_arg28 (((cfg3.win 6).blk t).view.emb y) = V c main_arg28 y
  refine congrArg _ ?_
  funext a
  apply Fin.ext
  match a with
  | ⟨0, _⟩ => show win3_6.index t (0 : Fin 2) * 256 + 1 * (y 0).val = (y 0).val; rw [e0]; omega
  | ⟨1, _⟩ => show win3_6.index t (1 : Fin 2) * 256 + 1 * (y 1).val = (y 1).val; rw [e1]; omega

theorem biasBlock_eq (c : Dev nD) (t : Fin cfg3.N) :
    (iblk3 V c 7 t : Vec Ideal S256 .f32) = (V c main_arg29 : S256.Idx → EReal) := by
  obtain ⟨-, -, -, -, -, -, -, -, -, -, -, e, -⟩ := idx_facts t
  funext y
  unfold iblk3
  rw [View.read_apply]
  show V c main_arg29 (((cfg3.win 7).blk t).view.emb y) = V c main_arg29 y
  refine congrArg _ ?_
  funext a
  apply Fin.ext
  match a with
  | ⟨0, _⟩ => show win3_7.index t (0 : Fin 1) * 256 + 1 * (y 0).val = (y 0).val; rw [e]; omega

/-- Entry `(p, q)` of the output block at point `t` sits at row `2000·t + p`, column `q` of the array. -/
theorem outBlock_emb (t : Fin cfg3.N) (p : Fin 2000) (q : Fin 256) (r : Fin 50000) (hr : r.val = 2000 * t.val + p.val) :
    ((cfg3.win 8).blk t).view.emb (ix2 p q) = (ix2 r q : S50000x256.Idx) := by
  obtain ⟨-, -, -, -, -, -, -, -, -, -, -, -, e0, e1⟩ := idx_facts t
  funext a
  apply Fin.ext
  match a with
  | ⟨0, _⟩ => show win3_8.index t (0 : Fin 2) * 2000 + 1 * p.val = r.val; rw [e0, hr]; omega
  | ⟨1, _⟩ => show win3_8.index t (1 : Fin 2) * 256 + 1 * q.val = q.val; rw [e1]; omega

/-- What point `t` writes back is block `t` of stage 4 of the arrays as the region finds them. -/
theorem flushed_eq (c : Dev nD) (t : Fin cfg3.N) :
    (dat3 V c).flushed 8 t = ((cfg3.win 8).blk t).view.read (Elt Ideal)
      (normProj (V c main_v12) (V c main_v36) (V c main_v35) (V c main_arg25) (V c main_arg26) (V c main_arg27) (V c main_arg28) (V c main_arg29)) := by
  show (cfg3.win 8).cut (grid3.coords t) ((dat3 V c).after 8 t) = _
  rw [after3_8]
  unfold out3_8
  rw [View.canon_unit_zero zeros2]
  simp only [View.ld_unit_zero (S := S2000x256) zeros2, View.ld_unit_zero (S := S2000x1) zeros2, View.ld_unit_zero (S := S512x512) zeros2,
    View.ld_unit_zero (S := S256x256) zeros2, View.ld_unit_zero (S := S256) zeros1]
  funext j
  obtain ⟨p, q, rfl⟩ : ∃ (p : Fin 2000) (q : Fin 256), j = ix2 p q := ⟨j 0, j 1, ValueIdx.eq_ix2 (n0 := 2000) (n1 := 256) j⟩
  have hN : cfg3.N = 25 := N_3
  have ht : t.val < 25 := hN ▸ t.isLt
  have hr : (⟨2000 * t.val + p.val, by have := p.isLt; omega⟩ : Fin 50000).val = 2000 * t.val + p.val := rfl
  show k3_pay1 (F := Ideal) (iblk3 V c 0 t) (iblk3 V c 1 t) (iblk3 V c 2 t) (iblk3 V c 5 t) (iblk3 V c 3 t) (iblk3 V c 4 t) (iblk3 V c 6 t) (iblk3 V c 7 t) (ix2 p q)
      = normProj (V c main_v12) (V c main_v36) (V c main_v35) (V c main_arg25) (V c main_arg26) (V c main_arg27) (V c main_arg28) (V c main_arg29)
          (((cfg3.win 8).blk t).view.emb (ix2 p q))
  rw [outBlock_emb t p q _ hr, normProj_apply, pay_apply]
  rw [tableBlock_eq V c t, gwBlock_eq V c t, gbBlock_eq V c t, gmsBlock_eq V c t, wBlock_eq V c t, biasBlock_eq V c t]
  exact congrArg₂ (fun (x : Fin 256 → EReal) (b : BitVec 32) => Rows.rowK4 x b (Rows.mat (V c main_v35)) (Rows.vec (V c main_arg25)) (Rows.vec (V c main_arg26))
      (Rows.vec (V c main_arg27)) (Rows.mat (V c main_arg28)) (Rows.vec (V c main_arg29)) q)
    (funext fun k => hBlock_apply V c t p k _ hr) (idBlock_apply V c t p _ hr)
/-- An index of the array is in point `t`'s block iff each coordinate is in the block's range on its axis. -/
theorem mem_blk (t : Fin cfg3.N) (i : S50000x256.Idx) :
    i ∈ ((cfg3.win 8).blk t).view.set ↔ ∀ a : Fin 2, win3_8.index t a * S2000x256.size a ≤ (i a).val ∧ (i a).val < win3_8.index t a * S2000x256.size a + S2000x256.size a := by
  show i ∈ ((View.whole main_v37).slice (win3_8.rect t)).set ↔ _
  rw [View.set_slice_whole, Rect.mem_set_unit]
  exact Iff.rfl

/-- Row `r` lies in block `r / 2000`. -/
theorem cover (i : S50000x256.Idx) : ∃ t : Fin cfg3.N, (cfg3.win 8).flush t = true ∧ i ∈ ((cfg3.win 8).blk t).view.set := by
  have hi0 : (i 0).val < 50000 := ValueIdx.idx2_lt0 i
  have hi1 : (i 1).val < 256 := ValueIdx.idx2_lt1 i
  have hN : cfg3.N = 25 := N_3
  refine ⟨⟨(i 0).val / 2000, by rw [hN]; omega⟩, flush3_8 _, ?_⟩
  rw [mem_blk]
  obtain ⟨-, -, -, -, -, -, -, -, -, -, -, -, e0, e1⟩ := idx_facts ⟨(i 0).val / 2000, by rw [hN]; omega⟩
  intro a
  match a with
  | ⟨0, _⟩ =>
    show win3_8.index _ (0 : Fin 2) * 2000 ≤ (i 0).val ∧ (i 0).val < win3_8.index _ (0 : Fin 2) * 2000 + 2000
    rw [e0]; show (i 0).val / 2000 * 2000 ≤ (i 0).val ∧ (i 0).val < (i 0).val / 2000 * 2000 + 2000; omega
  | ⟨1, _⟩ =>
    show win3_8.index _ (1 : Fin 2) * 256 ≤ (i 1).val ∧ (i 1).val < win3_8.index _ (1 : Fin 2) * 256 + 256
    rw [e1]; omega

/-- The array region 3 leaves: stage 4 of the arrays as the region finds them, at every row. -/
theorem region3_array (c : Dev nD) :
    (dat3 V c).arrAt 8 cfg3.N
      = normProj (V c main_v12) (V c main_v36) (V c main_v35) (V c main_arg25) (V c main_arg26) (V c main_arg27) (V c main_arg28) (V c main_arg29) :=
  (dat3 V c).arrAt_eq_of_cover 8 _ (fun t _ => flushed_eq V c t) cover

end Entry

/-! ## The run: region 3's entry contents, and its exit array as stage 4 of them -/

section Run
variable (m : (ℓ : Loc nD τ sig) → Buf (Elt Ideal) ℓ) (ρ : Dev nD → PrngReg)

/-- The host operations between region 2 and region 3 (the per-graph counts, means and variances, the table and the
    graph-id column) write none of the node features: region 3 finds them as region 2 left them. -/
theorem entry_h (c : Dev nD) : V10 m ρ c main_v12 = W7 m ρ c (Proc.devRef .tc main_v12) :=
  calc W10 m ρ c (Proc.devRef .tc main_v12)
    _ = W9 m ρ c (Proc.devRef .tc main_v12) := StableHlo.after_of_forall_not_mem (b := Proc.devRef .tc main_v12) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v12) := StableHlo.after_of_forall_not_mem (b := Proc.devRef .tc main_v12) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The five weight arrays are found as launched: each is an input window of region 3, and the whole run leaves it as launched. -/
theorem entry_gw (c : Dev nD) : V10 m ρ c main_arg25 = m ((c : Thread nD τ).loc main_arg25) :=
  ((W11_arr m ρ c 3).trans (((dat3 (V10 m ρ) c).arrAt_in 3 rfl _).trans (A_eq3 (V10 m ρ) c 3))).symm.trans (W11_main_arg25 m ρ c)
theorem entry_gb (c : Dev nD) : V10 m ρ c main_arg26 = m ((c : Thread nD τ).loc main_arg26) :=
  ((W11_arr m ρ c 4).trans (((dat3 (V10 m ρ) c).arrAt_in 4 rfl _).trans (A_eq3 (V10 m ρ) c 4))).symm.trans (W11_main_arg26 m ρ c)
theorem entry_gms (c : Dev nD) : V10 m ρ c main_arg27 = m ((c : Thread nD τ).loc main_arg27) :=
  ((W11_arr m ρ c 5).trans (((dat3 (V10 m ρ) c).arrAt_in 5 rfl _).trans (A_eq3 (V10 m ρ) c 5))).symm.trans (W11_main_arg27 m ρ c)
theorem entry_W (c : Dev nD) : V10 m ρ c main_arg28 = m ((c : Thread nD τ).loc main_arg28) :=
  ((W11_arr m ρ c 6).trans (((dat3 (V10 m ρ) c).arrAt_in 6 rfl _).trans (A_eq3 (V10 m ρ) c 6))).symm.trans (W11_main_arg28 m ρ c)
theorem entry_bias (c : Dev nD) : V10 m ρ c main_arg29 = m ((c : Thread nD τ).loc main_arg29) :=
  ((W11_arr m ρ c 7).trans (((dat3 (V10 m ρ) c).arrAt_in 7 rfl _).trans (A_eq3 (V10 m ρ) c 7))).symm.trans (W11_main_arg29 m ρ c)

/-- Region 3's output array at its exit: stage 4 of the node features region 2 left, of the graph-id column and the table
    the host operations before the region left, and of the five weight arrays as launched, at every row. -/
theorem exit_array (c : Dev nD) :
    W11 m ρ c (Proc.devRef .tc main_v37)
      = normProj (W7 m ρ c (Proc.devRef .tc main_v12)) (W10 m ρ c (Proc.devRef .tc main_v36)) (W10 m ρ c (Proc.devRef .tc main_v35))
          (m ((c : Thread nD τ).loc main_arg25)) (m ((c : Thread nD τ).loc main_arg26)) (m ((c : Thread nD τ).loc main_arg27))
          (m ((c : Thread nD τ).loc main_arg28)) (m ((c : Thread nD τ).loc main_arg29)) :=
  (W11_arr m ρ c 8).trans ((region3_array (V10 m ρ) c).trans (by
    rw [entry_h m ρ c, entry_gw m ρ c, entry_gb m ρ c, entry_gms m ρ c, entry_W m ρ c, entry_bias m ρ c]))

/-- The same at an entry: row `r`, column `q` is stage 4's row function of row `r`. -/
theorem exit_apply (c : Dev nD) (r : Fin 50000) (q : Fin 256) :
    W11 m ρ c (Proc.devRef .tc main_v37) (ix2 r q)
      = Rows.rowK4 (fun k => (W7 m ρ c (Proc.devRef .tc main_v12) : S50000x256.Idx → EReal) (ix2 r k))
          ((W10 m ρ c (Proc.devRef .tc main_v36) : S50000x1.Idx → BitVec 32) (ix2 r (0 : Fin 1)))
          (Rows.mat (W10 m ρ c (Proc.devRef .tc main_v35)))
          (Rows.vec (m ((c : Thread nD τ).loc main_arg25))) (Rows.vec (m ((c : Thread nD τ).loc main_arg26)))
          (Rows.vec (m ((c : Thread nD τ).loc main_arg27))) (Rows.mat (m ((c : Thread nD τ).loc main_arg28)))
          (Rows.vec (m ((c : Thread nD τ).loc main_arg29))) q := by
  rw [exit_array m ρ c]; rfl

end Run

end Cert.Stage7K

end
-- ==== Proof.Stage7.lean ====
/-
  Stage 7, the link: the kernel program's result array is the reference's last stage. Region 3 leaves, at node r and
  column q, stage 4's row function of row r of the node features it found (region 2's output, equal to the reference's
  features by the link before), of node r's graph id (the column the host laid out, equal to the argument's entry), of the
  table "means left, variances right" (equal, half by half, to the reference's per-graph means and variances) and of the
  five weight arrays as launched. The reference's result, read at the same entry in the kernel's form, is the same row
  function of the same arguments.
-/
import proofs.«408299_j82652350644685_2_alg».proof.Proof.Stages
import proofs.«408299_j82652350644685_2_alg».proof.Proof.Stage7R
import proofs.«408299_j82652350644685_2_alg».proof.Proof.Stage7K

noncomputable section

namespace Cert.Stages

open Idealize.ShloMosaic Idealize.ShloMosaic.TcCoe Idealize.SL.Sem
open Cert.KernelIdeal Cert.KernelIdeal.Gen Cert.ReferenceIdeal.ReadP

variable (m : (ℓ : Loc nD τ sig) → Buf (Elt Ideal) ℓ) (ρ : Dev nD → PrngReg) (c : Dev nD)

/-- The kernel's table, read as rows, is the reference's means and variances side by side: column j < 256 of row g is
    the mean of graph g at j, column j ≥ 256 the variance at j − 256. -/
theorem table_rows
    (h6 : ∀ (g : Fin 512) (q : Fin 256),
      kTable m ρ c (ValueIdx.ix2 g (⟨q.val, by omega⟩ : Fin 512)) = rMean m c (ValueIdx.ix2 g q)
      ∧ kTable m ρ c (ValueIdx.ix2 g (⟨256 + q.val, by omega⟩ : Fin 512)) = rVar m c (ValueIdx.ix2 g q)) :
    Rows.mat (kTable m ρ c)
      = fun g => Rows.join (fun k => rMean m c (ValueIdx.ix2 g k)) (fun k => rVar m c (ValueIdx.ix2 g k)) := by
  funext g j
  show kTable m ρ c (ValueIdx.ix2 g j) = Rows.join _ _ j
  unfold Rows.join
  by_cases hj : j.val < 256
  · rw [dif_pos hj]
    exact (h6 g ⟨j.val, hj⟩).1
  · rw [dif_neg hj]
    have hj2 : j.val - 256 < 256 := by have := j.isLt; omega
    have ej : (⟨256 + (⟨j.val - 256, hj2⟩ : Fin 256).val, by show 256 + (j.val - 256) < 512; omega⟩ : Fin 512) = j :=
      Fin.ext (by show 256 + (j.val - 256) = j.val; omega)
    have e := (h6 g ⟨j.val - 256, hj2⟩).2
    rw [ej] at e
    exact e

theorem stage7 (hb : BatchOk m c) (h5 : kH m ρ c = rH m c)
    (h6 : ∀ (g : Fin 512) (q : Fin 256),
      kTable m ρ c (ValueIdx.ix2 g (⟨q.val, by omega⟩ : Fin 512)) = rMean m c (ValueIdx.ix2 g q)
      ∧ kTable m ρ c (ValueIdx.ix2 g (⟨256 + q.val, by omega⟩ : Fin 512)) = rVar m c (ValueIdx.ix2 g q))
    (h6b : ∀ r : Fin 50000, kBcol m ρ c (ValueIdx.ix2 r (0 : Fin 1)) = A4 m c (ValueIdx.ix1 r)) :
    kOut m ρ c = rOut m c := by
  funext i
  obtain ⟨r, q, rfl⟩ : ∃ (r : Fin 50000) (q : Fin 256), i = ValueIdx.ix2 r q :=
    ⟨i 0, i 1, ValueIdx.eq_ix2 (n0 := 50000) (n1 := 256) i⟩
  have ek : kOut m ρ c (ValueIdx.ix2 r q)
      = Rows.rowK4 (fun k => kH m ρ c (ValueIdx.ix2 r k)) (kBcol m ρ c (ValueIdx.ix2 r (0 : Fin 1))) (Rows.mat (kTable m ρ c))
          (Rows.vec (A25 m c)) (Rows.vec (A26 m c)) (Rows.vec (A27 m c)) (Rows.mat (A28 m c)) (Rows.vec (A29 m c)) q :=
    Stage7K.exit_apply m ρ c r q
  rw [ek, ref_out_row m c hb r q, h5, h6b r, table_rows m ρ c h6]

end Cert.Stages

end
-- ==== Proof.lean ====
/-
  The certificate of the message-passing block: a Pallas program of four dense kernels around a host gather, a host
  scatter-add and the graph-norm statistics, against the plain jnp reference, equal as extended reals.

  Both programs compute, for node features x, edge filters f₁ f₂, edges (src, dst) and graph ids:
    x₁ = silu (x · W + b);  msgᵢ = (fᵢ · Wfᵢ₁ · Wfᵢ₂) ⊙ x₁[src];  aggᵢ = Σ over edges into a node of msgᵢ;
    hᵢ = silu ((aggᵢ · Wlᵢ + blᵢ + x₁ · Wrᵢ) · Wᵢ + bᵢ);  h = [h₁ | h₂] · Wcat + bcat + x₁, then three residual layers;
    out = ((gw ⊙ (h − mean[batch] ⊙ gms)) / √(var[batch] + ε) + gb) · Wfin + bfin,
  with mean and var the per-graph mean and variance of h. Every dense stage acts row by row, so a stage is one function on rows
  (Proof/Rows.lean) that the kernel applies to blocks of 2000 rows and the reference to whole arrays. The two programs differ in
  form in three places only, and there the precondition is used: the kernel multiplies the two filter matrices first (associativity
  of a triple product, which needs the six operands real); its two gathers fill an out-of-range row with a junk value where the
  reference clamps (equal where the index is in range); and it fetches a row's mean and variance by an indicator-times-table product
  and multiplies by the reciprocal root (one term of the sum survives where the graph id is a graph; a · y^(-1/2) = a / √y for y > 0,
  and y = var + ε with var a sum of squares over a count at least one).

  The value claim is the chain of Proof/Stages.lean: at each stage boundary the kernel program's array equals the reference's stage
  function of the same arguments, each link proved from the one before (Stage1 … Stage7, PreFacts for what the precondition gives).
  The reference's own run is read stretch by stretch (RefRun) over its operation list (RefOps).
-/
import proofs.«408299_j82652350644685_2_alg».proof.Defs
import proofs.«408299_j82652350644685_2_alg».proof.Proof.Gen.Kernel
import proofs.«408299_j82652350644685_2_alg».proof.Proof.Gen.Kernel.Skeleton
import proofs.«408299_j82652350644685_2_alg».proof.Proof.Gen.Kernel.Launch
import proofs.«408299_j82652350644685_2_alg».proof.Proof.Gen.Kernel.Points
import proofs.«408299_j82652350644685_2_alg».proof.Proof.Gen.Kernel.Frame
import proofs.«408299_j82652350644685_2_alg».proof.Proof.Gen.KernelIdeal
import proofs.«408299_j82652350644685_2_alg».proof.Proof.Gen.KernelIdeal.Skeleton
import proofs.«408299_j82652350644685_2_alg».proof.Proof.Gen.KernelIdeal.Launch
import proofs.«408299_j82652350644685_2_alg».proof.Proof.Gen.KernelIdeal.Points
import proofs.«408299_j82652350644685_2_alg».proof.Proof.Gen.KernelIdeal.Frame
import proofs.«408299_j82652350644685_2_alg».proof.Proof.Gen.ReferenceIdeal
import proofs.«408299_j82652350644685_2_alg».proof.Proof.Gen.Pre_finite_inputs
import proofs.«408299_j82652350644685_2_alg».proof.Proof.KernelResult
import proofs.«408299_j82652350644685_2_alg».proof.Proof.RefOps
import proofs.«408299_j82652350644685_2_alg».proof.Proof.RefRead
import proofs.«408299_j82652350644685_2_alg».proof.Proof.RefRun
import proofs.«408299_j82652350644685_2_alg».proof.Proof.Stages
import proofs.«408299_j82652350644685_2_alg».proof.Proof.PreFacts
import proofs.«408299_j82652350644685_2_alg».proof.Proof.Stage1
import proofs.«408299_j82652350644685_2_alg».proof.Proof.Stage2
import proofs.«408299_j82652350644685_2_alg».proof.Proof.Stage3
import proofs.«408299_j82652350644685_2_alg».proof.Proof.Stage4
import proofs.«408299_j82652350644685_2_alg».proof.Proof.Stage5
import proofs.«408299_j82652350644685_2_alg».proof.Proof.Stage6
import proofs.«408299_j82652350644685_2_alg».proof.Proof.Stage7
import Idealize.ShloMosaic.Adequacy
import Idealize.ShloMosaic.Init

noncomputable section

/-! ## The chain -/

namespace Cert.Stages

open Idealize.ShloMosaic Idealize.ShloMosaic.TcCoe Idealize.SL.Sem
open Cert.KernelIdeal Cert.KernelIdeal.Gen Cert.ReferenceIdeal.ReadP

/-- Under the precondition the kernel program's result array is the reference's last stage of the same arguments: the seven
    links in order, each from the one before it. -/
theorem kernel_value [Cert.Pre_finite_inputs.Facts] (m : (ℓ : Loc nD τ sig) → Buf (Elt Ideal) ℓ) (ρ : Dev nD → PrngReg)
    (hpre : Cert.Pre_KernelIdeal m) (c : Dev nD) : kOut m ρ c = rOut m c := by
  obtain ⟨hs, hb, hf⟩ := pre_facts m hpre c
  have h1 := stage1 m ρ c
  obtain ⟨h2, h2'⟩ := stage2 m ρ c hs h1
  have h3 := stage3 m ρ c hf h2 h2'
  have h4 := stage4 m ρ c h3
  have h5 := stage5 m ρ c h1 h4
  have h6 := stage6 m ρ c hb h5
  have h6b := stage6b m ρ c
  exact stage7 m ρ c hb h5 h6 h6b

end Cert.Stages

/-! ## The claims -/

namespace Cert.Proof

open Idealize.ShloMosaic Idealize.SL.Sem

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)
/-- The ideal pass rewrote nothing: the ledger is empty. -/
theorem preserves : Cert.preserves_Kernel_KernelIdeal := trivial

/-- Both idealized programs end with the result at the reference's last stage function of the kernel's arguments: the kernel's by the
    chain of links, the reference's by its run read stretch by stretch and the agreement of the two memories on the arguments. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.Stages.rOut m c, ?_, ?_⟩
  · exact (θ_run Cert.KernelIdeal.defs _ _).mono
      (fun r h c => ⟨(h c).1.trans (Cert.Stages.kernel_value m ρ hpre c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RunP.fold_result (F := Ideal) m' c]
    obtain ⟨e0, e1, e2, e3, e4, e5, e6, e7, e8, e9, e10, e11, e12, e13, e14, e15, e16, e17, e18, e19, e20, e21, e22, e23, e24, e25, e26, e27, e28, e29⟩ := hagree c
    rw [e0, e1, e2, e3, e4, e5, e6, e7, e8, e9, e10, e11, e12, e13, e14, e15, e16, e17, e18, e19, e20, e21, e22, e23, e24, e25, e26, e27, e28, e29]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
